-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S2048x1024 : Shape := ⟨2, ![2048, 1024]⟩
abbrev S512x1024 : Shape := ⟨2, ![512, 1024]⟩
abbrev S256x1024 : Shape := ⟨2, ![256, 1024]⟩
abbrev S16 : Shape := ⟨1, ![16]⟩
abbrev S_ : Shape := ⟨0, ![]⟩
abbrev S512x512 : Shape := ⟨2, ![512, 512]⟩
abbrev S1 : Shape := ⟨1, ![1]⟩
abbrev S256x512 : Shape := ⟨2, ![256, 512]⟩

abbrev nBuf : Space → Nat
  | .hbm => 2
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S2048x1024, .f32⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_28 : BitVec 32 := 1#32
  let v68 : BitVec 32 := Scalar.muli v3 c1_i32_28
  let v69 : BitVec 32 := Scalar.addi c0_i32_29 v68
  v69.toNat
def k0_dev2 (d0 : Dev nD) : Nat :=
  let c0_i32_32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_31 : BitVec 32 := 1#32
  let v70 : BitVec 32 := Scalar.muli v4 c1_i32_31
  let v71 : BitVec 32 := Scalar.addi c0_i32_32 v70
  v71.toNat
def k0_off1 (d0 : Dev nD) : Fin 2 → Nat :=
  let c1_i32_34 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v72 : BitVec 32 := Scalar.subi c1_i32_34 v32
  let c512_i32_35 : BitVec 32 := 512#32
  let v73 : BitVec 32 := Scalar.muli v72 c512_i32_35
  let v74 : Index := Scalar.indexCast v73
  let c0 : Index := 0#32
  ![v74.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_40 : BitVec 32 := 1#32
  let v81 : BitVec 32 := Scalar.muli v3 c1_i32_40
  let v82 : BitVec 32 := Scalar.addi c0_i32_41 v81
  v82.toNat
def k0_off2 (d0 : Dev nD) : Fin 2 → Nat :=
  let c1024_i32_48 : BitVec 32 := 1024#32
  let c1_i32_46 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v89 : BitVec 32 := Scalar.subi c1_i32_46 v59
  let c512_i32_47 : BitVec 32 := 512#32
  let v90 : BitVec 32 := Scalar.muli v89 c512_i32_47
  let v91 : BitVec 32 := Scalar.addi c1024_i32_48 v90
  let v92 : Index := Scalar.indexCast v91
  let c0_49 : Index := 0#32
  ![v92.toNat, 0]
def k0_dev4 (d0 : Dev nD) : Nat :=
  let c0_i32_55 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_54 : BitVec 32 := 1#32
  let v99 : BitVec 32 := Scalar.muli v4 c1_i32_54
  let v100 : BitVec 32 := Scalar.addi c0_i32_55 v99
  v100.toNat
def k0_off3 (d0 : Dev nD) : Fin 2 → Nat :=
  let c1_i32_60 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v107 : BitVec 32 := Scalar.subi c1_i32_60 v32
  let c512_i32_61 : BitVec 32 := 512#32
  let v108 : BitVec 32 := Scalar.muli v107 c512_i32_61
  let v109 : Index := Scalar.indexCast v108
  let c512 : Index := 512#32
  ![v109.toNat, 512]
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_66 : BitVec 32 := 1#32
  let v116 : BitVec 32 := Scalar.muli v3 c1_i32_66
  let v117 : BitVec 32 := Scalar.addi c0_i32_67 v116
  v117.toNat
def k0_off4 (d0 : Dev nD) : Fin 2 → Nat :=
  let c1024_i32_74 : BitVec 32 := 1024#32
  let c1_i32_72 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v124 : BitVec 32 := Scalar.subi c1_i32_72 v59
  let c512_i32_73 : BitVec 32 := 512#32
  let v125 : BitVec 32 := Scalar.muli v124 c512_i32_73
  let v126 : BitVec 32 := Scalar.addi c1024_i32_74 v125
  let v127 : Index := Scalar.indexCast v126
  let c512_75 : Index := 512#32
  ![v127.toNat, 512]
def k0_dev6 (d0 : Dev nD) : Nat :=
  let c0_i32_81 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_80 : BitVec 32 := 1#32
  let v134 : BitVec 32 := Scalar.muli v4 c1_i32_80
  let v135 : BitVec 32 := Scalar.addi c0_i32_81 v134
  v135.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32_116 : BitVec 32 := 512#32
  let v162 : BitVec 32 := Scalar.muli v32 c512_i32_116
  let c1_i32_117 : BitVec 32 := 1#32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v163 : BitVec 32 := Scalar.subi c1_i32_117 v59
  let c256_i32_118 : BitVec 32 := 256#32
  let v164 : BitVec 32 := Scalar.muli v163 c256_i32_118
  let v165 : BitVec 32 := Scalar.addi v162 v164
  let v166 : Index := Scalar.indexCast v165
  let c0_119 : Index := 0#32
  ![v166.toNat, 0]
def k0_off6 (d0 : Dev nD) : Fin 2 → Nat :=
  let c1_i32_120 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v169 : BitVec 32 := Scalar.subi c1_i32_120 v59
  let c256_i32_121 : BitVec 32 := 256#32
  let v170 : BitVec 32 := Scalar.muli v169 c256_i32_121
  let v171 : Index := Scalar.indexCast v170
  let c0_122 : Index := 0#32
  ![v171.toNat, 0]
def k0_dev7 (d0 : Dev nD) : Nat :=
  let c0_i32_128 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_127 : BitVec 32 := 1#32
  let v179 : BitVec 32 := Scalar.muli v4 c1_i32_127
  let v180 : BitVec 32 := Scalar.addi c0_i32_128 v179
  v180.toNat
def k0_off7 (d0 : Dev nD) : Fin 2 → Nat :=
  let c1024_i32_134 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_133 : BitVec 32 := 512#32
  let v187 : BitVec 32 := Scalar.muli v59 c512_i32_133
  let v188 : BitVec 32 := Scalar.addi c1024_i32_134 v187
  let c1_i32_135 : BitVec 32 := 1#32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v189 : BitVec 32 := Scalar.subi c1_i32_135 v32
  let c256_i32_136 : BitVec 32 := 256#32
  let v190 : BitVec 32 := Scalar.muli v189 c256_i32_136
  let v191 : BitVec 32 := Scalar.addi v188 v190
  let v192 : Index := Scalar.indexCast v191
  let c0_137 : Index := 0#32
  ![v192.toNat, 0]
def k0_off8 (d0 : Dev nD) : Fin 2 → Nat :=
  let c1_i32_138 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v195 : BitVec 32 := Scalar.subi c1_i32_138 v32
  let c256_i32_139 : BitVec 32 := 256#32
  let v196 : BitVec 32 := Scalar.muli v195 c256_i32_139
  let v197 : Index := Scalar.indexCast v196
  let c0_140 : Index := 0#32
  ![v197.toNat, 0]
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_144 : BitVec 32 := 1#32
  let v205 : BitVec 32 := Scalar.muli v3 c1_i32_144
  let v206 : BitVec 32 := Scalar.addi c0_i32_145 v205
  v206.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32_180 : BitVec 32 := 512#32
  let v233 : BitVec 32 := Scalar.muli v32 c512_i32_180
  let c1_i32_181 : BitVec 32 := 1#32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v234 : BitVec 32 := Scalar.subi c1_i32_181 v59
  let c256_i32_182 : BitVec 32 := 256#32
  let v235 : BitVec 32 := Scalar.muli v234 c256_i32_182
  let v236 : BitVec 32 := Scalar.addi v233 v235
  let v237 : Index := Scalar.indexCast v236
  let c512_183 : Index := 512#32
  ![v237.toNat, 512]
def k0_off10 (d0 : Dev nD) : Fin 2 → Nat :=
  let c1_i32_184 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let v240 : BitVec 32 := Scalar.subi c1_i32_184 v59
  let c256_i32_185 : BitVec 32 := 256#32
  let v241 : BitVec 32 := Scalar.muli v240 c256_i32_185
  let v242 : Index := Scalar.indexCast v241
  let c512_186 : Index := 512#32
  ![v242.toNat, 512]
def k0_dev9 (d0 : Dev nD) : Nat :=
  let c0_i32_191 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_190 : BitVec 32 := 1#32
  let v250 : BitVec 32 := Scalar.muli v4 c1_i32_190
  let v251 : BitVec 32 := Scalar.addi c0_i32_191 v250
  v251.toNat
def k0_off11 (d0 : Dev nD) : Fin 2 → Nat :=
  let c1024_i32_197 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_196 : BitVec 32 := 512#32
  let v258 : BitVec 32 := Scalar.muli v59 c512_i32_196
  let v259 : BitVec 32 := Scalar.addi c1024_i32_197 v258
  let c1_i32_198 : BitVec 32 := 1#32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v260 : BitVec 32 := Scalar.subi c1_i32_198 v32
  let c256_i32_199 : BitVec 32 := 256#32
  let v261 : BitVec 32 := Scalar.muli v260 c256_i32_199
  let v262 : BitVec 32 := Scalar.addi v259 v261
  let v263 : Index := Scalar.indexCast v262
  let c512_200 : Index := 512#32
  ![v263.toNat, 512]
def k0_off12 (d0 : Dev nD) : Fin 2 → Nat :=
  let c1_i32_201 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v266 : BitVec 32 := Scalar.subi c1_i32_201 v32
  let c256_i32_202 : BitVec 32 := 256#32
  let v267 : BitVec 32 := Scalar.muli v266 c256_i32_202
  let v268 : Index := Scalar.indexCast v267
  let c512_203 : Index := 512#32
  ![v268.toNat, 512]
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_207 : BitVec 32 := 1#32
  let v276 : BitVec 32 := Scalar.muli v3 c1_i32_207
  let v277 : BitVec 32 := Scalar.addi c0_i32_208 v276
  v277.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32_243 : BitVec 32 := 512#32
  let v304 : BitVec 32 := Scalar.muli v32 c512_i32_243
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c256_i32_244 : BitVec 32 := 256#32
  let v305 : BitVec 32 := Scalar.muli v59 c256_i32_244
  let v306 : BitVec 32 := Scalar.addi v304 v305
  let v307 : Index := Scalar.indexCast v306
  let c0_245 : Index := 0#32
  ![v307.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c256_i32_246 : BitVec 32 := 256#32
  let v310 : BitVec 32 := Scalar.muli v59 c256_i32_246
  let v311 : Index := Scalar.indexCast v310
  let c0_247 : Index := 0#32
  ![v311.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32 : BitVec 32 := 512#32
  let v60 : BitVec 32 := Scalar.muli v32 c512_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c256_i32 : BitVec 32 := 256#32
  let v61 : BitVec 32 := Scalar.muli v59 c256_i32
  let v62 : BitVec 32 := Scalar.addi v60 v61
  let c0_i32_254 : BitVec 32 := 0#32
  ![v62.toNat, 0]
def k0_dev11 (d0 : Dev nD) : Nat :=
  let c0_i32_253 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_252 : BitVec 32 := 1#32
  let v329 : BitVec 32 := Scalar.muli v4 c1_i32_252
  let v330 : BitVec 32 := Scalar.addi c0_i32_253 v329
  v330.toNat
def k0_off16 (d0 : Dev nD) : Fin 2 → Nat :=
  let c1024_i32_257 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_256 : BitVec 32 := 512#32
  let v337 : BitVec 32 := Scalar.muli v59 c512_i32_256
  let v338 : BitVec 32 := Scalar.addi c1024_i32_257 v337
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32_258 : BitVec 32 := 256#32
  let v339 : BitVec 32 := Scalar.muli v32 c256_i32_258
  let v340 : BitVec 32 := Scalar.addi v338 v339
  let v341 : Index := Scalar.indexCast v340
  let c0_259 : Index := 0#32
  ![v341.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32_260 : BitVec 32 := 256#32
  let v344 : BitVec 32 := Scalar.muli v32 c256_i32_260
  let v345 : Index := Scalar.indexCast v344
  let c0_261 : Index := 0#32
  ![v345.toNat, 0]
def k0_off18 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_25 : BitVec 32 := 512#32
  let v63 : BitVec 32 := Scalar.muli v59 c512_i32_25
  let v64 : BitVec 32 := Scalar.addi c1024_i32 v63
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32_26 : BitVec 32 := 256#32
  let v65 : BitVec 32 := Scalar.muli v32 c256_i32_26
  let v66 : BitVec 32 := Scalar.addi v64 v65
  let c0_i32_269 : BitVec 32 := 0#32
  ![v66.toNat, 0]
def k0_dev12 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_267 : BitVec 32 := 1#32
  let v363 : BitVec 32 := Scalar.muli v3 c1_i32_267
  let v364 : BitVec 32 := Scalar.addi c0_i32_268 v363
  v364.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32_301 : BitVec 32 := 512#32
  let v391 : BitVec 32 := Scalar.muli v32 c512_i32_301
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c256_i32_302 : BitVec 32 := 256#32
  let v392 : BitVec 32 := Scalar.muli v59 c256_i32_302
  let v393 : BitVec 32 := Scalar.addi v391 v392
  let v394 : Index := Scalar.indexCast v393
  let c512_303 : Index := 512#32
  ![v394.toNat, 512]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c256_i32_304 : BitVec 32 := 256#32
  let v397 : BitVec 32 := Scalar.muli v59 c256_i32_304
  let v398 : Index := Scalar.indexCast v397
  let c512_305 : Index := 512#32
  ![v398.toNat, 512]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32 : BitVec 32 := 512#32
  let v60 : BitVec 32 := Scalar.muli v32 c512_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c256_i32 : BitVec 32 := 256#32
  let v61 : BitVec 32 := Scalar.muli v59 c256_i32
  let v62 : BitVec 32 := Scalar.addi v60 v61
  let c512_i32_313 : BitVec 32 := 512#32
  ![v62.toNat, 512]
def k0_dev13 (d0 : Dev nD) : Nat :=
  let c0_i32_312 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_311 : BitVec 32 := 1#32
  let v416 : BitVec 32 := Scalar.muli v4 c1_i32_311
  let v417 : BitVec 32 := Scalar.addi c0_i32_312 v416
  v417.toNat
def k0_off22 (d0 : Dev nD) : Fin 2 → Nat :=
  let c1024_i32_316 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_315 : BitVec 32 := 512#32
  let v424 : BitVec 32 := Scalar.muli v59 c512_i32_315
  let v425 : BitVec 32 := Scalar.addi c1024_i32_316 v424
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32_317 : BitVec 32 := 256#32
  let v426 : BitVec 32 := Scalar.muli v32 c256_i32_317
  let v427 : BitVec 32 := Scalar.addi v425 v426
  let v428 : Index := Scalar.indexCast v427
  let c512_318 : Index := 512#32
  ![v428.toNat, 512]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32_319 : BitVec 32 := 256#32
  let v431 : BitVec 32 := Scalar.muli v32 c256_i32_319
  let v432 : Index := Scalar.indexCast v431
  let c512_320 : Index := 512#32
  ![v432.toNat, 512]
def k0_off24 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_25 : BitVec 32 := 512#32
  let v63 : BitVec 32 := Scalar.muli v59 c512_i32_25
  let v64 : BitVec 32 := Scalar.addi c1024_i32 v63
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c256_i32_26 : BitVec 32 := 256#32
  let v65 : BitVec 32 := Scalar.muli v32 c256_i32_26
  let v66 : BitVec 32 := Scalar.addi v64 v65
  let c512_i32_328 : BitVec 32 := 512#32
  ![v66.toNat, 512]
def k0_dev14 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_326 : BitVec 32 := 1#32
  let v450 : BitVec 32 := Scalar.muli v3 c1_i32_326
  let v451 : BitVec 32 := Scalar.addi c0_i32_327 v450
  v451.toNat
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32_353 : BitVec 32 := 512#32
  let v479 : BitVec 32 := Scalar.muli v32 c512_i32_353
  let c0_i32_357 : BitVec 32 := 0#32
  ![v479.toNat, 0]
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_355 : BitVec 32 := 1#32
  let v480 : BitVec 32 := Scalar.muli v3 c1_i32_355
  let v481 : BitVec 32 := Scalar.addi c0_i32_356 v480
  v481.toNat
def k0_off26 (d0 : Dev nD) : Fin 2 → Nat :=
  let c1024_i32_362 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_361 : BitVec 32 := 512#32
  let v490 : BitVec 32 := Scalar.muli v59 c512_i32_361
  let v491 : BitVec 32 := Scalar.addi c1024_i32_362 v490
  let c0_i32_366 : BitVec 32 := 0#32
  ![v491.toNat, 0]
def k0_dev16 (d0 : Dev nD) : Nat :=
  let c0_i32_365 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_364 : BitVec 32 := 1#32
  let v492 : BitVec 32 := Scalar.muli v4 c1_i32_364
  let v493 : BitVec 32 := Scalar.addi c0_i32_365 v492
  v493.toNat
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c512_i32_391 : BitVec 32 := 512#32
  let v521 : BitVec 32 := Scalar.muli v32 c512_i32_391
  let c512_i32_395 : BitVec 32 := 512#32
  ![v521.toNat, 512]
def k0_dev17 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_393 : BitVec 32 := 1#32
  let v522 : BitVec 32 := Scalar.muli v3 c1_i32_393
  let v523 : BitVec 32 := Scalar.addi c0_i32_394 v522
  v523.toNat
def k0_off28 (d0 : Dev nD) : Fin 2 → Nat :=
  let c1024_i32_400 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c2_i32_19 : BitVec 32 := 2#32
  let c0_i32_20 : BitVec 32 := 0#32
  let v50 : BitVec 1 := Scalar.cmpi .eq c2_i32_19 c0_i32_20
  let c1_i32_21 : BitVec 32 := 1#32
  let v51 : BitVec 32 := Scalar.select v50 c1_i32_21 c2_i32_19
  let v52 : BitVec 32 := Scalar.remsi v49 v51
  let c0_i32_23 : BitVec 32 := 0#32
  let v54 : BitVec 1 := Scalar.cmpi .slt v52 c0_i32_23
  let c0_i32_24 : BitVec 32 := 0#32
  let v55 : BitVec 1 := Scalar.cmpi .slt v51 c0_i32_24
  let v56 : BitVec 1 := Scalar.xori v54 v55
  let c0_i32_22 : BitVec 32 := 0#32
  let v53 : BitVec 1 := Scalar.cmpi .ne v52 c0_i32_22
  let v57 : BitVec 1 := Scalar.andi v56 v53
  let v58 : BitVec 32 := Scalar.addi v52 v51
  let v59 : BitVec 32 := Scalar.select v57 v58 v52
  let c512_i32_399 : BitVec 32 := 512#32
  let v532 : BitVec 32 := Scalar.muli v59 c512_i32_399
  let v533 : BitVec 32 := Scalar.addi c1024_i32_400 v532
  let c512_i32_404 : BitVec 32 := 512#32
  ![v533.toNat, 512]
def k0_dev18 (d0 : Dev nD) : Nat :=
  let c0_i32_403 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_402 : BitVec 32 := 1#32
  let v534 : BitVec 32 := Scalar.muli v4 c1_i32_402
  let v535 : BitVec 32 := Scalar.addi c0_i32_403 v534
  v535.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S512x512 : 0 < S512x512.numel
  shapeCasts_S512x512_S512x512 : S512x512.ShapeCasts S512x512
  bitsLt_bf16_f32 : FTy.bits .bf16 < FTy.bits .f32
  inb_S512x1024_S512x512_0_0 : ∀ a, (![0, 0] : Fin 2 → Nat) a + S512x512.size a ≤ S512x1024.size a
  packedbf16_S512x1024_S512x512_0_0 : (Rect.unit (s := S512x1024) ![0, 0] S512x512.size inb_S512x1024_S512x512_0_0).PackedRows (EltTy.packing .bf16)
  inb_S16_S1_0 : ∀ a, (![0] : Fin 1 → Nat) a + S1.size a ≤ S16.size a
  squeezes_S1_S_ : S1.Squeezes S_
  wordsbf16_S512x1024_S512x512_0_0 : (Rect.unit (s := S512x1024) ![0, 0] S512x512.size inb_S512x1024_S512x512_0_0).WholeWords (EltTy.packing .bf16)
  inb_S16_S1_2 : ∀ a, (![2] : Fin 1 → Nat) a + S1.size a ≤ S16.size a
  inb_S512x1024_S512x512_0_512 : ∀ a, (![0, 512] : Fin 2 → Nat) a + S512x512.size a ≤ S512x1024.size a
  packedbf16_S512x1024_S512x512_0_512 : (Rect.unit (s := S512x1024) ![0, 512] S512x512.size inb_S512x1024_S512x512_0_512).PackedRows (EltTy.packing .bf16)
  inb_S16_S1_1 : ∀ a, (![1] : Fin 1 → Nat) a + S1.size a ≤ S16.size a
  wordsbf16_S512x1024_S512x512_0_512 : (Rect.unit (s := S512x1024) ![0, 512] S512x512.size inb_S512x1024_S512x512_0_512).WholeWords (EltTy.packing .bf16)
  inb_S16_S1_3 : ∀ a, (![3] : Fin 1 → Nat) a + S1.size a ≤ S16.size a
  h_S256x512 : 0 < S256x512.numel
  shapeCasts_S256x512_S256x512 : S256x512.ShapeCasts S256x512
  inb_S256x1024_S256x512_0_0 : ∀ a, (![0, 0] : Fin 2 → Nat) a + S256x512.size a ≤ S256x1024.size a
  packedbf16_S256x1024_S256x512_0_0 : (Rect.unit (s := S256x1024) ![0, 0] S256x512.size inb_S256x1024_S256x512_0_0).PackedRows (EltTy.packing .bf16)
  inb_S16_S1_4 : ∀ a, (![4] : Fin 1 → Nat) a + S1.size a ≤ S16.size a
  wordsbf16_S256x1024_S256x512_0_0 : (Rect.unit (s := S256x1024) ![0, 0] S256x512.size inb_S256x1024_S256x512_0_0).WholeWords (EltTy.packing .bf16)
  inb_S16_S1_6 : ∀ a, (![6] : Fin 1 → Nat) a + S1.size a ≤ S16.size a
  inb_S256x1024_S256x512_0_512 : ∀ a, (![0, 512] : Fin 2 → Nat) a + S256x512.size a ≤ S256x1024.size a
  packedbf16_S256x1024_S256x512_0_512 : (Rect.unit (s := S256x1024) ![0, 512] S256x512.size inb_S256x1024_S256x512_0_512).PackedRows (EltTy.packing .bf16)
  inb_S16_S1_5 : ∀ a, (![5] : Fin 1 → Nat) a + S1.size a ≤ S16.size a
  wordsbf16_S256x1024_S256x512_0_512 : (Rect.unit (s := S256x1024) ![0, 512] S256x512.size inb_S256x1024_S256x512_0_512).WholeWords (EltTy.packing .bf16)
  inb_S16_S1_7 : ∀ a, (![7] : Fin 1 → Nat) a + S1.size a ≤ S16.size a
  inb_S16_S1_8 : ∀ a, (![8] : Fin 1 → Nat) a + S1.size a ≤ S16.size a
  inb_S16_S1_10 : ∀ a, (![10] : Fin 1 → Nat) a + S1.size a ≤ S16.size a
  inb_S16_S1_9 : ∀ a, (![9] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_14 : ∀ a, (![14] : Fin 1 → Nat) a + S1.size a ≤ S16.size a
  inb_S16_S1_13 : ∀ a, (![13] : Fin 1 → Nat) a + S1.size a ≤ S16.size a
  inb_S16_S1_15 : ∀ a, (![15] : Fin 1 → Nat) a + S1.size a ≤ S16.size a
  hcc0_scratch8 : 2 + S16.numel ≤ 34
  hcc0_scratch9 : 18 + S16.numel ≤ 34
  k0_dev1_lt : ∀ d0 : Dev nD, (k0_dev1 d0) < nD
  k0_dev2_lt : ∀ d0 : Dev nD, (k0_dev2 d0) < nD
  k0_off1_inb : ∀ d0 : Dev nD, ∀ a, (k0_off1 d0) a + S512x512.size a ≤ S2048x1024.size a
  k0_dev3_lt : ∀ d0 : Dev nD, (k0_dev3 d0) < nD
  k0_off2_inb : ∀ d0 : Dev nD, ∀ a, (k0_off2 d0) a + S512x512.size a ≤ S2048x1024.size a
  k0_dev4_lt : ∀ d0 : Dev nD, (k0_dev4 d0) < nD
  k0_off3_inb : ∀ d0 : Dev nD, ∀ a, (k0_off3 d0) a + S512x512.size a ≤ S2048x1024.size a
  k0_dev5_lt : ∀ d0 : Dev nD, (k0_dev5 d0) < nD
  k0_off4_inb : ∀ d0 : Dev nD, ∀ a, (k0_off4 d0) a + S512x512.size a ≤ S2048x1024.size a
  k0_dev6_lt : ∀ d0 : Dev nD, (k0_dev6 d0) < nD
  k0_off5_inb : ∀ d0 : Dev nD, ∀ a, (k0_off5 d0) a + S256x512.size a ≤ S2048x1024.size a
  k0_off6_inb : ∀ d0 : Dev nD, ∀ a, (k0_off6 d0) a + S256x512.size a ≤ S512x1024.size a
  k0_dev7_lt : ∀ d0 : Dev nD, (k0_dev7 d0) < nD
  k0_off7_inb : ∀ d0 : Dev nD, ∀ a, (k0_off7 d0) a + S256x512.size a ≤ S2048x1024.size a
  k0_off8_inb : ∀ d0 : Dev nD, ∀ a, (k0_off8 d0) a + S256x512.size a ≤ S512x1024.size a
  k0_dev8_lt : ∀ d0 : Dev nD, (k0_dev8 d0) < nD
  k0_off9_inb : ∀ d0 : Dev nD, ∀ a, (k0_off9 d0) a + S256x512.size a ≤ S2048x1024.size a
  k0_off10_inb : ∀ d0 : Dev nD, ∀ a, (k0_off10 d0) a + S256x512.size a ≤ S512x1024.size a
  k0_dev9_lt : ∀ d0 : Dev nD, (k0_dev9 d0) < nD
  k0_off11_inb : ∀ d0 : Dev nD, ∀ a, (k0_off11 d0) a + S256x512.size a ≤ S2048x1024.size a
  k0_off12_inb : ∀ d0 : Dev nD, ∀ a, (k0_off12 d0) a + S256x512.size a ≤ S512x1024.size a
  k0_dev10_lt : ∀ d0 : Dev nD, (k0_dev10 d0) < nD
  k0_off13_inb : ∀ d0 : Dev nD, ∀ a, (k0_off13 d0) a + S256x512.size a ≤ S2048x1024.size a
  k0_off14_inb : ∀ d0 : Dev nD, ∀ a, (k0_off14 d0) a + S256x512.size a ≤ S512x1024.size a
  k0_off13_packedbf16 : ∀ d0 : Dev nD, (Rect.unit (s := S2048x1024) (k0_off13 d0) S256x512.size (k0_off13_inb d0)).PackedRows (EltTy.packing .bf16)
  k0_off15_inb : ∀ d0 : Dev nD, ∀ a, (k0_off15 d0) a + S256x512.size a ≤ S2048x1024.size a
  k0_off15_wordsbf16 : ∀ d0 : Dev nD, (Rect.unit (s := S2048x1024) (k0_off15 d0) S256x512.size (k0_off15_inb d0)).WholeWords (EltTy.packing .bf16)
  k0_dev11_lt : ∀ d0 : Dev nD, (k0_dev11 d0) < nD
  k0_off16_inb : ∀ d0 : Dev nD, ∀ a, (k0_off16 d0) a + S256x512.size a ≤ S2048x1024.size a
  k0_off17_inb : ∀ d0 : Dev nD, ∀ a, (k0_off17 d0) a + S256x512.size a ≤ S512x1024.size a
  k0_off16_packedbf16 : ∀ d0 : Dev nD, (Rect.unit (s := S2048x1024) (k0_off16 d0) S256x512.size (k0_off16_inb d0)).PackedRows (EltTy.packing .bf16)
  k0_off18_inb : ∀ d0 : Dev nD, ∀ a, (k0_off18 d0) a + S256x512.size a ≤ S2048x1024.size a
  k0_off18_wordsbf16 : ∀ d0 : Dev nD, (Rect.unit (s := S2048x1024) (k0_off18 d0) S256x512.size (k0_off18_inb d0)).WholeWords (EltTy.packing .bf16)
  k0_dev12_lt : ∀ d0 : Dev nD, (k0_dev12 d0) < nD
  k0_off19_inb : ∀ d0 : Dev nD, ∀ a, (k0_off19 d0) a + S256x512.size a ≤ S2048x1024.size a
  k0_off20_inb : ∀ d0 : Dev nD, ∀ a, (k0_off20 d0) a + S256x512.size a ≤ S512x1024.size a
  k0_off19_packedbf16 : ∀ d0 : Dev nD, (Rect.unit (s := S2048x1024) (k0_off19 d0) S256x512.size (k0_off19_inb d0)).PackedRows (EltTy.packing .bf16)
  k0_off21_inb : ∀ d0 : Dev nD, ∀ a, (k0_off21 d0) a + S256x512.size a ≤ S2048x1024.size a
  k0_off21_wordsbf16 : ∀ d0 : Dev nD, (Rect.unit (s := S2048x1024) (k0_off21 d0) S256x512.size (k0_off21_inb d0)).WholeWords (EltTy.packing .bf16)
  k0_dev13_lt : ∀ d0 : Dev nD, (k0_dev13 d0) < nD
  k0_off22_inb : ∀ d0 : Dev nD, ∀ a, (k0_off22 d0) a + S256x512.size a ≤ S2048x1024.size a
  k0_off23_inb : ∀ d0 : Dev nD, ∀ a, (k0_off23 d0) a + S256x512.size a ≤ S512x1024.size a
  k0_off22_packedbf16 : ∀ d0 : Dev nD, (Rect.unit (s := S2048x1024) (k0_off22 d0) S256x512.size (k0_off22_inb d0)).PackedRows (EltTy.packing .bf16)
  k0_off24_inb : ∀ d0 : Dev nD, ∀ a, (k0_off24 d0) a + S256x512.size a ≤ S2048x1024.size a
  k0_off24_wordsbf16 : ∀ d0 : Dev nD, (Rect.unit (s := S2048x1024) (k0_off24 d0) S256x512.size (k0_off24_inb d0)).WholeWords (EltTy.packing .bf16)
  k0_dev14_lt : ∀ d0 : Dev nD, (k0_dev14 d0) < nD
  k0_off25_inb : ∀ d0 : Dev nD, ∀ a, (k0_off25 d0) a + S512x512.size a ≤ S2048x1024.size a
  k0_off25_wordsbf16 : ∀ d0 : Dev nD, (Rect.unit (s := S2048x1024) (k0_off25 d0) S512x512.size (k0_off25_inb d0)).WholeWords (EltTy.packing .bf16)
  k0_dev15_lt : ∀ d0 : Dev nD, (k0_dev15 d0) < nD
  k0_off26_inb : ∀ d0 : Dev nD, ∀ a, (k0_off26 d0) a + S512x512.size a ≤ S2048x1024.size a
  k0_off26_wordsbf16 : ∀ d0 : Dev nD, (Rect.unit (s := S2048x1024) (k0_off26 d0) S512x512.size (k0_off26_inb d0)).WholeWords (EltTy.packing .bf16)
  k0_dev16_lt : ∀ d0 : Dev nD, (k0_dev16 d0) < nD
  k0_off27_inb : ∀ d0 : Dev nD, ∀ a, (k0_off27 d0) a + S512x512.size a ≤ S2048x1024.size a
  k0_off27_wordsbf16 : ∀ d0 : Dev nD, (Rect.unit (s := S2048x1024) (k0_off27 d0) S512x512.size (k0_off27_inb d0)).WholeWords (EltTy.packing .bf16)
  k0_dev17_lt : ∀ d0 : Dev nD, (k0_dev17 d0) < nD
  k0_off28_inb : ∀ d0 : Dev nD, ∀ a, (k0_off28 d0) a + S512x512.size a ≤ S2048x1024.size a
  k0_off28_wordsbf16 : ∀ d0 : Dev nD, (Rect.unit (s := S2048x1024) (k0_off28 d0) S512x512.size (k0_off28_inb d0)).WholeWords (EltTy.packing .bf16)
  k0_dev18_lt : ∀ d0 : Dev nD, (k0_dev18 d0) < nD
  hstage0_0 : ∀ j, (stage0_0 j).IsWhole
  hstage0_1 : ∀ j, (stage0_1 j).IsWhole

variable [Facts₀]

abbrev cc0_scratch8 : DmaSems sig S16 := SemArray.consecutive 2 S16 hcc0_scratch8
abbrev cc0_scratch9 : DmaSems sig S16 := SemArray.consecutive 18 S16 hcc0_scratch9

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  shapeCasts_S8192x1024_S4x2048x1024 : S8192x1024.ShapeCasts S4x2048x1024
  reducesTo_S4x2048x1024_S2048x1024_d0 : S4x2048x1024.ReducesTo [0] S2048x1024
  h_S_ : 0 < S_.numel
  bcast_S_S2048x1024 : S_.BroadcastsInDim S2048x1024 (![] : Fin 0 → Fin S2048x1024.rank)
  bitsLt_bf16_f32 : FTy.bits .bf16 < FTy.bits .f32

variable [Facts₀]

class Facts : Prop extends Facts₀ where

variable [Facts]
-- ==== Proof.Mesh.lean ====
/-
  The four devices as a square: device c has coordinates (b1 c, b2 c); its two partners are p1 c (the other value of
  b1, the same b2) and p2 c (the other value of b2, the same b1). The addressed devices and the row and column
  offsets the kernel computes from its device id, in closed form over these.
-/
import proofs.«900521_g7700000000000522_dist_f_of_ar_i_m2048_n1024_v7x_i4_bf16_1_alg».proof.Proof.Gen.KernelIdeal

namespace Cert.KernelIdeal.Mesh

open Idealize.ShloMosaic Idealize.SL.Sem Cert.KernelIdeal Cert.KernelIdeal.Gen

/-- The partner across the first coordinate. -/
def p1 (c : Dev nD) : Dev nD := ![1, 0, 3, 2] c
/-- The partner across the second coordinate. -/
def p2 (c : Dev nD) : Dev nD := ![3, 2, 1, 0] c
/-- The first coordinate. -/
def b1 (c : Dev nD) : Nat := ![0, 1, 1, 0] c
/-- The second coordinate. -/
def b2 (c : Dev nD) : Nat := ![0, 0, 1, 1] c

theorem p1_p1 (c : Dev nD) : p1 (p1 c) = c := by revert c; decide
theorem p2_p2 (c : Dev nD) : p2 (p2 c) = c := by revert c; decide
theorem p1_p2 (c : Dev nD) : p1 (p2 c) = p2 (p1 c) := by revert c; decide
theorem p1_ne (c : Dev nD) : p1 c ≠ c := by revert c; decide
theorem p2_ne (c : Dev nD) : p2 c ≠ c := by revert c; decide
theorem p1_ne_p2 (c : Dev nD) : p1 c ≠ p2 c := by revert c; decide
theorem b1_p1 (c : Dev nD) : b1 (p1 c) = 1 - b1 c := by revert c; decide
theorem b2_p1 (c : Dev nD) : b2 (p1 c) = b2 c := by revert c; decide
theorem b1_p2 (c : Dev nD) : b1 (p2 c) = b1 c := by revert c; decide
theorem b2_p2 (c : Dev nD) : b2 (p2 c) = 1 - b2 c := by revert c; decide
theorem b1_le (c : Dev nD) : b1 c ≤ 1 := by revert c; decide
theorem b2_le (c : Dev nD) : b2 c ≤ 1 := by revert c; decide

/-! The addressed devices. -/
theorem dev1_eq (c : Dev nD) : (⟨k0_dev1 c, k0_dev1_lt c⟩ : Dev nD) = p1 c := by revert c; decide +kernel
theorem dev3_eq (c : Dev nD) : (⟨k0_dev3 c, k0_dev3_lt c⟩ : Dev nD) = p1 c := by revert c; decide +kernel
theorem dev5_eq (c : Dev nD) : (⟨k0_dev5 c, k0_dev5_lt c⟩ : Dev nD) = p1 c := by revert c; decide +kernel
theorem dev8_eq (c : Dev nD) : (⟨k0_dev8 c, k0_dev8_lt c⟩ : Dev nD) = p1 c := by revert c; decide +kernel
theorem dev10_eq (c : Dev nD) : (⟨k0_dev10 c, k0_dev10_lt c⟩ : Dev nD) = p1 c := by revert c; decide +kernel
theorem dev12_eq (c : Dev nD) : (⟨k0_dev12 c, k0_dev12_lt c⟩ : Dev nD) = p1 c := by revert c; decide +kernel
theorem dev14_eq (c : Dev nD) : (⟨k0_dev14 c, k0_dev14_lt c⟩ : Dev nD) = p1 c := by revert c; decide +kernel
theorem dev15_eq (c : Dev nD) : (⟨k0_dev15 c, k0_dev15_lt c⟩ : Dev nD) = p1 c := by revert c; decide +kernel
theorem dev17_eq (c : Dev nD) : (⟨k0_dev17 c, k0_dev17_lt c⟩ : Dev nD) = p1 c := by revert c; decide +kernel
theorem dev2_eq (c : Dev nD) : (⟨k0_dev2 c, k0_dev2_lt c⟩ : Dev nD) = p2 c := by revert c; decide +kernel
theorem dev4_eq (c : Dev nD) : (⟨k0_dev4 c, k0_dev4_lt c⟩ : Dev nD) = p2 c := by revert c; decide +kernel
theorem dev6_eq (c : Dev nD) : (⟨k0_dev6 c, k0_dev6_lt c⟩ : Dev nD) = p2 c := by revert c; decide +kernel
theorem dev7_eq (c : Dev nD) : (⟨k0_dev7 c, k0_dev7_lt c⟩ : Dev nD) = p2 c := by revert c; decide +kernel
theorem dev9_eq (c : Dev nD) : (⟨k0_dev9 c, k0_dev9_lt c⟩ : Dev nD) = p2 c := by revert c; decide +kernel
theorem dev11_eq (c : Dev nD) : (⟨k0_dev11 c, k0_dev11_lt c⟩ : Dev nD) = p2 c := by revert c; decide +kernel
theorem dev13_eq (c : Dev nD) : (⟨k0_dev13 c, k0_dev13_lt c⟩ : Dev nD) = p2 c := by revert c; decide +kernel
theorem dev16_eq (c : Dev nD) : (⟨k0_dev16 c, k0_dev16_lt c⟩ : Dev nD) = p2 c := by revert c; decide +kernel
theorem dev18_eq (c : Dev nD) : (⟨k0_dev18 c, k0_dev18_lt c⟩ : Dev nD) = p2 c := by revert c; decide +kernel

/-! The offsets. -/
theorem off1_eq (c : Dev nD) : k0_off1 c = ![(1 - b1 c) * 512, 0] := by revert c; decide +kernel
theorem off2_eq (c : Dev nD) : k0_off2 c = ![1024 + (1 - b2 c) * 512, 0] := by revert c; decide +kernel
theorem off3_eq (c : Dev nD) : k0_off3 c = ![(1 - b1 c) * 512, 512] := by revert c; decide +kernel
theorem off4_eq (c : Dev nD) : k0_off4 c = ![1024 + (1 - b2 c) * 512, 512] := by revert c; decide +kernel
theorem off5_eq (c : Dev nD) : k0_off5 c = ![b1 c * 512 + (1 - b2 c) * 256, 0] := by revert c; decide +kernel
theorem off6_eq (c : Dev nD) : k0_off6 c = ![(1 - b2 c) * 256, 0] := by revert c; decide +kernel
theorem off7_eq (c : Dev nD) : k0_off7 c = ![1024 + b2 c * 512 + (1 - b1 c) * 256, 0] := by revert c; decide +kernel
theorem off8_eq (c : Dev nD) : k0_off8 c = ![(1 - b1 c) * 256, 0] := by revert c; decide +kernel
theorem off9_eq (c : Dev nD) : k0_off9 c = ![b1 c * 512 + (1 - b2 c) * 256, 512] := by revert c; decide +kernel
theorem off10_eq (c : Dev nD) : k0_off10 c = ![(1 - b2 c) * 256, 512] := by revert c; decide +kernel
theorem off11_eq (c : Dev nD) : k0_off11 c = ![1024 + b2 c * 512 + (1 - b1 c) * 256, 512] := by revert c; decide +kernel
theorem off12_eq (c : Dev nD) : k0_off12 c = ![(1 - b1 c) * 256, 512] := by revert c; decide +kernel
theorem off13_eq (c : Dev nD) : k0_off13 c = ![b1 c * 512 + b2 c * 256, 0] := by revert c; decide +kernel
theorem off14_eq (c : Dev nD) : k0_off14 c = ![b2 c * 256, 0] := by revert c; decide +kernel
theorem off15_eq (c : Dev nD) : k0_off15 c = ![b1 c * 512 + b2 c * 256, 0] := by revert c; decide +kernel
theorem off16_eq (c : Dev nD) : k0_off16 c = ![1024 + b2 c * 512 + b1 c * 256, 0] := by revert c; decide +kernel
theorem off17_eq (c : Dev nD) : k0_off17 c = ![b1 c * 256, 0] := by revert c; decide +kernel
theorem off18_eq (c : Dev nD) : k0_off18 c = ![1024 + b2 c * 512 + b1 c * 256, 0] := by revert c; decide +kernel
theorem off19_eq (c : Dev nD) : k0_off19 c = ![b1 c * 512 + b2 c * 256, 512] := by revert c; decide +kernel
theorem off20_eq (c : Dev nD) : k0_off20 c = ![b2 c * 256, 512] := by revert c; decide +kernel
theorem off21_eq (c : Dev nD) : k0_off21 c = ![b1 c * 512 + b2 c * 256, 512] := by revert c; decide +kernel
theorem off22_eq (c : Dev nD) : k0_off22 c = ![1024 + b2 c * 512 + b1 c * 256, 512] := by revert c; decide +kernel
theorem off23_eq (c : Dev nD) : k0_off23 c = ![b1 c * 256, 512] := by revert c; decide +kernel
theorem off24_eq (c : Dev nD) : k0_off24 c = ![1024 + b2 c * 512 + b1 c * 256, 512] := by revert c; decide +kernel
theorem off25_eq (c : Dev nD) : k0_off25 c = ![b1 c * 512, 0] := by revert c; decide +kernel
theorem off26_eq (c : Dev nD) : k0_off26 c = ![1024 + b2 c * 512, 0] := by revert c; decide +kernel
theorem off27_eq (c : Dev nD) : k0_off27 c = ![b1 c * 512, 512] := by revert c; decide +kernel
theorem off28_eq (c : Dev nD) : k0_off28 c = ![1024 + b2 c * 512, 512] := by revert c; decide +kernel

end Cert.KernelIdeal.Mesh
-- ==== Proof.Spec.lean ====
/-
  What each buffer holds at each stage of the exchange, as terms over the devices' blocks of the argument.

  Device c holds rows of a 2048 x 1024 block x_c. The sum over the four devices is formed in two exchanges per
  half of the rows (with the partner across one coordinate, then across the other), each device ending with one
  eighth of each half fully summed; the function is applied there, and two more exchanges spread the eighths and
  then the quarters until every device holds all rows. Each exchange moves the two column halves separately.
  A region of a buffer holds the representative of a block-shaped vector; the vectors are named here in the order
  the body computes them.
-/
import proofs.«900521_g7700000000000522_dist_f_of_ar_i_m2048_n1024_v7x_i4_bf16_1_alg».proof.Proof.Gen.KernelIdeal.Skeleton
import proofs.«900521_g7700000000000522_dist_f_of_ar_i_m2048_n1024_v7x_i4_bf16_1_alg».proof.Proof.Mesh
import Idealize.ShloMosaic.Lib.Tactic

noncomputable section

namespace Cert.KernelIdeal.Spec

open Idealize.ShloMosaic Idealize.ShloMosaic.TcCoe Idealize.SL.Sem Cert.KernelIdeal Cert.KernelIdeal.Gen Cert.KernelIdeal.Mesh

variable {F : FTy → Type} [FloatOps F]
variable (m : (ℓ : Loc nD τ sig) → Buf (Elt F) ℓ)

/-! ## The memrefs -/

abbrev xM : Memref sig .tc .vmem S2048x1024 .f32 := Memref.whole cc0_stg0_0
abbrev oM : Memref sig .tc .vmem S2048x1024 .bf16 := Memref.whole cc0_stg1_0
abbrev s1a : Memref sig .tc .vmem S512x1024 .bf16 := Memref.whole cc0_scratch0
abbrev s1b : Memref sig .tc .vmem S512x1024 .bf16 := Memref.whole cc0_scratch1
abbrev r1a : Memref sig .tc .vmem S512x1024 .bf16 := Memref.whole cc0_scratch2
abbrev r1b : Memref sig .tc .vmem S512x1024 .bf16 := Memref.whole cc0_scratch3
abbrev s2a : Memref sig .tc .vmem S256x1024 .bf16 := Memref.whole cc0_scratch4
abbrev s2b : Memref sig .tc .vmem S256x1024 .bf16 := Memref.whole cc0_scratch5
abbrev r2a : Memref sig .tc .vmem S256x1024 .bf16 := Memref.whole cc0_scratch6
abbrev r2b : Memref sig .tc .vmem S256x1024 .bf16 := Memref.whole cc0_scratch7

/-- The two column halves of a 512-row scratch buffer and of a 256-row one. -/
abbrev H0 : Rect S512x1024 := Rect.unit (s := S512x1024) ![0, 0] S512x512.size inb_S512x1024_S512x512_0_0
abbrev H1 : Rect S512x1024 := Rect.unit (s := S512x1024) ![0, 512] S512x512.size inb_S512x1024_S512x512_0_512
abbrev G0 : Rect S256x1024 := Rect.unit (s := S256x1024) ![0, 0] S256x512.size inb_S256x1024_S256x512_0_0
abbrev G1 : Rect S256x1024 := Rect.unit (s := S256x1024) ![0, 512] S256x512.size inb_S256x1024_S256x512_0_512

/-- A column half of a scratch buffer as a memref. -/
abbrev sl5 (b : Memref sig .tc .vmem S512x1024 .bf16) (r : Rect S512x1024) (h : ∀ a, r.stride a = 1 := by intro _; rfl) := b.slice r h
abbrev sl2 (b : Memref sig .tc .vmem S256x1024 .bf16) (r : Rect S256x1024) (h : ∀ a, r.stride a = 1 := by intro _; rfl) := b.slice r h

/-- The result buffer's row blocks at the offsets the kernel computes on device c. -/
abbrev E15 (c : Dev nD) := oM.slice (Rect.unit (s := S2048x1024) (k0_off15 c) S256x512.size (k0_off15_inb c)) (fun _ => rfl)
abbrev E18 (c : Dev nD) := oM.slice (Rect.unit (s := S2048x1024) (k0_off18 c) S256x512.size (k0_off18_inb c)) (fun _ => rfl)
abbrev E21 (c : Dev nD) := oM.slice (Rect.unit (s := S2048x1024) (k0_off21 c) S256x512.size (k0_off21_inb c)) (fun _ => rfl)
abbrev E24 (c : Dev nD) := oM.slice (Rect.unit (s := S2048x1024) (k0_off24 c) S256x512.size (k0_off24_inb c)) (fun _ => rfl)
abbrev Q25 (c : Dev nD) := oM.slice (Rect.unit (s := S2048x1024) (k0_off25 c) S512x512.size (k0_off25_inb c)) (fun _ => rfl)
abbrev Q26 (c : Dev nD) := oM.slice (Rect.unit (s := S2048x1024) (k0_off26 c) S512x512.size (k0_off26_inb c)) (fun _ => rfl)
abbrev Q27 (c : Dev nD) := oM.slice (Rect.unit (s := S2048x1024) (k0_off27 c) S512x512.size (k0_off27_inb c)) (fun _ => rfl)
abbrev Q28 (c : Dev nD) := oM.slice (Rect.unit (s := S2048x1024) (k0_off28 c) S512x512.size (k0_off28_inb c)) (fun _ => rfl)

/-! ## The blocks -/

/-- Device c's block of the argument, as staged. -/
def X (c : Dev nD) : (cc0_stg0_0 : Ref sig .tc).ty.Contents (Elt F) :=
  (win0_0.blk (0 : Fin 1)).view.read (Elt F) (m ((c : Thread nD τ).loc main_arg0))

/-- A load of the staged argument at a box. -/
abbrev xl (c : Dev nD) (off : Fin S2048x1024.rank → Nat) (sz : Fin S2048x1024.rank → Nat) (h : ∀ a, off a + sz a ≤ S2048x1024.size a) :=
  (xM : Memref sig .tc .vmem S2048x1024 .f32).view.readAt (Elt F) (Rect.unit (s := S2048x1024) off sz h).toLoadRect (X m c)

/-- First exchange: the quarter of each half that the partner keeps, narrowed. -/
def V0 (c : Dev nD) : FVec F S512x512 .bf16 := k0_pay1 (xl m c (k0_off1 c) S512x512.size (k0_off1_inb c))
def V1 (c : Dev nD) : FVec F S512x512 .bf16 := k0_pay3 (xl m c (k0_off3 c) S512x512.size (k0_off3_inb c))
def V2 (c : Dev nD) : FVec F S512x512 .bf16 := k0_pay2 (xl m c (k0_off2 c) S512x512.size (k0_off2_inb c))
def V3 (c : Dev nD) : FVec F S512x512 .bf16 := k0_pay4 (xl m c (k0_off4 c) S512x512.size (k0_off4_inb c))

/-- What lands in the first receive buffers of device c. -/
abbrev R1A0 (c : Dev nD) := (sl5 r1a H0).view.rep (Val := Elt F) (V0 m (p1 c))
abbrev R1A1 (c : Dev nD) := (sl5 r1a H1).view.rep (Val := Elt F) (V1 m (p1 c))
abbrev R1B0 (c : Dev nD) := (sl5 r1b H0).view.rep (Val := Elt F) (V2 m (p2 c))
abbrev R1B1 (c : Dev nD) := (sl5 r1b H1).view.rep (Val := Elt F) (V3 m (p2 c))

/-- Second exchange: the eighth the other partner keeps, own rows plus what the first exchange brought. -/
def V4 (c : Dev nD) : FVec F S256x512 .bf16 :=
  k0_pay5 (xl m c (k0_off5 c) S256x512.size (k0_off5_inb c))
    (r1a.view.readAt (Elt F) (Rect.unit (s := S512x1024) (k0_off6 c) S256x512.size (k0_off6_inb c)).toLoadRect (R1A0 m c))
def V5 (c : Dev nD) : FVec F S256x512 .bf16 :=
  k0_pay7 (xl m c (k0_off9 c) S256x512.size (k0_off9_inb c))
    (r1a.view.readAt (Elt F) (Rect.unit (s := S512x1024) (k0_off10 c) S256x512.size (k0_off10_inb c)).toLoadRect (R1A1 m c))
def V6 (c : Dev nD) : FVec F S256x512 .bf16 :=
  k0_pay6 (xl m c (k0_off7 c) S256x512.size (k0_off7_inb c))
    (r1b.view.readAt (Elt F) (Rect.unit (s := S512x1024) (k0_off8 c) S256x512.size (k0_off8_inb c)).toLoadRect (R1B0 m c))
def V7 (c : Dev nD) : FVec F S256x512 .bf16 :=
  k0_pay8 (xl m c (k0_off11 c) S256x512.size (k0_off11_inb c))
    (r1b.view.readAt (Elt F) (Rect.unit (s := S512x1024) (k0_off12 c) S256x512.size (k0_off12_inb c)).toLoadRect (R1B1 m c))

abbrev R2A0 (c : Dev nD) := (sl2 r2a G0).view.rep (Val := Elt F) (V4 m (p2 c))
abbrev R2A1 (c : Dev nD) := (sl2 r2a G1).view.rep (Val := Elt F) (V5 m (p2 c))
abbrev R2B0 (c : Dev nD) := (sl2 r2b G0).view.rep (Val := Elt F) (V6 m (p1 c))
abbrev R2B1 (c : Dev nD) := (sl2 r2b G1).view.rep (Val := Elt F) (V7 m (p1 c))

/-- The eighths device c owns, fully summed, with the function applied. -/
def V8 (c : Dev nD) : FVec F S256x512 .bf16 :=
  k0_pay9 (xl m c (k0_off13 c) S256x512.size (k0_off13_inb c))
    (r1a.view.readAt (Elt F) (Rect.unit (s := S512x1024) (k0_off14 c) S256x512.size (k0_off14_inb c)).toLoadRect (R1A0 m c))
    (r2a.view.readAt (Elt F) G0.toLoadRect (R2A0 m c))
def V10 (c : Dev nD) : FVec F S256x512 .bf16 :=
  k0_pay12 (k0_pay10 (xl m c (k0_off16 c) S256x512.size (k0_off16_inb c)))
    (k0_pay11 (r1b.view.readAt (Elt F) (Rect.unit (s := S512x1024) (k0_off17 c) S256x512.size (k0_off17_inb c)).toLoadRect (R1B0 m c)))
    (r2b.view.readAt (Elt F) G0.toLoadRect (R2B0 m c))
def V9 (c : Dev nD) : FVec F S256x512 .bf16 :=
  k0_pay13 (xl m c (k0_off19 c) S256x512.size (k0_off19_inb c))
    (r1a.view.readAt (Elt F) (Rect.unit (s := S512x1024) (k0_off20 c) S256x512.size (k0_off20_inb c)).toLoadRect (R1A1 m c))
    (r2a.view.readAt (Elt F) G1.toLoadRect (R2A1 m c))
def V11 (c : Dev nD) : FVec F S256x512 .bf16 :=
  k0_pay14 (xl m c (k0_off22 c) S256x512.size (k0_off22_inb c))
    (r1b.view.readAt (Elt F) (Rect.unit (s := S512x1024) (k0_off23 c) S256x512.size (k0_off23_inb c)).toLoadRect (R1B1 m c))
    (r2b.view.readAt (Elt F) G1.toLoadRect (R2B1 m c))

/-- A quarter of the result rows on device c: its own eighth beside the one its second partner computed, read as one
    block (the contents of two disjoint row blocks joined, then read through the quarter's rows). -/
def V12 (c : Dev nD) : FVec F S512x512 .bf16 :=
  (Q25 c).view.read (Elt F) (((E15 (p2 c)).view.set).piecewise ((E15 (p2 c)).view.rep (Val := Elt F) (V8 m (p2 c))) ((E15 c).view.rep (Val := Elt F) (V8 m c)))
def V13 (c : Dev nD) : FVec F S512x512 .bf16 :=
  (Q27 c).view.read (Elt F) (((E21 (p2 c)).view.set).piecewise ((E21 (p2 c)).view.rep (Val := Elt F) (V9 m (p2 c))) ((E21 c).view.rep (Val := Elt F) (V9 m c)))
def V14 (c : Dev nD) : FVec F S512x512 .bf16 :=
  (Q26 c).view.read (Elt F) (((E18 (p1 c)).view.set).piecewise ((E18 (p1 c)).view.rep (Val := Elt F) (V10 m (p1 c))) ((E18 c).view.rep (Val := Elt F) (V10 m c)))
def V15 (c : Dev nD) : FVec F S512x512 .bf16 :=
  (Q28 c).view.read (Elt F) (((E24 (p1 c)).view.set).piecewise ((E24 (p1 c)).view.rep (Val := Elt F) (V11 m (p1 c))) ((E24 c).view.rep (Val := Elt F) (V11 m c)))

/-- The whole result buffer of device c at the end: eight quarter-by-half blocks, four its own and four received, joined in
    this order over contents that no index reads. -/
def outAt (c : Dev nD) : (cc0_stg1_0 : Ref sig .tc).ty.Contents (Elt F) :=
  ((Q28 (p2 c)).view.set).piecewise ((Q28 (p2 c)).view.rep (Val := Elt F) (V15 m (p2 c)))
  (((Q26 (p2 c)).view.set).piecewise ((Q26 (p2 c)).view.rep (Val := Elt F) (V14 m (p2 c)))
  (((Q27 (p1 c)).view.set).piecewise ((Q27 (p1 c)).view.rep (Val := Elt F) (V13 m (p1 c)))
  (((Q25 (p1 c)).view.set).piecewise ((Q25 (p1 c)).view.rep (Val := Elt F) (V12 m (p1 c)))
  (((Q28 c).view.set).piecewise ((Q28 c).view.rep (Val := Elt F) (V15 m c))
  (((Q26 c).view.set).piecewise ((Q26 c).view.rep (Val := Elt F) (V14 m c))
  (((Q27 c).view.set).piecewise ((Q27 c).view.rep (Val := Elt F) (V13 m c))
  ((Q25 c).view.rep (Val := Elt F) (V12 m c))))))))

end Cert.KernelIdeal.Spec

end
-- ==== Proof.Sched.lean ====
/-
  The protocol of the exchange, as a schedule of rounds.

  Every semaphore of a device is a cell with one round. The barrier cell has two duties of one unit each: its first
  partner's signal and its second partner's; each hands the device the partner's landing regions (the regions of the
  partner's buffers into which this device will copy) and the fact that the partner stands at the start of the receive
  cells of those copies. Each of the sixteen copies k has a send cell on the sender (one duty: the copy itself, which
  hands back the source region) and a receive cell on the receiver (one duty: the copy, which hands over the landing
  region holding the sender's block).
-/
import proofs.«900521_g7700000000000522_dist_f_of_ar_i_m2048_n1024_v7x_i4_bf16_1_alg».proof.Proof.Spec
import proofs.«900521_g7700000000000522_dist_f_of_ar_i_m2048_n1024_v7x_i4_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Sched

open Cert.KernelIdeal Cert.KernelIdeal.Gen Cert.KernelIdeal.Mesh Cert.KernelIdeal.Spec
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds' (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem
/-- The send and the receive semaphore of copy k. -/
def sS (k : Fin 16) : DmaSem sig := ⟨2 + k.val, by have := k.isLt; show _ < 34; omega⟩
def rS (k : Fin 16) : DmaSem sig := ⟨18 + k.val, by have := k.isLt; show _ < 34; omega⟩

abbrev barCell (c : Dev nD) : GSem nD τ sig := ((c : Thread nD τ), .reg barS)
abbrev sendCell (c : Dev nD) (k : Fin 16) : GSem nD τ sig := ((c : Thread nD τ), .dma (sS k))
abbrev recvCell (c : Dev nD) (k : Fin 16) : GSem nD τ sig := ((c : Thread nD τ), .dma (rS k))

/-- The partner copy k goes to: the first for the copies of the A half in the first and last exchange and of the B half
    in the two middle ones, else the second. -/
def pk (k : Fin 16) (c : Dev nD) : Dev nD :=
  if (![true, true, false, false, false, false, true, true, false, false, true, true, true, true, false, false] : Fin 16 → Bool) k then p1 c else p2 c

theorem pk_pk (k : Fin 16) (c : Dev nD) : pk k (pk k c) = c := by unfold pk; split <;> simp [p1_p1, p2_p2]

/-! ## Regions -/

/-- A region of a buffer of device c (the elements of a memref) at given contents, and at some contents. -/
abbrev reg {s : Shape} {e : EltTy} (mr : Memref sig .tc .vmem s e) (c : Dev nD) (f : Buf (Elt F) (mr.view.loc (c : Thread nD τ))) : sProp 𝕄 :=
  mr.view.loc (c : Thread nD τ) ↦[mr.view.set]{fullShare} f
abbrev regE {s : Shape} {e : EltTy} (mr : Memref sig .tc .vmem s e) (c : Dev nD) : sProp 𝕄 :=
  iprop(∃ f : Buf (Elt F) (mr.view.loc (c : Thread nD τ)), mr.view.loc (c : Thread nD τ) ↦[mr.view.set]{fullShare} f)

/-! ## The schedule's entries -/

/-- The units copy k credits. -/
def Nk : Fin 16 → ℕ
  | 0 => (sl5 r1a H0).view.dmaCredit | 1 => (sl5 r1a H1).view.dmaCredit | 2 => (sl5 r1b H0).view.dmaCredit | 3 => (sl5 r1b H1).view.dmaCredit
  | 4 => (sl2 r2a G0).view.dmaCredit | 5 => (sl2 r2a G1).view.dmaCredit | 6 => (sl2 r2b G0).view.dmaCredit | 7 => (sl2 r2b G1).view.dmaCredit
  | 8 => (E15 (0 : Dev nD)).view.dmaCredit | 9 => (E21 (0 : Dev nD)).view.dmaCredit | 10 => (E18 (0 : Dev nD)).view.dmaCredit | 11 => (E24 (0 : Dev nD)).view.dmaCredit
  | 12 => (Q25 (0 : Dev nD)).view.dmaCredit | 13 => (Q27 (0 : Dev nD)).view.dmaCredit | 14 => (Q26 (0 : Dev nD)).view.dmaCredit | 15 => (Q28 (0 : Dev nD)).view.dmaCredit
  | ⟨_ + 16, h⟩ => absurd h (Nat.not_lt.2 (Nat.le_add_left _ _))

theorem Nk_pos (k : Fin 16) : 0 < Nk k := by
  fin_cases k <;> exact View.dmaCredit_pos _ (by decide)

set_option maxHeartbeats 3200000 in
/-- What the send cell of copy k hands back to the sender c: the source region, as sent. -/
def sendPay (c : Dev nD) : Fin 16 → sProp 𝕄
  | 0 => reg (sl5 s1a H0) c ((sl5 s1a H0).view.rep (Val := Elt F) (V0 m c))
  | 1 => reg (sl5 s1a H1) c ((sl5 s1a H1).view.rep (Val := Elt F) (V1 m c))
  | 2 => reg (sl5 s1b H0) c ((sl5 s1b H0).view.rep (Val := Elt F) (V2 m c))
  | 3 => reg (sl5 s1b H1) c ((sl5 s1b H1).view.rep (Val := Elt F) (V3 m c))
  | 4 => reg (sl2 s2a G0) c ((sl2 s2a G0).view.rep (Val := Elt F) (V4 m c))
  | 5 => reg (sl2 s2a G1) c ((sl2 s2a G1).view.rep (Val := Elt F) (V5 m c))
  | 6 => reg (sl2 s2b G0) c ((sl2 s2b G0).view.rep (Val := Elt F) (V6 m c))
  | 7 => reg (sl2 s2b G1) c ((sl2 s2b G1).view.rep (Val := Elt F) (V7 m c))
  | 8 => reg (E15 c) c ((E15 c).view.rep (Val := Elt F) (V8 m c))
  | 9 => reg (E21 c) c ((E21 c).view.rep (Val := Elt F) (V9 m c))
  | 10 => reg (E18 c) c ((E18 c).view.rep (Val := Elt F) (V10 m c))
  | 11 => reg (E24 c) c ((E24 c).view.rep (Val := Elt F) (V11 m c))
  | 12 => reg (Q25 c) c ((Q25 c).view.rep (Val := Elt F) (V12 m c))
  | 13 => reg (Q27 c) c ((Q27 c).view.rep (Val := Elt F) (V13 m c))
  | 14 => reg (Q26 c) c ((Q26 c).view.rep (Val := Elt F) (V14 m c))
  | 15 => reg (Q28 c) c ((Q28 c).view.rep (Val := Elt F) (V15 m c))
  | ⟨_ + 16, h⟩ => absurd h (Nat.not_lt.2 (Nat.le_add_left _ _))

set_option maxHeartbeats 3200000 in
/-- What the receive cell of copy k hands the receiver c: the landing region holding the sender's block. -/
def recvPay (c : Dev nD) : Fin 16 → sProp 𝕄
  | 0 => reg (sl5 r1a H0) c (R1A0 m c)
  | 1 => reg (sl5 r1a H1) c (R1A1 m c)
  | 2 => reg (sl5 r1b H0) c (R1B0 m c)
  | 3 => reg (sl5 r1b H1) c (R1B1 m c)
  | 4 => reg (sl2 r2a G0) c (R2A0 m c)
  | 5 => reg (sl2 r2a G1) c (R2A1 m c)
  | 6 => reg (sl2 r2b G0) c (R2B0 m c)
  | 7 => reg (sl2 r2b G1) c (R2B1 m c)
  | 8 => reg (E15 (p2 c)) c ((E15 (p2 c)).view.rep (Val := Elt F) (V8 m (p2 c)))
  | 9 => reg (E21 (p2 c)) c ((E21 (p2 c)).view.rep (Val := Elt F) (V9 m (p2 c)))
  | 10 => reg (E18 (p1 c)) c ((E18 (p1 c)).view.rep (Val := Elt F) (V10 m (p1 c)))
  | 11 => reg (E24 (p1 c)) c ((E24 (p1 c)).view.rep (Val := Elt F) (V11 m (p1 c)))
  | 12 => reg (Q25 (p1 c)) c ((Q25 (p1 c)).view.rep (Val := Elt F) (V12 m (p1 c)))
  | 13 => reg (Q27 (p1 c)) c ((Q27 (p1 c)).view.rep (Val := Elt F) (V13 m (p1 c)))
  | 14 => reg (Q26 (p2 c)) c ((Q26 (p2 c)).view.rep (Val := Elt F) (V14 m (p2 c)))
  | 15 => reg (Q28 (p2 c)) c ((Q28 (p2 c)).view.rep (Val := Elt F) (V15 m (p2 c)))
  | ⟨_ + 16, h⟩ => absurd h (Nat.not_lt.2 (Nat.le_add_left _ _))

/-- What the first partner's barrier signal hands device c: the first partner's landing regions for c's copies to it, and
    that the partner stands at the start of those copies' receive cells. -/
def barPay1 (c : Dev nD) : sProp 𝕄 :=
  iprop(regE (sl5 r1a H0) (p1 c) ∗ regE (sl5 r1a H1) (p1 c) ∗ regE (sl2 r2b G0) (p1 c) ∗ regE (sl2 r2b G1) (p1 c)
    ∗ regE (E18 c) (p1 c) ∗ regE (E24 c) (p1 c) ∗ regE (Q25 c) (p1 c) ∗ regE (Q27 c) (p1 c)
    ∗ reached ER (recvCell (p1 c) 0) 0 ∗ reached ER (recvCell (p1 c) 1) 0 ∗ reached ER (recvCell (p1 c) 6) 0 ∗ reached ER (recvCell (p1 c) 7) 0
    ∗ reached ER (recvCell (p1 c) 10) 0 ∗ reached ER (recvCell (p1 c) 11) 0 ∗ reached ER (recvCell (p1 c) 12) 0 ∗ reached ER (recvCell (p1 c) 13) 0)
/-- The same from the second partner. -/
def barPay2 (c : Dev nD) : sProp 𝕄 :=
  iprop(regE (sl5 r1b H0) (p2 c) ∗ regE (sl5 r1b H1) (p2 c) ∗ regE (sl2 r2a G0) (p2 c) ∗ regE (sl2 r2a G1) (p2 c)
    ∗ regE (E15 c) (p2 c) ∗ regE (E21 c) (p2 c) ∗ regE (Q26 c) (p2 c) ∗ regE (Q28 c) (p2 c)
    ∗ reached ER (recvCell (p2 c) 2) 0 ∗ reached ER (recvCell (p2 c) 3) 0 ∗ reached ER (recvCell (p2 c) 4) 0 ∗ reached ER (recvCell (p2 c) 5) 0
    ∗ reached ER (recvCell (p2 c) 8) 0 ∗ reached ER (recvCell (p2 c) 9) 0 ∗ reached ER (recvCell (p2 c) 14) 0 ∗ reached ER (recvCell (p2 c) 15) 0)

/-- The payload of a DMA semaphore's one duty, by the semaphore's number: 2 to 17 the send cells, 18 to 33 the receive cells. -/
def dmaPay (c : Dev nD) (q : DmaSem sig) : sProp 𝕄 :=
  if h : 2 ≤ q.val then
    (if h' : q.val < 18 then sendPay m c ⟨q.val - 2, by omega⟩ else recvPay m c ⟨q.val - 18, by have hq : q.val < 34 := q.isLt; omega⟩)
  else iprop(emp)

def dmaAmt (q : DmaSem sig) : ℕ :=
  if h : 2 ≤ q.val then
    (if h' : q.val < 18 then Nk ⟨q.val - 2, by omega⟩ else Nk ⟨q.val - 18, by have hq : q.val < 34 := q.isLt; omega⟩)
  else 1

/-- One round, round 0. -/
def Rd : Rounds.Schedule (GSem nD τ sig) Bool 𝕄 where
  duties g r := if r = 0 ∧ g.1.2 = .tc then (match g.2 with | .reg _ => Finset.univ | .dma q => if 2 ≤ q.val then {false} else ∅) else ∅
  unitless _ := False
  amount g _ _ := match g.2 with | .reg _ => 1 | .dma q => dmaAmt q
  payload g _ d := match g.2 with | .reg _ => (if d then barPay2 g.1.1 else barPay1 g.1.1) | .dma q => dmaPay m g.1.1 q
  amount_pos g _ _ _ := by
    rcases g with ⟨t, _ | q⟩
    · exact Nat.one_pos
    · show 0 < dmaAmt q
      unfold dmaAmt; split
      · split <;> exact Nk_pos _
      · exact Nat.one_pos

end Cert.KernelIdeal.Sched

end
-- ==== Proof.Rules.lean ====
/-
  The schedule's tables read at each cell, and the three steps of a copy under the rounds discipline stated once
  for a copy number k: the issue (the sender pays the send duty with the source region and the receive duty with the
  landing region rewritten), the wait on the send cell (the source region comes back) and the wait on the receive
  cell (the landing region comes, holding the partner's block).
-/
import proofs.«900521_g7700000000000522_dist_f_of_ar_i_m2048_n1024_v7x_i4_bf16_1_alg».proof.Proof.Sched

noncomputable section

namespace Cert.KernelIdeal.Rules

open Cert.KernelIdeal Cert.KernelIdeal.Gen Cert.KernelIdeal.Mesh Cert.KernelIdeal.Spec Cert.KernelIdeal.Sched
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The tables -/

section Tables
variable (c : Dev nD) (k : Fin 16)

theorem sS_val : (sS k).val = 2 + k.val := rfl
theorem rS_val : (rS k).val = 18 + k.val := rfl

theorem duties_bar : (Rd (F := F) m).duties (barCell c) 0 = Finset.univ := by
  dsimp only [Rd]; rw [if_pos ⟨rfl, rfl⟩]
theorem duties_send : (Rd (F := F) m).duties (sendCell c k) 0 = {false} := by
  dsimp only [Rd]; rw [if_pos ⟨rfl, rfl⟩]; exact if_pos (Nat.le_add_right 2 _)
theorem duties_recv : (Rd (F := F) m).duties (recvCell c k) 0 = {false} := by
  dsimp only [Rd]; rw [if_pos ⟨rfl, rfl⟩]; exact if_pos (show 2 ≤ 18 + k.val by omega)
theorem duties_later (g : GSem nD τ sig) : ∀ r, 1 ≤ r → (Rd (F := F) m).duties g r = ∅ :=
  fun r hr => by dsimp only [Rd]; rw [if_neg fun h => by omega]

theorem amount_bar (d : Bool) : (Rd (F := F) m).amount (barCell c) 0 d = 1 := rfl
theorem dmaAmt_send : dmaAmt (sS k) = Nk k := by
  unfold dmaAmt; rw [dif_pos (show 2 ≤ (sS k).val from Nat.le_add_right 2 _), dif_pos (show (sS k).val < 18 by have := k.isLt; show 2 + k.val < 18; omega)]
  exact congrArg Nk (Fin.ext (by simp only [sS, rS]; omega))
theorem dmaAmt_recv : dmaAmt (rS k) = Nk k := by
  unfold dmaAmt; rw [dif_pos (show 2 ≤ (rS k).val by show 2 ≤ 18 + k.val; omega), dif_neg (show ¬ (rS k).val < 18 by show ¬ 18 + k.val < 18; omega)]
  exact congrArg Nk (Fin.ext (by simp only [sS, rS]; omega))
theorem amount_send (d : Bool) : (Rd (F := F) m).amount (sendCell c k) 0 d = Nk k := dmaAmt_send k
theorem amount_recv (d : Bool) : (Rd (F := F) m).amount (recvCell c k) 0 d = Nk k := dmaAmt_recv k

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (Rd (F := F) m).expect (sendCell c k) 0 = Nk k := by
  unfold Schedule.expect Schedule.amountOf; rw [duties_send, Finset.sum_singleton, amount_send]
theorem expect_recv : (Rd (F := F) m).expect (recvCell c k) 0 = Nk k := by
  unfold Schedule.expect Schedule.amountOf; rw [duties_recv, Finset.sum_singleton, amount_recv]

theorem payload_bar_false : (Rd (F := F) m).payload (barCell c) 0 false = barPay1 c := by
  dsimp only [Rd]; exact if_neg Bool.false_ne_true
theorem payload_bar_true : (Rd (F := F) m).payload (barCell c) 0 true = barPay2 c := by
  dsimp only [Rd]; exact if_pos rfl
theorem dmaPay_send : dmaPay m c (sS k) = sendPay m c k := by
  unfold dmaPay; rw [dif_pos (show 2 ≤ (sS k).val from Nat.le_add_right 2 _), dif_pos (show (sS k).val < 18 by have := k.isLt; show 2 + k.val < 18; omega)]
  exact congrArg (sendPay m c) (Fin.ext (by simp only [sS]; omega))
theorem dmaPay_recv : dmaPay m c (rS k) = recvPay m c k := by
  unfold dmaPay; rw [dif_pos (show 2 ≤ (rS k).val by show 2 ≤ 18 + k.val; omega), dif_neg (show ¬ (rS k).val < 18 by show ¬ 18 + k.val < 18; omega)]
  exact congrArg (recvPay m c) (Fin.ext (by simp only [rS]; omega))
theorem payload_send (d : Bool) : (Rd m).payload (sendCell c k) 0 d = sendPay m c k := dmaPay_send m c k
theorem payload_recv (d : Bool) : (Rd m).payload (recvCell c k) 0 d = recvPay m c k := dmaPay_recv m c k

theorem rest_bar : bigSep ((Rd m).duties (barCell c) 0 \ ∅) (fun d => (Rd m).payload (barCell c) 0 d) = iprop(barPay1 c ∗ barPay2 c) := by
  rw [Finset.sdiff_empty, duties_bar, bigSep_univ_eq_bigSepL [false, true] (by decide) (by decide), bigSepL_cons_cons, bigSepL_singleton,
    payload_bar_false, payload_bar_true]
  rfl
theorem rest_send : bigSep ((Rd m).duties (sendCell c k) 0 \ ∅) (fun d => (Rd m).payload (sendCell c k) 0 d) = sendPay m c k := by
  rw [Finset.sdiff_empty, duties_send, bigSep_singleton, payload_send]
theorem rest_recv : bigSep ((Rd m).duties (recvCell c k) 0 \ ∅) (fun d => (Rd m).payload (recvCell c k) 0 d) = recvPay m c k := by
  rw [Finset.sdiff_empty, duties_recv, bigSep_singleton, payload_recv]

end Tables

/-! ## A copy's three steps -/

/-- The issue of copy k from device c to its partner n = pk k c: the source region at the representative of a block V
    and the landing region at any contents go in; the credit on the send cell comes out and what c owes loses the
    receive cell's tally. -/
theorem wp_xfer (c n : Dev nD) (k : Fin 16) (hn : n = pk k c) {s : Shape}
    {src : Memref sig .tc .vmem s .bf16} {dst : Memref sig .tc .vmem s .bf16}
    {hsc : (dst : Memref sig (Dev.tc n : Thread nD τ).2.kind .vmem s .bf16).view.ref.isScScratch = false}
    {hsrc : src.view.WordExact} {hdst : dst.view.WordExact} {sS' rS' : DmaSem sig} (hs : sS' = sS k) (hr : rS' = rS k)
    {hsem : DmaTarget.Typed .vmem (.dma rS') (.remote (Dev.tc n : Thread nD τ) dst (.dma sS') hsc)}
    {α : Type} {Q : α → sProp 𝕄} {kk : PUnit → Prog (TpuEff nD τ sig (Elt F) Λ₀ .tc) α}
    (V : s.Idx → Elt F .bf16) (O : CellTallies nD τ sig Unit) (W : Waits sig Unit) (κ₁ κ₂ : ℕ)
    (hN : dst.view.dmaCredit = Nk k)
    (hsend : reg src c (src.view.rep (Val := Elt F) V) ⊢ sendPay m c k)
    (hrecv : reg dst (pk k c) (dst.view.rep (Val := Elt F) V) ⊢ recvPay m (pk k c) k) :
    iprop(cellInv ER (Rd m) κ₁ (sendCell c k) ∗ cellInv ER (Rd m) κ₂ (recvCell (pk k c) k)
        ∗ reg src c (src.view.rep (Val := Elt F) V) ∗ regE (F := F) dst (pk k c)
        ∗ owes (c : Thread nD τ) (O + tallyAt (recvCell (pk k c) k) () (Nk k)) W
        ∗ dutyTok ER (sendCell c k) 0 false ∗ reached ER (sendCell c k) 0
        ∗ dutyTok ER (recvCell (pk k c) k) 0 false ∗ reached ER (recvCell (pk k c) k) 0)
      ⊢ iprop(((cred (tallyAt (sendCell c k) () (Nk k)) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS') hsc) (.dma rS') hsrc hdst hsem) kk) Q) := by
  subst hn; subst hs; subst hr
  iintro ⟨#HI1, #HI2, Hsrc, ⟨%fd, Hdst⟩, HO, Ht1, #Hr1, Ht2, #Hr2⟩
  iapply (Rounds.wp_send_pointsTo 𝒱₀ ER (Rd m) (c : Thread nD τ) none (κ₁ := κ₁) (κ₂ := κ₂)
    (r₁ := 0) (r₂ := 0) (d₁ := false) (d₂ := false) (fd := fd)
    (by rw [duties_send]; exact Finset.mem_singleton_self _) (by rw [duties_recv]; exact Finset.mem_singleton_self _)
    () () (Nk k) (show dst.view.amount (SemLoc.dma (rS k)) = Nk k from hN) (amount_send m c k false) (amount_recv m (pk k c) k false) O rfl (W := W)
    (by rw [payload_send]; exact hsend)
    (by
      rw [payload_recv, View.read_rep]
      refine (Entails.of_eq ?_).trans hrecv
      show (dst.view.loc ((pk k c : Dev nD) : Thread nD τ) ↦[dst.view.set]{fullShare} _ : sProp 𝕄) = _
      rw [Idealize.ShloMosaic.pointsTo_rep (Ix := Unit) (Name := ℕ) (U := UU) (Lvl := ℕ) ((pk k c : Dev nD) : Thread nD τ) dst _ fullShare, View.read_write_univ])) $$ [Hsrc Hdst HO Ht1 Ht2]
  isplitr; · iexact HI1
  isplitr; · iexact HI2
  isplitl [Hsrc]; · iexact Hsrc
  isplitl [Hdst]; · iexact Hdst
  isplitl [HO]; · iexact HO
  isplitl [Ht1]; · iexact Ht1
  isplitr; · iexact Hr1
  isplitl [Ht2]; · iexact Ht2
  iexact Hr2

/-- The wait on the send cell of copy k: the source region comes back as it was sent. -/
theorem wp_wait_send (c : Dev nD) (k : Fin 16) {sp sp' : Space} {s s' : Shape} {e e' : EltTy}
    {src : Memref sig .tc sp' s' e'} {dst : Memref sig .tc sp s e} {hsrc : src.view.WordExact} {hdst : dst.view.WordExact}
    {sem' : DmaSem sig} (hs : sem' = sS k)
    {α : Type} {Q : α → sProp 𝕄} {kk : PUnit → Prog (TpuEff nD τ sig (Elt F) Λ₀ .tc) α}
    (O : CellTallies nD τ sig Unit) (W : Waits sig Unit) (κ : ℕ) (hamt : dst.view.dmaCredit = Nk k) :
    iprop(cellInv ER (Rd m) κ (sendCell c k) ∗ cred (tallyAt (sendCell c k) () (Nk k)) ∗ owes (c : Thread nD τ) O W
        ∗ MayWait (c : Thread nD τ) (.dma (sS k)) () O ∗ atPos ER (sendCell c k) 0 ∅ 0)
      ⊢ iprop(((owes (c : Thread nD τ) O (insert (SemLoc.dma (sS k), ()) W) ∗ semVal (sendCell c k) 0 ∗ sendPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem' src dst hsrc hdst) kk) Q) := by
  subst hs
  have h := Rounds.wp_wait_rest_token (defs := defs₀ (F := F)) 𝒱₀ ER (Rd m) (c : Thread nD τ) none (κ := κ) (k := kk) (Q := Q)
      (wpE_waitDma2_eq (defs := defs₀ (F := F)) 𝒱₀ (c : Thread nD τ) none Set.univ (sem := sS k) (src := src) (dst := dst) (hsrc := hsrc) (hdst := hdst)) (Set.mem_univ _) () (O := O) (W := W) (R := 0) (m := 0) (T := ∅)
      (by rw [Nat.zero_add, expect_send, hamt])
  rw [rest_send, hamt] at h
  iintro ⟨#HI, Hc, HO, Hmw, Hat⟩ Hk
  iapply h $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (Rd m) (Set.mem_univ κ) (fun h => h) (R := 0 + 1) (duties_later m (sendCell c k))) $$ [Hat] with Hz
  · isplitr; · iexact HI
    iexact Hat
  iapply Hk
  isplitl [HO]; · iexact HO
  isplitl [Hz]; · iexact Hz
  iexact Hpay

/-- The wait on the receive cell of copy k: the landing region comes, holding the partner's block. -/
theorem wp_wait_recv (c : Dev nD) (k : Fin 16) {sp sp' : Space} {s s' : Shape} {e e' : EltTy}
    {src : Memref sig .tc sp' s' e'} {dst : Memref sig .tc sp s e} {hsrc : src.view.WordExact} {hdst : dst.view.WordExact}
    {sem' : DmaSem sig} (hs : sem' = rS k)
    {α : Type} {Q : α → sProp 𝕄} {kk : PUnit → Prog (TpuEff nD τ sig (Elt F) Λ₀ .tc) α}
    (O : CellTallies nD τ sig Unit) (W : Waits sig Unit) (κ : ℕ) (hamt : dst.view.dmaCredit = Nk k) :
    iprop(cellInv ER (Rd m) κ (recvCell c k) ∗ cred (tallyAt (recvCell c k) () (Nk k)) ∗ owes (c : Thread nD τ) O W
        ∗ MayWait (c : Thread nD τ) (.dma (rS k)) () O ∗ atPos ER (recvCell c k) 0 ∅ 0)
      ⊢ iprop(((owes (c : Thread nD τ) O (insert (SemLoc.dma (rS k), ()) W) ∗ semVal (recvCell c k) 0 ∗ recvPay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem' src dst hsrc hdst) kk) Q) := by
  subst hs
  have h := Rounds.wp_wait_rest_token (defs := defs₀ (F := F)) 𝒱₀ ER (Rd m) (c : Thread nD τ) none (κ := κ) (k := kk) (Q := Q)
      (wpE_waitDma2_eq (defs := defs₀ (F := F)) 𝒱₀ (c : Thread nD τ) none Set.univ (sem := rS k) (src := src) (dst := dst) (hsrc := hsrc) (hdst := hdst)) (Set.mem_univ _) () (O := O) (W := W) (R := 0) (m := 0) (T := ∅)
      (by rw [Nat.zero_add, expect_recv, hamt])
  rw [rest_recv, hamt] at h
  iintro ⟨#HI, Hc, HO, Hmw, Hat⟩ Hk
  iapply h $$ [Hc HO Hmw Hat]
  · isplitr; · iexact HI
    isplitl [Hc]; · iexact Hc
    isplitl [HO]; · iexact HO
    isplitl [Hmw]; · iexact Hmw
    iexact Hat
  iintro ⟨HO, Hat, -, Hpay⟩
  imod (Rounds.cell_close ER (Rd m) (Set.mem_univ κ) (fun h => h) (R := 0 + 1) (duties_later m (recvCell c k))) $$ [Hat] with Hz
  · isplitr; · iexact HI
    iexact Hat
  iapply Hk
  isplitl [HO]; · iexact HO
  isplitl [Hz]; · iexact Hz
  iexact Hpay

end Cert.KernelIdeal.Rules

end
-- ==== Proof.Proto.lean ====
/-
  What each device owes, the levels of the cells, the protocol's ghost state at the start of the body, and the
  pipeline's proof data.

  A device owes, at launch, one unit to each partner's barrier cell and to each of its sixteen copies' receive cells the
  copy's credit; it pays them in program order. The levels: barrier cells lowest, then the copies' cells in the order
  their waits come (first exchange, second, first spread, second spread; the first column half before the second), so
  that at every wait the device owes only to cells above the one it waits on.
-/
import proofs.«900521_g7700000000000522_dist_f_of_ar_i_m2048_n1024_v7x_i4_bf16_1_alg».proof.Proof.Rules

noncomputable section

namespace Cert.KernelIdeal.Proto

open Cert.KernelIdeal Cert.KernelIdeal.Gen Cert.KernelIdeal.Mesh Cert.KernelIdeal.Spec Cert.KernelIdeal.Sched Cert.KernelIdeal.Rules
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## What a device owes -/

/-- The receive credits of the copies in the list, the head's tally outermost (paid first). -/
def Oks (c : Dev nD) : List (Fin 16) → CellTallies nD τ sig Unit
  | [] => 0
  | k :: ks => Oks c ks + tallyAt (recvCell (pk k c) k) () (Nk k)

/-- The copies in the order the body issues them. -/
def sendOrder : List (Fin 16) := [0, 2, 1, 3, 4, 6, 5, 7, 8, 10, 9, 11, 12, 14, 13, 15]

/-- After the first barrier signal (to the first partner): the second partner's barrier unit and every copy's credit. -/
def O₁ (c : Dev nD) : CellTallies nD τ sig Unit := Oks c sendOrder + tallyAt (barCell (p2 c)) () 1
def O₀ (c : Dev nD) : CellTallies nD τ sig Unit := O₁ c + tallyAt (barCell (p1 c)) () 1

/-! ## Levels -/

def L (g : GSem nD τ sig) : Finset Unit := if g.1.2 = .tc then {()} else ∅
/-- The wait order of copy k: twice the exchange's number plus the column half. -/
def tk (k : Fin 16) : ℕ := 2 * (k.val / 4) + k.val % 2
/-- Staging cells 0, barrier cells 1, the cells of copy k at 2 + tk k. -/
def lv (g : GSem nD τ sig) (_ : Unit) : ℕ :=
  match g.2 with
  | .reg _ => 1
  | .dma q => if 2 ≤ q.val then 2 + (2 * (((q.val - 2) % 16) / 4) + ((q.val - 2) % 16) % 2) else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state of device c at the start of its body -/

/-- The invariants of the cells device c touches, at the names K they were allocated under: its own barrier, send and
    receive cells, both partners' barrier cells, and the receive cell of each copy on the copy's partner. -/
def invs (K : GSem nD τ sig → ℕ) (c : Dev nD) : sProp 𝕄 :=
  iprop(cellInv ER (Rd m) (K (barCell c)) (barCell c) ∗ cellInv ER (Rd m) (K (barCell (p1 c))) (barCell (p1 c)) ∗ cellInv ER (Rd m) (K (barCell (p2 c))) (barCell (p2 c))
    ∗ bigSep Finset.univ fun k : Fin 16 => iprop(cellInv ER (Rd m) (K (sendCell c k)) (sendCell c k) ∗ cellInv ER (Rd m) (K (recvCell c k)) (recvCell c k)
        ∗ cellInv ER (Rd m) (K (recvCell (pk k c) k)) (recvCell (pk k c) k)))

instance invs_persistent (K : GSem nD τ sig → ℕ) (c : Dev nD) : BI.Persistent (invs m K c) := by unfold invs; infer_instance

/-- What device c holds of copy k at the start: its positions at the start of the copy's two cells on c, that both have
    been reached, the two duty tokens it pays with, and the credit on its receive cell. -/
def perK (c : Dev nD) (k : Fin 16) : sProp 𝕄 :=
  iprop(atPos ER (sendCell c k) 0 ∅ 0 ∗ atPos ER (recvCell c k) 0 ∅ 0 ∗ reached ER (sendCell c k) 0 ∗ reached ER (recvCell c k) 0
    ∗ dutyTok ER (sendCell c k) 0 false ∗ dutyTok ER (recvCell (pk k c) k) 0 false ∗ cred (tallyAt (recvCell c k) () (Nk k)))

def ghost (K : GSem nD τ sig → ℕ) (c : Dev nD) : sProp 𝕄 :=
  iprop(invs m K c ∗ atPos ER (barCell c) 0 ∅ 0 ∗ reached ER (barCell (p1 c)) 0 ∗ reached ER (barCell (p2 c)) 0
    ∗ dutyTok ER (barCell (p1 c)) 0 false ∗ dutyTok ER (barCell (p2 c)) 0 true
    ∗ bigSep Finset.univ (perK c))

def start (c : Dev nD) : sProp 𝕄 :=
  iprop((∃ K, ghost m K c) ∗ cred (tallyAt (barCell c) () 2) ∗ levAts L lv)

/-- The eight scratch buffers, each whole at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f)
    ∗ (∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f) ∗ (∃ f, ((c : Thread nD τ).loc cc0_scratch7) ↦{fullShare} f))

def Φ₀ (c : Dev nD) : sProp 𝕄 := iprop(start m c ∗ scratch c)
/-- After the point: the scratch buffers back, the thirty-two own cells closed at zero. -/
def Φ₁ (c : Dev nD) : sProp 𝕄 :=
  iprop(scratch (F := F) c ∗ bigSep Finset.univ fun k : Fin 16 => iprop(semVal (sendCell c k) 0 ∗ semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.Proto

end
-- ==== Proof.Geom.lean ====
/-
  The geometry of the buffers' regions: which boxes of rows and columns tile a buffer, which lie inside which.
  Every region is a box of a row-major array given by its offsets and sizes; membership is coordinate-wise, so every
  fact below is arithmetic on two coordinates after the device's two coordinates are split into their four cases.
-/
import proofs.«900521_g7700000000000522_dist_f_of_ar_i_m2048_n1024_v7x_i4_bf16_1_alg».proof.Proof.Spec

noncomputable section

namespace Cert.KernelIdeal.Geom

open Idealize.ShloMosaic Idealize.ShloMosaic.TcCoe Idealize.SL.Sem Cert.KernelIdeal Cert.KernelIdeal.Gen Cert.KernelIdeal.Mesh Cert.KernelIdeal.Spec

/-! ## Boxes of a two-axis array -/

/-- An index lies in the box at offsets `off` of sizes `sz` exactly when each of its two coordinates lies in the
    box's span on that axis. -/
theorem mem_box {d : Fin 2 → Nat} {off sz : Fin 2 → Nat} {inb : ∀ a, off a + sz a ≤ (⟨2, d⟩ : Shape).size a}
    {i : (⟨2, d⟩ : Shape).Idx} :
    i ∈ (Rect.unit (s := ⟨2, d⟩) off sz inb).set ↔
      (off 0 ≤ (i 0).val ∧ (i 0).val < off 0 + sz 0) ∧ (off 1 ≤ (i 1).val ∧ (i 1).val < off 1 + sz 1) := by
  rw [Rect.mem_set_unit]; exact Fin.forall_fin_two

/-- Boxes at equal offsets and of equal sizes have the same elements. -/
theorem box_congr {d : Fin 2 → Nat} {off off' sz sz' : Fin 2 → Nat} {inb : ∀ a, off a + sz a ≤ (⟨2, d⟩ : Shape).size a}
    {inb' : ∀ a, off' a + sz' a ≤ (⟨2, d⟩ : Shape).size a} (ho : off = off') (hs : sz = sz') :
    (Rect.unit (s := ⟨2, d⟩) off sz inb).set = (Rect.unit (s := ⟨2, d⟩) off' sz' inb').set := by
  subst ho hs; rfl

/-- The two column halves of a 512-row array tile it. -/
theorem H_cover : H0.set ∪ H1.set = (Finset.univ : Finset S512x1024.Idx) := by
  ext i
  simp only [Finset.mem_union, mem_box, Finset.mem_univ, iff_true]
  have h0 := (i 0).isLt
  have h1 := (i 1).isLt
  simp only [Matrix.cons_val_zero, Matrix.cons_val_one, Matrix.head_cons] at *
  omega

/-- The two column halves of a 256-row array tile it. -/
theorem G_cover : G0.set ∪ G1.set = (Finset.univ : Finset S256x1024.Idx) := by
  ext i
  simp only [Finset.mem_union, mem_box, Finset.mem_univ, iff_true]
  have h0 := (i 0).isLt
  have h1 := (i 1).isLt
  simp only [Matrix.cons_val_zero, Matrix.cons_val_one, Matrix.head_cons] at *
  omega

/-! ## The two column halves of each scratch buffer tile it -/

theorem s1a_cover : (sl5 s1a H0 (fun _ => rfl)).view.set ∪ (sl5 s1a H1 (fun _ => rfl)).view.set = Finset.univ := by
  have e0 : (sl5 s1a H0 (fun _ => rfl)).view.set = H0.set := View.set_slice_whole cc0_scratch0 H0
  have e1 : (sl5 s1a H1 (fun _ => rfl)).view.set = H1.set := View.set_slice_whole cc0_scratch0 H1
  rw [e0, e1]; exact H_cover
theorem s1a_disj : Disjoint (sl5 s1a H0 (fun _ => rfl)).view.set (sl5 s1a H1 (fun _ => rfl)).view.set :=
  View.disjoint_slice_of_disj _ H0 H1 (by decide)
theorem s1b_cover : (sl5 s1b H0 (fun _ => rfl)).view.set ∪ (sl5 s1b H1 (fun _ => rfl)).view.set = Finset.univ := by
  have e0 : (sl5 s1b H0 (fun _ => rfl)).view.set = H0.set := View.set_slice_whole cc0_scratch1 H0
  have e1 : (sl5 s1b H1 (fun _ => rfl)).view.set = H1.set := View.set_slice_whole cc0_scratch1 H1
  rw [e0, e1]; exact H_cover
theorem s1b_disj : Disjoint (sl5 s1b H0 (fun _ => rfl)).view.set (sl5 s1b H1 (fun _ => rfl)).view.set :=
  View.disjoint_slice_of_disj _ H0 H1 (by decide)
theorem r1a_cover : (sl5 r1a H0 (fun _ => rfl)).view.set ∪ (sl5 r1a H1 (fun _ => rfl)).view.set = Finset.univ := by
  have e0 : (sl5 r1a H0 (fun _ => rfl)).view.set = H0.set := View.set_slice_whole cc0_scratch2 H0
  have e1 : (sl5 r1a H1 (fun _ => rfl)).view.set = H1.set := View.set_slice_whole cc0_scratch2 H1
  rw [e0, e1]; exact H_cover
theorem r1a_disj : Disjoint (sl5 r1a H0 (fun _ => rfl)).view.set (sl5 r1a H1 (fun _ => rfl)).view.set :=
  View.disjoint_slice_of_disj _ H0 H1 (by decide)
theorem r1b_cover : (sl5 r1b H0 (fun _ => rfl)).view.set ∪ (sl5 r1b H1 (fun _ => rfl)).view.set = Finset.univ := by
  have e0 : (sl5 r1b H0 (fun _ => rfl)).view.set = H0.set := View.set_slice_whole cc0_scratch3 H0
  have e1 : (sl5 r1b H1 (fun _ => rfl)).view.set = H1.set := View.set_slice_whole cc0_scratch3 H1
  rw [e0, e1]; exact H_cover
theorem r1b_disj : Disjoint (sl5 r1b H0 (fun _ => rfl)).view.set (sl5 r1b H1 (fun _ => rfl)).view.set :=
  View.disjoint_slice_of_disj _ H0 H1 (by decide)
theorem s2a_cover : (sl2 s2a G0 (fun _ => rfl)).view.set ∪ (sl2 s2a G1 (fun _ => rfl)).view.set = Finset.univ := by
  have e0 : (sl2 s2a G0 (fun _ => rfl)).view.set = G0.set := View.set_slice_whole cc0_scratch4 G0
  have e1 : (sl2 s2a G1 (fun _ => rfl)).view.set = G1.set := View.set_slice_whole cc0_scratch4 G1
  rw [e0, e1]; exact G_cover
theorem s2a_disj : Disjoint (sl2 s2a G0 (fun _ => rfl)).view.set (sl2 s2a G1 (fun _ => rfl)).view.set :=
  View.disjoint_slice_of_disj _ G0 G1 (by decide)
theorem s2b_cover : (sl2 s2b G0 (fun _ => rfl)).view.set ∪ (sl2 s2b G1 (fun _ => rfl)).view.set = Finset.univ := by
  have e0 : (sl2 s2b G0 (fun _ => rfl)).view.set = G0.set := View.set_slice_whole cc0_scratch5 G0
  have e1 : (sl2 s2b G1 (fun _ => rfl)).view.set = G1.set := View.set_slice_whole cc0_scratch5 G1
  rw [e0, e1]; exact G_cover
theorem s2b_disj : Disjoint (sl2 s2b G0 (fun _ => rfl)).view.set (sl2 s2b G1 (fun _ => rfl)).view.set :=
  View.disjoint_slice_of_disj _ G0 G1 (by decide)
theorem r2a_cover : (sl2 r2a G0 (fun _ => rfl)).view.set ∪ (sl2 r2a G1 (fun _ => rfl)).view.set = Finset.univ := by
  have e0 : (sl2 r2a G0 (fun _ => rfl)).view.set = G0.set := View.set_slice_whole cc0_scratch6 G0
  have e1 : (sl2 r2a G1 (fun _ => rfl)).view.set = G1.set := View.set_slice_whole cc0_scratch6 G1
  rw [e0, e1]; exact G_cover
theorem r2a_disj : Disjoint (sl2 r2a G0 (fun _ => rfl)).view.set (sl2 r2a G1 (fun _ => rfl)).view.set :=
  View.disjoint_slice_of_disj _ G0 G1 (by decide)
theorem r2b_cover : (sl2 r2b G0 (fun _ => rfl)).view.set ∪ (sl2 r2b G1 (fun _ => rfl)).view.set = Finset.univ := by
  have e0 : (sl2 r2b G0 (fun _ => rfl)).view.set = G0.set := View.set_slice_whole cc0_scratch7 G0
  have e1 : (sl2 r2b G1 (fun _ => rfl)).view.set = G1.set := View.set_slice_whole cc0_scratch7 G1
  rw [e0, e1]; exact G_cover
theorem r2b_disj : Disjoint (sl2 r2b G0 (fun _ => rfl)).view.set (sl2 r2b G1 (fun _ => rfl)).view.set :=
  View.disjoint_slice_of_disj _ G0 G1 (by decide)

/-! ## Families of boxes of the result buffer

A box of the result buffer whose offsets are multiples of 256 rows and 512 columns and whose sizes are too is a union
of cells of 256 rows by 512 columns. A family of such boxes covers the buffer when every one of the sixteen cells lies
in one of them, and its members are pairwise disjoint when any two are separated along one axis. Both conditions
are finite checks on the offsets. -/

/-- The elements of a slice of the whole result buffer are the elements of the slice's box. -/
theorem oset (r : Rect S2048x1024) (h : ∀ a, r.stride a = 1) : (oM.slice r h).view.set = r.set :=
  View.set_slice_whole cc0_stg1_0 r

/-- A family of boxes that contains every cell of 256 rows by 512 columns covers the array. -/
theorem cover_of_cells {n : Nat} (off sz : Fin n → Fin 2 → Nat) (inb : ∀ t a, off t a + sz t a ≤ S2048x1024.size a)
    (h : ∀ k : Fin 8, ∀ j : Fin 2, ∃ t, (off t 0 ≤ 256 * k.val ∧ 256 * k.val + 256 ≤ off t 0 + sz t 0)
      ∧ (off t 1 ≤ 512 * j.val ∧ 512 * j.val + 512 ≤ off t 1 + sz t 1)) :
    (Finset.univ : Finset (Fin n)).biUnion (fun t => (Rect.unit (s := S2048x1024) (off t) (sz t) (inb t)).set)
      = (Finset.univ : Finset S2048x1024.Idx) := by
  ext i
  simp only [Finset.mem_biUnion, Finset.mem_univ, true_and, iff_true, mem_box]
  have h0 : (i 0).val < 2048 := (i 0).isLt
  have h1 : (i 1).val < 1024 := (i 1).isLt
  obtain ⟨t, ⟨ha, hb⟩, hc, hd⟩ := h ⟨(i 0).val / 256, by omega⟩ ⟨(i 1).val / 512, by omega⟩
  refine ⟨t, ?_⟩
  simp only at ha hb hc hd
  omega

/-- Boxes of a family any two of which are separated along some axis are pairwise disjoint. -/
theorem disj_of_sep {n : Nat} (off sz : Fin n → Fin 2 → Nat) (inb : ∀ t a, off t a + sz t a ≤ S2048x1024.size a)
    (h : ∀ t t', t ≠ t' → ∃ a, off t a + sz t a ≤ off t' a ∨ off t' a + sz t' a ≤ off t a) :
    ∀ t ∈ (Finset.univ : Finset (Fin n)), ∀ t' ∈ (Finset.univ : Finset (Fin n)), t ≠ t' →
      Disjoint ((fun t => (Rect.unit (s := S2048x1024) (off t) (sz t) (inb t)).set) t)
        ((fun t => (Rect.unit (s := S2048x1024) (off t) (sz t) (inb t)).set) t') := by
  intro t _ t' _ hne
  obtain ⟨a, ha⟩ := h t t' hne
  exact Rect.unit_disjoint a ha

/-- The device's two coordinates as elements of a two-element type. -/
def B1 (c : Dev nD) : Fin 2 := ⟨b1 c, Nat.lt_succ_of_le (b1_le c)⟩
def B2 (c : Dev nD) : Fin 2 := ⟨b2 c, Nat.lt_succ_of_le (b2_le c)⟩

/-! The offsets at the partners, in closed form over the device's own coordinates. -/
theorem off15_p2 (c : Dev nD) : k0_off15 (p2 c) = ![b1 c * 512 + (1 - b2 c) * 256, 0] := by rw [off15_eq, b1_p2, b2_p2]
theorem off21_p2 (c : Dev nD) : k0_off21 (p2 c) = ![b1 c * 512 + (1 - b2 c) * 256, 512] := by rw [off21_eq, b1_p2, b2_p2]
theorem off18_p1 (c : Dev nD) : k0_off18 (p1 c) = ![1024 + b2 c * 512 + (1 - b1 c) * 256, 0] := by rw [off18_eq, b1_p1, b2_p1]
theorem off24_p1 (c : Dev nD) : k0_off24 (p1 c) = ![1024 + b2 c * 512 + (1 - b1 c) * 256, 512] := by rw [off24_eq, b1_p1, b2_p1]
theorem off25_p1 (c : Dev nD) : k0_off25 (p1 c) = ![(1 - b1 c) * 512, 0] := by rw [off25_eq, b1_p1]
theorem off27_p1 (c : Dev nD) : k0_off27 (p1 c) = ![(1 - b1 c) * 512, 512] := by rw [off27_eq, b1_p1]
theorem off26_p2 (c : Dev nD) : k0_off26 (p2 c) = ![1024 + (1 - b2 c) * 512, 0] := by rw [off26_eq, b2_p2]
theorem off28_p2 (c : Dev nD) : k0_off28 (p2 c) = ![1024 + (1 - b2 c) * 512, 512] := by rw [off28_eq, b2_p2]

/-! ## The result buffer of device c in twelve regions -/

/-- Its own eighths of the two halves (two column halves each), the eighths its partners compute, the quarters its
    partners send. -/
def outRegs (c : Dev nD) : Fin 12 → Finset (cc0_stg1_0 : Ref sig .tc).ty.Idx :=
  ![(E15 c).view.set, (E21 c).view.set, (E18 c).view.set, (E24 c).view.set,
    (E15 (p2 c)).view.set, (E21 (p2 c)).view.set, (E18 (p1 c)).view.set, (E24 (p1 c)).view.set,
    (Q25 (p1 c)).view.set, (Q27 (p1 c)).view.set, (Q26 (p2 c)).view.set, (Q28 (p2 c)).view.set]

/-- The twelve regions' offsets over the device's coordinates x, y, in the order of `outRegs`. -/
def rOff (x y : Fin 2) : Fin 12 → Fin 2 → Nat :=
  ![![x.val * 512 + y.val * 256, 0], ![x.val * 512 + y.val * 256, 512],
    ![1024 + y.val * 512 + x.val * 256, 0], ![1024 + y.val * 512 + x.val * 256, 512],
    ![x.val * 512 + (1 - y.val) * 256, 0], ![x.val * 512 + (1 - y.val) * 256, 512],
    ![1024 + y.val * 512 + (1 - x.val) * 256, 0], ![1024 + y.val * 512 + (1 - x.val) * 256, 512],
    ![(1 - x.val) * 512, 0], ![(1 - x.val) * 512, 512],
    ![1024 + (1 - y.val) * 512, 0], ![1024 + (1 - y.val) * 512, 512]]
/-- and their sizes. -/
def rSz : Fin 12 → Fin 2 → Nat :=
  ![S256x512.size, S256x512.size, S256x512.size, S256x512.size, S256x512.size, S256x512.size, S256x512.size, S256x512.size,
    S512x512.size, S512x512.size, S512x512.size, S512x512.size]

theorem rInb : ∀ x y : Fin 2, ∀ t a, rOff x y t a + rSz t a ≤ S2048x1024.size a := by decide +kernel
theorem rCells : ∀ x y : Fin 2, ∀ k : Fin 8, ∀ j : Fin 2, ∃ t, (rOff x y t 0 ≤ 256 * k.val ∧ 256 * k.val + 256 ≤ rOff x y t 0 + rSz t 0)
    ∧ (rOff x y t 1 ≤ 512 * j.val ∧ 512 * j.val + 512 ≤ rOff x y t 1 + rSz t 1) := by decide +kernel
theorem rSep : ∀ x y : Fin 2, ∀ t t' : Fin 12, t ≠ t' →
    ∃ a, rOff x y t a + rSz t a ≤ rOff x y t' a ∨ rOff x y t' a + rSz t' a ≤ rOff x y t a := by decide +kernel

/-- Each of the twelve regions is the box at its closed-form offsets. -/
theorem outRegs_eq (c : Dev nD) : outRegs c = fun t =>
    (Rect.unit (s := S2048x1024) (rOff (B1 c) (B2 c) t) (rSz t) (rInb (B1 c) (B2 c) t)).set := by
  funext t
  fin_cases t
  · exact (oset _ _).trans (box_congr (off15_eq c) rfl)
  · exact (oset _ _).trans (box_congr (off21_eq c) rfl)
  · exact (oset _ _).trans (box_congr (off18_eq c) rfl)
  · exact (oset _ _).trans (box_congr (off24_eq c) rfl)
  · exact (oset _ _).trans (box_congr (off15_p2 c) rfl)
  · exact (oset _ _).trans (box_congr (off21_p2 c) rfl)
  · exact (oset _ _).trans (box_congr (off18_p1 c) rfl)
  · exact (oset _ _).trans (box_congr (off24_p1 c) rfl)
  · exact (oset _ _).trans (box_congr (off25_p1 c) rfl)
  · exact (oset _ _).trans (box_congr (off27_p1 c) rfl)
  · exact (oset _ _).trans (box_congr (off26_p2 c) rfl)
  · exact (oset _ _).trans (box_congr (off28_p2 c) rfl)

theorem out_cover (c : Dev nD) : (Finset.univ : Finset (Fin 12)).biUnion (outRegs c) = Finset.univ := by
  rw [outRegs_eq c]
  exact cover_of_cells _ _ _ (rCells (B1 c) (B2 c))
theorem out_disj (c : Dev nD) : ∀ t ∈ (Finset.univ : Finset (Fin 12)), ∀ t' ∈ (Finset.univ : Finset (Fin 12)), t ≠ t' → Disjoint (outRegs c t) (outRegs c t') := by
  rw [outRegs_eq c]
  exact disj_of_sep _ _ _ (rSep (B1 c) (B2 c))

/-! ## A quarter is its two eighths -/

theorem Q25_eq (c : Dev nD) : (Q25 c).view.set = (E15 c).view.set ∪ (E15 (p2 c)).view.set := by
  have h : (Rect.unit (s := S2048x1024) (k0_off25 c) S512x512.size (k0_off25_inb c)).set
      = (Rect.unit (s := S2048x1024) (k0_off15 c) S256x512.size (k0_off15_inb c)).set
        ∪ (Rect.unit (s := S2048x1024) (k0_off15 (p2 c)) S256x512.size (k0_off15_inb (p2 c))).set := by
    ext i
    simp only [Finset.mem_union, mem_box, off25_eq, off15_eq, b1_p1, b2_p1, b1_p2, b2_p2, Matrix.cons_val_zero, Matrix.cons_val_one,
      Matrix.head_cons]
    have := b1_le c
    have := b2_le c
    omega
  rw [oset, oset, oset]; exact h
theorem Q27_eq (c : Dev nD) : (Q27 c).view.set = (E21 c).view.set ∪ (E21 (p2 c)).view.set := by
  have h : (Rect.unit (s := S2048x1024) (k0_off27 c) S512x512.size (k0_off27_inb c)).set
      = (Rect.unit (s := S2048x1024) (k0_off21 c) S256x512.size (k0_off21_inb c)).set
        ∪ (Rect.unit (s := S2048x1024) (k0_off21 (p2 c)) S256x512.size (k0_off21_inb (p2 c))).set := by
    ext i
    simp only [Finset.mem_union, mem_box, off27_eq, off21_eq, b1_p1, b2_p1, b1_p2, b2_p2, Matrix.cons_val_zero, Matrix.cons_val_one,
      Matrix.head_cons]
    have := b1_le c
    have := b2_le c
    omega
  rw [oset, oset, oset]; exact h
theorem Q26_eq (c : Dev nD) : (Q26 c).view.set = (E18 c).view.set ∪ (E18 (p1 c)).view.set := by
  have h : (Rect.unit (s := S2048x1024) (k0_off26 c) S512x512.size (k0_off26_inb c)).set
      = (Rect.unit (s := S2048x1024) (k0_off18 c) S256x512.size (k0_off18_inb c)).set
        ∪ (Rect.unit (s := S2048x1024) (k0_off18 (p1 c)) S256x512.size (k0_off18_inb (p1 c))).set := by
    ext i
    simp only [Finset.mem_union, mem_box, off26_eq, off18_eq, b1_p1, b2_p1, b1_p2, b2_p2, Matrix.cons_val_zero, Matrix.cons_val_one,
      Matrix.head_cons]
    have := b1_le c
    have := b2_le c
    omega
  rw [oset, oset, oset]; exact h
theorem Q28_eq (c : Dev nD) : (Q28 c).view.set = (E24 c).view.set ∪ (E24 (p1 c)).view.set := by
  have h : (Rect.unit (s := S2048x1024) (k0_off28 c) S512x512.size (k0_off28_inb c)).set
      = (Rect.unit (s := S2048x1024) (k0_off24 c) S256x512.size (k0_off24_inb c)).set
        ∪ (Rect.unit (s := S2048x1024) (k0_off24 (p1 c)) S256x512.size (k0_off24_inb (p1 c))).set := by
    ext i
    simp only [Finset.mem_union, mem_box, off28_eq, off24_eq, b1_p1, b2_p1, b1_p2, b2_p2, Matrix.cons_val_zero, Matrix.cons_val_one,
      Matrix.head_cons]
    have := b1_le c
    have := b2_le c
    omega
  rw [oset, oset, oset]; exact h
theorem E15_disj (c : Dev nD) : Disjoint (E15 c).view.set (E15 (p2 c)).view.set := by
  rw [oset, oset]
  refine Rect.unit_disjoint 0 ?_
  simp only [off15_eq, b1_p1, b2_p1, b1_p2, b2_p2, Matrix.cons_val_zero]
  have := b1_le c
  have := b2_le c
  omega
theorem E21_disj (c : Dev nD) : Disjoint (E21 c).view.set (E21 (p2 c)).view.set := by
  rw [oset, oset]
  refine Rect.unit_disjoint 0 ?_
  simp only [off21_eq, b1_p1, b2_p1, b1_p2, b2_p2, Matrix.cons_val_zero]
  have := b1_le c
  have := b2_le c
  omega
theorem E18_disj (c : Dev nD) : Disjoint (E18 c).view.set (E18 (p1 c)).view.set := by
  rw [oset, oset]
  refine Rect.unit_disjoint 0 ?_
  simp only [off18_eq, b1_p1, b2_p1, b1_p2, b2_p2, Matrix.cons_val_zero]
  have := b1_le c
  have := b2_le c
  omega
theorem E24_disj (c : Dev nD) : Disjoint (E24 c).view.set (E24 (p1 c)).view.set := by
  rw [oset, oset]
  refine Rect.unit_disjoint 0 ?_
  simp only [off24_eq, b1_p1, b2_p1, b1_p2, b2_p2, Matrix.cons_val_zero]
  have := b1_le c
  have := b2_le c
  omega

/-! ## The eight quarters at the end -/

def outQs (c : Dev nD) : Fin 8 → Finset (cc0_stg1_0 : Ref sig .tc).ty.Idx :=
  ![(Q25 c).view.set, (Q27 c).view.set, (Q26 c).view.set, (Q28 c).view.set,
    (Q25 (p1 c)).view.set, (Q27 (p1 c)).view.set, (Q26 (p2 c)).view.set, (Q28 (p2 c)).view.set]

/-- The eight quarters' offsets over the device's coordinates x, y, in the order of `outQs`; each has 512 rows and
    512 columns. -/
def qOff (x y : Fin 2) : Fin 8 → Fin 2 → Nat :=
  ![![x.val * 512, 0], ![x.val * 512, 512], ![1024 + y.val * 512, 0], ![1024 + y.val * 512, 512],
    ![(1 - x.val) * 512, 0], ![(1 - x.val) * 512, 512], ![1024 + (1 - y.val) * 512, 0], ![1024 + (1 - y.val) * 512, 512]]
def qSz : Fin 8 → Fin 2 → Nat := fun _ => S512x512.size

theorem qInb : ∀ x y : Fin 2, ∀ t a, qOff x y t a + qSz t a ≤ S2048x1024.size a := by decide +kernel
theorem qCells : ∀ x y : Fin 2, ∀ k : Fin 8, ∀ j : Fin 2, ∃ t, (qOff x y t 0 ≤ 256 * k.val ∧ 256 * k.val + 256 ≤ qOff x y t 0 + qSz t 0)
    ∧ (qOff x y t 1 ≤ 512 * j.val ∧ 512 * j.val + 512 ≤ qOff x y t 1 + qSz t 1) := by decide +kernel
theorem qSep : ∀ x y : Fin 2, ∀ t t' : Fin 8, t ≠ t' →
    ∃ a, qOff x y t a + qSz t a ≤ qOff x y t' a ∨ qOff x y t' a + qSz t' a ≤ qOff x y t a := by decide +kernel

/-- Each of the eight quarters is the box at its closed-form offsets. -/
theorem outQs_eq (c : Dev nD) : outQs c = fun t =>
    (Rect.unit (s := S2048x1024) (qOff (B1 c) (B2 c) t) (qSz t) (qInb (B1 c) (B2 c) t)).set := by
  funext t
  fin_cases t
  · exact (oset _ _).trans (box_congr (off25_eq c) rfl)
  · exact (oset _ _).trans (box_congr (off27_eq c) rfl)
  · exact (oset _ _).trans (box_congr (off26_eq c) rfl)
  · exact (oset _ _).trans (box_congr (off28_eq c) rfl)
  · exact (oset _ _).trans (box_congr (off25_p1 c) rfl)
  · exact (oset _ _).trans (box_congr (off27_p1 c) rfl)
  · exact (oset _ _).trans (box_congr (off26_p2 c) rfl)
  · exact (oset _ _).trans (box_congr (off28_p2 c) rfl)

theorem outQ_cover (c : Dev nD) : (Finset.univ : Finset (Fin 8)).biUnion (outQs c) = Finset.univ := by
  rw [outQs_eq c]
  exact cover_of_cells _ _ _ (qCells (B1 c) (B2 c))
theorem outQ_disj (c : Dev nD) : ∀ t ∈ (Finset.univ : Finset (Fin 8)), ∀ t' ∈ (Finset.univ : Finset (Fin 8)), t ≠ t' → Disjoint (outQs c t) (outQs c t') := by
  rw [outQs_eq c]
  exact disj_of_sep _ _ _ (qSep (B1 c) (B2 c))

/-! ## The boxes the loads and stores go through lie in the regions held -/

/-- A load of a column half of a scratch buffer through the whole buffer reads that half's elements. -/
theorem ld5 (b : Memref sig .tc .vmem S512x1024 .bf16) (r : Rect S512x1024) (h : ∀ a, r.stride a = 1) :
    b.view.setOn r.toLoadRect.set ⊆ (b.slice r h).view.set := by
  show b.view.setOn r.toLoadRect.set ⊆ (b.view.slice r).set
  rw [View.set_slice]; exact Finset.Subset.refl _
theorem ld2 (b : Memref sig .tc .vmem S256x1024 .bf16) (r : Rect S256x1024) (h : ∀ a, r.stride a = 1) :
    b.view.setOn r.toLoadRect.set ⊆ (b.slice r h).view.set := by
  show b.view.setOn r.toLoadRect.set ⊆ (b.view.slice r).set
  rw [View.set_slice]; exact Finset.Subset.refl _
theorem ldo (r : Rect S2048x1024) (h : ∀ a, r.stride a = 1) :
    oM.view.setOn r.toLoadRect.set ⊆ (oM.slice r h).view.set := by
  show oM.view.setOn r.toLoadRect.set ⊆ (oM.view.slice r).set
  rw [View.set_slice]; exact Finset.Subset.refl _
/-- A store through a box writes that box's elements. -/
theorem st5 (b : Memref sig .tc .vmem S512x1024 .bf16) (r : Rect S512x1024) (h : ∀ a, r.stride a = 1) :
    (b.access r).setOn Finset.univ ⊆ (b.slice r h).view.set := Finset.Subset.refl _
theorem st2 (b : Memref sig .tc .vmem S256x1024 .bf16) (r : Rect S256x1024) (h : ∀ a, r.stride a = 1) :
    (b.access r).setOn Finset.univ ⊆ (b.slice r h).view.set := Finset.Subset.refl _
theorem sto (r : Rect S2048x1024) (h : ∀ a, r.stride a = 1) :
    (oM.access r).setOn Finset.univ ⊆ (oM.slice r h).view.set := Finset.Subset.refl _

/-- The half-height boxes the second exchange and the final sum read out of the first receive buffers lie in the
    column half that was received. -/
theorem ld_off6 (c : Dev nD) : r1a.view.setOn (Rect.unit (s := S512x1024) (k0_off6 c) S256x512.size (k0_off6_inb c)).toLoadRect.set ⊆ (sl5 r1a H0 (fun _ => rfl)).view.set :=
  Memref.setOn_subset_slice_of_within r1a H0 _ _ (by revert c; decide +kernel)
theorem ld_off10 (c : Dev nD) : r1a.view.setOn (Rect.unit (s := S512x1024) (k0_off10 c) S256x512.size (k0_off10_inb c)).toLoadRect.set ⊆ (sl5 r1a H1 (fun _ => rfl)).view.set :=
  Memref.setOn_subset_slice_of_within r1a H1 _ _ (by revert c; decide +kernel)
theorem ld_off14 (c : Dev nD) : r1a.view.setOn (Rect.unit (s := S512x1024) (k0_off14 c) S256x512.size (k0_off14_inb c)).toLoadRect.set ⊆ (sl5 r1a H0 (fun _ => rfl)).view.set :=
  Memref.setOn_subset_slice_of_within r1a H0 _ _ (by revert c; decide +kernel)
theorem ld_off20 (c : Dev nD) : r1a.view.setOn (Rect.unit (s := S512x1024) (k0_off20 c) S256x512.size (k0_off20_inb c)).toLoadRect.set ⊆ (sl5 r1a H1 (fun _ => rfl)).view.set :=
  Memref.setOn_subset_slice_of_within r1a H1 _ _ (by revert c; decide +kernel)
theorem ld_off8 (c : Dev nD) : r1b.view.setOn (Rect.unit (s := S512x1024) (k0_off8 c) S256x512.size (k0_off8_inb c)).toLoadRect.set ⊆ (sl5 r1b H0 (fun _ => rfl)).view.set :=
  Memref.setOn_subset_slice_of_within r1b H0 _ _ (by revert c; decide +kernel)
theorem ld_off12 (c : Dev nD) : r1b.view.setOn (Rect.unit (s := S512x1024) (k0_off12 c) S256x512.size (k0_off12_inb c)).toLoadRect.set ⊆ (sl5 r1b H1 (fun _ => rfl)).view.set :=
  Memref.setOn_subset_slice_of_within r1b H1 _ _ (by revert c; decide +kernel)
theorem ld_off17 (c : Dev nD) : r1b.view.setOn (Rect.unit (s := S512x1024) (k0_off17 c) S256x512.size (k0_off17_inb c)).toLoadRect.set ⊆ (sl5 r1b H0 (fun _ => rfl)).view.set :=
  Memref.setOn_subset_slice_of_within r1b H0 _ _ (by revert c; decide +kernel)
theorem ld_off23 (c : Dev nD) : r1b.view.setOn (Rect.unit (s := S512x1024) (k0_off23 c) S256x512.size (k0_off23_inb c)).toLoadRect.set ⊆ (sl5 r1b H1 (fun _ => rfl)).view.set :=
  Memref.setOn_subset_slice_of_within r1b H1 _ _ (by revert c; decide +kernel)

/-- The box device c stores its own eighth through is the box it then copies from (two offset chains, one value). -/
theorem off13_eq_off15 (c : Dev nD) : k0_off13 c = k0_off15 c := by rw [off13_eq, off15_eq]
theorem off16_eq_off18 (c : Dev nD) : k0_off16 c = k0_off18 c := by rw [off16_eq, off18_eq]
theorem off19_eq_off21 (c : Dev nD) : k0_off19 c = k0_off21 c := by rw [off19_eq, off21_eq]
theorem off22_eq_off24 (c : Dev nD) : k0_off22 c = k0_off24 c := by rw [off22_eq, off24_eq]

/-- info: 'Cert.KernelIdeal.Geom.out_cover' depends on axioms: [propext, Classical.choice, Quot.sound] -/
#guard_msgs in #print axioms out_cover
/-- info: 'Cert.KernelIdeal.Geom.out_disj' depends on axioms: [propext, Classical.choice, Quot.sound] -/
#guard_msgs in #print axioms out_disj
/-- info: 'Cert.KernelIdeal.Geom.outQ_cover' depends on axioms: [propext, Classical.choice, Quot.sound] -/
#guard_msgs in #print axioms outQ_cover
/-- info: 'Cert.KernelIdeal.Geom.outQ_disj' depends on axioms: [propext, Classical.choice, Quot.sound] -/
#guard_msgs in #print axioms outQ_disj

end Cert.KernelIdeal.Geom

end
-- ==== Proof.BodyLib.lean ====
/-
  What the steps of the body share: which printed semaphore is which copy's, that a copy's credit is the same number
  read off its source or its landing region, that a stored region holds the representative of what was stored, and
  that at each wait the device owes only to cells above the awaited one.
-/
import proofs.«900521_g7700000000000522_dist_f_of_ar_i_m2048_n1024_v7x_i4_bf16_1_alg».proof.Proof.Proto
import proofs.«900521_g7700000000000522_dist_f_of_ar_i_m2048_n1024_v7x_i4_bf16_1_alg».proof.Proof.Geom

noncomputable section

namespace Cert.KernelIdeal.BodyLib

open Cert.KernelIdeal Cert.KernelIdeal.Gen Cert.KernelIdeal.Mesh Cert.KernelIdeal.Spec Cert.KernelIdeal.Sched Cert.KernelIdeal.Rules Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## The printed semaphores -/

theorem ssem0 : ((cc0_scratch8.slice (Rect.unit (s := S16) ![0] S1.size inb_S16_S1_0)).squeeze S_ squeezes_S1_S_).sem = sS 0 := by decide
theorem rsem0 : ((cc0_scratch9.slice (Rect.unit (s := S16) ![0] S1.size inb_S16_S1_0)).squeeze S_ squeezes_S1_S_).sem = rS 0 := by decide
theorem ssem1 : ((cc0_scratch8.slice (Rect.unit (s := S16) ![1] S1.size inb_S16_S1_1)).squeeze S_ squeezes_S1_S_).sem = sS 1 := by decide
theorem rsem1 : ((cc0_scratch9.slice (Rect.unit (s := S16) ![1] S1.size inb_S16_S1_1)).squeeze S_ squeezes_S1_S_).sem = rS 1 := by decide
theorem ssem2 : ((cc0_scratch8.slice (Rect.unit (s := S16) ![2] S1.size inb_S16_S1_2)).squeeze S_ squeezes_S1_S_).sem = sS 2 := by decide
theorem rsem2 : ((cc0_scratch9.slice (Rect.unit (s := S16) ![2] S1.size inb_S16_S1_2)).squeeze S_ squeezes_S1_S_).sem = rS 2 := by decide
theorem ssem3 : ((cc0_scratch8.slice (Rect.unit (s := S16) ![3] S1.size inb_S16_S1_3)).squeeze S_ squeezes_S1_S_).sem = sS 3 := by decide
theorem rsem3 : ((cc0_scratch9.slice (Rect.unit (s := S16) ![3] S1.size inb_S16_S1_3)).squeeze S_ squeezes_S1_S_).sem = rS 3 := by decide
theorem ssem4 : ((cc0_scratch8.slice (Rect.unit (s := S16) ![4] S1.size inb_S16_S1_4)).squeeze S_ squeezes_S1_S_).sem = sS 4 := by decide
theorem rsem4 : ((cc0_scratch9.slice (Rect.unit (s := S16) ![4] S1.size inb_S16_S1_4)).squeeze S_ squeezes_S1_S_).sem = rS 4 := by decide
theorem ssem5 : ((cc0_scratch8.slice (Rect.unit (s := S16) ![5] S1.size inb_S16_S1_5)).squeeze S_ squeezes_S1_S_).sem = sS 5 := by decide
theorem rsem5 : ((cc0_scratch9.slice (Rect.unit (s := S16) ![5] S1.size inb_S16_S1_5)).squeeze S_ squeezes_S1_S_).sem = rS 5 := by decide
theorem ssem6 : ((cc0_scratch8.slice (Rect.unit (s := S16) ![6] S1.size inb_S16_S1_6)).squeeze S_ squeezes_S1_S_).sem = sS 6 := by decide
theorem rsem6 : ((cc0_scratch9.slice (Rect.unit (s := S16) ![6] S1.size inb_S16_S1_6)).squeeze S_ squeezes_S1_S_).sem = rS 6 := by decide
theorem ssem7 : ((cc0_scratch8.slice (Rect.unit (s := S16) ![7] S1.size inb_S16_S1_7)).squeeze S_ squeezes_S1_S_).sem = sS 7 := by decide
theorem rsem7 : ((cc0_scratch9.slice (Rect.unit (s := S16) ![7] S1.size inb_S16_S1_7)).squeeze S_ squeezes_S1_S_).sem = rS 7 := by decide
theorem ssem8 : ((cc0_scratch8.slice (Rect.unit (s := S16) ![8] S1.size inb_S16_S1_8)).squeeze S_ squeezes_S1_S_).sem = sS 8 := by decide
theorem rsem8 : ((cc0_scratch9.slice (Rect.unit (s := S16) ![8] S1.size inb_S16_S1_8)).squeeze S_ squeezes_S1_S_).sem = rS 8 := by decide
theorem ssem9 : ((cc0_scratch8.slice (Rect.unit (s := S16) ![9] S1.size inb_S16_S1_9)).squeeze S_ squeezes_S1_S_).sem = sS 9 := by decide
theorem rsem9 : ((cc0_scratch9.slice (Rect.unit (s := S16) ![9] S1.size inb_S16_S1_9)).squeeze S_ squeezes_S1_S_).sem = rS 9 := by decide
theorem ssem10 : ((cc0_scratch8.slice (Rect.unit (s := S16) ![10] S1.size inb_S16_S1_10)).squeeze S_ squeezes_S1_S_).sem = sS 10 := by decide
theorem rsem10 : ((cc0_scratch9.slice (Rect.unit (s := S16) ![10] S1.size inb_S16_S1_10)).squeeze S_ squeezes_S1_S_).sem = rS 10 := by decide
theorem ssem11 : ((cc0_scratch8.slice (Rect.unit (s := S16) ![11] S1.size inb_S16_S1_11)).squeeze S_ squeezes_S1_S_).sem = sS 11 := by decide
theorem rsem11 : ((cc0_scratch9.slice (Rect.unit (s := S16) ![11] S1.size inb_S16_S1_11)).squeeze S_ squeezes_S1_S_).sem = rS 11 := by decide
theorem ssem12 : ((cc0_scratch8.slice (Rect.unit (s := S16) ![12] S1.size inb_S16_S1_12)).squeeze S_ squeezes_S1_S_).sem = sS 12 := by decide
theorem rsem12 : ((cc0_scratch9.slice (Rect.unit (s := S16) ![12] S1.size inb_S16_S1_12)).squeeze S_ squeezes_S1_S_).sem = rS 12 := by decide
theorem ssem13 : ((cc0_scratch8.slice (Rect.unit (s := S16) ![13] S1.size inb_S16_S1_13)).squeeze S_ squeezes_S1_S_).sem = sS 13 := by decide
theorem rsem13 : ((cc0_scratch9.slice (Rect.unit (s := S16) ![13] S1.size inb_S16_S1_13)).squeeze S_ squeezes_S1_S_).sem = rS 13 := by decide
theorem ssem14 : ((cc0_scratch8.slice (Rect.unit (s := S16) ![14] S1.size inb_S16_S1_14)).squeeze S_ squeezes_S1_S_).sem = sS 14 := by decide
theorem rsem14 : ((cc0_scratch9.slice (Rect.unit (s := S16) ![14] S1.size inb_S16_S1_14)).squeeze S_ squeezes_S1_S_).sem = rS 14 := by decide
theorem ssem15 : ((cc0_scratch8.slice (Rect.unit (s := S16) ![15] S1.size inb_S16_S1_15)).squeeze S_ squeezes_S1_S_).sem = sS 15 := by decide
theorem rsem15 : ((cc0_scratch9.slice (Rect.unit (s := S16) ![15] S1.size inb_S16_S1_15)).squeeze S_ squeezes_S1_S_).sem = rS 15 := by decide

/-! ## The partner of each copy -/

theorem pk0 (c : Dev nD) : pk 0 c = p1 c := rfl
theorem pk1 (c : Dev nD) : pk 1 c = p1 c := rfl
theorem pk2 (c : Dev nD) : pk 2 c = p2 c := rfl
theorem pk3 (c : Dev nD) : pk 3 c = p2 c := rfl
theorem pk4 (c : Dev nD) : pk 4 c = p2 c := rfl
theorem pk5 (c : Dev nD) : pk 5 c = p2 c := rfl
theorem pk6 (c : Dev nD) : pk 6 c = p1 c := rfl
theorem pk7 (c : Dev nD) : pk 7 c = p1 c := rfl
theorem pk8 (c : Dev nD) : pk 8 c = p2 c := rfl
theorem pk9 (c : Dev nD) : pk 9 c = p2 c := rfl
theorem pk10 (c : Dev nD) : pk 10 c = p1 c := rfl
theorem pk11 (c : Dev nD) : pk 11 c = p1 c := rfl
theorem pk12 (c : Dev nD) : pk 12 c = p1 c := rfl
theorem pk13 (c : Dev nD) : pk 13 c = p1 c := rfl
theorem pk14 (c : Dev nD) : pk 14 c = p2 c := rfl
theorem pk15 (c : Dev nD) : pk 15 c = p2 c := rfl

/-! ## A copy's credit, read off its landing region (at the issue and at the receive wait) and off its source region
    (at the send wait) -/

theorem credD0 (c : Dev nD) : (sl5 r1a H0 (fun _ => rfl)).view.dmaCredit = Nk 0 := rfl
theorem credS0 (c : Dev nD) : (sl5 s1a H0 (fun _ => rfl)).view.dmaCredit = Nk 0 := rfl
theorem credD1 (c : Dev nD) : (sl5 r1a H1 (fun _ => rfl)).view.dmaCredit = Nk 1 := rfl
theorem credS1 (c : Dev nD) : (sl5 s1a H1 (fun _ => rfl)).view.dmaCredit = Nk 1 := rfl
theorem credD2 (c : Dev nD) : (sl5 r1b H0 (fun _ => rfl)).view.dmaCredit = Nk 2 := rfl
theorem credS2 (c : Dev nD) : (sl5 s1b H0 (fun _ => rfl)).view.dmaCredit = Nk 2 := rfl
theorem credD3 (c : Dev nD) : (sl5 r1b H1 (fun _ => rfl)).view.dmaCredit = Nk 3 := rfl
theorem credS3 (c : Dev nD) : (sl5 s1b H1 (fun _ => rfl)).view.dmaCredit = Nk 3 := rfl
theorem credD4 (c : Dev nD) : (sl2 r2a G0 (fun _ => rfl)).view.dmaCredit = Nk 4 := rfl
theorem credS4 (c : Dev nD) : (sl2 s2a G0 (fun _ => rfl)).view.dmaCredit = Nk 4 := rfl
theorem credD5 (c : Dev nD) : (sl2 r2a G1 (fun _ => rfl)).view.dmaCredit = Nk 5 := rfl
theorem credS5 (c : Dev nD) : (sl2 s2a G1 (fun _ => rfl)).view.dmaCredit = Nk 5 := rfl
theorem credD6 (c : Dev nD) : (sl2 r2b G0 (fun _ => rfl)).view.dmaCredit = Nk 6 := rfl
theorem credS6 (c : Dev nD) : (sl2 s2b G0 (fun _ => rfl)).view.dmaCredit = Nk 6 := rfl
theorem credD7 (c : Dev nD) : (sl2 r2b G1 (fun _ => rfl)).view.dmaCredit = Nk 7 := rfl
theorem credS7 (c : Dev nD) : (sl2 s2b G1 (fun _ => rfl)).view.dmaCredit = Nk 7 := rfl
theorem credD8 (c : Dev nD) : (E15 c).view.dmaCredit = Nk 8 := rfl
theorem credS8 (c : Dev nD) : (E15 c).view.dmaCredit = Nk 8 := rfl
theorem credD9 (c : Dev nD) : (E21 c).view.dmaCredit = Nk 9 := rfl
theorem credS9 (c : Dev nD) : (E21 c).view.dmaCredit = Nk 9 := rfl
theorem credD10 (c : Dev nD) : (E18 c).view.dmaCredit = Nk 10 := rfl
theorem credS10 (c : Dev nD) : (E18 c).view.dmaCredit = Nk 10 := rfl
theorem credD11 (c : Dev nD) : (E24 c).view.dmaCredit = Nk 11 := rfl
theorem credS11 (c : Dev nD) : (E24 c).view.dmaCredit = Nk 11 := rfl
theorem credD12 (c : Dev nD) : (Q25 c).view.dmaCredit = Nk 12 := rfl
theorem credS12 (c : Dev nD) : (Q25 c).view.dmaCredit = Nk 12 := rfl
theorem credD13 (c : Dev nD) : (Q27 c).view.dmaCredit = Nk 13 := rfl
theorem credS13 (c : Dev nD) : (Q27 c).view.dmaCredit = Nk 13 := rfl
theorem credD14 (c : Dev nD) : (Q26 c).view.dmaCredit = Nk 14 := rfl
theorem credS14 (c : Dev nD) : (Q26 c).view.dmaCredit = Nk 14 := rfl
theorem credD15 (c : Dev nD) : (Q28 c).view.dmaCredit = Nk 15 := rfl
theorem credS15 (c : Dev nD) : (Q28 c).view.dmaCredit = Nk 15 := rfl

/-! ## Stores -/

/-- A region just stored through whole holds the representative of what was stored. -/
theorem reg_store {s : Shape} {e : EltTy} (mr : Memref sig .tc .vmem s e) (c : Dev nD) (f : Buf (Elt F) (mr.view.loc (c : Thread nD τ))) (w : s.Idx → Elt F e) :
    (mr.view.loc (c : Thread nD τ) ↦[mr.view.set]{fullShare} mr.view.write (Elt F) f w Finset.univ : sProp 𝕄) ⊢ reg mr c (mr.view.rep (Val := Elt F) w) := by
  refine Entails.of_eq ?_
  rw [Idealize.ShloMosaic.pointsTo_rep (Ix := Unit) (Name := ℕ) (U := UU) (Lvl := ℕ) (c : Thread nD τ) mr _ fullShare, View.read_write_univ]

/-! ## The invariants a step opens, out of the device's bundle -/

theorem invs_bar (K : GSem nD τ sig → ℕ) (c : Dev nD) : invs m K c ⊢ cellInv ER (Rd m) (K (barCell c)) (barCell c) := by
  unfold Proto.invs; iintro ⟨H, -⟩; iexact H
theorem invs_bar1 (K : GSem nD τ sig → ℕ) (c : Dev nD) : invs m K c ⊢ cellInv ER (Rd m) (K (barCell (p1 c))) (barCell (p1 c)) := by
  unfold Proto.invs; iintro ⟨-, H, -⟩; iexact H
theorem invs_bar2 (K : GSem nD τ sig → ℕ) (c : Dev nD) : invs m K c ⊢ cellInv ER (Rd m) (K (barCell (p2 c))) (barCell (p2 c)) := by
  unfold Proto.invs; iintro ⟨-, -, H, -⟩; iexact H
theorem invs_big (K : GSem nD τ sig → ℕ) (c : Dev nD) (k : Fin 16) :
    (bigSep Finset.univ fun k : Fin 16 => iprop(cellInv ER (Rd m) (K (sendCell c k)) (sendCell c k) ∗ cellInv ER (Rd m) (K (recvCell c k)) (recvCell c k)
        ∗ cellInv ER (Rd m) (K (recvCell (pk k c) k)) (recvCell (pk k c) k)) : sProp 𝕄)
      ⊢ iprop(cellInv ER (Rd m) (K (sendCell c k)) (sendCell c k) ∗ cellInv ER (Rd m) (K (recvCell c k)) (recvCell c k)
        ∗ cellInv ER (Rd m) (K (recvCell (pk k c) k)) (recvCell (pk k c) k)) :=
  bigSep_elim (Finset.mem_univ k)
theorem invs_k (K : GSem nD τ sig → ℕ) (c : Dev nD) (k : Fin 16) :
    invs m K c ⊢ iprop(cellInv ER (Rd m) (K (sendCell c k)) (sendCell c k) ∗ cellInv ER (Rd m) (K (recvCell c k)) (recvCell c k)
        ∗ cellInv ER (Rd m) (K (recvCell (pk k c) k)) (recvCell (pk k c) k)) := by
  unfold Proto.invs; iintro ⟨-, -, -, H⟩
  iapply (invs_big m K c k); iexact H
theorem invs_send (K : GSem nD τ sig → ℕ) (c : Dev nD) (k : Fin 16) : invs m K c ⊢ cellInv ER (Rd m) (K (sendCell c k)) (sendCell c k) := by
  iintro H; ihave H' := (invs_k m K c k) $$ H; icases H' with ⟨H1, -⟩; iexact H1
theorem invs_recv (K : GSem nD τ sig → ℕ) (c : Dev nD) (k : Fin 16) : invs m K c ⊢ cellInv ER (Rd m) (K (recvCell c k)) (recvCell c k) := by
  iintro H; ihave H' := (invs_k m K c k) $$ H; icases H' with ⟨-, H1, -⟩; iexact H1
theorem invs_peer (K : GSem nD τ sig → ℕ) (c : Dev nD) (k : Fin 16) : invs m K c ⊢ cellInv ER (Rd m) (K (recvCell (pk k c) k)) (recvCell (pk k c) k) := by
  iintro H; ihave H' := (invs_k m K c k) $$ H; icases H' with ⟨-, -, H1⟩; iexact H1

/-! ## Waiting while owing -/

theorem Oks_pos {c : Dev nD} {ks : List (Fin 16)} {g : GSem nD τ sig} {u : Unit} (h : 0 < Oks c ks g u) : ∃ k ∈ ks, g = recvCell (pk k c) k := by
  induction ks with
  | nil => exact absurd h (Nat.lt_irrefl 0)
  | cons k ks ih =>
    unfold Oks at h
    rw [Pi.add_apply, Finsupp.add_apply, tallyAt_apply] at h
    by_cases hg : g = recvCell (pk k c) k ∧ u = ()
    · exact ⟨k, List.mem_cons_self, hg.1⟩
    · rw [if_neg hg, Nat.add_zero] at h
      obtain ⟨k', hk', e⟩ := ih h
      exact ⟨k', List.mem_cons_of_mem _ hk', e⟩

theorem lv_recv (c : Dev nD) (k : Fin 16) : lv (recvCell c k) () = 2 + tk k := by
  show (if 2 ≤ (rS k).val then 2 + (2 * ((((rS k).val - 2) % 16) / 4) + (((rS k).val - 2) % 16) % 2) else 0) = 2 + tk k
  have : (rS k).val = 18 + k.val := rfl
  have hk := k.isLt
  rw [if_pos (by omega), this]; unfold tk
  have : (18 + k.val - 2) % 16 = k.val := by omega
  rw [this]
theorem lv_send (c : Dev nD) (k : Fin 16) : lv (sendCell c k) () = 2 + tk k := by
  show (if 2 ≤ (sS k).val then 2 + (2 * ((((sS k).val - 2) % 16) / 4) + (((sS k).val - 2) % 16) % 2) else 0) = 2 + tk k
  have : (sS k).val = 2 + k.val := rfl
  have hk := k.isLt
  rw [if_pos (by omega), this]; unfold tk
  have : (2 + k.val - 2) % 16 = k.val := by omega
  rw [this]

/-- A device that owes only the receive credits of the copies in `ks` may wait on a cell of its own at a level below
    all of theirs. -/
theorem mayWait_Oks (c : Dev nD) (sm : SemLoc sig) (n : ℕ) (hn : lv ((c : Thread nD τ), sm) () = n) (ks : List (Fin 16))
    (hks : ∀ k ∈ ks, n < 2 + tk k) :
    (levAts L lv : sProp 𝕄) ⊢ MayWait (c : Thread nD τ) sm () (Oks c ks) :=
  MayOwe.of_cut (L := L) (lev := lv) n (fun p hp => by rw [Finset.mem_singleton.mp hp, L_tc]; exact Finset.mem_singleton_self _)
    (fun g u hg => by obtain ⟨k, -, rfl⟩ := Oks_pos hg; rw [L_tc]; exact Finset.mem_singleton_self _)
    (fun p hp => by rw [Finset.mem_singleton.mp hp]; exact le_of_eq hn)
    (fun g u hg => by obtain ⟨k, hk, rfl⟩ := Oks_pos hg; rw [lv_recv]; exact hks k hk)

end Cert.KernelIdeal.BodyLib

end
-- ==== Proof.PartsA.lean ====
/-
  The first three parts of the body: the device reads its position; it signals both partners' barrier cells, handing each
  the regions of its own buffers that partner will copy into, and waits for both partners' signals, which bring their
  landing regions; then the first exchange's first column half begins.
-/
import proofs.«900521_g7700000000000522_dist_f_of_ar_i_m2048_n1024_v7x_i4_bf16_1_alg».proof.Proof.BodyLib

noncomputable section

namespace Cert.KernelIdeal.PartsA

open Cert.KernelIdeal Cert.KernelIdeal.Gen Cert.KernelIdeal.Mesh Cert.KernelIdeal.Spec Cert.KernelIdeal.Sched Cert.KernelIdeal.Rules Cert.KernelIdeal.Proto Cert.KernelIdeal.BodyLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

abbrev xP (c : Dev nD) : sProp 𝕄 := ((c : Thread nD τ).loc cc0_stg0_0) ↦{fullShare} X m c

/-- Part 1 computes words from the device's position and returns them with the position itself. -/
theorem part1 (c : Dev nD) (Kt : (Σ' (d0 : Dev nD) (v2 : BitVec 32) (v3 : BitVec 32) (v4 : BitVec 32) (v32 : BitVec 32) (c2_i32_12 : BitVec 32) (v33 : BitVec 32), BitVec 32) → sProp 𝕄) :
    iprop(∀ r, ⌜r.1 = c⌝ -∗ Kt r)
      ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) Kt := by
  simp only [k0_part1_eq_skeleton]; unfold k0_part1_skel
  simp only [Prog.lift, Prog.bind_op, Prog.bind_ret, Prog.pure_eq_ret, wp_deviceId]
  iintro H
  rw [wp_ret]; imodintro
  iapply H
  ipureintro; rfl

/-- Part 2, the handshake: the first signal pays the first partner's barrier cell its first duty with this device's
    regions for that partner's copies; the second pays the second partner's barrier cell its second duty likewise;
    the wait for both units brings the partners' regions. -/
theorem part2 (c : Dev nD) (K : GSem nD τ sig → ℕ) (v2 v3 v4 v32 c2 v33 v38 : BitVec 32) (W : Waits sig Unit)
    (Kt : (Σ' (v59 : BitVec 32) (v62 : BitVec 32) (v66 : BitVec 32), BitVec 32) → sProp 𝕄) :
    iprop(invs m K c ∗ levAts L lv ∗ reached ER (barCell (p1 c)) 0 ∗ reached ER (barCell (p2 c)) 0
        ∗ dutyTok ER (barCell (p1 c)) 0 false ∗ barPay1 (F := F) (p1 c) ∗ dutyTok ER (barCell (p2 c)) 0 true ∗ barPay2 (F := F) (p2 c)
        ∗ cred (tallyAt (barCell c) () 2) ∗ atPos ER (barCell c) 0 ∅ 0
        ∗ owes (c : Thread nD τ) (O₀ c) W
        ∗ (∀ r, (barPay1 (F := F) c ∗ barPay2 (F := F) c ∗ ∃ W', owes (c : Thread nD τ) (Oks c [0, 2, 1, 3, 4, 6, 5, 7, 8, 10, 9, 11, 12, 14, 13, 15]) W') -∗ Kt r))
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c v2 v3 v4 v32 c2 v33 v38) Kt := by
  simp only [k0_part2_eq_skeleton]; unfold k0_part2_skel
  simp only [semSignalWord, semWaitWord, Prog.lift, Prog.bind_op, Prog.bind_ret, Prog.pure_eq_ret]
  iintro ⟨#HI, #Hlev, #Hr1, #Hr2, Ht1, Hp1, Ht2, Hp2, Hcr, Hat, HO, Hk⟩
  simp only [dev1_eq c, dev2_eq c]
  iapply (Rounds.wp_signal 𝒱₀ ER (Rd m) (c : Thread nD τ) none (dst := (p1 c : Thread nD τ)) (κ := K (barCell (p1 c)))
      (d := false) (by rw [duties_bar]; exact Finset.mem_univ _) ((amount_bar m (p1 c) false).trans (by decide)) () (O₁ c) rfl)
    $$ [HO Ht1 Hp1]
  · isplitr; · iapply (invs_bar1 m K c); iexact HI
    isplitl [HO]; · iexact HO
    isplitl [Ht1]; · iexact Ht1
    isplitl [Hp1]; · rw [payload_bar_false]; iexact Hp1
    iexact Hr1
  iintro HO
  iapply (Rounds.wp_signal 𝒱₀ ER (Rd m) (c : Thread nD τ) none (dst := (p2 c : Thread nD τ)) (κ := K (barCell (p2 c)))
      (d := true) (by rw [duties_bar]; exact Finset.mem_univ _) ((amount_bar m (p2 c) true).trans (by decide)) () (Oks c [0, 2, 1, 3, 4, 6, 5, 7, 8, 10, 9, 11, 12, 14, 13, 15]) rfl)
    $$ [HO Ht2 Hp2]
  · isplitr; · iapply (invs_bar2 m K c); iexact HI
    isplitl [HO]; · iexact HO
    isplitl [Ht2]; · iexact Ht2
    isplitl [Hp2]; · rw [payload_bar_true]; iexact Hp2
    iexact Hr2
  iintro HO
  iapply (Rounds.wp_wait_rest_token (defs := defs₀ (F := F)) 𝒱₀ ER (Rd m) (c : Thread nD τ) none (κ := K (barCell c))
      (wpE_semWait_eq (defs := defs₀ (F := F)) 𝒱₀ (c : Thread nD τ) none Set.univ) (Set.mem_univ _) () (O := Oks c sendOrder) (W := W) (R := 0) (m := 0) (T := ∅)
      (by rw [expect_bar]; decide)) $$ [Hcr HO Hat]
  · isplitr; · iapply (invs_bar m K c); iexact HI
    isplitl [Hcr]; · iexact Hcr
    isplitl [HO]; · iexact HO
    isplitr; · iapply (mayWait_Oks c (.reg barS) 1 rfl [0, 2, 1, 3, 4, 6, 5, 7, 8, 10, 9, 11, 12, 14, 13, 15] (by decide)); iexact Hlev
    iexact Hat
  iintro ⟨HO, -, -, Hpay⟩
  ihave Hp := (Entails.of_eq (rest_bar m c)) $$ Hpay
  icases Hp with ⟨Hb1, Hb2⟩
  rw [wp_ret]; imodintro
  iapply Hk
  isplitl [Hb1]; · iexact Hb1
  isplitl [Hb2]; · iexact Hb2
  iexists _; iexact HO

/-- Part 3: the A half's quarter for the first partner (first column half) is narrowed into its send buffer and copy 0
    issued; the B half's quarter for the second partner is narrowed into its send buffer. -/
theorem part3 (c : Dev nD) (K : GSem nD τ sig → ℕ) (v3 v4 v32 v59 c1 : BitVec 32) (W : Waits sig Unit) (Kt : PUnit → sProp 𝕄) :
    iprop(invs m K c ∗ levAts L lv ∗ reached ER (sendCell c 0) 0 ∗ reached ER (recvCell (pk 0 c) 0) 0
        ∗ xP m c ∗ regE (F := F) (sl5 s1a H0 (fun _ => rfl)) c ∗ regE (F := F) (sl5 r1a H0 (fun _ => rfl)) (pk 0 c)
        ∗ dutyTok ER (sendCell c 0) 0 false ∗ dutyTok ER (recvCell (pk 0 c) 0) 0 false
        ∗ regE (F := F) (sl5 s1b H0 (fun _ => rfl)) c
        ∗ owes (c : Thread nD τ) (Oks c [0, 2, 1, 3, 4, 6, 5, 7, 8, 10, 9, 11, 12, 14, 13, 15]) W
        ∗ ((xP m c ∗ cred (tallyAt (sendCell c 0) () (Nk 0)) ∗ reg (sl5 s1b H0 (fun _ => rfl)) c ((sl5 s1b H0 (fun _ => rfl)).view.rep (Val := Elt F) (V2 m c))
            ∗ ∃ W', owes (c : Thread nD τ) (Oks c [2, 1, 3, 4, 6, 5, 7, 8, 10, 9, 11, 12, 14, 13, 15]) W') -∗ Kt ⟨⟩))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 c v3 v4 v32 v59 c1) Kt := by
  simp only [k0_part3_eq_skeleton]; unfold k0_part3_skel
  simp only [Prog.lift, Prog.bind_op, Prog.bind_ret, Prog.pure_eq_ret]
  iintro ⟨#HI, #Hlev, #Hr1, #Hr2, Hx, ⟨%f1, Hs1a⟩, Hr1a, Ht1, Ht2, ⟨%f2, Hs1b⟩, HO, Hk⟩
  iapply (wp_load 𝒱₀ (c : Thread nD τ) none Set.univ (m := xM) (Finset.subset_univ _)) $$ Hx; iintro Hx
  iapply (wp_load 𝒱₀ (c : Thread nD τ) none Set.univ (m := s1a) (Geom.ld5 s1a H0 (fun _ => rfl))) $$ Hs1a; iintro Hs1a
  iapply (wp_store 𝒱₀ (c : Thread nD τ) none Set.univ (m := s1a) (r := H0) (Mk := Finset.univ) (Geom.st5 s1a H0 (fun _ => rfl))) $$ Hs1a; iintro Hs1a
  ihave Hs1a' := (reg_store (sl5 s1a H0 (fun _ => rfl)) c f1 _) $$ Hs1a
  iapply (wp_xfer m c _ 0 (dev3_eq c) ssem0 rsem0 (V0 m c) (Oks c [2, 1, 3, 4, 6, 5, 7, 8, 10, 9, 11, 12, 14, 13, 15]) W (K (sendCell c 0)) (K (recvCell (pk 0 c) 0)) (credD0 c) (Entails.refl _)
      (by show reg (sl5 r1a H0 (fun _ => rfl)) (p1 c) _ ⊢ reg (sl5 r1a H0 (fun _ => rfl)) (p1 c) ((sl5 r1a H0 (fun _ => rfl)).view.rep (Val := Elt F) (V0 m (p1 (p1 c)))); rw [p1_p1])) $$ [Hs1a' Hr1a HO Ht1 Ht2]
  · isplitr; · iapply (invs_send m K c 0); iexact HI
    isplitr; · iapply (invs_peer m K c 0); iexact HI
    isplitl [Hs1a']; · iexact Hs1a'
    isplitl [Hr1a]; · iexact Hr1a
    isplitl [HO]; · iexact HO
    isplitl [Ht1]; · iexact Ht1
    isplitr; · iexact Hr1
    isplitl [Ht2]; · iexact Ht2
    iexact Hr2
  iintro ⟨Hc, HO⟩
  iapply (wp_load 𝒱₀ (c : Thread nD τ) none Set.univ (m := xM) (Finset.subset_univ _)) $$ Hx; iintro Hx
  iapply (wp_load 𝒱₀ (c : Thread nD τ) none Set.univ (m := s1b) (Geom.ld5 s1b H0 (fun _ => rfl))) $$ Hs1b; iintro Hs1b
  iapply (wp_store 𝒱₀ (c : Thread nD τ) none Set.univ (m := s1b) (r := H0) (Mk := Finset.univ) (Geom.st5 s1b H0 (fun _ => rfl))) $$ Hs1b; iintro Hs1b
  ihave Hs1b' := (reg_store (sl5 s1b H0 (fun _ => rfl)) c f2 _) $$ Hs1b
  rw [wp_ret]; imodintro
  iapply Hk
  isplitl [Hx]; · iexact Hx
  isplitl [Hc]; · iexact Hc
  isplitl [Hs1b']; · iexact Hs1b'
  iexists _; iexact HO

end Cert.KernelIdeal.PartsA

end
-- ==== Proof.PartsB.lean ====
/-
  The steps of the body from the second issue of the first exchange to the first column half of the second exchange:
  the remaining three copies of the first exchange are issued (each after its quarter of the argument is narrowed into
  the send buffer), the first column half's copies are awaited, and each half's eighth for the second exchange is formed
  from the device's own rows plus what the first exchange brought, narrowed, and sent on.
-/
import proofs.«900521_g7700000000000522_dist_f_of_ar_i_m2048_n1024_v7x_i4_bf16_1_alg».proof.Proof.BodyLib

noncomputable section

namespace Cert.KernelIdeal.PartsB

open Cert.KernelIdeal Cert.KernelIdeal.Gen Cert.KernelIdeal.Mesh Cert.KernelIdeal.Spec Cert.KernelIdeal.Sched Cert.KernelIdeal.Rules
open Cert.KernelIdeal.Proto Cert.KernelIdeal.BodyLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The B half's first quarter goes to the second partner; the A half's second column half is narrowed and goes to the
    first partner; the B half's second column half is narrowed. -/
theorem part4 (c : Dev nD) (K : GSem nD τ sig → ℕ) (v3 v4 v32 v59 : BitVec 32) (W : Waits sig Unit) (Kt : PUnit → sProp 𝕄) :
    iprop(invs m K c ∗ levAts L lv
        ∗ reached ER (sendCell c 2) 0 ∗ reached ER (recvCell (pk 2 c) 2) 0 ∗ reached ER (sendCell c 1) 0 ∗ reached ER (recvCell (pk 1 c) 1) 0
        ∗ reg (sl5 s1b H0 (fun _ => rfl)) c ((sl5 s1b H0 (fun _ => rfl)).view.rep (Val := Elt F) (V2 m c))
        ∗ regE (F := F) (sl5 r1b H0 (fun _ => rfl)) (pk 2 c)
        ∗ dutyTok ER (sendCell c 2) 0 false ∗ dutyTok ER (recvCell (pk 2 c) 2) 0 false
        ∗ (((c : Thread nD τ).loc cc0_stg0_0) ↦{fullShare} X m c)
        ∗ regE (F := F) (sl5 s1a H1 (fun _ => rfl)) c
        ∗ regE (F := F) (sl5 r1a H1 (fun _ => rfl)) (pk 1 c)
        ∗ dutyTok ER (sendCell c 1) 0 false ∗ dutyTok ER (recvCell (pk 1 c) 1) 0 false
        ∗ regE (F := F) (sl5 s1b H1 (fun _ => rfl)) c
        ∗ owes (c : Thread nD τ) (Oks c [2, 1, 3, 4, 6, 5, 7, 8, 10, 9, 11, 12, 14, 13, 15]) W
        ∗ ((cred (tallyAt (sendCell c 2) () (Nk 2)) ∗ cred (tallyAt (sendCell c 1) () (Nk 1))
            ∗ (((c : Thread nD τ).loc cc0_stg0_0) ↦{fullShare} X m c)
            ∗ reg (sl5 s1b H1 (fun _ => rfl)) c ((sl5 s1b H1 (fun _ => rfl)).view.rep (Val := Elt F) (V3 m c))
            ∗ ∃ W', owes (c : Thread nD τ) (Oks c [3, 4, 6, 5, 7, 8, 10, 9, 11, 12, 14, 13, 15]) W') -∗ Kt ⟨⟩))
      ⊢ wp frame (wpE (defs₀ (F := F)) 𝒱₀ (c : Thread nD τ) none) Set.univ
          (k0_part4 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4 v32 v59) Kt := by
  simp only [k0_part4_eq_skeleton]; unfold k0_part4_skel
  simp only [Prog.lift, Prog.bind_op, Prog.bind_ret, Prog.pure_eq_ret]
  iintro ⟨#HI, #HL, #Hr2s, #Hr2r, #Hr1s, #Hr1r, Hs1b0, Hr1b0, Ht2s, Ht2r, Hx, ⟨%f1, Hs1a⟩, Hr1a1, Ht1s, Ht1r, ⟨%f2, Hs1b⟩, HO, Hk⟩
  iapply (wp_xfer m c _ 2 (dev4_eq c) ssem2 rsem2 (V2 m c) (Oks c [1, 3, 4, 6, 5, 7, 8, 10, 9, 11, 12, 14, 13, 15]) W (K (sendCell c 2)) (K (recvCell (pk 2 c) 2)) (credD2 c) (Entails.refl _)
      (by show reg (sl5 r1b H0 (fun _ => rfl)) (p2 c) _ ⊢ reg (sl5 r1b H0 (fun _ => rfl)) (p2 c) ((sl5 r1b H0 (fun _ => rfl)).view.rep (Val := Elt F) (V2 m (p2 (p2 c)))); rw [p2_p2])) $$ [Hs1b0 Hr1b0 HO Ht2s Ht2r]
  · isplitr; · iapply (invs_send m K c 2); iexact HI
    isplitr; · iapply (invs_peer m K c 2); iexact HI
    isplitl [Hs1b0]; · iexact Hs1b0
    isplitl [Hr1b0]; · iexact Hr1b0
    isplitl [HO]; · iexact HO
    isplitl [Ht2s]; · iexact Ht2s
    isplitr; · iexact Hr2s
    isplitl [Ht2r]; · iexact Ht2r
    iexact Hr2r
  iintro ⟨Hc2, HO⟩
  iapply (wp_load 𝒱₀ (c : Thread nD τ) none Set.univ (m := xM) (Finset.subset_univ _)) $$ Hx; iintro Hx
  iapply (wp_load 𝒱₀ (c : Thread nD τ) none Set.univ (m := s1a) (Geom.ld5 s1a H1 (fun _ => rfl))) $$ Hs1a; iintro Hs1a
  iapply (wp_store 𝒱₀ (c : Thread nD τ) none Set.univ (m := s1a) (r := H1) (Mk := Finset.univ) (Geom.st5 s1a H1 (fun _ => rfl))) $$ Hs1a; iintro Hs1a
  ihave Hs1a' := (reg_store (sl5 s1a H1 (fun _ => rfl)) c f1 _) $$ Hs1a
  iapply (wp_xfer m c _ 1 (dev5_eq c) ssem1 rsem1 (V1 m c) (Oks c [3, 4, 6, 5, 7, 8, 10, 9, 11, 12, 14, 13, 15]) W (K (sendCell c 1)) (K (recvCell (pk 1 c) 1)) (credD1 c) (Entails.refl _)
      (by show reg (sl5 r1a H1 (fun _ => rfl)) (p1 c) _ ⊢ reg (sl5 r1a H1 (fun _ => rfl)) (p1 c) ((sl5 r1a H1 (fun _ => rfl)).view.rep (Val := Elt F) (V1 m (p1 (p1 c)))); rw [p1_p1])) $$ [Hs1a' Hr1a1 HO Ht1s Ht1r]
  · isplitr; · iapply (invs_send m K c 1); iexact HI
    isplitr; · iapply (invs_peer m K c 1); iexact HI
    isplitl [Hs1a']; · iexact Hs1a'
    isplitl [Hr1a1]; · iexact Hr1a1
    isplitl [HO]; · iexact HO
    isplitl [Ht1s]; · iexact Ht1s
    isplitr; · iexact Hr1s
    isplitl [Ht1r]; · iexact Ht1r
    iexact Hr1r
  iintro ⟨Hc1, HO⟩
  iapply (wp_load 𝒱₀ (c : Thread nD τ) none Set.univ (m := xM) (Finset.subset_univ _)) $$ Hx; iintro Hx
  iapply (wp_load 𝒱₀ (c : Thread nD τ) none Set.univ (m := s1b) (Geom.ld5 s1b H1 (fun _ => rfl))) $$ Hs1b; iintro Hs1b
  iapply (wp_store 𝒱₀ (c : Thread nD τ) none Set.univ (m := s1b) (r := H1) (Mk := Finset.univ) (Geom.st5 s1b H1 (fun _ => rfl))) $$ Hs1b; iintro Hs1b
  ihave Hs1b' := (reg_store (sl5 s1b H1 (fun _ => rfl)) c f2 _) $$ Hs1b
  rw [wp_ret]; imodintro
  iapply Hk
  isplitl [Hc2]; · iexact Hc2
  isplitl [Hc1]; · iexact Hc1
  isplitl [Hx]; · iexact Hx
  isplitl [Hs1b']; · iexact Hs1b'
  iexists _; iexact HO

/-- The B half's second column half goes to the second partner; then the first column half's copies are awaited: the A
    half's send, its receive (the first partner's quarter has landed), and the B half's send. -/
theorem part5 (c : Dev nD) (K : GSem nD τ sig → ℕ) (v3 v4 : BitVec 32) (W : Waits sig Unit) (Kt : PUnit → sProp 𝕄) :
    iprop(invs m K c ∗ levAts L lv
        ∗ reached ER (sendCell c 3) 0 ∗ reached ER (recvCell (pk 3 c) 3) 0
        ∗ reg (sl5 s1b H1 (fun _ => rfl)) c ((sl5 s1b H1 (fun _ => rfl)).view.rep (Val := Elt F) (V3 m c))
        ∗ regE (F := F) (sl5 r1b H1 (fun _ => rfl)) (pk 3 c)
        ∗ dutyTok ER (sendCell c 3) 0 false ∗ dutyTok ER (recvCell (pk 3 c) 3) 0 false
        ∗ cred (tallyAt (sendCell c 0) () (Nk 0)) ∗ atPos ER (sendCell c 0) 0 ∅ 0
        ∗ cred (tallyAt (recvCell c 0) () (Nk 0)) ∗ atPos ER (recvCell c 0) 0 ∅ 0
        ∗ cred (tallyAt (sendCell c 2) () (Nk 2)) ∗ atPos ER (sendCell c 2) 0 ∅ 0
        ∗ owes (c : Thread nD τ) (Oks c [3, 4, 6, 5, 7, 8, 10, 9, 11, 12, 14, 13, 15]) W
        ∗ ((cred (tallyAt (sendCell c 3) () (Nk 3))
            ∗ semVal (sendCell c 0) 0 ∗ sendPay m c 0
            ∗ semVal (recvCell c 0) 0 ∗ recvPay m c 0
            ∗ semVal (sendCell c 2) 0 ∗ sendPay m c 2
            ∗ ∃ W', owes (c : Thread nD τ) (Oks c [4, 6, 5, 7, 8, 10, 9, 11, 12, 14, 13, 15]) W') -∗ Kt ⟨⟩))
      ⊢ wp frame (wpE (defs₀ (F := F)) 𝒱₀ (c : Thread nD τ) none) Set.univ
          (k0_part5 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4) Kt := by
  simp only [k0_part5_eq_skeleton]; unfold k0_part5_skel
  simp only [Prog.lift, Prog.bind_op, Prog.bind_ret, Prog.pure_eq_ret]
  iintro ⟨#HI, #HL, #Hr3s, #Hr3r, Hs1b1, Hr1b1, Ht3s, Ht3r, Hc0s, Ha0s, Hc0r, Ha0r, Hc2s, Ha2s, HO, Hk⟩
  iapply (wp_xfer m c _ 3 (dev6_eq c) ssem3 rsem3 (V3 m c) (Oks c [4, 6, 5, 7, 8, 10, 9, 11, 12, 14, 13, 15]) W (K (sendCell c 3)) (K (recvCell (pk 3 c) 3)) (credD3 c) (Entails.refl _)
      (by show reg (sl5 r1b H1 (fun _ => rfl)) (p2 c) _ ⊢ reg (sl5 r1b H1 (fun _ => rfl)) (p2 c) ((sl5 r1b H1 (fun _ => rfl)).view.rep (Val := Elt F) (V3 m (p2 (p2 c)))); rw [p2_p2])) $$ [Hs1b1 Hr1b1 HO Ht3s Ht3r]
  · isplitr; · iapply (invs_send m K c 3); iexact HI
    isplitr; · iapply (invs_peer m K c 3); iexact HI
    isplitl [Hs1b1]; · iexact Hs1b1
    isplitl [Hr1b1]; · iexact Hr1b1
    isplitl [HO]; · iexact HO
    isplitl [Ht3s]; · iexact Ht3s
    isplitr; · iexact Hr3s
    isplitl [Ht3r]; · iexact Ht3r
    iexact Hr3r
  iintro ⟨Hc3, HO⟩
  iapply (wp_wait_send m c 0 ssem0 (Oks c [4, 6, 5, 7, 8, 10, 9, 11, 12, 14, 13, 15]) W (K (sendCell c 0)) (credS0 c)) $$ [Hc0s HO Ha0s]
  · isplitr; · iapply (invs_send m K c 0); iexact HI
    isplitl [Hc0s]; · iexact Hc0s
    isplitl [HO]; · iexact HO
    isplitr; · iapply (mayWait_Oks c (.dma (sS 0)) (2 + tk 0) (lv_send c 0) [4, 6, 5, 7, 8, 10, 9, 11, 12, 14, 13, 15] (by decide)); iexact HL
    iexact Ha0s
  iintro ⟨HO, Hz0s, Hp0s⟩
  iapply (wp_wait_recv m c 0 rsem0 (Oks c [4, 6, 5, 7, 8, 10, 9, 11, 12, 14, 13, 15]) _ (K (recvCell c 0)) (credD0 c)) $$ [Hc0r HO Ha0r]
  · isplitr; · iapply (invs_recv m K c 0); iexact HI
    isplitl [Hc0r]; · iexact Hc0r
    isplitl [HO]; · iexact HO
    isplitr; · iapply (mayWait_Oks c (.dma (rS 0)) (2 + tk 0) (lv_recv c 0) [4, 6, 5, 7, 8, 10, 9, 11, 12, 14, 13, 15] (by decide)); iexact HL
    iexact Ha0r
  iintro ⟨HO, Hz0r, Hp0r⟩
  iapply (wp_wait_send m c 2 ssem2 (Oks c [4, 6, 5, 7, 8, 10, 9, 11, 12, 14, 13, 15]) _ (K (sendCell c 2)) (credS2 c)) $$ [Hc2s HO Ha2s]
  · isplitr; · iapply (invs_send m K c 2); iexact HI
    isplitl [Hc2s]; · iexact Hc2s
    isplitl [HO]; · iexact HO
    isplitr; · iapply (mayWait_Oks c (.dma (sS 2)) (2 + tk 2) (lv_send c 2) [4, 6, 5, 7, 8, 10, 9, 11, 12, 14, 13, 15] (by decide)); iexact HL
    iexact Ha2s
  iintro ⟨HO, Hz2s, Hp2s⟩
  rw [wp_ret]; imodintro
  iapply Hk
  isplitl [Hc3]; · iexact Hc3
  isplitl [Hz0s]; · iexact Hz0s
  isplitl [Hp0s]; · iexact Hp0s
  isplitl [Hz0r]; · iexact Hz0r
  isplitl [Hp0r]; · iexact Hp0r
  isplitl [Hz2s]; · iexact Hz2s
  isplitl [Hp2s]; · iexact Hp2s
  iexists _; iexact HO

/-- The B half's first receive is awaited (the second partner's quarter has landed); the A half's eighth for the second
    partner is the device's own rows plus the rows the first partner sent, narrowed; it goes to the second partner. -/
theorem part6 (c : Dev nD) (K : GSem nD τ sig → ℕ) (v4 v32 v59 : BitVec 32) (W : Waits sig Unit) (Kt : PUnit → sProp 𝕄) :
    iprop(invs m K c ∗ levAts L lv
        ∗ reached ER (sendCell c 4) 0 ∗ reached ER (recvCell (pk 4 c) 4) 0
        ∗ cred (tallyAt (recvCell c 2) () (Nk 2)) ∗ atPos ER (recvCell c 2) 0 ∅ 0
        ∗ (((c : Thread nD τ).loc cc0_stg0_0) ↦{fullShare} X m c)
        ∗ recvPay m c 0
        ∗ regE (F := F) (sl2 s2a G0 (fun _ => rfl)) c
        ∗ regE (F := F) (sl2 r2a G0 (fun _ => rfl)) (pk 4 c)
        ∗ dutyTok ER (sendCell c 4) 0 false ∗ dutyTok ER (recvCell (pk 4 c) 4) 0 false
        ∗ owes (c : Thread nD τ) (Oks c [4, 6, 5, 7, 8, 10, 9, 11, 12, 14, 13, 15]) W
        ∗ ((semVal (recvCell c 2) 0 ∗ recvPay m c 2
            ∗ (((c : Thread nD τ).loc cc0_stg0_0) ↦{fullShare} X m c)
            ∗ recvPay m c 0
            ∗ cred (tallyAt (sendCell c 4) () (Nk 4))
            ∗ ∃ W', owes (c : Thread nD τ) (Oks c [6, 5, 7, 8, 10, 9, 11, 12, 14, 13, 15]) W') -∗ Kt ⟨⟩))
      ⊢ wp frame (wpE (defs₀ (F := F)) 𝒱₀ (c : Thread nD τ) none) Set.univ
          (k0_part6 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v4 v32 v59) Kt := by
  simp only [k0_part6_eq_skeleton]; unfold k0_part6_skel
  simp only [Prog.lift, Prog.bind_op, Prog.bind_ret, Prog.pure_eq_ret]
  iintro ⟨#HI, #HL, #Hr4s, #Hr4r, Hc2r, Ha2r, Hx, Hp0, ⟨%f1, Hs2a⟩, Hr2a, Ht4s, Ht4r, HO, Hk⟩
  iapply (wp_wait_recv m c 2 rsem2 (Oks c [4, 6, 5, 7, 8, 10, 9, 11, 12, 14, 13, 15]) W (K (recvCell c 2)) (credD2 c)) $$ [Hc2r HO Ha2r]
  · isplitr; · iapply (invs_recv m K c 2); iexact HI
    isplitl [Hc2r]; · iexact Hc2r
    isplitl [HO]; · iexact HO
    isplitr; · iapply (mayWait_Oks c (.dma (rS 2)) (2 + tk 2) (lv_recv c 2) [4, 6, 5, 7, 8, 10, 9, 11, 12, 14, 13, 15] (by decide)); iexact HL
    iexact Ha2r
  iintro ⟨HO, Hz2r, Hp2⟩
  iapply (wp_load 𝒱₀ (c : Thread nD τ) none Set.univ (m := xM) (Finset.subset_univ _)) $$ Hx; iintro Hx
  ihave Hp0 := (show recvPay m c 0 ⊢ reg (sl5 r1a H0 (fun _ => rfl)) c (R1A0 m c) from Entails.refl _) $$ Hp0
  iapply (wp_load 𝒱₀ (c : Thread nD τ) none Set.univ (m := r1a) (Geom.ld_off6 c)) $$ Hp0; iintro Hp0
  ihave Hp0 := (show reg (sl5 r1a H0 (fun _ => rfl)) c (R1A0 m c) ⊢ recvPay m c 0 from Entails.refl _) $$ Hp0
  iapply (wp_load 𝒱₀ (c : Thread nD τ) none Set.univ (m := s2a) (Geom.ld2 s2a G0 (fun _ => rfl))) $$ Hs2a; iintro Hs2a
  iapply (wp_store 𝒱₀ (c : Thread nD τ) none Set.univ (m := s2a) (r := G0) (Mk := Finset.univ) (Geom.st2 s2a G0 (fun _ => rfl))) $$ Hs2a; iintro Hs2a
  ihave Hs2a' := (reg_store (sl2 s2a G0 (fun _ => rfl)) c f1 _) $$ Hs2a
  iapply (wp_xfer m c _ 4 (dev7_eq c) ssem4 rsem4 (V4 m c) (Oks c [6, 5, 7, 8, 10, 9, 11, 12, 14, 13, 15]) _ (K (sendCell c 4)) (K (recvCell (pk 4 c) 4)) (credD4 c) (Entails.refl _)
      (by show reg (sl2 r2a G0 (fun _ => rfl)) (p2 c) _ ⊢ reg (sl2 r2a G0 (fun _ => rfl)) (p2 c) ((sl2 r2a G0 (fun _ => rfl)).view.rep (Val := Elt F) (V4 m (p2 (p2 c)))); rw [p2_p2])) $$ [Hs2a' Hr2a HO Ht4s Ht4r]
  · isplitr; · iapply (invs_send m K c 4); iexact HI
    isplitr; · iapply (invs_peer m K c 4); iexact HI
    isplitl [Hs2a']; · iexact Hs2a'
    isplitl [Hr2a]; · iexact Hr2a
    isplitl [HO]; · iexact HO
    isplitl [Ht4s]; · iexact Ht4s
    isplitr; · iexact Hr4s
    isplitl [Ht4r]; · iexact Ht4r
    iexact Hr4r
  iintro ⟨Hc4, HO⟩
  rw [wp_ret]; imodintro
  iapply Hk
  isplitl [Hz2r]; · iexact Hz2r
  isplitl [Hp2]; · iexact Hp2
  isplitl [Hx]; · iexact Hx
  isplitl [Hp0]; · iexact Hp0
  isplitl [Hc4]; · iexact Hc4
  iexists _; iexact HO

/-- The B half's eighth for the first partner is the device's own rows plus the rows the second partner sent, narrowed;
    it goes to the first partner; then the send of the A half's second column half is awaited. -/
theorem part7 (c : Dev nD) (K : GSem nD τ sig → ℕ) (v3 v32 : BitVec 32) (W : Waits sig Unit) (Kt : PUnit → sProp 𝕄) :
    iprop(invs m K c ∗ levAts L lv
        ∗ reached ER (sendCell c 6) 0 ∗ reached ER (recvCell (pk 6 c) 6) 0
        ∗ (((c : Thread nD τ).loc cc0_stg0_0) ↦{fullShare} X m c)
        ∗ recvPay m c 2
        ∗ regE (F := F) (sl2 s2b G0 (fun _ => rfl)) c
        ∗ regE (F := F) (sl2 r2b G0 (fun _ => rfl)) (pk 6 c)
        ∗ dutyTok ER (sendCell c 6) 0 false ∗ dutyTok ER (recvCell (pk 6 c) 6) 0 false
        ∗ cred (tallyAt (sendCell c 1) () (Nk 1)) ∗ atPos ER (sendCell c 1) 0 ∅ 0
        ∗ owes (c : Thread nD τ) (Oks c [6, 5, 7, 8, 10, 9, 11, 12, 14, 13, 15]) W
        ∗ (((((c : Thread nD τ).loc cc0_stg0_0) ↦{fullShare} X m c)
            ∗ recvPay m c 2
            ∗ cred (tallyAt (sendCell c 6) () (Nk 6))
            ∗ semVal (sendCell c 1) 0 ∗ sendPay m c 1
            ∗ ∃ W', owes (c : Thread nD τ) (Oks c [5, 7, 8, 10, 9, 11, 12, 14, 13, 15]) W') -∗ Kt ⟨⟩))
      ⊢ wp frame (wpE (defs₀ (F := F)) 𝒱₀ (c : Thread nD τ) none) Set.univ
          (k0_part7 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v32) Kt := by
  simp only [k0_part7_eq_skeleton]; unfold k0_part7_skel
  simp only [Prog.lift, Prog.bind_op, Prog.bind_ret, Prog.pure_eq_ret]
  iintro ⟨#HI, #HL, #Hr6s, #Hr6r, Hx, Hp2, ⟨%f1, Hs2b⟩, Hr2b, Ht6s, Ht6r, Hc1s, Ha1s, HO, Hk⟩
  iapply (wp_load 𝒱₀ (c : Thread nD τ) none Set.univ (m := xM) (Finset.subset_univ _)) $$ Hx; iintro Hx
  ihave Hp2 := (show recvPay m c 2 ⊢ reg (sl5 r1b H0 (fun _ => rfl)) c (R1B0 m c) from Entails.refl _) $$ Hp2
  iapply (wp_load 𝒱₀ (c : Thread nD τ) none Set.univ (m := r1b) (Geom.ld_off8 c)) $$ Hp2; iintro Hp2
  ihave Hp2 := (show reg (sl5 r1b H0 (fun _ => rfl)) c (R1B0 m c) ⊢ recvPay m c 2 from Entails.refl _) $$ Hp2
  iapply (wp_load 𝒱₀ (c : Thread nD τ) none Set.univ (m := s2b) (Geom.ld2 s2b G0 (fun _ => rfl))) $$ Hs2b; iintro Hs2b
  iapply (wp_store 𝒱₀ (c : Thread nD τ) none Set.univ (m := s2b) (r := G0) (Mk := Finset.univ) (Geom.st2 s2b G0 (fun _ => rfl))) $$ Hs2b; iintro Hs2b
  ihave Hs2b' := (reg_store (sl2 s2b G0 (fun _ => rfl)) c f1 _) $$ Hs2b
  iapply (wp_xfer m c _ 6 (dev8_eq c) ssem6 rsem6 (V6 m c) (Oks c [5, 7, 8, 10, 9, 11, 12, 14, 13, 15]) W (K (sendCell c 6)) (K (recvCell (pk 6 c) 6)) (credD6 c) (Entails.refl _)
      (by show reg (sl2 r2b G0 (fun _ => rfl)) (p1 c) _ ⊢ reg (sl2 r2b G0 (fun _ => rfl)) (p1 c) ((sl2 r2b G0 (fun _ => rfl)).view.rep (Val := Elt F) (V6 m (p1 (p1 c)))); rw [p1_p1])) $$ [Hs2b' Hr2b HO Ht6s Ht6r]
  · isplitr; · iapply (invs_send m K c 6); iexact HI
    isplitr; · iapply (invs_peer m K c 6); iexact HI
    isplitl [Hs2b']; · iexact Hs2b'
    isplitl [Hr2b]; · iexact Hr2b
    isplitl [HO]; · iexact HO
    isplitl [Ht6s]; · iexact Ht6s
    isplitr; · iexact Hr6s
    isplitl [Ht6r]; · iexact Ht6r
    iexact Hr6r
  iintro ⟨Hc6, HO⟩
  iapply (wp_wait_send m c 1 ssem1 (Oks c [5, 7, 8, 10, 9, 11, 12, 14, 13, 15]) W (K (sendCell c 1)) (credS1 c)) $$ [Hc1s HO Ha1s]
  · isplitr; · iapply (invs_send m K c 1); iexact HI
    isplitl [Hc1s]; · iexact Hc1s
    isplitl [HO]; · iexact HO
    isplitr; · iapply (mayWait_Oks c (.dma (sS 1)) (2 + tk 1) (lv_send c 1) [5, 7, 8, 10, 9, 11, 12, 14, 13, 15] (by decide)); iexact HL
    iexact Ha1s
  iintro ⟨HO, Hz1s, Hp1s⟩
  rw [wp_ret]; imodintro
  iapply Hk
  isplitl [Hx]; · iexact Hx
  isplitl [Hp2]; · iexact Hp2
  isplitl [Hc6]; · iexact Hc6
  isplitl [Hz1s]; · iexact Hz1s
  isplitl [Hp1s]; · iexact Hp1s
  iexists _; iexact HO

/-- info: 'Cert.KernelIdeal.PartsB.part4' depends on axioms: [propext, Classical.choice, Quot.sound] -/
#guard_msgs in #print axioms part4

/-- info: 'Cert.KernelIdeal.PartsB.part5' depends on axioms: [propext, Classical.choice, Quot.sound] -/
#guard_msgs in #print axioms part5

/-- info: 'Cert.KernelIdeal.PartsB.part6' depends on axioms: [propext, Classical.choice, Quot.sound] -/
#guard_msgs in #print axioms part6

/-- info: 'Cert.KernelIdeal.PartsB.part7' depends on axioms: [propext, Classical.choice, Quot.sound] -/
#guard_msgs in #print axioms part7

end Cert.KernelIdeal.PartsB

end
-- ==== Proof.PartsC.lean ====
/-
  The steps of the second exchange's second column half, the waits that close the second exchange's first column
  half, and the first column half of the final sums with the issues of the first spread: one statement per printed
  part, each proved by applying one rule per effect in program order.
-/
import proofs.«900521_g7700000000000522_dist_f_of_ar_i_m2048_n1024_v7x_i4_bf16_1_alg».proof.Proof.BodyLib

noncomputable section

namespace Cert.KernelIdeal.PartsC

open Cert.KernelIdeal Cert.KernelIdeal.Gen Cert.KernelIdeal.Mesh Cert.KernelIdeal.Spec Cert.KernelIdeal.Sched Cert.KernelIdeal.Rules
open Cert.KernelIdeal.Proto Cert.KernelIdeal.BodyLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## What the waits hand back, as regions -/

theorem recvPay0 (c : Dev nD) : recvPay m c 0 = reg (sl5 r1a H0 (fun _ => rfl)) c (R1A0 m c) := rfl
theorem recvPay1 (c : Dev nD) : recvPay m c 1 = reg (sl5 r1a H1 (fun _ => rfl)) c (R1A1 m c) := rfl
theorem recvPay2 (c : Dev nD) : recvPay m c 2 = reg (sl5 r1b H0 (fun _ => rfl)) c (R1B0 m c) := rfl
theorem recvPay3 (c : Dev nD) : recvPay m c 3 = reg (sl5 r1b H1 (fun _ => rfl)) c (R1B1 m c) := rfl
theorem recvPay4 (c : Dev nD) : recvPay m c 4 = reg (sl2 r2a G0 (fun _ => rfl)) c (R2A0 m c) := rfl
theorem recvPay6 (c : Dev nD) : recvPay m c 6 = reg (sl2 r2b G0 (fun _ => rfl)) c (R2B0 m c) := rfl

/-! ## The result buffer's boxes: a box written at one offset chain and held at an equal one -/

theorem ldo' {o o' : Fin S2048x1024.rank → Nat} (e : o = o') (h : ∀ a, o a + S256x512.size a ≤ S2048x1024.size a)
    (h' : ∀ a, o' a + S256x512.size a ≤ S2048x1024.size a) :
    oM.view.setOn (Rect.unit (s := S2048x1024) o S256x512.size h).toLoadRect.set
      ⊆ (oM.slice (Rect.unit (s := S2048x1024) o' S256x512.size h') (fun _ => rfl)).view.set := by
  subst e; exact Geom.ldo _ _

theorem sto' {o o' : Fin S2048x1024.rank → Nat} (e : o = o') (h : ∀ a, o a + S256x512.size a ≤ S2048x1024.size a)
    (h' : ∀ a, o' a + S256x512.size a ≤ S2048x1024.size a) :
    (oM.access (Rect.unit (s := S2048x1024) o S256x512.size h)).setOn Finset.univ
      ⊆ (oM.slice (Rect.unit (s := S2048x1024) o' S256x512.size h') (fun _ => rfl)).view.set := by
  subst e; exact Geom.sto _ _

/-- A row block of the result buffer just stored through a box at an equal offset holds the representative of what
    was stored. -/
theorem reg_store' {o o' : Fin S2048x1024.rank → Nat} (e : o = o') (h : ∀ a, o a + S256x512.size a ≤ S2048x1024.size a)
    (h' : ∀ a, o' a + S256x512.size a ≤ S2048x1024.size a) (c : Dev nD)
    (f : Buf (Elt F) (oM.view.loc (c : Thread nD τ))) (w : S256x512.Idx → Elt F .bf16) :
    ((oM.access (Rect.unit (s := S2048x1024) o S256x512.size h)).loc (c : Thread nD τ)
        ↦[(oM.slice (Rect.unit (s := S2048x1024) o' S256x512.size h') (fun _ => rfl)).view.set]{fullShare}
          (oM.access (Rect.unit (s := S2048x1024) o S256x512.size h)).write (Elt F) f w Finset.univ : sProp 𝕄)
      ⊢ reg (oM.slice (Rect.unit (s := S2048x1024) o' S256x512.size h') (fun _ => rfl)) c
          ((oM.slice (Rect.unit (s := S2048x1024) o' S256x512.size h') (fun _ => rfl)).view.rep (Val := Elt F) w) := by
  subst e; exact reg_store (oM.slice (Rect.unit (s := S2048x1024) o S256x512.size h) (fun _ => rfl)) c f w

theorem part8 (c : Dev nD) (K : GSem nD τ sig → ℕ) (v4 v32 v59 : BitVec 32) (W : Waits sig Unit) (Kt : BitVec 32 → sProp 𝕄) :
    iprop(invs m K c ∗ levAts L lv
        ∗ cred (tallyAt (recvCell c 1) () (Nk 1)) ∗ atPos ER (recvCell c 1) 0 ∅ 0
        ∗ cred (tallyAt (sendCell c 3) () (Nk 3)) ∗ atPos ER (sendCell c 3) 0 ∅ 0
        ∗ cred (tallyAt (recvCell c 3) () (Nk 3)) ∗ atPos ER (recvCell c 3) 0 ∅ 0
        ∗ (((c : Thread nD τ).loc cc0_stg0_0) ↦{fullShare} X m c)
        ∗ regE (F := F) (sl2 s2a G1 (fun _ => rfl)) c
        ∗ owes (c : Thread nD τ) (Oks c [5, 7, 8, 10, 9, 11, 12, 14, 13, 15]) W
        ∗ ((semVal (recvCell c 1) 0 ∗ recvPay m c 1 ∗ semVal (sendCell c 3) 0 ∗ sendPay m c 3 ∗ semVal (recvCell c 3) 0 ∗ recvPay m c 3
            ∗ (((c : Thread nD τ).loc cc0_stg0_0) ↦{fullShare} X m c)
            ∗ reg (sl2 s2a G1 (fun _ => rfl)) c ((sl2 s2a G1 (fun _ => rfl)).view.rep (Val := Elt F) (V5 m c))
            ∗ (∃ W', owes (c : Thread nD τ) (Oks c [5, 7, 8, 10, 9, 11, 12, 14, 13, 15]) W')) -∗ Kt (Scalar.muli v4 1#32)))
      ⊢ wp frame (wpE (defs₀ (F := F)) 𝒱₀ (c : Thread nD τ) none) Set.univ
          (k0_part8 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v4 v32 v59) Kt := by
  simp only [k0_part8_eq_skeleton]; unfold k0_part8_skel
  simp only [Prog.lift, Prog.bind_op, Prog.bind_ret, Prog.pure_eq_ret]
  iintro ⟨#HI, #HL, Hc1, Ha1, Hc2, Ha2, Hc3, Ha3, Hx, ⟨%f1, Hs⟩, HO, Hk⟩
  iapply (wp_wait_recv m c 1 rsem1 (Oks c [5, 7, 8, 10, 9, 11, 12, 14, 13, 15]) W (K (recvCell c 1)) (credD1 c)) $$ [Hc1 HO Ha1]
  · isplitr; · iapply (invs_recv m K c 1); iexact HI
    isplitl [Hc1]; · iexact Hc1
    isplitl [HO]; · iexact HO
    isplitr; · iapply (mayWait_Oks c (.dma (rS 1)) (2 + tk 1) (lv_recv c 1) [5, 7, 8, 10, 9, 11, 12, 14, 13, 15] (by decide)); iexact HL
    iexact Ha1
  iintro ⟨HO, Hz1, Hp1⟩
  iapply (wp_wait_send m c 3 ssem3 (Oks c [5, 7, 8, 10, 9, 11, 12, 14, 13, 15]) _ (K (sendCell c 3)) (credS3 c)) $$ [Hc2 HO Ha2]
  · isplitr; · iapply (invs_send m K c 3); iexact HI
    isplitl [Hc2]; · iexact Hc2
    isplitl [HO]; · iexact HO
    isplitr; · iapply (mayWait_Oks c (.dma (sS 3)) (2 + tk 3) (lv_send c 3) [5, 7, 8, 10, 9, 11, 12, 14, 13, 15] (by decide)); iexact HL
    iexact Ha2
  iintro ⟨HO, Hz2, Hp2⟩
  iapply (wp_wait_recv m c 3 rsem3 (Oks c [5, 7, 8, 10, 9, 11, 12, 14, 13, 15]) _ (K (recvCell c 3)) (credD3 c)) $$ [Hc3 HO Ha3]
  · isplitr; · iapply (invs_recv m K c 3); iexact HI
    isplitl [Hc3]; · iexact Hc3
    isplitl [HO]; · iexact HO
    isplitr; · iapply (mayWait_Oks c (.dma (rS 3)) (2 + tk 3) (lv_recv c 3) [5, 7, 8, 10, 9, 11, 12, 14, 13, 15] (by decide)); iexact HL
    iexact Ha3
  iintro ⟨HO, Hz3, Hp3⟩
  iapply (wp_load 𝒱₀ (c : Thread nD τ) none Set.univ (m := xM) (Finset.subset_univ _)) $$ Hx; iintro Hx
  ihave Hp1 := (Entails.of_eq (recvPay1 m c)) $$ Hp1
  iapply (wp_load 𝒱₀ (c : Thread nD τ) none Set.univ (m := r1a) (Geom.ld_off10 c)) $$ Hp1; iintro Hp1
  iapply (wp_load 𝒱₀ (c : Thread nD τ) none Set.univ (m := s2a) (Geom.ld2 s2a G1 (fun _ => rfl))) $$ Hs; iintro Hs
  iapply (wp_store 𝒱₀ (c : Thread nD τ) none Set.univ (m := s2a) (r := G1) (Mk := Finset.univ) (Geom.st2 s2a G1 (fun _ => rfl))) $$ Hs; iintro Hs
  ihave Hs' := (reg_store (sl2 s2a G1 (fun _ => rfl)) c f1 _) $$ Hs
  ihave Hp1 := (Entails.of_eq (recvPay1 m c).symm) $$ Hp1
  rw [wp_ret]; imodintro
  iapply Hk
  isplitl [Hz1]; · iexact Hz1
  isplitl [Hp1]; · iexact Hp1
  isplitl [Hz2]; · iexact Hz2
  isplitl [Hp2]; · iexact Hp2
  isplitl [Hz3]; · iexact Hz3
  isplitl [Hp3]; · iexact Hp3
  isplitl [Hx]; · iexact Hx
  isplitl [Hs']; · iexact Hs'
  iexists _; iexact HO

theorem part9 (c : Dev nD) (K : GSem nD τ sig → ℕ) (v3 v32 v59 v250 : BitVec 32) (W : Waits sig Unit) (Kt : PUnit → sProp 𝕄) :
    iprop(invs m K c ∗ levAts L lv
        ∗ reached ER (sendCell c 5) 0 ∗ reached ER (recvCell (pk 5 c) 5) 0 ∗ reached ER (sendCell c 7) 0 ∗ reached ER (recvCell (pk 7 c) 7) 0
        ∗ reg (sl2 s2a G1 (fun _ => rfl)) c ((sl2 s2a G1 (fun _ => rfl)).view.rep (Val := Elt F) (V5 m c))
        ∗ regE (F := F) (sl2 r2a G1 (fun _ => rfl)) (pk 5 c)
        ∗ dutyTok ER (sendCell c 5) 0 false ∗ dutyTok ER (recvCell (pk 5 c) 5) 0 false
        ∗ (((c : Thread nD τ).loc cc0_stg0_0) ↦{fullShare} X m c)
        ∗ recvPay m c 3
        ∗ regE (F := F) (sl2 s2b G1 (fun _ => rfl)) c
        ∗ regE (F := F) (sl2 r2b G1 (fun _ => rfl)) (pk 7 c)
        ∗ dutyTok ER (sendCell c 7) 0 false ∗ dutyTok ER (recvCell (pk 7 c) 7) 0 false
        ∗ owes (c : Thread nD τ) (Oks c [5, 7, 8, 10, 9, 11, 12, 14, 13, 15]) W
        ∗ ((cred (tallyAt (sendCell c 5) () (Nk 5)) ∗ (((c : Thread nD τ).loc cc0_stg0_0) ↦{fullShare} X m c) ∗ recvPay m c 3
            ∗ cred (tallyAt (sendCell c 7) () (Nk 7))
            ∗ (∃ W', owes (c : Thread nD τ) (Oks c [8, 10, 9, 11, 12, 14, 13, 15]) W')) -∗ Kt ⟨⟩))
      ⊢ wp frame (wpE (defs₀ (F := F)) 𝒱₀ (c : Thread nD τ) none) Set.univ
          (k0_part9 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v32 v59 v250) Kt := by
  simp only [k0_part9_eq_skeleton]; unfold k0_part9_skel
  simp only [Prog.lift, Prog.bind_op, Prog.bind_ret, Prog.pure_eq_ret]
  iintro ⟨#HI, #HL, #Hr5s, #Hr5r, #Hr7s, #Hr7r, Hs2a, Hr2a, Ht5s, Ht5r, Hx, Hp3, ⟨%f1, Hs2b⟩, Hr2b, Ht7s, Ht7r, HO, Hk⟩
  iapply (wp_xfer m c _ 5 (dev9_eq c) ssem5 rsem5 (V5 m c) (Oks c [7, 8, 10, 9, 11, 12, 14, 13, 15]) W (K (sendCell c 5)) (K (recvCell (pk 5 c) 5)) (credD5 c) (Entails.refl _)
      (by show reg (sl2 r2a G1 (fun _ => rfl)) (p2 c) _ ⊢ reg (sl2 r2a G1 (fun _ => rfl)) (p2 c) ((sl2 r2a G1 (fun _ => rfl)).view.rep (Val := Elt F) (V5 m (p2 (p2 c)))); rw [p2_p2])) $$ [Hs2a Hr2a HO Ht5s Ht5r]
  · isplitr; · iapply (invs_send m K c 5); iexact HI
    isplitr; · iapply (invs_peer m K c 5); iexact HI
    isplitl [Hs2a]; · iexact Hs2a
    isplitl [Hr2a]; · iexact Hr2a
    isplitl [HO]; · iexact HO
    isplitl [Ht5s]; · iexact Ht5s
    isplitr; · iexact Hr5s
    isplitl [Ht5r]; · iexact Ht5r
    iexact Hr5r
  iintro ⟨Hc5, HO⟩
  iapply (wp_load 𝒱₀ (c : Thread nD τ) none Set.univ (m := xM) (Finset.subset_univ _)) $$ Hx; iintro Hx
  ihave Hp3 := (Entails.of_eq (recvPay3 m c)) $$ Hp3
  iapply (wp_load 𝒱₀ (c : Thread nD τ) none Set.univ (m := r1b) (Geom.ld_off12 c)) $$ Hp3; iintro Hp3
  iapply (wp_load 𝒱₀ (c : Thread nD τ) none Set.univ (m := s2b) (Geom.ld2 s2b G1 (fun _ => rfl))) $$ Hs2b; iintro Hs2b
  iapply (wp_store 𝒱₀ (c : Thread nD τ) none Set.univ (m := s2b) (r := G1) (Mk := Finset.univ) (Geom.st2 s2b G1 (fun _ => rfl))) $$ Hs2b; iintro Hs2b
  ihave Hs2b' := (reg_store (sl2 s2b G1 (fun _ => rfl)) c f1 _) $$ Hs2b
  iapply (wp_xfer m c _ 7 (dev10_eq c) ssem7 rsem7 (V7 m c) (Oks c [8, 10, 9, 11, 12, 14, 13, 15]) W (K (sendCell c 7)) (K (recvCell (pk 7 c) 7)) (credD7 c) (Entails.refl _)
      (by show reg (sl2 r2b G1 (fun _ => rfl)) (p1 c) _ ⊢ reg (sl2 r2b G1 (fun _ => rfl)) (p1 c) ((sl2 r2b G1 (fun _ => rfl)).view.rep (Val := Elt F) (V7 m (p1 (p1 c)))); rw [p1_p1])) $$ [Hs2b' Hr2b HO Ht7s Ht7r]
  · isplitr; · iapply (invs_send m K c 7); iexact HI
    isplitr; · iapply (invs_peer m K c 7); iexact HI
    isplitl [Hs2b']; · iexact Hs2b'
    isplitl [Hr2b]; · iexact Hr2b
    isplitl [HO]; · iexact HO
    isplitl [Ht7s]; · iexact Ht7s
    isplitr; · iexact Hr7s
    isplitl [Ht7r]; · iexact Ht7r
    iexact Hr7r
  iintro ⟨Hc7, HO⟩
  ihave Hp3 := (Entails.of_eq (recvPay3 m c).symm) $$ Hp3
  rw [wp_ret]; imodintro
  iapply Hk
  isplitl [Hc5]; · iexact Hc5
  isplitl [Hx]; · iexact Hx
  isplitl [Hp3]; · iexact Hp3
  isplitl [Hc7]; · iexact Hc7
  iexists _; iexact HO

theorem part10 (c : Dev nD) (K : GSem nD τ sig → ℕ) (v3 v4 v32 v59 : BitVec 32) (W : Waits sig Unit) (Kt : PUnit → sProp 𝕄) :
    iprop(invs m K c ∗ levAts L lv
        ∗ cred (tallyAt (sendCell c 4) () (Nk 4)) ∗ atPos ER (sendCell c 4) 0 ∅ 0
        ∗ cred (tallyAt (recvCell c 4) () (Nk 4)) ∗ atPos ER (recvCell c 4) 0 ∅ 0
        ∗ cred (tallyAt (sendCell c 6) () (Nk 6)) ∗ atPos ER (sendCell c 6) 0 ∅ 0
        ∗ cred (tallyAt (recvCell c 6) () (Nk 6)) ∗ atPos ER (recvCell c 6) 0 ∅ 0
        ∗ owes (c : Thread nD τ) (Oks c [8, 10, 9, 11, 12, 14, 13, 15]) W
        ∗ ((semVal (sendCell c 4) 0 ∗ sendPay m c 4 ∗ semVal (recvCell c 4) 0 ∗ recvPay m c 4
            ∗ semVal (sendCell c 6) 0 ∗ sendPay m c 6 ∗ semVal (recvCell c 6) 0 ∗ recvPay m c 6
            ∗ (∃ W', owes (c : Thread nD τ) (Oks c [8, 10, 9, 11, 12, 14, 13, 15]) W')) -∗ Kt ⟨⟩))
      ⊢ wp frame (wpE (defs₀ (F := F)) 𝒱₀ (c : Thread nD τ) none) Set.univ
          (k0_part10 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            v3 v4 v32 v59) Kt := by
  simp only [k0_part10_eq_skeleton]; unfold k0_part10_skel
  simp only [Prog.lift, Prog.bind_op, Prog.bind_ret, Prog.pure_eq_ret]
  iintro ⟨#HI, #HL, Hc1, Ha1, Hc2, Ha2, Hc3, Ha3, Hc4, Ha4, HO, Hk⟩
  iapply (wp_wait_send m c 4 ssem4 (Oks c [8, 10, 9, 11, 12, 14, 13, 15]) W (K (sendCell c 4)) (credS4 c)) $$ [Hc1 HO Ha1]
  · isplitr; · iapply (invs_send m K c 4); iexact HI
    isplitl [Hc1]; · iexact Hc1
    isplitl [HO]; · iexact HO
    isplitr; · iapply (mayWait_Oks c (.dma (sS 4)) (2 + tk 4) (lv_send c 4) [8, 10, 9, 11, 12, 14, 13, 15] (by decide)); iexact HL
    iexact Ha1
  iintro ⟨HO, Hz1, Hp1⟩
  iapply (wp_wait_recv m c 4 rsem4 (Oks c [8, 10, 9, 11, 12, 14, 13, 15]) _ (K (recvCell c 4)) (credD4 c)) $$ [Hc2 HO Ha2]
  · isplitr; · iapply (invs_recv m K c 4); iexact HI
    isplitl [Hc2]; · iexact Hc2
    isplitl [HO]; · iexact HO
    isplitr; · iapply (mayWait_Oks c (.dma (rS 4)) (2 + tk 4) (lv_recv c 4) [8, 10, 9, 11, 12, 14, 13, 15] (by decide)); iexact HL
    iexact Ha2
  iintro ⟨HO, Hz2, Hp2⟩
  iapply (wp_wait_send m c 6 ssem6 (Oks c [8, 10, 9, 11, 12, 14, 13, 15]) _ (K (sendCell c 6)) (credS6 c)) $$ [Hc3 HO Ha3]
  · isplitr; · iapply (invs_send m K c 6); iexact HI
    isplitl [Hc3]; · iexact Hc3
    isplitl [HO]; · iexact HO
    isplitr; · iapply (mayWait_Oks c (.dma (sS 6)) (2 + tk 6) (lv_send c 6) [8, 10, 9, 11, 12, 14, 13, 15] (by decide)); iexact HL
    iexact Ha3
  iintro ⟨HO, Hz3, Hp3⟩
  iapply (wp_wait_recv m c 6 rsem6 (Oks c [8, 10, 9, 11, 12, 14, 13, 15]) _ (K (recvCell c 6)) (credD6 c)) $$ [Hc4 HO Ha4]
  · isplitr; · iapply (invs_recv m K c 6); iexact HI
    isplitl [Hc4]; · iexact Hc4
    isplitl [HO]; · iexact HO
    isplitr; · iapply (mayWait_Oks c (.dma (rS 6)) (2 + tk 6) (lv_recv c 6) [8, 10, 9, 11, 12, 14, 13, 15] (by decide)); iexact HL
    iexact Ha4
  iintro ⟨HO, Hz4, Hp4⟩
  rw [wp_ret]; imodintro
  iapply Hk
  isplitl [Hz1]; · iexact Hz1
  isplitl [Hp1]; · iexact Hp1
  isplitl [Hz2]; · iexact Hz2
  isplitl [Hp2]; · iexact Hp2
  isplitl [Hz3]; · iexact Hz3
  isplitl [Hp3]; · iexact Hp3
  isplitl [Hz4]; · iexact Hz4
  isplitl [Hp4]; · iexact Hp4
  iexists _; iexact HO

theorem part11 (c : Dev nD) (K : GSem nD τ sig → ℕ) (v4 v32 v59 v62 : BitVec 32) (W : Waits sig Unit)
    (Kt : (Σ' (v343 : FVec F S256x512 .f32), FVec F S256x512 .f32) → sProp 𝕄) :
    iprop(invs m K c ∗ levAts L lv
        ∗ reached ER (sendCell c 8) 0 ∗ reached ER (recvCell (pk 8 c) 8) 0
        ∗ (((c : Thread nD τ).loc cc0_stg0_0) ↦{fullShare} X m c)
        ∗ recvPay m c 0 ∗ recvPay m c 4
        ∗ regE (F := F) (E15 c) c
        ∗ regE (F := F) (E15 c) (pk 8 c)
        ∗ dutyTok ER (sendCell c 8) 0 false ∗ dutyTok ER (recvCell (pk 8 c) 8) 0 false
        ∗ recvPay m c 2
        ∗ owes (c : Thread nD τ) (Oks c [8, 10, 9, 11, 12, 14, 13, 15]) W
        ∗ (((((c : Thread nD τ).loc cc0_stg0_0) ↦{fullShare} X m c) ∗ recvPay m c 0 ∗ recvPay m c 4
            ∗ cred (tallyAt (sendCell c 8) () (Nk 8)) ∗ recvPay m c 2
            ∗ (∃ W', owes (c : Thread nD τ) (Oks c [10, 9, 11, 12, 14, 13, 15]) W')) -∗ Kt ⟨k0_pay10 (xl m c (k0_off16 c) S256x512.size (k0_off16_inb c)),
              k0_pay11 (r1b.view.readAt (Elt F) (Rect.unit (s := S512x1024) (k0_off17 c) S256x512.size (k0_off17_inb c)).toLoadRect (R1B0 m c))⟩))
      ⊢ wp frame (wpE (defs₀ (F := F)) 𝒱₀ (c : Thread nD τ) none) Set.univ
          (k0_part11 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v4 v32 v59 v62) Kt := by
  simp only [k0_part11_eq_skeleton]; unfold k0_part11_skel
  simp only [Prog.lift, Prog.bind_op, Prog.bind_ret, Prog.pure_eq_ret]
  iintro ⟨#HI, #HL, #Hr8s, #Hr8r, Hx, Hp0, Hp4, ⟨%f1, He⟩, Hep, Ht8s, Ht8r, Hp2, HO, Hk⟩
  iapply (wp_load 𝒱₀ (c : Thread nD τ) none Set.univ (m := xM) (Finset.subset_univ _)) $$ Hx; iintro Hx
  ihave Hp0 := (Entails.of_eq (recvPay0 m c)) $$ Hp0
  iapply (wp_load 𝒱₀ (c : Thread nD τ) none Set.univ (m := r1a) (Geom.ld_off14 c)) $$ Hp0; iintro Hp0
  ihave Hp4 := (Entails.of_eq (recvPay4 m c)) $$ Hp4
  iapply (wp_load 𝒱₀ (c : Thread nD τ) none Set.univ (m := r2a) (Geom.ld2 r2a G0 (fun _ => rfl))) $$ Hp4; iintro Hp4
  iapply (wp_load 𝒱₀ (c : Thread nD τ) none Set.univ (m := oM) (ldo' (Geom.off13_eq_off15 c) (k0_off13_inb c) (k0_off15_inb c))) $$ He; iintro He
  iapply (wp_store 𝒱₀ (c : Thread nD τ) none Set.univ (m := oM) (r := Rect.unit (s := S2048x1024) (k0_off13 c) S256x512.size (k0_off13_inb c)) (Mk := Finset.univ) (sto' (Geom.off13_eq_off15 c) (k0_off13_inb c) (k0_off15_inb c))) $$ He; iintro He
  ihave He' := (reg_store' (Geom.off13_eq_off15 c) (k0_off13_inb c) (k0_off15_inb c) c f1 _) $$ He
  iapply (wp_xfer m c _ 8 (dev11_eq c) ssem8 rsem8 (V8 m c) (Oks c [10, 9, 11, 12, 14, 13, 15]) W (K (sendCell c 8)) (K (recvCell (pk 8 c) 8)) (credD8 c) (Entails.refl _)
      (by show reg (E15 c) (p2 c) _ ⊢ reg (E15 (p2 (p2 c))) (p2 c) ((E15 (p2 (p2 c))).view.rep (Val := Elt F) (V8 m (p2 (p2 c)))); rw [p2_p2])) $$ [He' Hep HO Ht8s Ht8r]
  · isplitr; · iapply (invs_send m K c 8); iexact HI
    isplitr; · iapply (invs_peer m K c 8); iexact HI
    isplitl [He']; · iexact He'
    isplitl [Hep]; · iexact Hep
    isplitl [HO]; · iexact HO
    isplitl [Ht8s]; · iexact Ht8s
    isplitr; · iexact Hr8s
    isplitl [Ht8r]; · iexact Ht8r
    iexact Hr8r
  iintro ⟨Hc8, HO⟩
  iapply (wp_load 𝒱₀ (c : Thread nD τ) none Set.univ (m := xM) (Finset.subset_univ _)) $$ Hx; iintro Hx
  ihave Hp2 := (Entails.of_eq (recvPay2 m c)) $$ Hp2
  iapply (wp_load 𝒱₀ (c : Thread nD τ) none Set.univ (m := r1b) (Geom.ld_off17 c)) $$ Hp2; iintro Hp2
  ihave Hp0 := (Entails.of_eq (recvPay0 m c).symm) $$ Hp0
  ihave Hp4 := (Entails.of_eq (recvPay4 m c).symm) $$ Hp4
  ihave Hp2 := (Entails.of_eq (recvPay2 m c).symm) $$ Hp2
  rw [wp_ret]; imodintro
  iapply Hk
  isplitl [Hx]; · iexact Hx
  isplitl [Hp0]; · iexact Hp0
  isplitl [Hp4]; · iexact Hp4
  isplitl [Hc8]; · iexact Hc8
  isplitl [Hp2]; · iexact Hp2
  iexists _; iexact HO

theorem part12 (c : Dev nD) (K : GSem nD τ sig → ℕ) (v3 v4 v66 : BitVec 32) (W : Waits sig Unit) (Kt : PUnit → sProp 𝕄) :
    iprop(invs m K c ∗ levAts L lv
        ∗ reached ER (sendCell c 10) 0 ∗ reached ER (recvCell (pk 10 c) 10) 0
        ∗ recvPay m c 6
        ∗ regE (F := F) (E18 c) c
        ∗ regE (F := F) (E18 c) (pk 10 c)
        ∗ dutyTok ER (sendCell c 10) 0 false ∗ dutyTok ER (recvCell (pk 10 c) 10) 0 false
        ∗ cred (tallyAt (sendCell c 5) () (Nk 5)) ∗ atPos ER (sendCell c 5) 0 ∅ 0
        ∗ owes (c : Thread nD τ) (Oks c [10, 9, 11, 12, 14, 13, 15]) W
        ∗ ((recvPay m c 6 ∗ cred (tallyAt (sendCell c 10) () (Nk 10))
            ∗ semVal (sendCell c 5) 0 ∗ sendPay m c 5
            ∗ (∃ W', owes (c : Thread nD τ) (Oks c [9, 11, 12, 14, 13, 15]) W')) -∗ Kt ⟨⟩))
      ⊢ wp frame (wpE (defs₀ (F := F)) 𝒱₀ (c : Thread nD τ) none) Set.univ
          (k0_part12 (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4 v66
            (k0_pay10 (xl m c (k0_off16 c) S256x512.size (k0_off16_inb c)))
            (k0_pay11 (r1b.view.readAt (Elt F) (Rect.unit (s := S512x1024) (k0_off17 c) S256x512.size (k0_off17_inb c)).toLoadRect (R1B0 m c)))) Kt := by
  simp only [k0_part12_eq_skeleton]; unfold k0_part12_skel
  simp only [Prog.lift, Prog.bind_op, Prog.bind_ret, Prog.pure_eq_ret]
  iintro ⟨#HI, #HL, #Hr10s, #Hr10r, Hp6, ⟨%f1, He⟩, Hep, Ht10s, Ht10r, Hc5, Ha5, HO, Hk⟩
  ihave Hp6 := (Entails.of_eq (recvPay6 m c)) $$ Hp6
  iapply (wp_load 𝒱₀ (c : Thread nD τ) none Set.univ (m := r2b) (Geom.ld2 r2b G0 (fun _ => rfl))) $$ Hp6; iintro Hp6
  iapply (wp_load 𝒱₀ (c : Thread nD τ) none Set.univ (m := oM) (ldo' (Geom.off16_eq_off18 c) (k0_off16_inb c) (k0_off18_inb c))) $$ He; iintro He
  iapply (wp_store 𝒱₀ (c : Thread nD τ) none Set.univ (m := oM) (r := Rect.unit (s := S2048x1024) (k0_off16 c) S256x512.size (k0_off16_inb c)) (Mk := Finset.univ) (sto' (Geom.off16_eq_off18 c) (k0_off16_inb c) (k0_off18_inb c))) $$ He; iintro He
  ihave He' := (reg_store' (Geom.off16_eq_off18 c) (k0_off16_inb c) (k0_off18_inb c) c f1 _) $$ He
  iapply (wp_xfer m c _ 10 (dev12_eq c) ssem10 rsem10 (V10 m c) (Oks c [9, 11, 12, 14, 13, 15]) W (K (sendCell c 10)) (K (recvCell (pk 10 c) 10)) (credD10 c) (Entails.refl _)
      (by show reg (E18 c) (p1 c) _ ⊢ reg (E18 (p1 (p1 c))) (p1 c) ((E18 (p1 (p1 c))).view.rep (Val := Elt F) (V10 m (p1 (p1 c)))); rw [p1_p1])) $$ [He' Hep HO Ht10s Ht10r]
  · isplitr; · iapply (invs_send m K c 10); iexact HI
    isplitr; · iapply (invs_peer m K c 10); iexact HI
    isplitl [He']; · iexact He'
    isplitl [Hep]; · iexact Hep
    isplitl [HO]; · iexact HO
    isplitl [Ht10s]; · iexact Ht10s
    isplitr; · iexact Hr10s
    isplitl [Ht10r]; · iexact Ht10r
    iexact Hr10r
  iintro ⟨Hc10, HO⟩
  iapply (wp_wait_send m c 5 ssem5 (Oks c [9, 11, 12, 14, 13, 15]) W (K (sendCell c 5)) (credS5 c)) $$ [Hc5 HO Ha5]
  · isplitr; · iapply (invs_send m K c 5); iexact HI
    isplitl [Hc5]; · iexact Hc5
    isplitl [HO]; · iexact HO
    isplitr; · iapply (mayWait_Oks c (.dma (sS 5)) (2 + tk 5) (lv_send c 5) [9, 11, 12, 14, 13, 15] (by decide)); iexact HL
    iexact Ha5
  iintro ⟨HO, Hz5, Hq5⟩
  ihave Hp6 := (Entails.of_eq (recvPay6 m c).symm) $$ Hp6
  rw [wp_ret]; imodintro
  iapply Hk
  isplitl [Hp6]; · iexact Hp6
  isplitl [Hc10]; · iexact Hc10
  isplitl [Hz5]; · iexact Hz5
  isplitl [Hq5]; · iexact Hq5
  iexists _; iexact HO

/-- info: 'Cert.KernelIdeal.PartsC.part8' depends on axioms: [propext, Classical.choice, Quot.sound] -/
#guard_msgs in #print axioms part8

/-- info: 'Cert.KernelIdeal.PartsC.part9' depends on axioms: [propext, Classical.choice, Quot.sound] -/
#guard_msgs in #print axioms part9

/-- info: 'Cert.KernelIdeal.PartsC.part10' depends on axioms: [propext, Classical.choice, Quot.sound] -/
#guard_msgs in #print axioms part10

/-- info: 'Cert.KernelIdeal.PartsC.part11' depends on axioms: [propext, Classical.choice, Quot.sound] -/
#guard_msgs in #print axioms part11

/-- info: 'Cert.KernelIdeal.PartsC.part12' depends on axioms: [propext, Classical.choice, Quot.sound] -/
#guard_msgs in #print axioms part12

end Cert.KernelIdeal.PartsC

end
-- ==== Proof.PartsD.lean ====
/-
  The last steps of the exchange on one device, part by part of the printed body.

  The second column half of the final sums: the device waits for what the second exchange brought, sums its own rows
  with the two received blocks, applies the function, and stores each eighth it owns into the result buffer. The first
  spread sends each eighth to the partner that owns the other eighth of the same quarter; once both eighths of a
  quarter stand side by side in the result buffer, the two regions are joined into the quarter's region, which the
  second spread sends to the other partner. Every wait closes its cell and hands back the region the copy moved.
  Each lemma takes the resources its part consumes in the order of first use and hands on what it produces.
-/
import proofs.«900521_g7700000000000522_dist_f_of_ar_i_m2048_n1024_v7x_i4_bf16_1_alg».proof.Proof.BodyLib

noncomputable section

namespace Cert.KernelIdeal.PartsD

open Cert.KernelIdeal Cert.KernelIdeal.Gen Cert.KernelIdeal.Mesh Cert.KernelIdeal.Spec Cert.KernelIdeal.Sched Cert.KernelIdeal.Rules Cert.KernelIdeal.Proto Cert.KernelIdeal.BodyLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Regions under two names -/

/-- A region at the representative of a block, read through an equal memref. -/
theorem reg_congr {s : Shape} {e : EltTy} {mr mr' : Memref sig .tc .vmem s e} (h : mr = mr') (c : Dev nD) (V : s.Idx → Elt F e) :
    (reg mr c (mr.view.rep (Val := Elt F) V) : sProp 𝕄) ⊢ reg mr' c (mr'.view.rep (Val := Elt F) V) := by
  subst h; exact .rfl
theorem regE_congr {s : Shape} {e : EltTy} {mr mr' : Memref sig .tc .vmem s e} (h : mr = mr') (c : Dev nD) :
    (regE (F := F) mr c : sProp 𝕄) ⊢ regE (F := F) mr' c := by
  subst h; exact .rfl

/-- The row block device c stores its eighth of the second column half through, at the store's own offsets. -/
abbrev E19 (c : Dev nD) := oM.slice (Rect.unit (s := S2048x1024) (k0_off19 c) S256x512.size (k0_off19_inb c)) (fun _ => rfl)
abbrev E22 (c : Dev nD) := oM.slice (Rect.unit (s := S2048x1024) (k0_off22 c) S256x512.size (k0_off22_inb c)) (fun _ => rfl)
/-- It is the row block the copy then reads: the two offset chains have one value. -/
theorem E19_eq (c : Dev nD) : E19 c = E21 c := Memref.slice_unit_congr oM (Geom.off19_eq_off21 c) _ _ _ _
theorem E22_eq (c : Dev nD) : E22 c = E24 c := Memref.slice_unit_congr oM (Geom.off22_eq_off24 c) _ _ _ _

/-! ## What the waits hand back, spelt as regions -/

theorem recvPay1_eq (c : Dev nD) : recvPay m c 1 = reg (sl5 r1a H1 (fun _ => rfl)) c (R1A1 m c) := rfl
theorem recvPay3_eq (c : Dev nD) : recvPay m c 3 = reg (sl5 r1b H1 (fun _ => rfl)) c (R1B1 m c) := rfl
theorem recvPay5_eq (c : Dev nD) : recvPay m c 5 = reg (sl2 r2a G1 (fun _ => rfl)) c (R2A1 m c) := rfl
theorem recvPay7_eq (c : Dev nD) : recvPay m c 7 = reg (sl2 r2b G1 (fun _ => rfl)) c (R2B1 m c) := rfl

/-! ## A quarter's region from its two eighths -/

set_option maxRecDepth 65536 in
set_option maxHeartbeats 1600000 in
theorem joinQ25 (c : Dev nD) :
    iprop(sendPay m c 8 ∗ recvPay m c 8) ⊢ (reg (Q25 c) c ((Q25 c).view.rep (Val := Elt F) (V12 m c)) : sProp 𝕄) := by
  show iprop(reg (E15 c) c ((E15 c).view.rep (Val := Elt F) (V8 m c)) ∗ reg (E15 (p2 c)) c ((E15 (p2 c)).view.rep (Val := Elt F) (V8 m (p2 c)))) ⊢ _
  refine (pointsTo_join (Ix := Unit) (Name := ℕ) (U := UU) (Lvl := ℕ) (ℓ := oM.view.loc (c : Thread nD τ)) (q := fullShare)
    (f := (E15 c).view.rep (Val := Elt F) (V8 m c)) (g := (E15 (p2 c)).view.rep (Val := Elt F) (V8 m (p2 c))) (Geom.E15_disj c)).trans (Entails.of_eq ?_)
  rw [← Geom.Q25_eq c]
  exact Idealize.ShloMosaic.pointsTo_rep (Ix := Unit) (Name := ℕ) (U := UU) (Lvl := ℕ) (c : Thread nD τ) (Q25 c) _ fullShare
set_option maxRecDepth 65536 in
set_option maxHeartbeats 1600000 in
theorem joinQ27 (c : Dev nD) :
    iprop(sendPay m c 9 ∗ recvPay m c 9) ⊢ (reg (Q27 c) c ((Q27 c).view.rep (Val := Elt F) (V13 m c)) : sProp 𝕄) := by
  show iprop(reg (E21 c) c ((E21 c).view.rep (Val := Elt F) (V9 m c)) ∗ reg (E21 (p2 c)) c ((E21 (p2 c)).view.rep (Val := Elt F) (V9 m (p2 c)))) ⊢ _
  refine (pointsTo_join (Ix := Unit) (Name := ℕ) (U := UU) (Lvl := ℕ) (ℓ := oM.view.loc (c : Thread nD τ)) (q := fullShare)
    (f := (E21 c).view.rep (Val := Elt F) (V9 m c)) (g := (E21 (p2 c)).view.rep (Val := Elt F) (V9 m (p2 c))) (Geom.E21_disj c)).trans (Entails.of_eq ?_)
  rw [← Geom.Q27_eq c]
  exact Idealize.ShloMosaic.pointsTo_rep (Ix := Unit) (Name := ℕ) (U := UU) (Lvl := ℕ) (c : Thread nD τ) (Q27 c) _ fullShare
set_option maxRecDepth 65536 in
set_option maxHeartbeats 1600000 in
theorem joinQ26 (c : Dev nD) :
    iprop(sendPay m c 10 ∗ recvPay m c 10) ⊢ (reg (Q26 c) c ((Q26 c).view.rep (Val := Elt F) (V14 m c)) : sProp 𝕄) := by
  show iprop(reg (E18 c) c ((E18 c).view.rep (Val := Elt F) (V10 m c)) ∗ reg (E18 (p1 c)) c ((E18 (p1 c)).view.rep (Val := Elt F) (V10 m (p1 c)))) ⊢ _
  refine (pointsTo_join (Ix := Unit) (Name := ℕ) (U := UU) (Lvl := ℕ) (ℓ := oM.view.loc (c : Thread nD τ)) (q := fullShare)
    (f := (E18 c).view.rep (Val := Elt F) (V10 m c)) (g := (E18 (p1 c)).view.rep (Val := Elt F) (V10 m (p1 c))) (Geom.E18_disj c)).trans (Entails.of_eq ?_)
  rw [← Geom.Q26_eq c]
  exact Idealize.ShloMosaic.pointsTo_rep (Ix := Unit) (Name := ℕ) (U := UU) (Lvl := ℕ) (c : Thread nD τ) (Q26 c) _ fullShare
set_option maxRecDepth 65536 in
set_option maxHeartbeats 1600000 in
theorem joinQ28 (c : Dev nD) :
    iprop(sendPay m c 11 ∗ recvPay m c 11) ⊢ (reg (Q28 c) c ((Q28 c).view.rep (Val := Elt F) (V15 m c)) : sProp 𝕄) := by
  show iprop(reg (E24 c) c ((E24 c).view.rep (Val := Elt F) (V11 m c)) ∗ reg (E24 (p1 c)) c ((E24 (p1 c)).view.rep (Val := Elt F) (V11 m (p1 c)))) ⊢ _
  refine (pointsTo_join (Ix := Unit) (Name := ℕ) (U := UU) (Lvl := ℕ) (ℓ := oM.view.loc (c : Thread nD τ)) (q := fullShare)
    (f := (E24 c).view.rep (Val := Elt F) (V11 m c)) (g := (E24 (p1 c)).view.rep (Val := Elt F) (V11 m (p1 c))) (Geom.E24_disj c)).trans (Entails.of_eq ?_)
  rw [← Geom.Q28_eq c]
  exact Idealize.ShloMosaic.pointsTo_rep (Ix := Unit) (Name := ℕ) (U := UU) (Lvl := ℕ) (c : Thread nD τ) (Q28 c) _ fullShare

/-! ## Part 13: the waits of the second exchange's second column half, and the A half's sum -/

theorem part13 (c : Dev nD) (K : GSem nD τ sig → ℕ) (v3 v32 v59 : BitVec 32) (W : Waits sig Unit)
    (Kt : FVec F S256x512 .bf16 → sProp 𝕄) :
    iprop(invs m K c ∗ levAts L lv
        ∗ cred (tallyAt (recvCell c 5) () (Nk 5)) ∗ atPos ER (recvCell c 5) 0 ∅ 0
        ∗ cred (tallyAt (sendCell c 7) () (Nk 7)) ∗ atPos ER (sendCell c 7) 0 ∅ 0
        ∗ cred (tallyAt (recvCell c 7) () (Nk 7)) ∗ atPos ER (recvCell c 7) 0 ∅ 0
        ∗ (((c : Thread nD τ).loc cc0_stg0_0) ↦{fullShare} X m c) ∗ recvPay m c 1
        ∗ owes (c : Thread nD τ) (Oks c [9, 11, 12, 14, 13, 15]) W
        ∗ ((semVal (recvCell c 5) 0 ∗ recvPay m c 5 ∗ semVal (sendCell c 7) 0 ∗ sendPay m c 7 ∗ semVal (recvCell c 7) 0 ∗ recvPay m c 7
            ∗ (((c : Thread nD τ).loc cc0_stg0_0) ↦{fullShare} X m c) ∗ recvPay m c 1
            ∗ ∃ W', owes (c : Thread nD τ) (Oks c [9, 11, 12, 14, 13, 15]) W') -∗ Kt (V9 m c)))
      ⊢ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v32 v59) Kt := by
  simp only [k0_part13_eq_skeleton]; unfold k0_part13_skel
  simp only [Prog.lift, Prog.bind_op, Prog.bind_ret, Prog.pure_eq_ret]
  unfold V9
  iintro ⟨#HI, #HL, Hcr5, Har5, Hcs7, Has7, Hcr7, Har7, Hx, Hr1a, HO, Hk⟩
  iapply (wp_wait_recv m c 5 rsem5 (Oks c [9, 11, 12, 14, 13, 15]) _ (K (recvCell c 5)) (credD5 c)) $$ [Hcr5 HO Har5]
  · isplitr; · iapply (invs_recv m K c 5); iexact HI
    isplitl [Hcr5]; · iexact Hcr5
    isplitl [HO]; · iexact HO
    isplitr; · iapply (mayWait_Oks c (.dma (rS 5)) (2 + tk 5) (lv_recv c 5) [9, 11, 12, 14, 13, 15] (by decide)); iexact HL
    iexact Har5
  iintro ⟨HO, Hzr5, Hpr5⟩
  iapply (wp_wait_send m c 7 ssem7 (Oks c [9, 11, 12, 14, 13, 15]) _ (K (sendCell c 7)) (credS7 c)) $$ [Hcs7 HO Has7]
  · isplitr; · iapply (invs_send m K c 7); iexact HI
    isplitl [Hcs7]; · iexact Hcs7
    isplitl [HO]; · iexact HO
    isplitr; · iapply (mayWait_Oks c (.dma (sS 7)) (2 + tk 7) (lv_send c 7) [9, 11, 12, 14, 13, 15] (by decide)); iexact HL
    iexact Has7
  iintro ⟨HO, Hzs7, Hps7⟩
  iapply (wp_wait_recv m c 7 rsem7 (Oks c [9, 11, 12, 14, 13, 15]) _ (K (recvCell c 7)) (credD7 c)) $$ [Hcr7 HO Har7]
  · isplitr; · iapply (invs_recv m K c 7); iexact HI
    isplitl [Hcr7]; · iexact Hcr7
    isplitl [HO]; · iexact HO
    isplitr; · iapply (mayWait_Oks c (.dma (rS 7)) (2 + tk 7) (lv_recv c 7) [9, 11, 12, 14, 13, 15] (by decide)); iexact HL
    iexact Har7
  iintro ⟨HO, Hzr7, Hpr7⟩
  iapply (wp_load 𝒱₀ (c : Thread nD τ) none Set.univ (m := xM) (Finset.subset_univ _)) $$ Hx; iintro Hx
  ihave Hr1a := (Entails.of_eq (recvPay1_eq m c)) $$ Hr1a
  iapply (wp_load 𝒱₀ (c : Thread nD τ) none Set.univ (m := r1a) (Geom.ld_off20 c)) $$ Hr1a; iintro Hr1a
  ihave Hpr5 := (Entails.of_eq (recvPay5_eq m c)) $$ Hpr5
  iapply (wp_load 𝒱₀ (c : Thread nD τ) none Set.univ (m := r2a) (Geom.ld2 r2a G1 (fun _ => rfl))) $$ Hpr5; iintro Hpr5
  ihave Hpr5 := (Entails.of_eq (recvPay5_eq m c).symm) $$ Hpr5
  ihave Hr1a := (Entails.of_eq (recvPay1_eq m c).symm) $$ Hr1a
  rw [wp_ret]; imodintro
  iapply Hk
  isplitl [Hzr5]; · iexact Hzr5
  isplitl [Hpr5]; · iexact Hpr5
  isplitl [Hzs7]; · iexact Hzs7
  isplitl [Hps7]; · iexact Hps7
  isplitl [Hzr7]; · iexact Hzr7
  isplitl [Hpr7]; · iexact Hpr7
  isplitl [Hx]; · iexact Hx
  isplitl [Hr1a]; · iexact Hr1a
  iexists _; iexact HO

/-! ## Part 14: the A half's eighth stored and sent; the B half's sum and store -/

set_option maxHeartbeats 1600000 in
theorem part14 (c : Dev nD) (K : GSem nD τ sig → ℕ) (v3 v4 v32 v59 v62 v66 : BitVec 32) (W : Waits sig Unit)
    (Kt : BitVec 32 → sProp 𝕄) :
    iprop(invs m K c ∗ levAts L lv ∗ reached ER (sendCell c 9) 0 ∗ reached ER (recvCell (pk 9 c) 9) 0
        ∗ regE (F := F) (E21 c) c ∗ regE (F := F) (E21 c) (pk 9 c)
        ∗ dutyTok ER (sendCell c 9) 0 false ∗ dutyTok ER (recvCell (pk 9 c) 9) 0 false
        ∗ (((c : Thread nD τ).loc cc0_stg0_0) ↦{fullShare} X m c) ∗ recvPay m c 3 ∗ recvPay m c 7 ∗ regE (F := F) (E24 c) c
        ∗ owes (c : Thread nD τ) (Oks c [9, 11, 12, 14, 13, 15]) W
        ∗ ((cred (tallyAt (sendCell c 9) () (Nk 9)) ∗ (((c : Thread nD τ).loc cc0_stg0_0) ↦{fullShare} X m c) ∗ recvPay m c 3 ∗ recvPay m c 7
            ∗ reg (E24 c) c ((E24 c).view.rep (Val := Elt F) (V11 m c))
            ∗ ∃ W', owes (c : Thread nD τ) (Oks c [11, 12, 14, 13, 15]) W') -∗ Kt (Scalar.muli v3 1#32)))
      ⊢ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4 v32 v59 v62 v66 (V9 m c)) Kt := by
  simp only [k0_part14_eq_skeleton]; unfold k0_part14_skel
  simp only [Prog.lift, Prog.bind_op, Prog.bind_ret, Prog.pure_eq_ret]
  unfold V11
  iintro ⟨#HI, #HL, #Hr9a, #Hr9b, He21, Hl9, Ht9a, Ht9b, Hx, Hr1b, Hr2b, He24, HO, Hk⟩
  ihave He21 := (regE_congr (E19_eq c).symm c) $$ He21
  icases He21 with ⟨%f1, Hsrc9⟩
  iapply (wp_load 𝒱₀ (c : Thread nD τ) none Set.univ (m := oM) (Geom.ldo _ (fun _ => rfl))) $$ Hsrc9; iintro Hsrc9
  iapply (wp_store 𝒱₀ (c : Thread nD τ) none Set.univ (m := oM) (r := Rect.unit (s := S2048x1024) (k0_off19 c) S256x512.size (k0_off19_inb c)) (Mk := Finset.univ) (Geom.sto _ (fun _ => rfl))) $$ Hsrc9; iintro Hsrc9
  ihave Hsrc9 := (reg_store (E19 c) c f1 _) $$ Hsrc9
  ihave Hsrc9 := (reg_congr (E19_eq c) c _) $$ Hsrc9
  iapply (wp_xfer m c _ 9 (dev13_eq c) ssem9 rsem9 (V9 m c) (Oks c [11, 12, 14, 13, 15]) _ (K (sendCell c 9)) (K (recvCell (pk 9 c) 9)) (credD9 c) (Entails.refl _)
      (by show reg (E21 c) (p2 c) _ ⊢ reg (E21 (p2 (p2 c))) (p2 c) ((E21 (p2 (p2 c))).view.rep (Val := Elt F) (V9 m (p2 (p2 c)))); rw [p2_p2])) $$ [Hsrc9 Hl9 HO Ht9a Ht9b]
  · isplitr; · iapply (invs_send m K c 9); iexact HI
    isplitr; · iapply (invs_peer m K c 9); iexact HI
    isplitl [Hsrc9]; · iexact Hsrc9
    isplitl [Hl9]; · iexact Hl9
    isplitl [HO]; · iexact HO
    isplitl [Ht9a]; · iexact Ht9a
    isplitr; · iexact Hr9a
    isplitl [Ht9b]; · iexact Ht9b
    iexact Hr9b
  iintro ⟨Hcs9, HO⟩
  iapply (wp_load 𝒱₀ (c : Thread nD τ) none Set.univ (m := xM) (Finset.subset_univ _)) $$ Hx; iintro Hx
  ihave Hr1b := (Entails.of_eq (recvPay3_eq m c)) $$ Hr1b
  iapply (wp_load 𝒱₀ (c : Thread nD τ) none Set.univ (m := r1b) (Geom.ld_off23 c)) $$ Hr1b; iintro Hr1b
  ihave Hr2b := (Entails.of_eq (recvPay7_eq m c)) $$ Hr2b
  iapply (wp_load 𝒱₀ (c : Thread nD τ) none Set.univ (m := r2b) (Geom.ld2 r2b G1 (fun _ => rfl))) $$ Hr2b; iintro Hr2b
  ihave He24 := (regE_congr (E22_eq c).symm c) $$ He24
  icases He24 with ⟨%f2, He24⟩
  iapply (wp_load 𝒱₀ (c : Thread nD τ) none Set.univ (m := oM) (Geom.ldo _ (fun _ => rfl))) $$ He24; iintro He24
  iapply (wp_store 𝒱₀ (c : Thread nD τ) none Set.univ (m := oM) (r := Rect.unit (s := S2048x1024) (k0_off22 c) S256x512.size (k0_off22_inb c)) (Mk := Finset.univ) (Geom.sto _ (fun _ => rfl))) $$ He24; iintro He24
  ihave He24 := (reg_store (E22 c) c f2 _) $$ He24
  ihave He24 := (reg_congr (E22_eq c) c _) $$ He24
  ihave Hr1b := (Entails.of_eq (recvPay3_eq m c).symm) $$ Hr1b
  ihave Hr2b := (Entails.of_eq (recvPay7_eq m c).symm) $$ Hr2b
  rw [wp_ret]; imodintro
  iapply Hk
  isplitl [Hcs9]; · iexact Hcs9
  isplitl [Hx]; · iexact Hx
  isplitl [Hr1b]; · iexact Hr1b
  isplitl [Hr2b]; · iexact Hr2b
  isplitl [He24]; · iexact He24
  iexists _; iexact HO

/-! ## Part 15: the B half's eighth sent; the first spread's waits of the first column half -/

theorem part15 (c : Dev nD) (K : GSem nD τ sig → ℕ) (v3 v4 v32 v450 : BitVec 32) (W : Waits sig Unit)
    (Kt : BitVec 32 → sProp 𝕄) :
    iprop(invs m K c ∗ levAts L lv ∗ reached ER (sendCell c 11) 0 ∗ reached ER (recvCell (pk 11 c) 11) 0
        ∗ reg (E24 c) c ((E24 c).view.rep (Val := Elt F) (V11 m c)) ∗ regE (F := F) (E24 c) (pk 11 c)
        ∗ dutyTok ER (sendCell c 11) 0 false ∗ dutyTok ER (recvCell (pk 11 c) 11) 0 false
        ∗ cred (tallyAt (sendCell c 8) () (Nk 8)) ∗ atPos ER (sendCell c 8) 0 ∅ 0
        ∗ cred (tallyAt (recvCell c 8) () (Nk 8)) ∗ atPos ER (recvCell c 8) 0 ∅ 0
        ∗ cred (tallyAt (sendCell c 10) () (Nk 10)) ∗ atPos ER (sendCell c 10) 0 ∅ 0
        ∗ cred (tallyAt (recvCell c 10) () (Nk 10)) ∗ atPos ER (recvCell c 10) 0 ∅ 0
        ∗ owes (c : Thread nD τ) (Oks c [11, 12, 14, 13, 15]) W
        ∗ ((cred (tallyAt (sendCell c 11) () (Nk 11))
            ∗ semVal (sendCell c 8) 0 ∗ sendPay m c 8 ∗ semVal (recvCell c 8) 0 ∗ recvPay m c 8
            ∗ semVal (sendCell c 10) 0 ∗ sendPay m c 10 ∗ semVal (recvCell c 10) 0 ∗ recvPay m c 10
            ∗ ∃ W', owes (c : Thread nD τ) (Oks c [12, 14, 13, 15]) W') -∗ Kt 512#32))
      ⊢ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4 v32 v450) Kt := by
  simp only [k0_part15_eq_skeleton]; unfold k0_part15_skel
  simp only [Prog.lift, Prog.bind_op, Prog.bind_ret, Prog.pure_eq_ret]
  iintro ⟨#HI, #HL, #Hr11a, #Hr11b, Hsrc11, Hl11, Ht11a, Ht11b, Hcs8, Has8, Hcr8, Har8, Hcs10, Has10, Hcr10, Har10, HO, Hk⟩
  iapply (wp_xfer m c _ 11 (dev14_eq c) ssem11 rsem11 (V11 m c) (Oks c [12, 14, 13, 15]) _ (K (sendCell c 11)) (K (recvCell (pk 11 c) 11)) (credD11 c) (Entails.refl _)
      (by show reg (E24 c) (p1 c) _ ⊢ reg (E24 (p1 (p1 c))) (p1 c) ((E24 (p1 (p1 c))).view.rep (Val := Elt F) (V11 m (p1 (p1 c)))); rw [p1_p1])) $$ [Hsrc11 Hl11 HO Ht11a Ht11b]
  · isplitr; · iapply (invs_send m K c 11); iexact HI
    isplitr; · iapply (invs_peer m K c 11); iexact HI
    isplitl [Hsrc11]; · iexact Hsrc11
    isplitl [Hl11]; · iexact Hl11
    isplitl [HO]; · iexact HO
    isplitl [Ht11a]; · iexact Ht11a
    isplitr; · iexact Hr11a
    isplitl [Ht11b]; · iexact Ht11b
    iexact Hr11b
  iintro ⟨Hcs11, HO⟩
  iapply (wp_wait_send m c 8 ssem8 (Oks c [12, 14, 13, 15]) _ (K (sendCell c 8)) (credS8 c)) $$ [Hcs8 HO Has8]
  · isplitr; · iapply (invs_send m K c 8); iexact HI
    isplitl [Hcs8]; · iexact Hcs8
    isplitl [HO]; · iexact HO
    isplitr; · iapply (mayWait_Oks c (.dma (sS 8)) (2 + tk 8) (lv_send c 8) [12, 14, 13, 15] (by decide)); iexact HL
    iexact Has8
  iintro ⟨HO, Hzs8, Hps8⟩
  iapply (wp_wait_recv m c 8 rsem8 (Oks c [12, 14, 13, 15]) _ (K (recvCell c 8)) (credD8 c)) $$ [Hcr8 HO Har8]
  · isplitr; · iapply (invs_recv m K c 8); iexact HI
    isplitl [Hcr8]; · iexact Hcr8
    isplitl [HO]; · iexact HO
    isplitr; · iapply (mayWait_Oks c (.dma (rS 8)) (2 + tk 8) (lv_recv c 8) [12, 14, 13, 15] (by decide)); iexact HL
    iexact Har8
  iintro ⟨HO, Hzr8, Hpr8⟩
  iapply (wp_wait_send m c 10 ssem10 (Oks c [12, 14, 13, 15]) _ (K (sendCell c 10)) (credS10 c)) $$ [Hcs10 HO Has10]
  · isplitr; · iapply (invs_send m K c 10); iexact HI
    isplitl [Hcs10]; · iexact Hcs10
    isplitl [HO]; · iexact HO
    isplitr; · iapply (mayWait_Oks c (.dma (sS 10)) (2 + tk 10) (lv_send c 10) [12, 14, 13, 15] (by decide)); iexact HL
    iexact Has10
  iintro ⟨HO, Hzs10, Hps10⟩
  iapply (wp_wait_recv m c 10 rsem10 (Oks c [12, 14, 13, 15]) _ (K (recvCell c 10)) (credD10 c)) $$ [Hcr10 HO Har10]
  · isplitr; · iapply (invs_recv m K c 10); iexact HI
    isplitl [Hcr10]; · iexact Hcr10
    isplitl [HO]; · iexact HO
    isplitr; · iapply (mayWait_Oks c (.dma (rS 10)) (2 + tk 10) (lv_recv c 10) [12, 14, 13, 15] (by decide)); iexact HL
    iexact Har10
  iintro ⟨HO, Hzr10, Hpr10⟩
  rw [wp_ret]; imodintro
  iapply Hk
  isplitl [Hcs11]; · iexact Hcs11
  isplitl [Hzs8]; · iexact Hzs8
  isplitl [Hps8]; · iexact Hps8
  isplitl [Hzr8]; · iexact Hzr8
  isplitl [Hpr8]; · iexact Hpr8
  isplitl [Hzs10]; · iexact Hzs10
  isplitl [Hps10]; · iexact Hps10
  isplitl [Hzr10]; · iexact Hzr10
  isplitl [Hpr10]; · iexact Hpr10
  iexists _; iexact HO

/-! ## Part 16: the first column half's two quarters joined and sent; the wait for the A half's eighth to leave -/

theorem part16 (c : Dev nD) (K : GSem nD τ sig → ℕ) (v3 v4 v32 v59 c512 : BitVec 32) (W : Waits sig Unit)
    (Kt : PUnit → sProp 𝕄) :
    iprop(invs m K c ∗ levAts L lv ∗ reached ER (sendCell c 12) 0 ∗ reached ER (recvCell (pk 12 c) 12) 0
        ∗ reached ER (sendCell c 14) 0 ∗ reached ER (recvCell (pk 14 c) 14) 0
        ∗ sendPay m c 8 ∗ recvPay m c 8 ∗ regE (F := F) (Q25 c) (pk 12 c)
        ∗ dutyTok ER (sendCell c 12) 0 false ∗ dutyTok ER (recvCell (pk 12 c) 12) 0 false
        ∗ sendPay m c 10 ∗ recvPay m c 10 ∗ regE (F := F) (Q26 c) (pk 14 c)
        ∗ dutyTok ER (sendCell c 14) 0 false ∗ dutyTok ER (recvCell (pk 14 c) 14) 0 false
        ∗ cred (tallyAt (sendCell c 9) () (Nk 9)) ∗ atPos ER (sendCell c 9) 0 ∅ 0
        ∗ owes (c : Thread nD τ) (Oks c [12, 14, 13, 15]) W
        ∗ ((cred (tallyAt (sendCell c 12) () (Nk 12)) ∗ cred (tallyAt (sendCell c 14) () (Nk 14))
            ∗ semVal (sendCell c 9) 0 ∗ sendPay m c 9
            ∗ ∃ W', owes (c : Thread nD τ) (Oks c [13, 15]) W') -∗ Kt ⟨⟩))
      ⊢ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4 v32 v59 c512) Kt := by
  simp only [k0_part16_eq_skeleton]; unfold k0_part16_skel
  simp only [Prog.lift, Prog.bind_op, Prog.bind_ret, Prog.pure_eq_ret]
  iintro ⟨#HI, #HL, #Hr12a, #Hr12b, #Hr14a, #Hr14b, Hs8, Hv8, Hl12, Ht12a, Ht12b, Hs10, Hv10, Hl14, Ht14a, Ht14b, Hcs9, Has9, HO, Hk⟩
  ihave Hsrc12 := (joinQ25 m c) $$ [Hs8 Hv8]
  · isplitl [Hs8]; · iexact Hs8
    iexact Hv8
  iapply (wp_xfer m c _ 12 (dev15_eq c) ssem12 rsem12 (V12 m c) (Oks c [14, 13, 15]) _ (K (sendCell c 12)) (K (recvCell (pk 12 c) 12)) (credD12 c) (Entails.refl _)
      (by show reg (Q25 c) (p1 c) _ ⊢ reg (Q25 (p1 (p1 c))) (p1 c) ((Q25 (p1 (p1 c))).view.rep (Val := Elt F) (V12 m (p1 (p1 c)))); rw [p1_p1])) $$ [Hsrc12 Hl12 HO Ht12a Ht12b]
  · isplitr; · iapply (invs_send m K c 12); iexact HI
    isplitr; · iapply (invs_peer m K c 12); iexact HI
    isplitl [Hsrc12]; · iexact Hsrc12
    isplitl [Hl12]; · iexact Hl12
    isplitl [HO]; · iexact HO
    isplitl [Ht12a]; · iexact Ht12a
    isplitr; · iexact Hr12a
    isplitl [Ht12b]; · iexact Ht12b
    iexact Hr12b
  iintro ⟨Hcs12, HO⟩
  ihave Hsrc14 := (joinQ26 m c) $$ [Hs10 Hv10]
  · isplitl [Hs10]; · iexact Hs10
    iexact Hv10
  iapply (wp_xfer m c _ 14 (dev16_eq c) ssem14 rsem14 (V14 m c) (Oks c [13, 15]) _ (K (sendCell c 14)) (K (recvCell (pk 14 c) 14)) (credD14 c) (Entails.refl _)
      (by show reg (Q26 c) (p2 c) _ ⊢ reg (Q26 (p2 (p2 c))) (p2 c) ((Q26 (p2 (p2 c))).view.rep (Val := Elt F) (V14 m (p2 (p2 c)))); rw [p2_p2])) $$ [Hsrc14 Hl14 HO Ht14a Ht14b]
  · isplitr; · iapply (invs_send m K c 14); iexact HI
    isplitr; · iapply (invs_peer m K c 14); iexact HI
    isplitl [Hsrc14]; · iexact Hsrc14
    isplitl [Hl14]; · iexact Hl14
    isplitl [HO]; · iexact HO
    isplitl [Ht14a]; · iexact Ht14a
    isplitr; · iexact Hr14a
    isplitl [Ht14b]; · iexact Ht14b
    iexact Hr14b
  iintro ⟨Hcs14, HO⟩
  iapply (wp_wait_send m c 9 ssem9 (Oks c [13, 15]) _ (K (sendCell c 9)) (credS9 c)) $$ [Hcs9 HO Has9]
  · isplitr; · iapply (invs_send m K c 9); iexact HI
    isplitl [Hcs9]; · iexact Hcs9
    isplitl [HO]; · iexact HO
    isplitr; · iapply (mayWait_Oks c (.dma (sS 9)) (2 + tk 9) (lv_send c 9) [13, 15] (by decide)); iexact HL
    iexact Has9
  iintro ⟨HO, Hzs9, Hps9⟩
  rw [wp_ret]; imodintro
  iapply Hk
  isplitl [Hcs12]; · iexact Hcs12
  isplitl [Hcs14]; · iexact Hcs14
  isplitl [Hzs9]; · iexact Hzs9
  isplitl [Hps9]; · iexact Hps9
  iexists _; iexact HO

/-! ## Part 17: the first spread's waits of the second column half; the A half's second quarter joined and sent -/

theorem part17 (c : Dev nD) (K : GSem nD τ sig → ℕ) (v3 v4 v32 v59 : BitVec 32) (W : Waits sig Unit)
    (Kt : PUnit → sProp 𝕄) :
    iprop(invs m K c ∗ levAts L lv ∗ reached ER (sendCell c 13) 0 ∗ reached ER (recvCell (pk 13 c) 13) 0
        ∗ cred (tallyAt (recvCell c 9) () (Nk 9)) ∗ atPos ER (recvCell c 9) 0 ∅ 0
        ∗ cred (tallyAt (sendCell c 11) () (Nk 11)) ∗ atPos ER (sendCell c 11) 0 ∅ 0
        ∗ cred (tallyAt (recvCell c 11) () (Nk 11)) ∗ atPos ER (recvCell c 11) 0 ∅ 0
        ∗ sendPay m c 9 ∗ regE (F := F) (Q27 c) (pk 13 c)
        ∗ dutyTok ER (sendCell c 13) 0 false ∗ dutyTok ER (recvCell (pk 13 c) 13) 0 false
        ∗ owes (c : Thread nD τ) (Oks c [13, 15]) W
        ∗ ((semVal (recvCell c 9) 0 ∗ semVal (sendCell c 11) 0 ∗ sendPay m c 11 ∗ semVal (recvCell c 11) 0 ∗ recvPay m c 11
            ∗ cred (tallyAt (sendCell c 13) () (Nk 13))
            ∗ ∃ W', owes (c : Thread nD τ) (Oks c [15]) W') -∗ Kt ⟨⟩))
      ⊢ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4 v32 v59) Kt := by
  simp only [k0_part17_eq_skeleton]; unfold k0_part17_skel
  simp only [Prog.lift, Prog.bind_op, Prog.bind_ret, Prog.pure_eq_ret]
  iintro ⟨#HI, #HL, #Hr13a, #Hr13b, Hcr9, Har9, Hcs11, Has11, Hcr11, Har11, Hs9, Hl13, Ht13a, Ht13b, HO, Hk⟩
  iapply (wp_wait_recv m c 9 rsem9 (Oks c [13, 15]) _ (K (recvCell c 9)) (credD9 c)) $$ [Hcr9 HO Har9]
  · isplitr; · iapply (invs_recv m K c 9); iexact HI
    isplitl [Hcr9]; · iexact Hcr9
    isplitl [HO]; · iexact HO
    isplitr; · iapply (mayWait_Oks c (.dma (rS 9)) (2 + tk 9) (lv_recv c 9) [13, 15] (by decide)); iexact HL
    iexact Har9
  iintro ⟨HO, Hzr9, Hpr9⟩
  iapply (wp_wait_send m c 11 ssem11 (Oks c [13, 15]) _ (K (sendCell c 11)) (credS11 c)) $$ [Hcs11 HO Has11]
  · isplitr; · iapply (invs_send m K c 11); iexact HI
    isplitl [Hcs11]; · iexact Hcs11
    isplitl [HO]; · iexact HO
    isplitr; · iapply (mayWait_Oks c (.dma (sS 11)) (2 + tk 11) (lv_send c 11) [13, 15] (by decide)); iexact HL
    iexact Has11
  iintro ⟨HO, Hzs11, Hps11⟩
  iapply (wp_wait_recv m c 11 rsem11 (Oks c [13, 15]) _ (K (recvCell c 11)) (credD11 c)) $$ [Hcr11 HO Har11]
  · isplitr; · iapply (invs_recv m K c 11); iexact HI
    isplitl [Hcr11]; · iexact Hcr11
    isplitl [HO]; · iexact HO
    isplitr; · iapply (mayWait_Oks c (.dma (rS 11)) (2 + tk 11) (lv_recv c 11) [13, 15] (by decide)); iexact HL
    iexact Har11
  iintro ⟨HO, Hzr11, Hpr11⟩
  ihave Hsrc13 := (joinQ27 m c) $$ [Hs9 Hpr9]
  · isplitl [Hs9]; · iexact Hs9
    iexact Hpr9
  iapply (wp_xfer m c _ 13 (dev17_eq c) ssem13 rsem13 (V13 m c) (Oks c [15]) _ (K (sendCell c 13)) (K (recvCell (pk 13 c) 13)) (credD13 c) (Entails.refl _)
      (by show reg (Q27 c) (p1 c) _ ⊢ reg (Q27 (p1 (p1 c))) (p1 c) ((Q27 (p1 (p1 c))).view.rep (Val := Elt F) (V13 m (p1 (p1 c)))); rw [p1_p1])) $$ [Hsrc13 Hl13 HO Ht13a Ht13b]
  · isplitr; · iapply (invs_send m K c 13); iexact HI
    isplitr; · iapply (invs_peer m K c 13); iexact HI
    isplitl [Hsrc13]; · iexact Hsrc13
    isplitl [Hl13]; · iexact Hl13
    isplitl [HO]; · iexact HO
    isplitl [Ht13a]; · iexact Ht13a
    isplitr; · iexact Hr13a
    isplitl [Ht13b]; · iexact Ht13b
    iexact Hr13b
  iintro ⟨Hcs13, HO⟩
  rw [wp_ret]; imodintro
  iapply Hk
  isplitl [Hzr9]; · iexact Hzr9
  isplitl [Hzs11]; · iexact Hzs11
  isplitl [Hps11]; · iexact Hps11
  isplitl [Hzr11]; · iexact Hzr11
  isplitl [Hpr11]; · iexact Hpr11
  isplitl [Hcs13]; · iexact Hcs13
  iexists _; iexact HO

/-! ## Part 18: the B half's second quarter joined and sent; the second spread's waits of the first column half -/

theorem part18 (c : Dev nD) (K : GSem nD τ sig → ℕ) (v3 v4 : BitVec 32) (W : Waits sig Unit)
    (Kt : PUnit → sProp 𝕄) :
    iprop(invs m K c ∗ levAts L lv ∗ reached ER (sendCell c 15) 0 ∗ reached ER (recvCell (pk 15 c) 15) 0
        ∗ sendPay m c 11 ∗ recvPay m c 11 ∗ regE (F := F) (Q28 c) (pk 15 c)
        ∗ dutyTok ER (sendCell c 15) 0 false ∗ dutyTok ER (recvCell (pk 15 c) 15) 0 false
        ∗ cred (tallyAt (sendCell c 12) () (Nk 12)) ∗ atPos ER (sendCell c 12) 0 ∅ 0
        ∗ cred (tallyAt (recvCell c 12) () (Nk 12)) ∗ atPos ER (recvCell c 12) 0 ∅ 0
        ∗ cred (tallyAt (sendCell c 14) () (Nk 14)) ∗ atPos ER (sendCell c 14) 0 ∅ 0
        ∗ cred (tallyAt (recvCell c 14) () (Nk 14)) ∗ atPos ER (recvCell c 14) 0 ∅ 0
        ∗ owes (c : Thread nD τ) (Oks c [15]) W
        ∗ ((cred (tallyAt (sendCell c 15) () (Nk 15))
            ∗ semVal (sendCell c 12) 0 ∗ sendPay m c 12 ∗ semVal (recvCell c 12) 0 ∗ recvPay m c 12
            ∗ semVal (sendCell c 14) 0 ∗ sendPay m c 14 ∗ semVal (recvCell c 14) 0 ∗ recvPay m c 14
            ∗ ∃ W', owes (c : Thread nD τ) (Oks c []) W') -∗ Kt ⟨⟩))
      ⊢ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
            c v3 v4) Kt := by
  simp only [k0_part18_eq_skeleton]; unfold k0_part18_skel
  simp only [Prog.lift, Prog.bind_op, Prog.bind_ret, Prog.pure_eq_ret]
  iintro ⟨#HI, #HL, #Hr15a, #Hr15b, Hs11, Hv11, Hl15, Ht15a, Ht15b, Hcs12, Has12, Hcr12, Har12, Hcs14, Has14, Hcr14, Har14, HO, Hk⟩
  ihave Hsrc15 := (joinQ28 m c) $$ [Hs11 Hv11]
  · isplitl [Hs11]; · iexact Hs11
    iexact Hv11
  iapply (wp_xfer m c _ 15 (dev18_eq c) ssem15 rsem15 (V15 m c) (Oks c []) _ (K (sendCell c 15)) (K (recvCell (pk 15 c) 15)) (credD15 c) (Entails.refl _)
      (by show reg (Q28 c) (p2 c) _ ⊢ reg (Q28 (p2 (p2 c))) (p2 c) ((Q28 (p2 (p2 c))).view.rep (Val := Elt F) (V15 m (p2 (p2 c)))); rw [p2_p2])) $$ [Hsrc15 Hl15 HO Ht15a Ht15b]
  · isplitr; · iapply (invs_send m K c 15); iexact HI
    isplitr; · iapply (invs_peer m K c 15); iexact HI
    isplitl [Hsrc15]; · iexact Hsrc15
    isplitl [Hl15]; · iexact Hl15
    isplitl [HO]; · iexact HO
    isplitl [Ht15a]; · iexact Ht15a
    isplitr; · iexact Hr15a
    isplitl [Ht15b]; · iexact Ht15b
    iexact Hr15b
  iintro ⟨Hcs15, HO⟩
  iapply (wp_wait_send m c 12 ssem12 (Oks c []) _ (K (sendCell c 12)) (credS12 c)) $$ [Hcs12 HO Has12]
  · isplitr; · iapply (invs_send m K c 12); iexact HI
    isplitl [Hcs12]; · iexact Hcs12
    isplitl [HO]; · iexact HO
    isplitr; · iapply (mayWait_Oks c (.dma (sS 12)) (2 + tk 12) (lv_send c 12) [] (by decide)); iexact HL
    iexact Has12
  iintro ⟨HO, Hzs12, Hps12⟩
  iapply (wp_wait_recv m c 12 rsem12 (Oks c []) _ (K (recvCell c 12)) (credD12 c)) $$ [Hcr12 HO Har12]
  · isplitr; · iapply (invs_recv m K c 12); iexact HI
    isplitl [Hcr12]; · iexact Hcr12
    isplitl [HO]; · iexact HO
    isplitr; · iapply (mayWait_Oks c (.dma (rS 12)) (2 + tk 12) (lv_recv c 12) [] (by decide)); iexact HL
    iexact Har12
  iintro ⟨HO, Hzr12, Hpr12⟩
  iapply (wp_wait_send m c 14 ssem14 (Oks c []) _ (K (sendCell c 14)) (credS14 c)) $$ [Hcs14 HO Has14]
  · isplitr; · iapply (invs_send m K c 14); iexact HI
    isplitl [Hcs14]; · iexact Hcs14
    isplitl [HO]; · iexact HO
    isplitr; · iapply (mayWait_Oks c (.dma (sS 14)) (2 + tk 14) (lv_send c 14) [] (by decide)); iexact HL
    iexact Has14
  iintro ⟨HO, Hzs14, Hps14⟩
  iapply (wp_wait_recv m c 14 rsem14 (Oks c []) _ (K (recvCell c 14)) (credD14 c)) $$ [Hcr14 HO Har14]
  · isplitr; · iapply (invs_recv m K c 14); iexact HI
    isplitl [Hcr14]; · iexact Hcr14
    isplitl [HO]; · iexact HO
    isplitr; · iapply (mayWait_Oks c (.dma (rS 14)) (2 + tk 14) (lv_recv c 14) [] (by decide)); iexact HL
    iexact Har14
  iintro ⟨HO, Hzr14, Hpr14⟩
  rw [wp_ret]; imodintro
  iapply Hk
  isplitl [Hcs15]; · iexact Hcs15
  isplitl [Hzs12]; · iexact Hzs12
  isplitl [Hps12]; · iexact Hps12
  isplitl [Hzr12]; · iexact Hzr12
  isplitl [Hpr12]; · iexact Hpr12
  isplitl [Hzs14]; · iexact Hzs14
  isplitl [Hps14]; · iexact Hps14
  isplitl [Hzr14]; · iexact Hzr14
  isplitl [Hpr14]; · iexact Hpr14
  iexists _; iexact HO

/-! ## The four last waits: the second spread's second column half -/

/-- What follows the last part in the body: the waits for the two quarters of the second column half to leave and to
    arrive. -/
def tailProg (c : Dev nD) : Prog (TpuEff nD τ sig (Elt F) Λ₀ .tc) PUnit := do
  let ss13 : DmaSems sig S_ := (cc0_scratch8.slice (Rect.unit (s := S16) ![13] S1.size inb_S16_S1_13)).squeeze S_ squeezes_S1_S_
  Prog.lift (.waitDma2 ss13.sem (oM.slice (Rect.unit (s := S2048x1024) (k0_off27 c) S512x512.size (k0_off27_inb c)) (fun _ => rfl)) (oM.slice (Rect.unit (s := S2048x1024) (k0_off27 c) S512x512.size (k0_off27_inb c)) (fun _ => rfl)) ((Memref.isWhole_whole cc0_stg1_0).wordExact_slice rfl _ (k0_off27_wordsbf16 c)) ((Memref.isWhole_whole cc0_stg1_0).wordExact_slice rfl _ (k0_off27_wordsbf16 c)))
  let sr13 : DmaSems sig S_ := (cc0_scratch9.slice (Rect.unit (s := S16) ![13] S1.size inb_S16_S1_13)).squeeze S_ squeezes_S1_S_
  Prog.lift (.waitDma2 sr13.sem (oM.slice (Rect.unit (s := S2048x1024) (k0_off27 c) S512x512.size (k0_off27_inb c)) (fun _ => rfl)) (oM.slice (Rect.unit (s := S2048x1024) (k0_off27 c) S512x512.size (k0_off27_inb c)) (fun _ => rfl)) ((Memref.isWhole_whole cc0_stg1_0).wordExact_slice rfl _ (k0_off27_wordsbf16 c)) ((Memref.isWhole_whole cc0_stg1_0).wordExact_slice rfl _ (k0_off27_wordsbf16 c)))
  let ss15 : DmaSems sig S_ := (cc0_scratch8.slice (Rect.unit (s := S16) ![15] S1.size inb_S16_S1_15)).squeeze S_ squeezes_S1_S_
  Prog.lift (.waitDma2 ss15.sem (oM.slice (Rect.unit (s := S2048x1024) (k0_off28 c) S512x512.size (k0_off28_inb c)) (fun _ => rfl)) (oM.slice (Rect.unit (s := S2048x1024) (k0_off28 c) S512x512.size (k0_off28_inb c)) (fun _ => rfl)) ((Memref.isWhole_whole cc0_stg1_0).wordExact_slice rfl _ (k0_off28_wordsbf16 c)) ((Memref.isWhole_whole cc0_stg1_0).wordExact_slice rfl _ (k0_off28_wordsbf16 c)))
  let sr15 : DmaSems sig S_ := (cc0_scratch9.slice (Rect.unit (s := S16) ![15] S1.size inb_S16_S1_15)).squeeze S_ squeezes_S1_S_
  Prog.lift (.waitDma2 sr15.sem (oM.slice (Rect.unit (s := S2048x1024) (k0_off28 c) S512x512.size (k0_off28_inb c)) (fun _ => rfl)) (oM.slice (Rect.unit (s := S2048x1024) (k0_off28 c) S512x512.size (k0_off28_inb c)) (fun _ => rfl)) ((Memref.isWhole_whole cc0_stg1_0).wordExact_slice rfl _ (k0_off28_wordsbf16 c)) ((Memref.isWhole_whole cc0_stg1_0).wordExact_slice rfl _ (k0_off28_wordsbf16 c)))
  pure ⟨⟩

theorem tail (c : Dev nD) (K : GSem nD τ sig → ℕ) (W : Waits sig Unit) (Kt : PUnit → sProp 𝕄) :
    iprop(invs m K c ∗ levAts L lv
        ∗ cred (tallyAt (sendCell c 13) () (Nk 13)) ∗ atPos ER (sendCell c 13) 0 ∅ 0
        ∗ cred (tallyAt (recvCell c 13) () (Nk 13)) ∗ atPos ER (recvCell c 13) 0 ∅ 0
        ∗ cred (tallyAt (sendCell c 15) () (Nk 15)) ∗ atPos ER (sendCell c 15) 0 ∅ 0
        ∗ cred (tallyAt (recvCell c 15) () (Nk 15)) ∗ atPos ER (recvCell c 15) 0 ∅ 0
        ∗ owes (c : Thread nD τ) (Oks c []) W
        ∗ ((semVal (sendCell c 13) 0 ∗ sendPay m c 13 ∗ semVal (recvCell c 13) 0 ∗ recvPay m c 13
            ∗ semVal (sendCell c 15) 0 ∗ sendPay m c 15 ∗ semVal (recvCell c 15) 0 ∗ recvPay m c 15
            ∗ ∃ W', owes (c : Thread nD τ) (Oks c []) W') -∗ Kt ⟨⟩))
      ⊢ wp frame (wpE (defs₀ (F := F)) 𝒱₀ (c : Thread nD τ) none) Set.univ
          (tailProg (F := F) c) Kt := by
  unfold tailProg
  simp only [Prog.lift, Prog.bind_op, Prog.bind_ret, Prog.pure_eq_ret]
  iintro ⟨#HI, #HL, Hcs13, Has13, Hcr13, Har13, Hcs15, Has15, Hcr15, Har15, HO, Hk⟩
  iapply (wp_wait_send m c 13 ssem13 (Oks c []) _ (K (sendCell c 13)) (credS13 c)) $$ [Hcs13 HO Has13]
  · isplitr; · iapply (invs_send m K c 13); iexact HI
    isplitl [Hcs13]; · iexact Hcs13
    isplitl [HO]; · iexact HO
    isplitr; · iapply (mayWait_Oks c (.dma (sS 13)) (2 + tk 13) (lv_send c 13) [] (by decide)); iexact HL
    iexact Has13
  iintro ⟨HO, Hzs13, Hps13⟩
  iapply (wp_wait_recv m c 13 rsem13 (Oks c []) _ (K (recvCell c 13)) (credD13 c)) $$ [Hcr13 HO Har13]
  · isplitr; · iapply (invs_recv m K c 13); iexact HI
    isplitl [Hcr13]; · iexact Hcr13
    isplitl [HO]; · iexact HO
    isplitr; · iapply (mayWait_Oks c (.dma (rS 13)) (2 + tk 13) (lv_recv c 13) [] (by decide)); iexact HL
    iexact Har13
  iintro ⟨HO, Hzr13, Hpr13⟩
  iapply (wp_wait_send m c 15 ssem15 (Oks c []) _ (K (sendCell c 15)) (credS15 c)) $$ [Hcs15 HO Has15]
  · isplitr; · iapply (invs_send m K c 15); iexact HI
    isplitl [Hcs15]; · iexact Hcs15
    isplitl [HO]; · iexact HO
    isplitr; · iapply (mayWait_Oks c (.dma (sS 15)) (2 + tk 15) (lv_send c 15) [] (by decide)); iexact HL
    iexact Has15
  iintro ⟨HO, Hzs15, Hps15⟩
  iapply (wp_wait_recv m c 15 rsem15 (Oks c []) _ (K (recvCell c 15)) (credD15 c)) $$ [Hcr15 HO Har15]
  · isplitr; · iapply (invs_recv m K c 15); iexact HI
    isplitl [Hcr15]; · iexact Hcr15
    isplitl [HO]; · iexact HO
    isplitr; · iapply (mayWait_Oks c (.dma (rS 15)) (2 + tk 15) (lv_recv c 15) [] (by decide)); iexact HL
    iexact Har15
  iintro ⟨HO, Hzr15, Hpr15⟩
  rw [wp_ret]; imodintro
  iapply Hk
  isplitl [Hzs13]; · iexact Hzs13
  isplitl [Hps13]; · iexact Hps13
  isplitl [Hzr13]; · iexact Hzr13
  isplitl [Hpr13]; · iexact Hpr13
  isplitl [Hzs15]; · iexact Hzs15
  isplitl [Hps15]; · iexact Hps15
  isplitl [Hzr15]; · iexact Hzr15
  isplitl [Hpr15]; · iexact Hpr15
  iexists _; iexact HO

/-- info: 'Cert.KernelIdeal.PartsD.part13' depends on axioms: [propext, Classical.choice, Quot.sound] -/
#guard_msgs in #print axioms part13
/-- info: 'Cert.KernelIdeal.PartsD.part14' depends on axioms: [propext, Classical.choice, Quot.sound] -/
#guard_msgs in #print axioms part14
/-- info: 'Cert.KernelIdeal.PartsD.part15' depends on axioms: [propext, Classical.choice, Quot.sound] -/
#guard_msgs in #print axioms part15
/-- info: 'Cert.KernelIdeal.PartsD.part16' depends on axioms: [propext, Classical.choice, Quot.sound] -/
#guard_msgs in #print axioms part16
/-- info: 'Cert.KernelIdeal.PartsD.part17' depends on axioms: [propext, Classical.choice, Quot.sound] -/
#guard_msgs in #print axioms part17
/-- info: 'Cert.KernelIdeal.PartsD.part18' depends on axioms: [propext, Classical.choice, Quot.sound] -/
#guard_msgs in #print axioms part18
/-- info: 'Cert.KernelIdeal.PartsD.tail' depends on axioms: [propext, Classical.choice, Quot.sound] -/
#guard_msgs in #print axioms tail

end Cert.KernelIdeal.PartsD

end
-- ==== Proof.Glue.lean ====
/-
  Cutting the buffers into regions at the start of the body and putting them together at its end.
  At the start the result buffer is cut into the twelve regions of Geom.outRegs and every scratch buffer into its two
  column halves; four result regions and the send buffers' halves stay with the device, the others are what its two
  barrier signals hand its partners. At the end the eight quarter regions (four sent and back, four received) are the
  whole result buffer at Spec.outAt, and the sixteen scratch halves (eight sent and back, eight received) are the eight
  scratch buffers again.
-/
import proofs.«900521_g7700000000000522_dist_f_of_ar_i_m2048_n1024_v7x_i4_bf16_1_alg».proof.Proof.BodyLib

noncomputable section

namespace Cert.KernelIdeal.Glue

open Cert.KernelIdeal Cert.KernelIdeal.Gen Cert.KernelIdeal.Mesh Cert.KernelIdeal.Spec Cert.KernelIdeal.Sched Cert.KernelIdeal.Rules Cert.KernelIdeal.Proto Cert.KernelIdeal.BodyLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Cutting one buffer's points-to along a tiling, and joining a tiling's parts -/

section Tiling

variable {ℓ : Loc nD τ sig}

/-- A buffer whole at some contents, cut in two parts that tile it: each part at some contents. -/
theorem cut2 {I J : Finset (Idx ℓ)} (hc : I ∪ J = Finset.univ) (hd : Disjoint I J) :
    (iprop(∃ f : Buf (Elt F) ℓ, ℓ ↦{fullShare} f) : sProp 𝕄)
      ⊢ iprop((∃ f : Buf (Elt F) ℓ, ℓ ↦[I]{fullShare} f) ∗ (∃ f : Buf (Elt F) ℓ, ℓ ↦[J]{fullShare} f)) := by
  iintro ⟨%f, H⟩
  have e : (ℓ ↦{fullShare} f : sProp 𝕄) = ℓ ↦[I ∪ J]{fullShare} f := by rw [hc]
  ihave H' := (Entails.of_eq e) $$ H
  ihave H'' := (pointsTo_union hd).1 $$ H'
  icases H'' with ⟨H1, H2⟩
  isplitl [H1]
  · iexists f; iexact H1
  · iexists f; iexact H2

/-- Two parts that tile a buffer, each at its own contents, are the buffer whole at some contents. -/
theorem join2 {I J : Finset (Idx ℓ)} (hc : I ∪ J = Finset.univ) (hd : Disjoint I J) (f g : Buf (Elt F) ℓ) :
    (iprop((ℓ ↦[I]{fullShare} f) ∗ ℓ ↦[J]{fullShare} g) : sProp 𝕄) ⊢ iprop(∃ h : Buf (Elt F) ℓ, ℓ ↦{fullShare} h) := by
  have e : (ℓ ↦[I ∪ J]{fullShare} (J.piecewise g f) : sProp 𝕄) = ℓ ↦{fullShare} (J.piecewise g f) := by rw [hc]
  iintro H
  ihave H' := (pointsTo_join hd) $$ H
  ihave H'' := (Entails.of_eq e) $$ H'
  iexists (J.piecewise g f); iexact H''

/-- A buffer whole at given contents, cut along twelve parts that tile it: every part at those contents. -/
theorem cut12 (K0 K1 K2 K3 K4 K5 K6 K7 K8 K9 K10 K11 : Finset (Idx ℓ))
    (hc : (Finset.univ : Finset (Fin 12)).biUnion ![K0, K1, K2, K3, K4, K5, K6, K7, K8, K9, K10, K11] = Finset.univ)
    (hd : ∀ t ∈ (Finset.univ : Finset (Fin 12)), ∀ t' ∈ (Finset.univ : Finset (Fin 12)), t ≠ t' →
      Disjoint (![K0, K1, K2, K3, K4, K5, K6, K7, K8, K9, K10, K11] t) (![K0, K1, K2, K3, K4, K5, K6, K7, K8, K9, K10, K11] t'))
    (f : Buf (Elt F) ℓ) :
    (ℓ ↦{fullShare} f : sProp 𝕄)
      = iprop((ℓ ↦[K0]{fullShare} f) ∗ (ℓ ↦[K1]{fullShare} f) ∗ (ℓ ↦[K2]{fullShare} f) ∗ (ℓ ↦[K3]{fullShare} f) ∗ (ℓ ↦[K4]{fullShare} f) ∗ (ℓ ↦[K5]{fullShare} f) ∗ (ℓ ↦[K6]{fullShare} f) ∗ (ℓ ↦[K7]{fullShare} f) ∗ (ℓ ↦[K8]{fullShare} f) ∗ (ℓ ↦[K9]{fullShare} f) ∗ (ℓ ↦[K10]{fullShare} f) ∗ (ℓ ↦[K11]{fullShare} f)) := by
  have e : (ℓ ↦{fullShare} f : sProp 𝕄) = ℓ ↦[(Finset.univ : Finset (Fin 12)).biUnion ![K0, K1, K2, K3, K4, K5, K6, K7, K8, K9, K10, K11]]{fullShare} f := by rw [hc]
  rw [e, pointsTo_biUnion _ _ hd, bigSep_univ_eq_bigSepL [0, 1, 2, 3, 4, 5, 6, 7, 8, 9, 10, 11] (by decide) (by decide)]
  rfl

/-- The union of a family of eight sets, written out. -/
theorem biUnion_fin8 {α : Type} [DecidableEq α] (K : Fin 8 → Finset α) :
    (Finset.univ : Finset (Fin 8)).biUnion K = K 0 ∪ K 1 ∪ K 2 ∪ K 3 ∪ K 4 ∪ K 5 ∪ K 6 ∪ K 7 := by
  have e8 : (Finset.univ : Finset (Fin 8)) = {0, 1, 2, 3, 4, 5, 6, 7} := by decide
  rw [e8]
  simp only [Finset.biUnion_insert, Finset.singleton_biUnion, Finset.union_assoc]

/-- Eight parts that tile a buffer, each at its own contents, are the buffer whole at the contents joined part after
    part: the last part's contents outermost. -/
theorem join8 (K0 K1 K2 K3 K4 K5 K6 K7 : Finset (Idx ℓ)) (g0 g1 g2 g3 g4 g5 g6 g7 : Buf (Elt F) ℓ)
    (hc : (Finset.univ : Finset (Fin 8)).biUnion ![K0, K1, K2, K3, K4, K5, K6, K7] = Finset.univ)
    (hd : ∀ t ∈ (Finset.univ : Finset (Fin 8)), ∀ t' ∈ (Finset.univ : Finset (Fin 8)), t ≠ t' →
      Disjoint (![K0, K1, K2, K3, K4, K5, K6, K7] t) (![K0, K1, K2, K3, K4, K5, K6, K7] t')) :
    (iprop((ℓ ↦[K0]{fullShare} g0) ∗ (ℓ ↦[K1]{fullShare} g1) ∗ (ℓ ↦[K2]{fullShare} g2) ∗ (ℓ ↦[K3]{fullShare} g3) ∗ (ℓ ↦[K4]{fullShare} g4) ∗ (ℓ ↦[K5]{fullShare} g5) ∗ (ℓ ↦[K6]{fullShare} g6) ∗ (ℓ ↦[K7]{fullShare} g7)) : sProp 𝕄)
      ⊢ ℓ ↦{fullShare} (K7.piecewise g7 (K6.piecewise g6 (K5.piecewise g5 (K4.piecewise g4 (K3.piecewise g3 (K2.piecewise g2 (K1.piecewise g1 g0))))))) := by
  have d (t t' : Fin 8) (h : t ≠ t') : Disjoint (![K0, K1, K2, K3, K4, K5, K6, K7] t) (![K0, K1, K2, K3, K4, K5, K6, K7] t') :=
    hd t (Finset.mem_univ _) t' (Finset.mem_univ _) h
  have d1 : Disjoint (K0) K1 := d 0 1 (by decide)
  have d2 : Disjoint (K0 ∪ K1) K2 := Finset.disjoint_union_left.mpr ⟨d 0 2 (by decide), d 1 2 (by decide)⟩
  have d3 : Disjoint (K0 ∪ K1 ∪ K2) K3 := Finset.disjoint_union_left.mpr ⟨Finset.disjoint_union_left.mpr ⟨d 0 3 (by decide), d 1 3 (by decide)⟩, d 2 3 (by decide)⟩
  have d4 : Disjoint (K0 ∪ K1 ∪ K2 ∪ K3) K4 := Finset.disjoint_union_left.mpr ⟨Finset.disjoint_union_left.mpr ⟨Finset.disjoint_union_left.mpr ⟨d 0 4 (by decide), d 1 4 (by decide)⟩, d 2 4 (by decide)⟩, d 3 4 (by decide)⟩
  have d5 : Disjoint (K0 ∪ K1 ∪ K2 ∪ K3 ∪ K4) K5 := Finset.disjoint_union_left.mpr ⟨Finset.disjoint_union_left.mpr ⟨Finset.disjoint_union_left.mpr ⟨Finset.disjoint_union_left.mpr ⟨d 0 5 (by decide), d 1 5 (by decide)⟩, d 2 5 (by decide)⟩, d 3 5 (by decide)⟩, d 4 5 (by decide)⟩
  have d6 : Disjoint (K0 ∪ K1 ∪ K2 ∪ K3 ∪ K4 ∪ K5) K6 := Finset.disjoint_union_left.mpr ⟨Finset.disjoint_union_left.mpr ⟨Finset.disjoint_union_left.mpr ⟨Finset.disjoint_union_left.mpr ⟨Finset.disjoint_union_left.mpr ⟨d 0 6 (by decide), d 1 6 (by decide)⟩, d 2 6 (by decide)⟩, d 3 6 (by decide)⟩, d 4 6 (by decide)⟩, d 5 6 (by decide)⟩
  have d7 : Disjoint (K0 ∪ K1 ∪ K2 ∪ K3 ∪ K4 ∪ K5 ∪ K6) K7 := Finset.disjoint_union_left.mpr ⟨Finset.disjoint_union_left.mpr ⟨Finset.disjoint_union_left.mpr ⟨Finset.disjoint_union_left.mpr ⟨Finset.disjoint_union_left.mpr ⟨Finset.disjoint_union_left.mpr ⟨d 0 7 (by decide), d 1 7 (by decide)⟩, d 2 7 (by decide)⟩, d 3 7 (by decide)⟩, d 4 7 (by decide)⟩, d 5 7 (by decide)⟩, d 6 7 (by decide)⟩
  have e : K0 ∪ K1 ∪ K2 ∪ K3 ∪ K4 ∪ K5 ∪ K6 ∪ K7 = (Finset.univ : Finset (Idx ℓ)) := (biUnion_fin8 ![K0, K1, K2, K3, K4, K5, K6, K7]).symm.trans hc
  refine (Idealize.SL.BI.sep_assoc'.trans (Idealize.SL.BI.sep_mono_l (pointsTo_join d1))).trans ?_
  refine (Idealize.SL.BI.sep_assoc'.trans (Idealize.SL.BI.sep_mono_l (pointsTo_join d2))).trans ?_
  refine (Idealize.SL.BI.sep_assoc'.trans (Idealize.SL.BI.sep_mono_l (pointsTo_join d3))).trans ?_
  refine (Idealize.SL.BI.sep_assoc'.trans (Idealize.SL.BI.sep_mono_l (pointsTo_join d4))).trans ?_
  refine (Idealize.SL.BI.sep_assoc'.trans (Idealize.SL.BI.sep_mono_l (pointsTo_join d5))).trans ?_
  refine (Idealize.SL.BI.sep_assoc'.trans (Idealize.SL.BI.sep_mono_l (pointsTo_join d6))).trans ?_
  refine (pointsTo_join d7).trans (Entails.of_eq ?_)
  rw [e]

end Tiling

/-! ## The scratch buffers' column halves -/

theorem cut_s1a (c : Dev nD) :
    (iprop(∃ f, ((c : Thread nD τ).loc cc0_scratch0) ↦{fullShare} f) : sProp 𝕄)
      ⊢ iprop(regE (F := F) (sl5 s1a H0 (fun _ => rfl)) c ∗ regE (F := F) (sl5 s1a H1 (fun _ => rfl)) c) :=
  cut2 Geom.s1a_cover Geom.s1a_disj
theorem cut_s1b (c : Dev nD) :
    (iprop(∃ f, ((c : Thread nD τ).loc cc0_scratch1) ↦{fullShare} f) : sProp 𝕄)
      ⊢ iprop(regE (F := F) (sl5 s1b H0 (fun _ => rfl)) c ∗ regE (F := F) (sl5 s1b H1 (fun _ => rfl)) c) :=
  cut2 Geom.s1b_cover Geom.s1b_disj
theorem cut_r1a (c : Dev nD) :
    (iprop(∃ f, ((c : Thread nD τ).loc cc0_scratch2) ↦{fullShare} f) : sProp 𝕄)
      ⊢ iprop(regE (F := F) (sl5 r1a H0 (fun _ => rfl)) c ∗ regE (F := F) (sl5 r1a H1 (fun _ => rfl)) c) :=
  cut2 Geom.r1a_cover Geom.r1a_disj
theorem cut_r1b (c : Dev nD) :
    (iprop(∃ f, ((c : Thread nD τ).loc cc0_scratch3) ↦{fullShare} f) : sProp 𝕄)
      ⊢ iprop(regE (F := F) (sl5 r1b H0 (fun _ => rfl)) c ∗ regE (F := F) (sl5 r1b H1 (fun _ => rfl)) c) :=
  cut2 Geom.r1b_cover Geom.r1b_disj
theorem cut_s2a (c : Dev nD) :
    (iprop(∃ f, ((c : Thread nD τ).loc cc0_scratch4) ↦{fullShare} f) : sProp 𝕄)
      ⊢ iprop(regE (F := F) (sl2 s2a G0 (fun _ => rfl)) c ∗ regE (F := F) (sl2 s2a G1 (fun _ => rfl)) c) :=
  cut2 Geom.s2a_cover Geom.s2a_disj
theorem cut_s2b (c : Dev nD) :
    (iprop(∃ f, ((c : Thread nD τ).loc cc0_scratch5) ↦{fullShare} f) : sProp 𝕄)
      ⊢ iprop(regE (F := F) (sl2 s2b G0 (fun _ => rfl)) c ∗ regE (F := F) (sl2 s2b G1 (fun _ => rfl)) c) :=
  cut2 Geom.s2b_cover Geom.s2b_disj
theorem cut_r2a (c : Dev nD) :
    (iprop(∃ f, ((c : Thread nD τ).loc cc0_scratch6) ↦{fullShare} f) : sProp 𝕄)
      ⊢ iprop(regE (F := F) (sl2 r2a G0 (fun _ => rfl)) c ∗ regE (F := F) (sl2 r2a G1 (fun _ => rfl)) c) :=
  cut2 Geom.r2a_cover Geom.r2a_disj
theorem cut_r2b (c : Dev nD) :
    (iprop(∃ f, ((c : Thread nD τ).loc cc0_scratch7) ↦{fullShare} f) : sProp 𝕄)
      ⊢ iprop(regE (F := F) (sl2 r2b G0 (fun _ => rfl)) c ∗ regE (F := F) (sl2 r2b G1 (fun _ => rfl)) c) :=
  cut2 Geom.r2b_cover Geom.r2b_disj

theorem join_s1a (c : Dev nD) (f : Buf (Elt F) ((sl5 s1a H0 (fun _ => rfl)).view.loc (c : Thread nD τ)))
    (g : Buf (Elt F) ((sl5 s1a H1 (fun _ => rfl)).view.loc (c : Thread nD τ))) :
    iprop(reg (F := F) (sl5 s1a H0 (fun _ => rfl)) c f ∗ reg (F := F) (sl5 s1a H1 (fun _ => rfl)) c g)
      ⊢ (iprop(∃ h, ((c : Thread nD τ).loc cc0_scratch0) ↦{fullShare} h) : sProp 𝕄) :=
  join2 Geom.s1a_cover Geom.s1a_disj f g
theorem join_s1b (c : Dev nD) (f : Buf (Elt F) ((sl5 s1b H0 (fun _ => rfl)).view.loc (c : Thread nD τ)))
    (g : Buf (Elt F) ((sl5 s1b H1 (fun _ => rfl)).view.loc (c : Thread nD τ))) :
    iprop(reg (F := F) (sl5 s1b H0 (fun _ => rfl)) c f ∗ reg (F := F) (sl5 s1b H1 (fun _ => rfl)) c g)
      ⊢ (iprop(∃ h, ((c : Thread nD τ).loc cc0_scratch1) ↦{fullShare} h) : sProp 𝕄) :=
  join2 Geom.s1b_cover Geom.s1b_disj f g
theorem join_r1a (c : Dev nD) (f : Buf (Elt F) ((sl5 r1a H0 (fun _ => rfl)).view.loc (c : Thread nD τ)))
    (g : Buf (Elt F) ((sl5 r1a H1 (fun _ => rfl)).view.loc (c : Thread nD τ))) :
    iprop(reg (F := F) (sl5 r1a H0 (fun _ => rfl)) c f ∗ reg (F := F) (sl5 r1a H1 (fun _ => rfl)) c g)
      ⊢ (iprop(∃ h, ((c : Thread nD τ).loc cc0_scratch2) ↦{fullShare} h) : sProp 𝕄) :=
  join2 Geom.r1a_cover Geom.r1a_disj f g
theorem join_r1b (c : Dev nD) (f : Buf (Elt F) ((sl5 r1b H0 (fun _ => rfl)).view.loc (c : Thread nD τ)))
    (g : Buf (Elt F) ((sl5 r1b H1 (fun _ => rfl)).view.loc (c : Thread nD τ))) :
    iprop(reg (F := F) (sl5 r1b H0 (fun _ => rfl)) c f ∗ reg (F := F) (sl5 r1b H1 (fun _ => rfl)) c g)
      ⊢ (iprop(∃ h, ((c : Thread nD τ).loc cc0_scratch3) ↦{fullShare} h) : sProp 𝕄) :=
  join2 Geom.r1b_cover Geom.r1b_disj f g
theorem join_s2a (c : Dev nD) (f : Buf (Elt F) ((sl2 s2a G0 (fun _ => rfl)).view.loc (c : Thread nD τ)))
    (g : Buf (Elt F) ((sl2 s2a G1 (fun _ => rfl)).view.loc (c : Thread nD τ))) :
    iprop(reg (F := F) (sl2 s2a G0 (fun _ => rfl)) c f ∗ reg (F := F) (sl2 s2a G1 (fun _ => rfl)) c g)
      ⊢ (iprop(∃ h, ((c : Thread nD τ).loc cc0_scratch4) ↦{fullShare} h) : sProp 𝕄) :=
  join2 Geom.s2a_cover Geom.s2a_disj f g
theorem join_s2b (c : Dev nD) (f : Buf (Elt F) ((sl2 s2b G0 (fun _ => rfl)).view.loc (c : Thread nD τ)))
    (g : Buf (Elt F) ((sl2 s2b G1 (fun _ => rfl)).view.loc (c : Thread nD τ))) :
    iprop(reg (F := F) (sl2 s2b G0 (fun _ => rfl)) c f ∗ reg (F := F) (sl2 s2b G1 (fun _ => rfl)) c g)
      ⊢ (iprop(∃ h, ((c : Thread nD τ).loc cc0_scratch5) ↦{fullShare} h) : sProp 𝕄) :=
  join2 Geom.s2b_cover Geom.s2b_disj f g
theorem join_r2a (c : Dev nD) (f : Buf (Elt F) ((sl2 r2a G0 (fun _ => rfl)).view.loc (c : Thread nD τ)))
    (g : Buf (Elt F) ((sl2 r2a G1 (fun _ => rfl)).view.loc (c : Thread nD τ))) :
    iprop(reg (F := F) (sl2 r2a G0 (fun _ => rfl)) c f ∗ reg (F := F) (sl2 r2a G1 (fun _ => rfl)) c g)
      ⊢ (iprop(∃ h, ((c : Thread nD τ).loc cc0_scratch6) ↦{fullShare} h) : sProp 𝕄) :=
  join2 Geom.r2a_cover Geom.r2a_disj f g
theorem join_r2b (c : Dev nD) (f : Buf (Elt F) ((sl2 r2b G0 (fun _ => rfl)).view.loc (c : Thread nD τ)))
    (g : Buf (Elt F) ((sl2 r2b G1 (fun _ => rfl)).view.loc (c : Thread nD τ))) :
    iprop(reg (F := F) (sl2 r2b G0 (fun _ => rfl)) c f ∗ reg (F := F) (sl2 r2b G1 (fun _ => rfl)) c g)
      ⊢ (iprop(∃ h, ((c : Thread nD τ).loc cc0_scratch7) ↦{fullShare} h) : sProp 𝕄) :=
  join2 Geom.r2b_cover Geom.r2b_disj f g

/-! ## The result buffer -/

/-- The result buffer, whole at some contents. -/
abbrev outE (c : Dev nD) : sProp 𝕄 := iprop(∃ f, ((c : Thread nD τ).loc cc0_stg1_0) ↦{fullShare} f)

/-- The result buffer, whole at some contents, cut into its twelve regions. -/
theorem out_cut (c : Dev nD) :
    outE (F := F) c ⊢ iprop(regE (F := F) (E15 c) c ∗ regE (F := F) (E21 c) c ∗ regE (F := F) (E18 c) c ∗ regE (F := F) (E24 c) c ∗ regE (F := F) (E15 (p2 c)) c ∗ regE (F := F) (E21 (p2 c)) c ∗ regE (F := F) (E18 (p1 c)) c ∗ regE (F := F) (E24 (p1 c)) c ∗ regE (F := F) (Q25 (p1 c)) c ∗ regE (F := F) (Q27 (p1 c)) c ∗ regE (F := F) (Q26 (p2 c)) c ∗ regE (F := F) (Q28 (p2 c)) c) := by
  iintro ⟨%f, H⟩
  ihave H' := (Entails.of_eq (cut12 (F := F) (ℓ := (c : Thread nD τ).loc cc0_stg1_0)
    (E15 c).view.set (E21 c).view.set (E18 c).view.set (E24 c).view.set (E15 (p2 c)).view.set (E21 (p2 c)).view.set (E18 (p1 c)).view.set (E24 (p1 c)).view.set (Q25 (p1 c)).view.set (Q27 (p1 c)).view.set (Q26 (p2 c)).view.set (Q28 (p2 c)).view.set
    (Geom.out_cover c) (Geom.out_disj c) f)) $$ H
  icases H' with ⟨H0, H1, H2, H3, H4, H5, H6, H7, H8, H9, H10, H11⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  isplitl [H9]; · iexists f; iexact H9
  isplitl [H10]; · iexists f; iexact H10
  iexists f; iexact H11

/-- One of the device's receive cells has been reached at its start. -/
theorem recvReached_at (c : Dev nD) (k : Fin 16) :
    (bigSep Finset.univ fun k : Fin 16 => (reached ER (recvCell c k) 0 : sProp 𝕄)) ⊢ reached ER (recvCell c k) 0 :=
  bigSep_elim (Finset.mem_univ k)

/-- What the first partner's signal hands over, seen from the partner: regions and cells of the device itself. -/
theorem barPay1_p1 (c : Dev nD) : barPay1 (F := F) (p1 c)
    = iprop(regE (F := F) (sl5 r1a H0 (fun _ => rfl)) c ∗ regE (F := F) (sl5 r1a H1 (fun _ => rfl)) c ∗ regE (F := F) (sl2 r2b G0 (fun _ => rfl)) c ∗ regE (F := F) (sl2 r2b G1 (fun _ => rfl)) c
      ∗ regE (F := F) (E18 (p1 c)) c ∗ regE (F := F) (E24 (p1 c)) c ∗ regE (F := F) (Q25 (p1 c)) c ∗ regE (F := F) (Q27 (p1 c)) c
      ∗ reached ER (recvCell c 0) 0 ∗ reached ER (recvCell c 1) 0 ∗ reached ER (recvCell c 6) 0 ∗ reached ER (recvCell c 7) 0 ∗ reached ER (recvCell c 10) 0 ∗ reached ER (recvCell c 11) 0 ∗ reached ER (recvCell c 12) 0 ∗ reached ER (recvCell c 13) 0) := by
  unfold barPay1; rw [p1_p1]
/-- The same for the second partner. -/
theorem barPay2_p2 (c : Dev nD) : barPay2 (F := F) (p2 c)
    = iprop(regE (F := F) (sl5 r1b H0 (fun _ => rfl)) c ∗ regE (F := F) (sl5 r1b H1 (fun _ => rfl)) c ∗ regE (F := F) (sl2 r2a G0 (fun _ => rfl)) c ∗ regE (F := F) (sl2 r2a G1 (fun _ => rfl)) c
      ∗ regE (F := F) (E15 (p2 c)) c ∗ regE (F := F) (E21 (p2 c)) c ∗ regE (F := F) (Q26 (p2 c)) c ∗ regE (F := F) (Q28 (p2 c)) c
      ∗ reached ER (recvCell c 2) 0 ∗ reached ER (recvCell c 3) 0 ∗ reached ER (recvCell c 4) 0 ∗ reached ER (recvCell c 5) 0 ∗ reached ER (recvCell c 8) 0 ∗ reached ER (recvCell c 9) 0 ∗ reached ER (recvCell c 14) 0 ∗ reached ER (recvCell c 15) 0) := by
  unfold barPay2; rw [p2_p2]

/-- The cut at the start (the reached facts of the device's own receive cells ride along into the two barrier payloads). -/
theorem start_split (c : Dev nD) :
    iprop(outE (F := F) c ∗ scratch (F := F) c ∗ □ (bigSep Finset.univ fun k : Fin 16 => (reached ER (recvCell c k) 0 : sProp 𝕄)))
      ⊢ iprop(regE (F := F) (E15 c) c ∗ regE (F := F) (E21 c) c ∗ regE (F := F) (E18 c) c ∗ regE (F := F) (E24 c) c
          ∗ regE (F := F) (sl5 s1a H0 (fun _ => rfl)) c ∗ regE (F := F) (sl5 s1a H1 (fun _ => rfl)) c ∗ regE (F := F) (sl5 s1b H0 (fun _ => rfl)) c ∗ regE (F := F) (sl5 s1b H1 (fun _ => rfl)) c
          ∗ regE (F := F) (sl2 s2a G0 (fun _ => rfl)) c ∗ regE (F := F) (sl2 s2a G1 (fun _ => rfl)) c ∗ regE (F := F) (sl2 s2b G0 (fun _ => rfl)) c ∗ regE (F := F) (sl2 s2b G1 (fun _ => rfl)) c
          ∗ barPay1 (F := F) (p1 c) ∗ barPay2 (F := F) (p2 c)) := by
  rw [barPay1_p1, barPay2_p2]
  unfold Proto.scratch
  iintro ⟨Ho, ⟨S0, S1, S2, S3, S4, S5, S6, S7⟩, #Hr⟩
  ihave Ho' := (out_cut (F := F) c) $$ Ho
  icases Ho' with ⟨A0, A1, A2, A3, A4, A5, A6, A7, A8, A9, A10, A11⟩
  ihave X0 := (cut_s1a (F := F) c) $$ S0
  icases X0 with ⟨B0, C0⟩
  ihave X1 := (cut_s1b (F := F) c) $$ S1
  icases X1 with ⟨B1, C1⟩
  ihave X2 := (cut_r1a (F := F) c) $$ S2
  icases X2 with ⟨B2, C2⟩
  ihave X3 := (cut_r1b (F := F) c) $$ S3
  icases X3 with ⟨B3, C3⟩
  ihave X4 := (cut_s2a (F := F) c) $$ S4
  icases X4 with ⟨B4, C4⟩
  ihave X5 := (cut_s2b (F := F) c) $$ S5
  icases X5 with ⟨B5, C5⟩
  ihave X6 := (cut_r2a (F := F) c) $$ S6
  icases X6 with ⟨B6, C6⟩
  ihave X7 := (cut_r2b (F := F) c) $$ S7
  icases X7 with ⟨B7, C7⟩
  ihave R0 := (recvReached_at (F := F) c 0) $$ Hr
  ihave R1 := (recvReached_at (F := F) c 1) $$ Hr
  ihave R2 := (recvReached_at (F := F) c 2) $$ Hr
  ihave R3 := (recvReached_at (F := F) c 3) $$ Hr
  ihave R4 := (recvReached_at (F := F) c 4) $$ Hr
  ihave R5 := (recvReached_at (F := F) c 5) $$ Hr
  ihave R6 := (recvReached_at (F := F) c 6) $$ Hr
  ihave R7 := (recvReached_at (F := F) c 7) $$ Hr
  ihave R8 := (recvReached_at (F := F) c 8) $$ Hr
  ihave R9 := (recvReached_at (F := F) c 9) $$ Hr
  ihave R10 := (recvReached_at (F := F) c 10) $$ Hr
  ihave R11 := (recvReached_at (F := F) c 11) $$ Hr
  ihave R12 := (recvReached_at (F := F) c 12) $$ Hr
  ihave R13 := (recvReached_at (F := F) c 13) $$ Hr
  ihave R14 := (recvReached_at (F := F) c 14) $$ Hr
  ihave R15 := (recvReached_at (F := F) c 15) $$ Hr
  iframe ∗ #

/-- The result buffer at the end. -/
theorem final_join (c : Dev nD) :
    iprop(sendPay m c 12 ∗ sendPay m c 13 ∗ sendPay m c 14 ∗ sendPay m c 15 ∗ recvPay m c 12 ∗ recvPay m c 13 ∗ recvPay m c 14 ∗ recvPay m c 15)
      ⊢ (((c : Thread nD τ).loc cc0_stg1_0) ↦{fullShare} outAt m c : sProp 𝕄) :=
  join8 (F := F) (ℓ := (c : Thread nD τ).loc cc0_stg1_0)
    (Q25 c).view.set (Q27 c).view.set (Q26 c).view.set (Q28 c).view.set (Q25 (p1 c)).view.set (Q27 (p1 c)).view.set (Q26 (p2 c)).view.set (Q28 (p2 c)).view.set
    ((Q25 c).view.rep (Val := Elt F) (V12 m c))
    ((Q27 c).view.rep (Val := Elt F) (V13 m c))
    ((Q26 c).view.rep (Val := Elt F) (V14 m c))
    ((Q28 c).view.rep (Val := Elt F) (V15 m c))
    ((Q25 (p1 c)).view.rep (Val := Elt F) (V12 m (p1 c)))
    ((Q27 (p1 c)).view.rep (Val := Elt F) (V13 m (p1 c)))
    ((Q26 (p2 c)).view.rep (Val := Elt F) (V14 m (p2 c)))
    ((Q28 (p2 c)).view.rep (Val := Elt F) (V15 m (p2 c)))
    (Geom.outQ_cover c) (Geom.outQ_disj c)

/-- The scratch buffers at the end. -/
theorem end_scratch (c : Dev nD) :
    iprop(sendPay m c 0 ∗ sendPay m c 1 ∗ sendPay m c 2 ∗ sendPay m c 3 ∗ sendPay m c 4 ∗ sendPay m c 5 ∗ sendPay m c 6 ∗ sendPay m c 7
        ∗ recvPay m c 0 ∗ recvPay m c 1 ∗ recvPay m c 2 ∗ recvPay m c 3 ∗ recvPay m c 4 ∗ recvPay m c 5 ∗ recvPay m c 6 ∗ recvPay m c 7)
      ⊢ scratch (F := F) c := by
  have h0 : iprop(sendPay m c 0 ∗ sendPay m c 1) ⊢ (iprop(∃ h, ((c : Thread nD τ).loc cc0_scratch0) ↦{fullShare} h) : sProp 𝕄) := join_s1a (F := F) c _ _
  have h1 : iprop(sendPay m c 2 ∗ sendPay m c 3) ⊢ (iprop(∃ h, ((c : Thread nD τ).loc cc0_scratch1) ↦{fullShare} h) : sProp 𝕄) := join_s1b (F := F) c _ _
  have h4 : iprop(sendPay m c 4 ∗ sendPay m c 5) ⊢ (iprop(∃ h, ((c : Thread nD τ).loc cc0_scratch4) ↦{fullShare} h) : sProp 𝕄) := join_s2a (F := F) c _ _
  have h5 : iprop(sendPay m c 6 ∗ sendPay m c 7) ⊢ (iprop(∃ h, ((c : Thread nD τ).loc cc0_scratch5) ↦{fullShare} h) : sProp 𝕄) := join_s2b (F := F) c _ _
  have h2 : iprop(recvPay m c 0 ∗ recvPay m c 1) ⊢ (iprop(∃ h, ((c : Thread nD τ).loc cc0_scratch2) ↦{fullShare} h) : sProp 𝕄) := join_r1a (F := F) c _ _
  have h3 : iprop(recvPay m c 2 ∗ recvPay m c 3) ⊢ (iprop(∃ h, ((c : Thread nD τ).loc cc0_scratch3) ↦{fullShare} h) : sProp 𝕄) := join_r1b (F := F) c _ _
  have h6 : iprop(recvPay m c 4 ∗ recvPay m c 5) ⊢ (iprop(∃ h, ((c : Thread nD τ).loc cc0_scratch6) ↦{fullShare} h) : sProp 𝕄) := join_r2a (F := F) c _ _
  have h7 : iprop(recvPay m c 6 ∗ recvPay m c 7) ⊢ (iprop(∃ h, ((c : Thread nD τ).loc cc0_scratch7) ↦{fullShare} h) : sProp 𝕄) := join_r2b (F := F) c _ _
  unfold Proto.scratch
  iintro ⟨S0, S1, S2, S3, S4, S5, S6, S7, R0, R1, R2, R3, R4, R5, R6, R7⟩
  ihave A0 := h0 $$ [S0 S1]
  · isplitl [S0] <;> iassumption
  ihave A1 := h1 $$ [S2 S3]
  · isplitl [S2] <;> iassumption
  ihave A4 := h4 $$ [S4 S5]
  · isplitl [S4] <;> iassumption
  ihave A5 := h5 $$ [S6 S7]
  · isplitl [S6] <;> iassumption
  ihave A2 := h2 $$ [R0 R1]
  · isplitl [R0] <;> iassumption
  ihave A3 := h3 $$ [R2 R3]
  · isplitl [R2] <;> iassumption
  ihave A6 := h6 $$ [R4 R5]
  · isplitl [R4] <;> iassumption
  ihave A7 := h7 $$ [R6 R7]
  · isplitl [R6] <;> iassumption
  iframe

/-- info: 'Cert.KernelIdeal.Glue.start_split' depends on axioms: [propext, Classical.choice, Quot.sound] -/
#guard_msgs in #print axioms start_split
/-- info: 'Cert.KernelIdeal.Glue.final_join' depends on axioms: [propext, Classical.choice, Quot.sound] -/
#guard_msgs in #print axioms final_join
/-- info: 'Cert.KernelIdeal.Glue.end_scratch' depends on axioms: [propext, Classical.choice, Quot.sound] -/
#guard_msgs in #print axioms end_scratch

end Cert.KernelIdeal.Glue

end
-- ==== Proof.Body.lean ====
/-
  The body obligation of the pipeline's one grid point on device c: the parts of the printed body chained, between the
  cut of the buffers into regions at the start and their joining at the end.
-/
import proofs.«900521_g7700000000000522_dist_f_of_ar_i_m2048_n1024_v7x_i4_bf16_1_alg».proof.Proof.PartsA
import proofs.«900521_g7700000000000522_dist_f_of_ar_i_m2048_n1024_v7x_i4_bf16_1_alg».proof.Proof.PartsB
import proofs.«900521_g7700000000000522_dist_f_of_ar_i_m2048_n1024_v7x_i4_bf16_1_alg».proof.Proof.PartsC
import proofs.«900521_g7700000000000522_dist_f_of_ar_i_m2048_n1024_v7x_i4_bf16_1_alg».proof.Proof.PartsD
import proofs.«900521_g7700000000000522_dist_f_of_ar_i_m2048_n1024_v7x_i4_bf16_1_alg».proof.Proof.Glue

noncomputable section

namespace Cert.KernelIdeal.Body

open Cert.KernelIdeal Cert.KernelIdeal.Gen Cert.KernelIdeal.Mesh Cert.KernelIdeal.Spec Cert.KernelIdeal.Sched Cert.KernelIdeal.Rules Cert.KernelIdeal.Proto Cert.KernelIdeal.BodyLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

open Cert.KernelIdeal.PartsA Cert.KernelIdeal.PartsB Cert.KernelIdeal.PartsC Cert.KernelIdeal.PartsD Cert.KernelIdeal.Glue
open Idealize.ShloMosaic.Pipeline (Dat Cfg Window BodyObligation cellOf)

variable (ρ : Dev nD → PrngReg)

theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (X m c) ∗ stg c cc0_stg1_0 (outAt m c))

theorem reached_pack (c : Dev nD) :
    iprop(reached ER (recvCell c 0) 0 ∗ reached ER (recvCell c 1) 0 ∗ reached ER (recvCell c 2) 0 ∗ reached ER (recvCell c 3) 0 ∗ reached ER (recvCell c 4) 0 ∗ reached ER (recvCell c 5) 0 ∗ reached ER (recvCell c 6) 0 ∗ reached ER (recvCell c 7) 0 ∗ reached ER (recvCell c 8) 0 ∗ reached ER (recvCell c 9) 0 ∗ reached ER (recvCell c 10) 0 ∗ reached ER (recvCell c 11) 0 ∗ reached ER (recvCell c 12) 0 ∗ reached ER (recvCell c 13) 0 ∗ reached ER (recvCell c 14) 0 ∗ reached ER (recvCell c 15) 0)
      ⊢ (iprop(□ (bigSep Finset.univ fun k : Fin 16 => (reached ER (recvCell c k) 0 : sProp 𝕄))) : sProp 𝕄) := by
  rw [bigSep_fin16]
  iintro ⟨#H0, #H1, #H2, #H3, #H4, #H5, #H6, #H7, #H8, #H9, #H10, #H11, #H12, #H13, #H14, #H15⟩
  imodintro
  isplitr; · iexact H0
  isplitr; · iexact H1
  isplitr; · iexact H2
  isplitr; · iexact H3
  isplitr; · iexact H4
  isplitr; · iexact H5
  isplitr; · iexact H6
  isplitr; · iexact H7
  isplitr; · iexact H8
  isplitr; · iexact H9
  isplitr; · iexact H10
  isplitr; · iexact H11
  isplitr; · iexact H12
  isplitr; · iexact H13
  isplitr; · iexact H14
  iexact H15

theorem barPay1_pk (c : Dev nD) :
    barPay1 (F := F) c ⊢ iprop(regE (F := F) (sl5 r1a H0 (fun _ => rfl)) (pk 0 c) ∗ regE (F := F) (sl5 r1a H1 (fun _ => rfl)) (pk 1 c) ∗ regE (F := F) (sl2 r2b G0 (fun _ => rfl)) (pk 6 c) ∗ regE (F := F) (sl2 r2b G1 (fun _ => rfl)) (pk 7 c)
      ∗ regE (F := F) (E18 c) (pk 10 c) ∗ regE (F := F) (E24 c) (pk 11 c) ∗ regE (F := F) (Q25 c) (pk 12 c) ∗ regE (F := F) (Q27 c) (pk 13 c)
      ∗ reached ER (recvCell (pk 0 c) 0) 0 ∗ reached ER (recvCell (pk 1 c) 1) 0 ∗ reached ER (recvCell (pk 6 c) 6) 0 ∗ reached ER (recvCell (pk 7 c) 7) 0
      ∗ reached ER (recvCell (pk 10 c) 10) 0 ∗ reached ER (recvCell (pk 11 c) 11) 0 ∗ reached ER (recvCell (pk 12 c) 12) 0 ∗ reached ER (recvCell (pk 13 c) 13) 0) :=
  Entails.of_eq rfl
theorem barPay2_pk (c : Dev nD) :
    barPay2 (F := F) c ⊢ iprop(regE (F := F) (sl5 r1b H0 (fun _ => rfl)) (pk 2 c) ∗ regE (F := F) (sl5 r1b H1 (fun _ => rfl)) (pk 3 c) ∗ regE (F := F) (sl2 r2a G0 (fun _ => rfl)) (pk 4 c) ∗ regE (F := F) (sl2 r2a G1 (fun _ => rfl)) (pk 5 c)
      ∗ regE (F := F) (E15 c) (pk 8 c) ∗ regE (F := F) (E21 c) (pk 9 c) ∗ regE (F := F) (Q26 c) (pk 14 c) ∗ regE (F := F) (Q28 c) (pk 15 c)
      ∗ reached ER (recvCell (pk 2 c) 2) 0 ∗ reached ER (recvCell (pk 3 c) 3) 0 ∗ reached ER (recvCell (pk 4 c) 4) 0 ∗ reached ER (recvCell (pk 5 c) 5) 0
      ∗ reached ER (recvCell (pk 8 c) 8) 0 ∗ reached ER (recvCell (pk 9 c) 9) 0 ∗ reached ER (recvCell (pk 14 c) 14) 0 ∗ reached ER (recvCell (pk 15 c) 15) 0) :=
  Entails.of_eq rfl

set_option maxHeartbeats 4000000 in
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9) Kt := by
  simp only [cc0_body_eq_skeleton]; unfold cc0_body_skel
  unfold bodyPre Φ₀ start ghost Dat.owesAt Pipeline.owesWithin
  simp only [bigSep_fin16 (perK c)]
  unfold perK
  rw [show (dats m ρ 0 c).owed t₀.castSucc = O₀ c from rfl]
  iintro ⟨⟨⟨⟨⟨%K, #HI, HatB, #HrB1, #HrB2, HtB1, HtB2, ⟨HpS0, HpR0, #HrS0, #HrR0, HtS0, HtR0, HcR0⟩, ⟨HpS1, HpR1, #HrS1, #HrR1, HtS1, HtR1, HcR1⟩, ⟨HpS2, HpR2, #HrS2, #HrR2, HtS2, HtR2, HcR2⟩, ⟨HpS3, HpR3, #HrS3, #HrR3, HtS3, HtR3, HcR3⟩, ⟨HpS4, HpR4, #HrS4, #HrR4, HtS4, HtR4, HcR4⟩, ⟨HpS5, HpR5, #HrS5, #HrR5, HtS5, HtR5, HcR5⟩, ⟨HpS6, HpR6, #HrS6, #HrR6, HtS6, HtR6, HcR6⟩, ⟨HpS7, HpR7, #HrS7, #HrR7, HtS7, HtR7, HcR7⟩, ⟨HpS8, HpR8, #HrS8, #HrR8, HtS8, HtR8, HcR8⟩, ⟨HpS9, HpR9, #HrS9, #HrR9, HtS9, HtR9, HcR9⟩, ⟨HpS10, HpR10, #HrS10, #HrR10, HtS10, HtR10, HcR10⟩, ⟨HpS11, HpR11, #HrS11, #HrR11, HtS11, HtR11, HcR11⟩, ⟨HpS12, HpR12, #HrS12, #HrR12, HtS12, HtR12, HcR12⟩, ⟨HpS13, HpR13, #HrS13, #HrR13, HtS13, HtR13, HcR13⟩, ⟨HpS14, HpR14, #HrS14, #HrR14, HtS14, HtR14, HcR14⟩, ⟨HpS15, HpR15, #HrS15, #HrR15, HtS15, HtR15, HcR15⟩⟩, HcB, #Hlev⟩, Hscr⟩, ⟨%W, %hW, HO⟩, ⟨%d0, %g0, %hg0, Hx⟩, ⟨%d1, %g1, %hg1, Hout⟩⟩, Hk⟩
  have hx : g0 = X m c := by rw [hg0]; unfold Dat.before; rw [if_pos (fetch_0 t₀)]; rfl
  subst hx
  -- the cut
  ihave Hcut := (start_split (F := F) c) $$ [Hout Hscr]
  · isplitl [Hout]; · iexists g1; iexact Hout
    isplitl [Hscr]; · iexact Hscr
    iapply (reached_pack (F := F) c)
    isplitr; · iexact HrR0
    isplitr; · iexact HrR1
    isplitr; · iexact HrR2
    isplitr; · iexact HrR3
    isplitr; · iexact HrR4
    isplitr; · iexact HrR5
    isplitr; · iexact HrR6
    isplitr; · iexact HrR7
    isplitr; · iexact HrR8
    isplitr; · iexact HrR9
    isplitr; · iexact HrR10
    isplitr; · iexact HrR11
    isplitr; · iexact HrR12
    isplitr; · iexact HrR13
    isplitr; · iexact HrR14
    iexact HrR15
  icases Hcut with ⟨HE15, HE21, HE18, HE24, Hs1a0, Hs1a1, Hs1b0, Hs1b1, Hs2a0, Hs2a1, Hs2b0, Hs2b1, Hbp1, Hbp2⟩
  -- part 1
  rw [wp_bind]
  iapply (part1 c _)
  iintro %r %hr
  obtain ⟨d0', v2, v3, v4, v32, c2, v33, v38⟩ := r
  have hd : d0' = c := hr
  subst hd
  dsimp only
  -- part 2
  rw [wp_bind]
  iapply (part2 m d0' K v2 v3 v4 v32 c2 v33 v38 W _)
  iframe # ∗
  iintro %r2 ⟨Hb1, Hb2, ⟨%W2, HO⟩⟩
  ihave Hb1' := (barPay1_pk (F := F) d0') $$ Hb1
  ihave Hb2' := (barPay2_pk (F := F) d0') $$ Hb2
  icases Hb1' with ⟨Hr1a0, Hr1a1, Hr2b0, Hr2b1, HF18, HF24, HG25, HG27, #HrP0, #HrP1, #HrP6, #HrP7, #HrP10, #HrP11, #HrP12, #HrP13⟩
  icases Hb2' with ⟨Hr1b0, Hr1b1, Hr2a0, Hr2a1, HF15, HF21, HG26, HG28, #HrP2, #HrP3, #HrP4, #HrP5, #HrP8, #HrP9, #HrP14, #HrP15⟩
  -- part 3
  rw [wp_bind]
  iapply (part3 m d0' K _ _ _ _ _ W2 _)
  iframe # ∗
  iintro ⟨Hx, HcS0, Hs1b0, ⟨%W3, HO⟩⟩
  -- part 4
  rw [wp_bind]
  iapply (part4 m d0' K _ _ _ _ W3 _)
  iframe # ∗
  iintro ⟨HcS2, HcS1, Hx, Hs1b1, ⟨%W4, HO⟩⟩
  -- part 5
  rw [wp_bind]
  iapply (part5 m d0' K _ _ W4 _)
  iframe # ∗
  iintro ⟨HcS3, HzS0, HsP0, HzR0, HrP0', HzS2, HsP2, ⟨%W5, HO⟩⟩
  -- part 6
  rw [wp_bind]
  iapply (part6 m d0' K _ _ _ W5 _)
  iframe # ∗
  iintro ⟨HzR2, HrP2', Hx, HrP0', HcS4, ⟨%W6, HO⟩⟩
  -- part 7
  rw [wp_bind]
  iapply (part7 m d0' K _ _ W6 _)
  iframe # ∗
  iintro ⟨Hx, HrP2', HcS6, HzS1, HsP1, ⟨%W7, HO⟩⟩
  -- part 8
  rw [wp_bind]
  iapply (part8 m d0' K _ _ _ W7 _)
  iframe # ∗
  iintro ⟨HzR1, HrP1', HzS3, HsP3, HzR3, HrP3', Hx, Hs2a1, ⟨%W8, HO⟩⟩
  -- part 9
  rw [wp_bind]
  iapply (part9 m d0' K _ _ _ _ W8 _)
  iframe # ∗
  iintro ⟨HcS5, Hx, HrP3', HcS7, ⟨%W9, HO⟩⟩
  -- part 10
  rw [wp_bind]
  iapply (part10 m d0' K _ _ _ _ W9 _)
  iframe # ∗
  iintro ⟨HzS4, HsP4, HzR4, HrP4', HzS6, HsP6, HzR6, HrP6', ⟨%W10, HO⟩⟩
  -- part 11
  rw [wp_bind]
  iapply (part11 m d0' K _ _ _ _ W10 _)
  iframe # ∗
  iintro ⟨Hx, HrP0', HrP4', HcS8, HrP2', ⟨%W11, HO⟩⟩
  dsimp only
  -- part 12
  rw [wp_bind]
  iapply (part12 m d0' K _ _ _ W11 _)
  iframe # ∗
  iintro ⟨HrP6', HcS10, HzS5, HsP5, ⟨%W12, HO⟩⟩
  -- part 13
  rw [wp_bind]
  iapply (part13 m d0' K _ _ _ W12 _)
  iframe # ∗
  iintro ⟨HzR5, HrP5', HzS7, HsP7, HzR7, HrP7', Hx, HrP1', ⟨%W13, HO⟩⟩
  -- part 14
  rw [wp_bind]
  iapply (part14 m d0' K _ _ _ _ _ _ W13 _)
  iframe # ∗
  iintro ⟨HcS9, Hx, HrP3', HrP7', HE24', ⟨%W14, HO⟩⟩
  -- part 15
  rw [wp_bind]
  iapply (part15 m d0' K _ _ _ _ W14 _)
  iframe # ∗
  iintro ⟨HcS11, HzS8, HsP8, HzR8, HrP8', HzS10, HsP10, HzR10, HrP10', ⟨%W15, HO⟩⟩
  -- part 16
  rw [wp_bind]
  iapply (part16 m d0' K _ _ _ _ _ W15 _)
  iframe # ∗
  iintro ⟨HcS12, HcS14, HzS9, HsP9, ⟨%W16, HO⟩⟩
  -- part 17
  rw [wp_bind]
  iapply (part17 m d0' K _ _ _ _ W16 _)
  iframe # ∗
  iintro ⟨HzR9, HzS11, HsP11, HzR11, HrP11', HcS13, ⟨%W17, HO⟩⟩
  -- part 18
  rw [wp_bind]
  iapply (part18 m d0' K _ _ W17 _)
  iframe # ∗
  iintro ⟨HcS15, HzS12, HsP12, HzR12, HrP12', HzS14, HsP14, HzR14, HrP14', ⟨%W18, HO⟩⟩
  -- the trailing waits
  iapply (tail m d0' K W18 _)
  iframe # ∗
  iintro ⟨HzS13, HsP13, HzR13, HrP13', HzS15, HsP15, HzR15, HrP15', ⟨%W19, HO⟩⟩
  -- the joins
  ihave Hscr := (end_scratch m d0') $$ [HsP0 HsP1 HsP2 HsP3 HsP4 HsP5 HsP6 HsP7 HrP0' HrP1' HrP2' HrP3' HrP4' HrP5' HrP6' HrP7']
  · iframe
  ihave Hout := (final_join m d0') $$ [HsP12 HsP13 HsP14 HsP15 HrP12' HrP13' HrP14' HrP15']
  · iframe
  iapply Hk
  unfold bodyPost Φ₁ Dat.owesAt Pipeline.owesWithin
  rw [show (dats m ρ 0 d0').owed t₀.succ = 0 from rfl, bigSep_fin16]
  isplitl [Hscr HzS0 HzR0 HzS1 HzR1 HzS2 HzR2 HzS3 HzR3 HzS4 HzR4 HzS5 HzR5 HzS6 HzR6 HzS7 HzR7 HzS8 HzR8 HzS9 HzR9 HzS10 HzR10 HzS11 HzR11 HzS12 HzR12 HzS13 HzR13 HzS14 HzR14 HzS15 HzR15]
  · isplitl [Hscr]; · iexact Hscr
    iframe
  isplitl [HO]
  · iexists W19
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Body

end
-- ==== Proof.Launch.lean ====
/-
  The launch of the exchange on the four devices: the launch element of the ghost state (every cell of every device
  in its launch state, one token per duty), its funding dealt per device, every cell's invariant allocated at once
  and regrouped into what each device starts from (the tokens permuted to the devices that pay with them), the
  launch credit (a device's barrier cell is owed a unit by each partner, the receive cell of copy k the copy's
  credit by the one partner that sends it), the staging waits (every cell a device owes to lies above level 0), and
  the run of the whole program from the body's obligation.
-/
import proofs.«900521_g7700000000000522_dist_f_of_ar_i_m2048_n1024_v7x_i4_bf16_1_alg».proof.Proof.Proto
import proofs.«900521_g7700000000000522_dist_f_of_ar_i_m2048_n1024_v7x_i4_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Mesh Cert.KernelIdeal.Spec Cert.KernelIdeal.Sched Cert.KernelIdeal.Rules Cert.KernelIdeal.Proto
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The partner maps as permutations of the devices -/

def p1E : Dev nD ≃ Dev nD := ⟨p1, p1, p1_p1, p1_p1⟩
def p2E : Dev nD ≃ Dev nD := ⟨p2, p2, p2_p2, p2_p2⟩
def pkE (k : Fin 16) : Dev nD ≃ Dev nD := ⟨pk k, pk k, pk_pk k, pk_pk k⟩

/-! ## The cells: per device its barrier cell, its sixteen send cells, its sixteen receive cells -/

abbrev CK : Type := Unit ⊕ (Fin 16 ⊕ Fin 16)
abbrev csem : CK → SemLoc sig
  | .inl _ => .reg barS
  | .inr (.inl k) => .dma (sS k)
  | .inr (.inr k) => .dma (rS k)
abbrev kcell (ck : Dev nD × CK) : GSem nD τ sig := ((ck.1 : Thread nD τ), csem ck.2)

/-- The kernel's own (scoped) semaphores: the send then the receive semaphores. -/
abbrev osem : Fin 16 ⊕ Fin 16 → SemLoc sig := Sum.elim (fun k => .dma (sS k)) (fun k => .dma (rS k))

theorem sS_ne_rS (k k' : Fin 16) : sS k ≠ rS k' := fun h => by
  have h' : 2 + k.val = 18 + k'.val := congrArg (fun q : DmaSem sig => q.val) h
  have := k.isLt; omega
theorem sS_inj {k k' : Fin 16} (h : sS k = sS k') : k = k' := by
  have h' : 2 + k.val = 2 + k'.val := congrArg (fun q : DmaSem sig => q.val) h
  exact Fin.ext (by omega)
theorem rS_inj {k k' : Fin 16} (h : rS k = rS k') : k = k' := by
  have h' : 18 + k.val = 18 + k'.val := congrArg (fun q : DmaSem sig => q.val) h
  exact Fin.ext (by omega)

theorem csem_injective : Function.Injective csem := by
  rintro (_ | k | k) (_ | k' | k') h
  · rfl
  · cases h
  · cases h
  · cases h
  · rw [sS_inj (SemLoc.dma.inj h)]
  · exact absurd (SemLoc.dma.inj h) (sS_ne_rS k k')
  · cases h
  · exact absurd (SemLoc.dma.inj h).symm (sS_ne_rS k' k)
  · rw [rS_inj (SemLoc.dma.inj h)]

theorem kcell_injective : Function.Injective (kcell : Dev nD × CK → GSem nD τ sig) := by
  rintro ⟨c, j⟩ ⟨c', j'⟩ h
  have h1 : c = c' := congrArg (fun g : GSem nD τ sig => g.1.1) h
  subst h1
  have h2 : csem j = csem j' := congrArg Prod.snd h
  rw [csem_injective h2]

def ringCells : Finset (GSem nD τ sig) := Finset.univ.map ⟨kcell, kcell_injective⟩

theorem mem_cells (ck : Dev nD × CK) : kcell ck ∈ ringCells := Finset.mem_map_of_mem _ (Finset.mem_univ ck)

/-- The duty tokens as minted, per device: its barrier's two, one per send cell, one per receive cell. -/
abbrev TK : Type := Bool ⊕ (Fin 16 ⊕ Fin 16)
abbrev tokOf (ct : Dev nD × TK) : GSem nD τ sig × ℕ × Bool := match ct.2 with
  | .inl b => (barCell ct.1, 0, b)
  | .inr (.inl k) => (sendCell ct.1 k, 0, false)
  | .inr (.inr k) => (recvCell ct.1 k, 0, false)

theorem tokOf_injective : Function.Injective (tokOf : Dev nD × TK → GSem nD τ sig × ℕ × Bool) := by
  rintro ⟨c, t⟩ ⟨c', t'⟩ h
  have h1 : c = c' := by
    have := congrArg (fun x : GSem nD τ sig × ℕ × Bool => x.1.1.1) h
    rcases t with b | k | k <;> rcases t' with b' | k' | k' <;> exact this
  subst h1
  have hs := congrArg (fun x : GSem nD τ sig × ℕ × Bool => x.1.2) h
  have hb := congrArg (fun x : GSem nD τ sig × ℕ × Bool => x.2.2) h
  rcases t with b | k | k <;> rcases t' with b' | k' | k'
  · have hb' : b = b' := hb
    rw [hb']
  · exact absurd (show (SemLoc.reg barS : SemLoc sig) = .dma (sS k') from hs) (fun h' => by cases h')
  · exact absurd (show (SemLoc.reg barS : SemLoc sig) = .dma (rS k') from hs) (fun h' => by cases h')
  · exact absurd (show (SemLoc.dma (sS k) : SemLoc sig) = .reg barS from hs) (fun h' => by cases h')
  · rw [sS_inj (SemLoc.dma.inj (show (SemLoc.dma (sS k) : SemLoc sig) = .dma (sS k') from hs))]
  · exact absurd (SemLoc.dma.inj (show (SemLoc.dma (sS k) : SemLoc sig) = .dma (rS k') from hs)) (sS_ne_rS k k')
  · exact absurd (show (SemLoc.dma (rS k) : SemLoc sig) = .reg barS from hs) (fun h' => by cases h')
  · exact absurd (SemLoc.dma.inj (show (SemLoc.dma (rS k) : SemLoc sig) = .dma (sS k') from hs)).symm (sS_ne_rS k' k)
  · rw [rS_inj (SemLoc.dma.inj (show (SemLoc.dma (rS k) : SemLoc sig) = .dma (rS k') from hs))]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-! ## The sums over a device's cells and tokens, split by kind -/

theorem bigSep_CK (Φ : CK → sProp 𝕄) :
    bigSep Finset.univ Φ = iprop(Φ (.inl ()) ∗ (bigSep Finset.univ fun k : Fin 16 => Φ (.inr (.inl k))) ∗ bigSep Finset.univ fun k : Fin 16 => Φ (.inr (.inr k))) := by
  rw [bigSep_univ_sum, bigSep_univ_sum, bigSep_univ_of_subsingleton ()]
  rfl

theorem bigSep_TK (Φ : TK → sProp 𝕄) :
    bigSep Finset.univ Φ = iprop((Φ (.inl false) ∗ Φ (.inl true)) ∗ (bigSep Finset.univ fun k : Fin 16 => Φ (.inr (.inl k))) ∗ bigSep Finset.univ fun k : Fin 16 => Φ (.inr (.inr k))) := by
  rw [bigSep_univ_sum, bigSep_univ_sum, bigSep_univ_eq_bigSepL [false, true] (by decide) (by decide)]
  rfl

theorem cells_eq (Φ : GSem nD τ sig → sProp 𝕄) :
    bigSep ringCells Φ = bigSep Finset.univ fun c : Dev nD => bigSep Finset.univ fun j : CK => Φ (kcell (c, j)) := by
  unfold ringCells; rw [bigSep_map, bigSep_univ_prod]; rfl

/-! ## The payloads can be stored in an invariant -/

set_option synthInstance.maxHeartbeats 1000000 in
set_option maxHeartbeats 1600000 in
instance barPay1_storable (c : Dev nD) : BI.Storable (upEmb : UEmb _ 𝕄) (barPay1 (F := F) c) := by unfold barPay1; infer_instance
set_option synthInstance.maxHeartbeats 1000000 in
set_option maxHeartbeats 1600000 in
instance barPay2_storable (c : Dev nD) : BI.Storable (upEmb : UEmb _ 𝕄) (barPay2 (F := F) c) := by unfold barPay2; infer_instance
set_option maxHeartbeats 3200000 in
instance sendPay_storable (c : Dev nD) (k : Fin 16) : BI.Storable (upEmb : UEmb _ 𝕄) (sendPay m c k) := by
  unfold sendPay; split <;> first | infer_instance | exact (by omega : False).elim
set_option maxHeartbeats 3200000 in
instance recvPay_storable (c : Dev nD) (k : Fin 16) : BI.Storable (upEmb : UEmb _ 𝕄) (recvPay m c k) := by
  unfold recvPay; split <;> first | infer_instance | exact (by omega : False).elim
instance dmaPay_storable (c : Dev nD) (q : DmaSem sig) : BI.Storable (upEmb : UEmb _ 𝕄) (dmaPay m c q) := by
  unfold dmaPay; split
  · split <;> infer_instance
  · infer_instance
instance Rd_payload_storable (g : GSem nD τ sig) (r : ℕ) (d : Bool) :
    BI.Storable (upEmb : UEmb _ 𝕄) ((Rd (F := F) m).payload g r d) := by
  show BI.Storable upEmb (match g.2 with | .reg _ => (if d then barPay2 g.1.1 else barPay1 g.1.1) | .dma q => dmaPay m g.1.1 q)
  split
  · split <;> infer_instance
  · infer_instance

/-! ## What the launch element deals each device -/

/-- The duty tokens of device c's own cells. -/
def toks (c : Dev nD) : sProp 𝕄 :=
  iprop((dutyTok ER (barCell c) 0 false ∗ dutyTok ER (barCell c) 0 true)
    ∗ (bigSep Finset.univ fun k : Fin 16 => dutyTok ER (sendCell c k) 0 false)
    ∗ bigSep Finset.univ fun k : Fin 16 => dutyTok ER (recvCell c k) 0 false)

def G (c : Dev nD) : sProp 𝕄 :=
  iprop((bigSep Finset.univ fun j : CK => roundState ER (Rd m) (kcell (c, j)) 0)
    ∗ (bigSep Finset.univ fun j : CK => reached ER (kcell (c, j)) 0)
    ∗ (bigSep Finset.univ fun j : CK => atPos ER (kcell (c, j)) 0 ∅ 0) ∗ toks c)

theorem fund_ring : BI.own (ER (initOf ringCells ringToks)) ⊢ (|==> bigSep Finset.univ (G m) : sProp 𝕄) := by
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (Rd m) ringCells ringToks) $$ HX with ⟨Hst, Hr, Hat, Htok⟩
  imodintro
  ihave Hst' := (Entails.of_eq (cells_eq fun g => roundState ER (Rd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-! ## The semaphores: the kernel's own thirty-two, and the one unscoped, the barrier -/

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop((bigSep Finset.univ fun k : Fin 16 => semVal (sendCell c k) 0) ∗ bigSep Finset.univ fun k : Fin 16 => semVal (recvCell c k) 0) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CK => semVal (kcell (c, j)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CK => iprop(∃ κ : ℕ, cellInv ER (Rd m) κ (kcell (c, j))))
          ∗ (bigSep Finset.univ fun j : CK => reached ER (kcell (c, j)) 0)
          ∗ (bigSep Finset.univ fun j : CK => atPos ER (kcell (c, j)) 0 ∅ 0) ∗ toks c) := by
  unfold G
  iintro ⟨Hos, Hus, Hst, Hr, Hat, Htok⟩
  ihave Hv := (sems0_eq (F := F) c) $$ [Hos Hus]
  · isplitl [Hos] <;> iassumption
  imod (show iprop((bigSep Finset.univ fun j : CK => semVal (kcell (c, j)) 0) ∗ bigSep Finset.univ fun j : CK => roundState ER (Rd m) (kcell (c, j)) 0)
      ⊢ (|={Set.univ}=> bigSep Finset.univ fun j : CK => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-! ## The invariants of all cells, shared; the tokens dealt to the devices that pay with them -/

def records (K : GSem nD τ sig → ℕ) : sProp 𝕄 :=
  iprop((bigSep ringCells fun g => cellInv ER (Rd m) (K g) g) ∗ bigSep ringCells fun g => reached ER g 0)

instance records_persistent (K : GSem nD τ sig → ℕ) : BI.Persistent (records m K) := by unfold records; infer_instance

/-- The tokens of the duties device c pays. -/
def payToks (c : Dev nD) : sProp 𝕄 :=
  iprop((dutyTok ER (barCell (p1 c)) 0 false ∗ dutyTok ER (barCell (p2 c)) 0 true)
    ∗ (bigSep Finset.univ fun k : Fin 16 => dutyTok ER (sendCell c k) 0 false)
    ∗ bigSep Finset.univ fun k : Fin 16 => dutyTok ER (recvCell (pk k c) k) 0 false)

/-- What the global step makes for device c: every cell's invariant and reached mark, its own positions, its paying tokens. -/
def G' (c : Dev nD) : sProp 𝕄 :=
  iprop(∃ K : GSem nD τ sig → ℕ, records m K ∗ ((bigSep Finset.univ fun j : CK => atPos ER (kcell (c, j)) 0 ∅ 0) ∗ payToks c))

theorem toks_around : (bigSep Finset.univ fun c : Dev nD => (toks (F := F) c : sProp 𝕄)) ⊢ bigSep Finset.univ fun c : Dev nD => payToks c := by
  have hBF : (bigSep Finset.univ fun c : Dev nD => (dutyTok ER (barCell c) 0 false : sProp 𝕄))
      = bigSep Finset.univ fun c : Dev nD => dutyTok ER (barCell (p1 c)) 0 false :=
    bigSep_univ_equiv p1E (fun c : Dev nD => (dutyTok ER (barCell c) 0 false : sProp 𝕄))
  have hBT : (bigSep Finset.univ fun c : Dev nD => (dutyTok ER (barCell c) 0 true : sProp 𝕄))
      = bigSep Finset.univ fun c : Dev nD => dutyTok ER (barCell (p2 c)) 0 true :=
    bigSep_univ_equiv p2E (fun c : Dev nD => (dutyTok ER (barCell c) 0 true : sProp 𝕄))
  have hR : (bigSep Finset.univ fun c : Dev nD => bigSep Finset.univ fun k : Fin 16 => (dutyTok ER (recvCell c k) 0 false : sProp 𝕄))
      = bigSep Finset.univ fun c : Dev nD => bigSep Finset.univ fun k : Fin 16 => dutyTok ER (recvCell (pk k c) k) 0 false :=
    (bigSep_univ_comm (fun (c : Dev nD) (k : Fin 16) => (dutyTok ER (recvCell c k) 0 false : sProp 𝕄))).trans
      ((bigSep_congr fun k _ => bigSep_univ_equiv (pkE k) (fun c : Dev nD => (dutyTok ER (recvCell c k) 0 false : sProp 𝕄))).trans
        (bigSep_univ_comm (fun (c : Dev nD) (k : Fin 16) => (dutyTok ER (recvCell (pk k c) k) 0 false : sProp 𝕄))).symm)
  unfold toks payToks
  simp only [bigSep_sep']
  iintro ⟨⟨H1, H2⟩, H3, H4⟩
  isplitl [H1 H2]
  · isplitl [H1]
    · iapply (Entails.of_eq hBF); iexact H1
    · iapply (Entails.of_eq hBT); iexact H2
  isplitl [H3]; · iexact H3
  iapply (Entails.of_eq hR); iexact H4

theorem regroup :
    (bigSep Finset.univ fun c : Dev nD => iprop((bigSep Finset.univ fun j : CK => iprop(∃ κ : ℕ, cellInv ER (Rd m) κ (kcell (c, j))))
          ∗ (bigSep Finset.univ fun j : CK => reached ER (kcell (c, j)) 0)
          ∗ (bigSep Finset.univ fun j : CK => atPos ER (kcell (c, j)) 0 ∅ 0) ∗ toks c) : sProp 𝕄)
      ⊢ bigSep Finset.univ (G' m) := by
  simp only [bigSep_sep']
  iintro ⟨HI, HR, Hat, Htok⟩
  ihave HI' := (Entails.of_eq (cells_eq fun g => iprop(∃ κ : ℕ, cellInv ER (Rd m) κ g)).symm) $$ HI
  ihave #HR' := (Entails.of_eq (cells_eq fun g => (reached ER g 0 : sProp 𝕄)).symm) $$ HR
  ihave HK := (BI.bigSep_exists_pi ringCells (fun (g : GSem nD τ sig) (κ : ℕ) => (cellInv ER (Rd m) κ g : sProp 𝕄))) $$ HI'
  icases HK with ⟨%K, #HI⟩
  ihave Htk := (toks_around (F := F)) $$ Htok
  iapply (bigSep_with_persistent (R := records m K)
    (Φ := fun c : Dev nD => iprop((bigSep Finset.univ fun j : CK => atPos ER (kcell (c, j)) 0 ∅ 0) ∗ payToks c))
    fun c _ => show iprop(records m K ∗ ((bigSep Finset.univ fun j : CK => atPos ER (kcell (c, j)) 0 ∅ 0) ∗ payToks c)) ⊢ G' m c from by
      unfold G'; iintro H; iexists K; iexact H)
  isplitr
  · unfold records; isplitl; · iexact HI
    iexact HR'
  · rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_two (g : GSem nD τ sig) : (tallyAt g () 2 : CellTallies nD τ sig Unit) = tallyAt g () 1 + tallyAt g () 1 := by
  unfold tallyAt; rw [← tallyOn_add, ← Finsupp.single_add]

/-- The receive credits of a list of copies: copy k's is owed to device c by the one device pk k c. -/
theorem creds_list (c : Dev nD) : ∀ ks : List (Fin 16),
    (Pipeline.launchCred (fun d : Dev nD => Oks d ks) c : sProp 𝕄) ⊢ bigSepL ks fun k => cred (tallyAt (recvCell c k) () (Nk k))
  | [] => by
    rw [show (fun d : Dev nD => Oks d []) = fun _ => (0 : CellTallies nD τ sig Unit) from rfl, Pipeline.launchCred_zero]
    exact Entails.refl _
  | k :: ks => by
    rw [bigSepL_cons]
    have e : (Pipeline.launchCred (fun d : Dev nD => Oks d (k :: ks)) c : sProp 𝕄)
        = iprop(Pipeline.launchCred (fun d : Dev nD => Oks d ks) c ∗ Pipeline.launchCred (fun d : Dev nD => tallyAt (recvCell (pk k d) k) () (Nk k)) c) :=
      Pipeline.launchCred_add (fun d : Dev nD => Oks d ks) (fun d : Dev nD => tallyAt (recvCell (pk k d) k) () (Nk k)) c
    rw [e]
    show _ ⊢ iprop(cred (tallyAt (recvCell c k) () (Nk k)) ∗ bigSepL ks fun k => cred (tallyAt (recvCell c k) () (Nk k)))
    iintro ⟨H1, H2⟩
    isplitl [H2]
    · iapply (Pipeline.launchCred_tallyAt (SemLoc.dma (rS k)) (pk k) (pk k) (pk_pk k) (pk_pk k) () (Nk k) c); iexact H2
    · iapply (creds_list c ks); iexact H1

theorem creds (c : Dev nD) :
    (Pipeline.launchCred O₀ c : sProp 𝕄)
      ⊢ iprop(cred (tallyAt (barCell c) () 2) ∗ bigSep Finset.univ fun k : Fin 16 => cred (tallyAt (recvCell c k) () (Nk k))) := by
  have e1 : (Pipeline.launchCred O₀ c : sProp 𝕄)
      = iprop(Pipeline.launchCred (fun d : Dev nD => O₁ d) c ∗ Pipeline.launchCred (fun d : Dev nD => tallyAt (barCell (p1 d)) () 1) c) :=
    Pipeline.launchCred_add (fun d : Dev nD => O₁ d) (fun d : Dev nD => tallyAt (barCell (p1 d)) () 1) c
  have e2 : (Pipeline.launchCred (fun d : Dev nD => O₁ d) c : sProp 𝕄)
      = iprop(Pipeline.launchCred (fun d : Dev nD => Oks d sendOrder) c ∗ Pipeline.launchCred (fun d : Dev nD => tallyAt (barCell (p2 d)) () 1) c) :=
    Pipeline.launchCred_add (fun d : Dev nD => Oks d sendOrder) (fun d : Dev nD => tallyAt (barCell (p2 d)) () 1) c
  rw [e1, e2, tally_two, bigSep_univ_eq_bigSepL sendOrder (by decide) (by decide)]
  iintro ⟨⟨HK, H2⟩, H1⟩
  isplitl [H1 H2]
  · iapply (cred_add _ _).2
    isplitl [H1]
    · iapply (Pipeline.launchCred_tallyAt (SemLoc.reg barS) p1 p1 p1_p1 p1_p1 () 1 c); iexact H1
    · iapply (Pipeline.launchCred_tallyAt (SemLoc.reg barS) p2 p2 p2_p2 p2_p2 () 1 c); iexact H2
  · iapply (creds_list c sendOrder); iexact HK

/-! ## The ghost state of a device from the shared records, its positions, its paying tokens and its credits -/

theorem inv_at (K : GSem nD τ sig → ℕ) {g : GSem nD τ sig} (hg : g ∈ ringCells) :
    (bigSep ringCells fun g => (cellInv ER (Rd m) (K g) g : sProp 𝕄)) ⊢ cellInv ER (Rd m) (K g) g := bigSep_elim hg
theorem reached_at {g : GSem nD τ sig} (hg : g ∈ ringCells) :
    (bigSep ringCells fun g => (reached ER g 0 : sProp 𝕄)) ⊢ reached ER g 0 := bigSep_elim hg

theorem invsK_intro (K : GSem nD τ sig → ℕ) (c : Dev nD) :
    (bigSep ringCells fun g => (cellInv ER (Rd m) (K g) g : sProp 𝕄))
      ⊢ bigSep Finset.univ fun k : Fin 16 => iprop(cellInv ER (Rd m) (K (sendCell c k)) (sendCell c k) ∗ cellInv ER (Rd m) (K (recvCell c k)) (recvCell c k)
        ∗ cellInv ER (Rd m) (K (recvCell (pk k c) k)) (recvCell (pk k c) k)) :=
  BI.bigSep_intro_persistent fun k _ => by
    iintro #HI
    isplitr; · iapply (inv_at m K (mem_cells (c, .inr (.inl k)))); iexact HI
    isplitr; · iapply (inv_at m K (mem_cells (c, .inr (.inr k)))); iexact HI
    iapply (inv_at m K (mem_cells (pk k c, .inr (.inr k)))); iexact HI

theorem invs_intro (K : GSem nD τ sig → ℕ) (c : Dev nD) :
    (bigSep ringCells fun g => (cellInv ER (Rd m) (K g) g : sProp 𝕄)) ⊢ invs m K c := by
  unfold Proto.invs
  iintro #HI
  isplitr; · iapply (inv_at m K (mem_cells (c, .inl ()))); iexact HI
  isplitr; · iapply (inv_at m K (mem_cells (p1 c, .inl ()))); iexact HI
  isplitr; · iapply (inv_at m K (mem_cells (p2 c, .inl ()))); iexact HI
  iapply (invsK_intro m K c); iexact HI

theorem perK_intro (c : Dev nD) :
    iprop((bigSep ringCells fun g => (reached ER g 0 : sProp 𝕄))
      ∗ (bigSep Finset.univ fun k : Fin 16 => atPos ER (sendCell c k) 0 ∅ 0) ∗ (bigSep Finset.univ fun k : Fin 16 => atPos ER (recvCell c k) 0 ∅ 0)
      ∗ (bigSep Finset.univ fun k : Fin 16 => dutyTok ER (sendCell c k) 0 false) ∗ (bigSep Finset.univ fun k : Fin 16 => dutyTok ER (recvCell (pk k c) k) 0 false)
      ∗ bigSep Finset.univ fun k : Fin 16 => cred (tallyAt (recvCell c k) () (Nk k)))
      ⊢ bigSep Finset.univ (perK (F := F) c) :=
  (sep_mono_right (Entails.of_eq (show _ = bigSep Finset.univ fun k : Fin 16 => iprop(atPos ER (sendCell c k) 0 ∅ 0 ∗ atPos ER (recvCell c k) 0 ∅ 0
      ∗ dutyTok ER (sendCell c k) 0 false ∗ dutyTok ER (recvCell (pk k c) k) 0 false ∗ cred (tallyAt (recvCell c k) () (Nk k))) from by
    simp only [bigSep_sep']))).trans
  (bigSep_with_persistent fun k _ => by
    unfold perK
    iintro ⟨#HR, HaS, HaV, HtS, HtV, Hc⟩
    isplitl [HaS]; · iexact HaS
    isplitl [HaV]; · iexact HaV
    isplitr; · iapply (reached_at (F := F) (mem_cells (c, .inr (.inl k)))); iexact HR
    isplitr; · iapply (reached_at (F := F) (mem_cells (c, .inr (.inr k)))); iexact HR
    isplitl [HtS]; · iexact HtS
    isplitl [HtV]; · iexact HtV
    iexact Hc)

theorem ghost_intro (K : GSem nD τ sig → ℕ) (c : Dev nD) :
    iprop(records m K ∗ ((bigSep Finset.univ fun j : CK => atPos ER (kcell (c, j)) 0 ∅ 0) ∗ payToks c)
        ∗ bigSep Finset.univ fun k : Fin 16 => cred (tallyAt (recvCell c k) () (Nk k)))
      ⊢ ghost m K c := by
  unfold records payToks ghost
  rw [bigSep_CK]
  iintro ⟨⟨#HI, #HR⟩, ⟨⟨HaB, HaS, HaV⟩, ⟨HtB1, HtB2⟩, HtS, HtV⟩, HcK⟩
  isplitr; · iapply (invs_intro m K c); iexact HI
  isplitl [HaB]; · iexact HaB
  isplitr; · iapply (reached_at (F := F) (mem_cells (p1 c, .inl ()))); iexact HR
  isplitr; · iapply (reached_at (F := F) (mem_cells (p2 c, .inl ()))); iexact HR
  isplitl [HtB1]; · iexact HtB1
  isplitl [HtB2]; · iexact HtB2
  iapply (perK_intro (F := F) c)
  isplitr; · iexact HR
  isplitl [HaS]; · iexact HaS
  isplitl [HaV]; · iexact HaV
  isplitl [HtS]; · iexact HtS
  isplitl [HtV]; · iexact HtV
  iexact HcK

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, HR, Hlin⟩⟩
  ihave Hc := (creds (F := F) c) $$ Hcr
  icases Hc with ⟨H2, HK⟩
  imodintro
  unfold start
  isplitl
  · isplitl [HR Hlin HK]
    · iexists K
      iapply (ghost_intro m K c)
      isplitl [HR]; · iexact HR
      isplitl [Hlin]; · iexact Hlin
      iexact HK
    isplitl [H2]; · iexact H2
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  rw [bigSep_sep']
  iintro ⟨Hr, HzS, HzV⟩
  isplitr; · iempintro
  isplitl [HzS HzV]
  · isplitl [HzS] <;> iassumption
  iexact Hr

/-! ## The staging waits: every cell a device owes to lies above level 0 -/

theorem Oks_pos {c : Dev nD} {g : GSem nD τ sig} {u : Unit} (ks : List (Fin 16)) (h : 0 < Oks c ks g u) : ∃ k, g = recvCell (pk k c) k := by
  induction ks with
  | nil => exact absurd h (Nat.lt_irrefl 0)
  | cons k ks ih =>
    rcases Pipeline.add_pos_cases (show 0 < (Oks c ks + tallyAt (recvCell (pk k c) k) () (Nk k)) g u from h) with h | h
    · exact ih h
    · exact ⟨k, (Pipeline.tallyAt_pos h).1⟩

theorem O₀_pos {c : Dev nD} {g : GSem nD τ sig} {u : Unit} (h : 0 < O₀ c g u) :
    g = barCell (p1 c) ∨ g = barCell (p2 c) ∨ ∃ k, g = recvCell (pk k c) k := by
  rcases Pipeline.add_pos_cases (show 0 < (O₁ c + tallyAt (barCell (p1 c)) () 1) g u from h) with h | h
  · rcases Pipeline.add_pos_cases (show 0 < (Oks c sendOrder + tallyAt (barCell (p2 c)) () 1) g u from h) with h | h
    · exact .inr (.inr (Oks_pos sendOrder h))
    · exact .inr (.inl (Pipeline.tallyAt_pos h).1)
  · exact .inl (Pipeline.tallyAt_pos h).1

theorem lv_recv_pos (d : Dev nD) (k : Fin 16) (u : Unit) : 0 < lv (recvCell d k) u := by
  show 0 < (if 2 ≤ (rS k).val then 2 + (2 * ((((rS k).val - 2) % 16) / 4) + (((rS k).val - 2) % 16) % 2) else 0)
  rw [if_pos (show 2 ≤ (rS k).val by show 2 ≤ 18 + k.val; omega)]; omega

theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rw [hq]
    rcases O₀_pos hg with rfl | rfl | ⟨k, rfl⟩
    · exact ⟨by rw [L_tc]; exact Finset.mem_singleton_self _, Nat.one_pos⟩
    · exact ⟨by rw [L_tc]; exact Finset.mem_singleton_self _, Nat.one_pos⟩
    · exact ⟨by rw [L_tc]; exact Finset.mem_singleton_self _, lv_recv_pos _ k u⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ## The run -/

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (Proto.dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of four devices, for any float values, from any memory with zero counters: given each device's body
    obligation, every weakly fair execution of the program terminates, and every final state has each window's array
    of each device at the contents the proof data names. -/
theorem run_main (hbody : ∀ c : Dev nD, BodyObligation (Proto.dats (F := F) m ρ 0 c) (defs₀ (F := F)) Rules.𝒱₀ () Set.univ) :
    θ_run defs (onTc (τ := τ) (main (F := F))) (Proto.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument's array after the run holds what it held. -/
theorem finalA_x (c : Dev nD) : finalA m ρ c (0 : Fin 2) = (Proto.s₀ m ρ).mem (win0_0.arr.view.loc (c : Thread nD τ)) :=
  (dats (F := F) m ρ 0 c).arrAt_in (0 : Fin 2) rfl _

/-! ## The result's array after the run -/

/-- Window 1 is written back at the one point: read through its block, the array then holds what was written. -/
theorem final_read (c : Dev nD) : ((cfg0.win (1 : Fin 2)).blk t₀).view.read (Elt F) ((dats (F := F) m ρ 0 c).arrAt (1 : Fin 2) cfg0.N)
      = (dats (F := F) m ρ 0 c).flushed (1 : Fin 2) t₀ := by
    rw [show cfg0.N = (t₀ : Fin cfg0.N).val + 1 from rfl, (dats (F := F) m ρ 0 c).arrAt_succ (1 : Fin 2) t₀,
      show (cfg0.win (1 : Fin 2)).flush t₀ = true from flush0_1 t₀, if_pos rfl]
    exact View.read_write_univ _ _

/-- The block is the whole array. -/
theorem blk_zero : (fun a => (win0_1.index t₀) a * main_v1.ty.shape.size a) = fun _ => 0 := funext fun a => by fin_cases a <;> decide
theorem blk_inb : ∀ a, (fun a => (win0_1.index t₀) a * main_v1.ty.shape.size a) a + main_v1.ty.shape.size a ≤ main_v1.ty.shape.size a :=
  fun a => by fin_cases a <;> decide

theorem final_flushed (c : Dev nD) : (dats (F := F) m ρ 0 c).arrAt (1 : Fin 2) cfg0.N = (dats (F := F) m ρ 0 c).flushed (1 : Fin 2) t₀ := by
  have h := final_read m ρ c
  rw [Memref.read_access_unit_zero (Elt F) main_v1 blk_zero blk_inb] at h
  exact h

set_option maxHeartbeats 800000 in
/-- What is written back is all of what the body left: the window is not cut. -/
theorem flushed_out (c : Dev nD) : (dats (F := F) m ρ 0 c).flushed (1 : Fin 2) t₀ = Spec.outAt m c := by
  funext j
  show Spec.outAt m c _ = Spec.outAt m c j
  exact congrArg (Spec.outAt m c) (funext fun a => Fin.ext rfl)

set_option maxHeartbeats 800000 in
/-- The result's array after the run holds the contents the exchange ends with. -/
theorem finalA_out (c : Dev nD) : finalA m ρ c (1 : Fin 2) = Spec.outAt m c :=
  (final_flushed m ρ c).trans (flushed_out m ρ c)

/-- info: 'Cert.KernelIdeal.Launch.run_main' depends on axioms: [propext, Classical.choice, Quot.sound] -/
#guard_msgs in #print axioms run_main

end Cert.KernelIdeal.Launch

end
-- ==== Proof.Run.lean ====
/-
  The run of the kernel on the four devices with the strongest post the claims need: every device's result array ends
  at Spec.outAt, every argument array as it was.
-/
import proofs.«900521_g7700000000000522_dist_f_of_ar_i_m2048_n1024_v7x_i4_bf16_1_alg».proof.Proof.Body
import proofs.«900521_g7700000000000522_dist_f_of_ar_i_m2048_n1024_v7x_i4_bf16_1_alg».proof.Proof.Launch

noncomputable section

namespace Cert.KernelIdeal.Run

open Cert.KernelIdeal Cert.KernelIdeal.Gen Cert.KernelIdeal.Mesh Cert.KernelIdeal.Spec Cert.KernelIdeal.Sched Cert.KernelIdeal.Rules Cert.KernelIdeal.Proto
open Idealize.ShloMosaic Idealize.ShloMosaic.TcCoe
open Idealize.SL Idealize.SL.Sem

variable {F : FTy → Type} [FloatOps F]

section Obligation

open Idealize.SL.RA Idealize.SL.BI
open scoped Idealize.SL.BI
open Idealize.SL.BI.BIBase Idealize.SL.BI.Laws Idealize.SL.ProofMode
open Idealize.ShloMosaic.Pipeline (Dat Cfg Window BodyObligation cellOf)

variable (m : (ℓ : Loc nD τ sig) → Buf (Elt F) ℓ) (ρ : Dev nD → PrngReg)

/-- The pipeline's body label at its one grid point is the kernel's body on the staged argument, the staged result and
    the scratch buffers, each whole. -/
theorem body_prog : defs₀ (F := F) .tc 0 (t₀, cfg0.slots t₀) = cc0_body (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 := rfl

/-- The proof data at the one grid point: the invariant before and after it, and what the point leaves in the two
    staged buffers (the argument's block; the result). -/
theorem Φ_before (c : Dev nD) : (Proto.dats (F := F) m ρ 0 c).Φ t₀.castSucc = Φ₀ m c := rfl
theorem Φ_after (c : Dev nD) : (Proto.dats (F := F) m ρ 0 c).Φ t₀.succ = Φ₁ c := rfl
theorem after_x (c : Dev nD) : (Proto.dats (F := F) m ρ 0 c).after (0 : Fin 2) t₀ = X m c := rfl
attribute [local irreducible] Spec.outAt in
theorem after_out (c : Dev nD) : (Proto.dats (F := F) m ρ 0 c).after (1 : Fin 2) t₀ = outAt m c := rfl

/-- The body obligation of the pipeline's one grid point on device c: the point is the only one, the two windows are the
    argument's and the result's staged buffers held whole, and what remains is the statement proved of the body. -/
theorem body_obligation (c : Dev nD) : BodyObligation (Proto.dats (F := F) m ρ 0 c) (defs₀ (F := F)) Rules.𝒱₀ () Set.univ := fun t => by
  rw [Proto.fin_N t]
  rw [Body.bigSep_W, Body.bigSep_W]
  simp only [Body.owns_whole_eq]
  rw [Φ_before, Φ_after, after_x, after_out, body_prog]
  iintro H
  iapply (Body.sound_body m ρ c fun _ => Body.bodyPost m ρ c)
  isplitl [H]; · unfold Body.bodyPre; iexact H
  iintro H; unfold Body.bodyPost; iexact H

end Obligation

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)) :=
  (θ_run (defs (F := F)) _ _).mono
    (fun r h c => ⟨(h c (1 : Fin 2)).trans (Launch.finalA_out m ρ c), (h c (0 : Fin 2)).trans (Launch.finalA_x m ρ c)⟩)
    (Launch.run_main m ρ (body_obligation m ρ))

/-- info: 'Cert.KernelIdeal.Run.run' depends on axioms: [propext, Classical.choice, Quot.sound] -/
#guard_msgs in #print axioms run

end Cert.KernelIdeal.Run

end
-- ==== Proof.Value.lean ====
/-
  The value of the result at the ideal instance, where floats are extended reals and the format changes are the identity.

  Device c holds the block x_c of the argument, the rows 2048c … 2048c + 2047 of the whole array. Write
  S = x_0 + x_1 + x_2 + x_3 and G = f ∘ S with f(s) = tanh(s)·s·s + max(s, 0)³, both read index by index. The
  exchanges form S on each eighth of the rows in the order (x_c + x_p) + (x_q + x_{p q}) for the owner c and its two
  partners p, q; addition of extended reals is commutative and associative, so each such order is S, with no finiteness
  needed. So each eighth a device computes is G read through that eighth's row block; a region that holds the
  representative of such a read holds G on its own elements; two eighths joined and read through a quarter's rows are G
  read through the quarter; and the eight quarter-by-half boxes joined at the end cover every index, so the whole result
  buffer is G. The reference sums the four blocks of the whole array at the same index and applies the same f.

  Indices are handled by coordinate ranges throughout: an index lies in a box when its row and its column lie in the
  box's two ranges, and the offsets are read in closed form over the device's two mesh coordinates.
-/
import proofs.«900521_g7700000000000522_dist_f_of_ar_i_m2048_n1024_v7x_i4_bf16_1_alg».proof.Proof.Spec
import proofs.«900521_g7700000000000522_dist_f_of_ar_i_m2048_n1024_v7x_i4_bf16_1_alg».proof.Proof.Gen.ReferenceIdeal.Read
import Idealize.ShloMosaic.Lib.Pipeline.Value
import Idealize.ShloMosaic.Lib.ValueIdx
import Idealize.ShloMosaic.Lib.Layout
import Idealize.ShloMosaic.PureOps.Ideal.Laws

noncomputable section

namespace Cert.KernelIdeal.Value

open Idealize.ShloMosaic Idealize.ShloMosaic.TcCoe Idealize.SL.Sem Cert.KernelIdeal Cert.KernelIdeal.Gen Cert.KernelIdeal.Mesh Cert.KernelIdeal.Spec

/-! ## Views: what a representative holds, and what is read back -/

section Views

variable {σ : RefSig} {κ : Kind} {sp : Space} {s : Shape} {e : EltTy} {Val : EltTy → Type} [∀ e, Nonempty (Val e)]

/-- The representative of what a view reads off contents G holds G on the view's own elements. -/
theorem rep_read_of_mem (v : View σ κ sp s e) (G : v.ty.Contents Val) {i : v.ty.Idx} (h : i ∈ v.set) :
    v.rep (v.read Val G) i = G i := by
  obtain ⟨y, rfl⟩ := View.exists_emb_of_mem_set v h
  rw [View.rep_emb, View.read_apply, cast_cast, cast_eq]

/-- Two contents joined on a set agree with G wherever the first agrees on the set and the second
    agrees where a condition holds, at every index in the set or under the condition. -/
theorem piecewise_agree {ι α : Type} [DecidableEq ι] (S : Finset ι) (P : ι → Prop) (A B G : ι → α)
    (hA : ∀ i ∈ S, A i = G i) (hB : ∀ i, P i → B i = G i) {i : ι} (h : i ∈ S ∨ P i) :
    S.piecewise A B i = G i := by
  by_cases hi : i ∈ S
  · rw [Finset.piecewise_eq_of_mem _ _ _ hi]; exact hA i hi
  · rw [Finset.piecewise_eq_of_notMem _ _ _ hi]; exact hB i (h.resolve_left hi)

/-- A load at a box inside a region that holds the representative of a vector reads the vector at the
    region's index whose coordinates are the box's, shifted by the difference of the offsets. -/
theorem readAt_rep_slice (v : View σ κ sp s e) (o1 z1 o2 z2 : Fin s.rank → Nat)
    (h1 : ∀ a, o1 a + z1 a ≤ s.size a) (h2 : ∀ a, o2 a + z2 a ≤ s.size a)
    (hsub : ∀ a, o1 a ≤ o2 a ∧ o2 a + z2 a ≤ o1 a + z1 a)
    (V : (Rect.unit o1 z1 h1).shape.Idx → Val e) (j : (Rect.unit o2 z2 h2).shape.Idx) :
    ∃ y : (Rect.unit o1 z1 h1).shape.Idx, (∀ a, (y a).val + o1 a = o2 a + (j a).val) ∧
      v.readAt Val (Rect.unit o2 z2 h2).toLoadRect ((v.slice (Rect.unit o1 z1 h1)).rep V) j = V y := by
  have hb : ∀ a, o2 a - o1 a + (j a).val < z1 a := fun a => by
    have hj : (j a).val < z2 a := (j a).isLt
    have hs := hsub a
    omega
  refine ⟨fun a => ⟨o2 a - o1 a + (j a).val, hb a⟩, fun a => ?_, ?_⟩
  · have hs := hsub a
    show o2 a - o1 a + (j a).val + o1 a = o2 a + (j a).val
    omega
  · rw [View.readAt_apply, View.read_apply]
    have hidx : v.emb ((Rect.unit o2 z2 h2).toLoadRect.idx j)
        = (v.slice (Rect.unit o1 z1 h1)).emb (fun a => ⟨o2 a - o1 a + (j a).val, hb a⟩) := by
      show v.emb _ = v.emb ((Rect.unit o1 z1 h1).emb _)
      congr 1
      funext a
      refine Fin.ext ?_
      have hs := hsub a
      show o2 a + 1 * (j a).val = o1 a + 1 * (o2 a - o1 a + (j a).val)
      omega
    rw [hidx, View.rep_emb, cast_cast, cast_eq]

end Views

/-! ## The payloads at an index, at the ideal instance -/

/-- The function applied to the sum: tanh(s)·s·s + max(s,0)³, the zero spelt as the program spells it. -/
def fE (s : EReal) : EReal :=
  Ideal.tanh s * s * s
    + max s (Ideal.ofBits .f32 0x00000000#32) * max s (Ideal.ofBits .f32 0x00000000#32) * max s (Ideal.ofBits .f32 0x00000000#32)

theorem pay1_apply (a : Vec Ideal S512x512 .f32) (j : S512x512.Idx) : (k0_pay1 a j : EReal) = a j := by
  unfold k0_pay1; simp only [shapeCast_self]; rfl
theorem pay2_apply (a : Vec Ideal S512x512 .f32) (j : S512x512.Idx) : (k0_pay2 a j : EReal) = a j := by
  unfold k0_pay2; simp only [shapeCast_self]; rfl
theorem pay3_apply (a : Vec Ideal S512x512 .f32) (j : S512x512.Idx) : (k0_pay3 a j : EReal) = a j := by
  unfold k0_pay3; simp only [shapeCast_self]; rfl
theorem pay4_apply (a : Vec Ideal S512x512 .f32) (j : S512x512.Idx) : (k0_pay4 a j : EReal) = a j := by
  unfold k0_pay4; simp only [shapeCast_self]; rfl

theorem pay5_apply (a : Vec Ideal S256x512 .f32) (b : Vec Ideal S256x512 .bf16) (j : S256x512.Idx) :
    (k0_pay5 a b j : EReal) = (a j : EReal) + (b j : EReal) := by
  unfold k0_pay5; simp only [shapeCast_self]; rfl
theorem pay6_apply (a : Vec Ideal S256x512 .f32) (b : Vec Ideal S256x512 .bf16) (j : S256x512.Idx) :
    (k0_pay6 a b j : EReal) = (a j : EReal) + (b j : EReal) := by
  unfold k0_pay6; simp only [shapeCast_self]; rfl
theorem pay7_apply (a : Vec Ideal S256x512 .f32) (b : Vec Ideal S256x512 .bf16) (j : S256x512.Idx) :
    (k0_pay7 a b j : EReal) = (a j : EReal) + (b j : EReal) := by
  unfold k0_pay7; simp only [shapeCast_self]; rfl
theorem pay8_apply (a : Vec Ideal S256x512 .f32) (b : Vec Ideal S256x512 .bf16) (j : S256x512.Idx) :
    (k0_pay8 a b j : EReal) = (a j : EReal) + (b j : EReal) := by
  unfold k0_pay8; simp only [shapeCast_self]; rfl

theorem pay9_apply (a : Vec Ideal S256x512 .f32) (b c : Vec Ideal S256x512 .bf16) (j : S256x512.Idx) :
    (k0_pay9 a b c j : EReal) = fE (((a j : EReal) + (b j : EReal)) + (c j : EReal)) := by
  unfold k0_pay9; simp only [shapeCast_self]; rfl
theorem pay12_apply (a : Vec Ideal S256x512 .f32) (b c : Vec Ideal S256x512 .bf16) (j : S256x512.Idx) :
    (k0_pay12 (k0_pay10 a) (k0_pay11 b) c j : EReal) = fE (((a j : EReal) + (b j : EReal)) + (c j : EReal)) := by
  unfold k0_pay12 k0_pay10 k0_pay11; simp only [shapeCast_self]; rfl
theorem pay13_apply (a : Vec Ideal S256x512 .f32) (b c : Vec Ideal S256x512 .bf16) (j : S256x512.Idx) :
    (k0_pay13 a b c j : EReal) = fE (((a j : EReal) + (b j : EReal)) + (c j : EReal)) := by
  unfold k0_pay13; simp only [shapeCast_self]; rfl
theorem pay14_apply (a : Vec Ideal S256x512 .f32) (b c : Vec Ideal S256x512 .bf16) (j : S256x512.Idx) :
    (k0_pay14 a b c j : EReal) = fE (((a j : EReal) + (b j : EReal)) + (c j : EReal)) := by
  unfold k0_pay14; simp only [shapeCast_self]; rfl

/-! ## The offsets' two coordinates, in closed form over the device's mesh coordinates -/
theorem off1_r (c : Dev nD) : k0_off1 c 0 = (1 - b1 c) * 512 := by rw [off1_eq]; rfl
theorem off1_c (c : Dev nD) : k0_off1 c 1 = 0 := by rw [off1_eq]; rfl
theorem off2_r (c : Dev nD) : k0_off2 c 0 = 1024 + (1 - b2 c) * 512 := by rw [off2_eq]; rfl
theorem off2_c (c : Dev nD) : k0_off2 c 1 = 0 := by rw [off2_eq]; rfl
theorem off3_r (c : Dev nD) : k0_off3 c 0 = (1 - b1 c) * 512 := by rw [off3_eq]; rfl
theorem off3_c (c : Dev nD) : k0_off3 c 1 = 512 := by rw [off3_eq]; rfl
theorem off4_r (c : Dev nD) : k0_off4 c 0 = 1024 + (1 - b2 c) * 512 := by rw [off4_eq]; rfl
theorem off4_c (c : Dev nD) : k0_off4 c 1 = 512 := by rw [off4_eq]; rfl
theorem off5_r (c : Dev nD) : k0_off5 c 0 = b1 c * 512 + (1 - b2 c) * 256 := by rw [off5_eq]; rfl
theorem off5_c (c : Dev nD) : k0_off5 c 1 = 0 := by rw [off5_eq]; rfl
theorem off6_r (c : Dev nD) : k0_off6 c 0 = (1 - b2 c) * 256 := by rw [off6_eq]; rfl
theorem off6_c (c : Dev nD) : k0_off6 c 1 = 0 := by rw [off6_eq]; rfl
theorem off7_r (c : Dev nD) : k0_off7 c 0 = 1024 + b2 c * 512 + (1 - b1 c) * 256 := by rw [off7_eq]; rfl
theorem off7_c (c : Dev nD) : k0_off7 c 1 = 0 := by rw [off7_eq]; rfl
theorem off8_r (c : Dev nD) : k0_off8 c 0 = (1 - b1 c) * 256 := by rw [off8_eq]; rfl
theorem off8_c (c : Dev nD) : k0_off8 c 1 = 0 := by rw [off8_eq]; rfl
theorem off9_r (c : Dev nD) : k0_off9 c 0 = b1 c * 512 + (1 - b2 c) * 256 := by rw [off9_eq]; rfl
theorem off9_c (c : Dev nD) : k0_off9 c 1 = 512 := by rw [off9_eq]; rfl
theorem off10_r (c : Dev nD) : k0_off10 c 0 = (1 - b2 c) * 256 := by rw [off10_eq]; rfl
theorem off10_c (c : Dev nD) : k0_off10 c 1 = 512 := by rw [off10_eq]; rfl
theorem off11_r (c : Dev nD) : k0_off11 c 0 = 1024 + b2 c * 512 + (1 - b1 c) * 256 := by rw [off11_eq]; rfl
theorem off11_c (c : Dev nD) : k0_off11 c 1 = 512 := by rw [off11_eq]; rfl
theorem off12_r (c : Dev nD) : k0_off12 c 0 = (1 - b1 c) * 256 := by rw [off12_eq]; rfl
theorem off12_c (c : Dev nD) : k0_off12 c 1 = 512 := by rw [off12_eq]; rfl
theorem off13_r (c : Dev nD) : k0_off13 c 0 = b1 c * 512 + b2 c * 256 := by rw [off13_eq]; rfl
theorem off13_c (c : Dev nD) : k0_off13 c 1 = 0 := by rw [off13_eq]; rfl
theorem off14_r (c : Dev nD) : k0_off14 c 0 = b2 c * 256 := by rw [off14_eq]; rfl
theorem off14_c (c : Dev nD) : k0_off14 c 1 = 0 := by rw [off14_eq]; rfl
theorem off15_r (c : Dev nD) : k0_off15 c 0 = b1 c * 512 + b2 c * 256 := by rw [off15_eq]; rfl
theorem off15_c (c : Dev nD) : k0_off15 c 1 = 0 := by rw [off15_eq]; rfl
theorem off16_r (c : Dev nD) : k0_off16 c 0 = 1024 + b2 c * 512 + b1 c * 256 := by rw [off16_eq]; rfl
theorem off16_c (c : Dev nD) : k0_off16 c 1 = 0 := by rw [off16_eq]; rfl
theorem off17_r (c : Dev nD) : k0_off17 c 0 = b1 c * 256 := by rw [off17_eq]; rfl
theorem off17_c (c : Dev nD) : k0_off17 c 1 = 0 := by rw [off17_eq]; rfl
theorem off18_r (c : Dev nD) : k0_off18 c 0 = 1024 + b2 c * 512 + b1 c * 256 := by rw [off18_eq]; rfl
theorem off18_c (c : Dev nD) : k0_off18 c 1 = 0 := by rw [off18_eq]; rfl
theorem off19_r (c : Dev nD) : k0_off19 c 0 = b1 c * 512 + b2 c * 256 := by rw [off19_eq]; rfl
theorem off19_c (c : Dev nD) : k0_off19 c 1 = 512 := by rw [off19_eq]; rfl
theorem off20_r (c : Dev nD) : k0_off20 c 0 = b2 c * 256 := by rw [off20_eq]; rfl
theorem off20_c (c : Dev nD) : k0_off20 c 1 = 512 := by rw [off20_eq]; rfl
theorem off21_r (c : Dev nD) : k0_off21 c 0 = b1 c * 512 + b2 c * 256 := by rw [off21_eq]; rfl
theorem off21_c (c : Dev nD) : k0_off21 c 1 = 512 := by rw [off21_eq]; rfl
theorem off22_r (c : Dev nD) : k0_off22 c 0 = 1024 + b2 c * 512 + b1 c * 256 := by rw [off22_eq]; rfl
theorem off22_c (c : Dev nD) : k0_off22 c 1 = 512 := by rw [off22_eq]; rfl
theorem off23_r (c : Dev nD) : k0_off23 c 0 = b1 c * 256 := by rw [off23_eq]; rfl
theorem off23_c (c : Dev nD) : k0_off23 c 1 = 512 := by rw [off23_eq]; rfl
theorem off24_r (c : Dev nD) : k0_off24 c 0 = 1024 + b2 c * 512 + b1 c * 256 := by rw [off24_eq]; rfl
theorem off24_c (c : Dev nD) : k0_off24 c 1 = 512 := by rw [off24_eq]; rfl
theorem off25_r (c : Dev nD) : k0_off25 c 0 = b1 c * 512 := by rw [off25_eq]; rfl
theorem off25_c (c : Dev nD) : k0_off25 c 1 = 0 := by rw [off25_eq]; rfl
theorem off26_r (c : Dev nD) : k0_off26 c 0 = 1024 + b2 c * 512 := by rw [off26_eq]; rfl
theorem off26_c (c : Dev nD) : k0_off26 c 1 = 0 := by rw [off26_eq]; rfl
theorem off27_r (c : Dev nD) : k0_off27 c 0 = b1 c * 512 := by rw [off27_eq]; rfl
theorem off27_c (c : Dev nD) : k0_off27 c 1 = 512 := by rw [off27_eq]; rfl
theorem off28_r (c : Dev nD) : k0_off28 c 0 = 1024 + b2 c * 512 := by rw [off28_eq]; rfl
theorem off28_c (c : Dev nD) : k0_off28 c 1 = 512 := by rw [off28_eq]; rfl

/-! ## The staged argument -/

variable (m : (ℓ : Loc nD τ sig) → Buf (Elt Ideal) ℓ)

/-- The staged block is the device's block of the argument: the window is the whole array. -/
theorem X_eq (c : Dev nD) : X m c = m ((c : Thread nD τ).loc main_arg0) := by
  unfold X
  exact Memref.read_access_unit_zero (Elt Ideal) main_arg0 (funext fun a => Nat.zero_mul _) _ _

/-- Device c's staged block at an index, as an extended real. -/
def xE (c : Dev nD) (i : S2048x1024.Idx) : EReal := X m c i

/-- A load of the staged block at a box reads the block at the box's offsets plus the local index. -/
theorem xl_apply (c : Dev nD) (off sz : Fin S2048x1024.rank → Nat) (h : ∀ a, off a + sz a ≤ S2048x1024.size a)
    (j : (Rect.unit (s := S2048x1024) off sz h).shape.Idx) (i : S2048x1024.Idx)
    (h0 : (i 0).val = off 0 + (j 0).val) (h1 : (i 1).val = off 1 + (j 1).val) :
    (xl m c off sz h j : EReal) = xE m c i := by
  show X m c ((Rect.unit (s := S2048x1024) off sz h).toLoadRect.idx j) = X m c i
  congr 1
  refine Shape.idx_ext₂ ?_ ?_
  · show off 0 + 1 * (j 0).val = (i 0).val
    omega
  · show off 1 + 1 * (j 1).val = (i 1).val
    omega

/-! ## First exchange: the narrowed quarters -/

theorem V0_apply (c : Dev nD) (j : S512x512.Idx) (i : S2048x1024.Idx)
    (h0 : (i 0).val = (1 - b1 c) * 512 + (j 0).val) (h1 : (i 1).val = (j 1).val) :
    (V0 m c j : EReal) = xE m c i := by
  unfold V0; rw [pay1_apply]
  exact xl_apply m c _ _ _ j i (by rw [off1_r]; exact h0) (by rw [off1_c]; omega)
theorem V1_apply (c : Dev nD) (j : S512x512.Idx) (i : S2048x1024.Idx)
    (h0 : (i 0).val = (1 - b1 c) * 512 + (j 0).val) (h1 : (i 1).val = 512 + (j 1).val) :
    (V1 m c j : EReal) = xE m c i := by
  unfold V1; rw [pay3_apply]
  exact xl_apply m c _ _ _ j i (by rw [off3_r]; exact h0) (by rw [off3_c]; omega)
theorem V2_apply (c : Dev nD) (j : S512x512.Idx) (i : S2048x1024.Idx)
    (h0 : (i 0).val = 1024 + (1 - b2 c) * 512 + (j 0).val) (h1 : (i 1).val = (j 1).val) :
    (V2 m c j : EReal) = xE m c i := by
  unfold V2; rw [pay2_apply]
  exact xl_apply m c _ _ _ j i (by rw [off2_r]; exact h0) (by rw [off2_c]; omega)
theorem V3_apply (c : Dev nD) (j : S512x512.Idx) (i : S2048x1024.Idx)
    (h0 : (i 0).val = 1024 + (1 - b2 c) * 512 + (j 0).val) (h1 : (i 1).val = 512 + (j 1).val) :
    (V3 m c j : EReal) = xE m c i := by
  unfold V3; rw [pay4_apply]
  exact xl_apply m c _ _ _ j i (by rw [off4_r]; exact h0) (by rw [off4_c]; omega)

/-! ## Second exchange: own rows plus what the first exchange brought -/

theorem V4_apply (c : Dev nD) (j : S256x512.Idx) (i : S2048x1024.Idx)
    (h0 : (i 0).val = b1 c * 512 + (1 - b2 c) * 256 + (j 0).val) (h1 : (i 1).val = (j 1).val) :
    (V4 m c j : EReal) = xE m c i + xE m (p1 c) i := by
  have hb1 := b1_le c; have hb2 := b2_le c
  unfold V4; rw [pay5_apply]
  obtain ⟨y, hy, e⟩ := readAt_rep_slice (Val := Elt Ideal) r1a.view ![0, 0] S512x512.size (k0_off6 c) S256x512.size
    inb_S512x1024_S512x512_0_0 (k0_off6_inb c)
    (Fin.forall_fin_two.mpr ⟨by rw [off6_r]; show 0 ≤ _ ∧ _ + 256 ≤ 0 + 512; omega, by rw [off6_c]; show 0 ≤ 0 ∧ 0 + 512 ≤ 0 + 512; omega⟩)
    (V0 m (p1 c)) j
  have hy0 : (y 0).val + 0 = k0_off6 c 0 + (j 0).val := hy 0
  have hy1 : (y 1).val + 0 = k0_off6 c 1 + (j 1).val := hy 1
  rw [off6_r] at hy0; rw [off6_c] at hy1
  refine congrArg₂ (· + ·) ?_ (e.trans ?_)
  · exact xl_apply m c _ _ _ j i (by rw [off5_r]; exact h0) (by rw [off5_c]; omega)
  · exact V0_apply m (p1 c) y i (by rw [b1_p1]; omega) (by omega)
theorem V5_apply (c : Dev nD) (j : S256x512.Idx) (i : S2048x1024.Idx)
    (h0 : (i 0).val = b1 c * 512 + (1 - b2 c) * 256 + (j 0).val) (h1 : (i 1).val = 512 + (j 1).val) :
    (V5 m c j : EReal) = xE m c i + xE m (p1 c) i := by
  have hb1 := b1_le c; have hb2 := b2_le c
  unfold V5; rw [pay7_apply]
  obtain ⟨y, hy, e⟩ := readAt_rep_slice (Val := Elt Ideal) r1a.view ![0, 512] S512x512.size (k0_off10 c) S256x512.size
    inb_S512x1024_S512x512_0_512 (k0_off10_inb c)
    (Fin.forall_fin_two.mpr ⟨by rw [off10_r]; show 0 ≤ _ ∧ _ + 256 ≤ 0 + 512; omega, by rw [off10_c]; show 512 ≤ 512 ∧ 512 + 512 ≤ 512 + 512; omega⟩)
    (V1 m (p1 c)) j
  have hy0 : (y 0).val + 0 = k0_off10 c 0 + (j 0).val := hy 0
  have hy1 : (y 1).val + 512 = k0_off10 c 1 + (j 1).val := hy 1
  rw [off10_r] at hy0; rw [off10_c] at hy1
  refine congrArg₂ (· + ·) ?_ (e.trans ?_)
  · exact xl_apply m c _ _ _ j i (by rw [off9_r]; exact h0) (by rw [off9_c]; omega)
  · exact V1_apply m (p1 c) y i (by rw [b1_p1]; omega) (by omega)
theorem V6_apply (c : Dev nD) (j : S256x512.Idx) (i : S2048x1024.Idx)
    (h0 : (i 0).val = 1024 + b2 c * 512 + (1 - b1 c) * 256 + (j 0).val) (h1 : (i 1).val = (j 1).val) :
    (V6 m c j : EReal) = xE m c i + xE m (p2 c) i := by
  have hb1 := b1_le c; have hb2 := b2_le c
  unfold V6; rw [pay6_apply]
  obtain ⟨y, hy, e⟩ := readAt_rep_slice (Val := Elt Ideal) r1b.view ![0, 0] S512x512.size (k0_off8 c) S256x512.size
    inb_S512x1024_S512x512_0_0 (k0_off8_inb c)
    (Fin.forall_fin_two.mpr ⟨by rw [off8_r]; show 0 ≤ _ ∧ _ + 256 ≤ 0 + 512; omega, by rw [off8_c]; show 0 ≤ 0 ∧ 0 + 512 ≤ 0 + 512; omega⟩)
    (V2 m (p2 c)) j
  have hy0 : (y 0).val + 0 = k0_off8 c 0 + (j 0).val := hy 0
  have hy1 : (y 1).val + 0 = k0_off8 c 1 + (j 1).val := hy 1
  rw [off8_r] at hy0; rw [off8_c] at hy1
  refine congrArg₂ (· + ·) ?_ (e.trans ?_)
  · exact xl_apply m c _ _ _ j i (by rw [off7_r]; exact h0) (by rw [off7_c]; omega)
  · exact V2_apply m (p2 c) y i (by rw [b2_p2]; omega) (by omega)
theorem V7_apply (c : Dev nD) (j : S256x512.Idx) (i : S2048x1024.Idx)
    (h0 : (i 0).val = 1024 + b2 c * 512 + (1 - b1 c) * 256 + (j 0).val) (h1 : (i 1).val = 512 + (j 1).val) :
    (V7 m c j : EReal) = xE m c i + xE m (p2 c) i := by
  have hb1 := b1_le c; have hb2 := b2_le c
  unfold V7; rw [pay8_apply]
  obtain ⟨y, hy, e⟩ := readAt_rep_slice (Val := Elt Ideal) r1b.view ![0, 512] S512x512.size (k0_off12 c) S256x512.size
    inb_S512x1024_S512x512_0_512 (k0_off12_inb c)
    (Fin.forall_fin_two.mpr ⟨by rw [off12_r]; show 0 ≤ _ ∧ _ + 256 ≤ 0 + 512; omega, by rw [off12_c]; show 512 ≤ 512 ∧ 512 + 512 ≤ 512 + 512; omega⟩)
    (V3 m (p2 c)) j
  have hy0 : (y 0).val + 0 = k0_off12 c 0 + (j 0).val := hy 0
  have hy1 : (y 1).val + 512 = k0_off12 c 1 + (j 1).val := hy 1
  rw [off12_r] at hy0; rw [off12_c] at hy1
  refine congrArg₂ (· + ·) ?_ (e.trans ?_)
  · exact xl_apply m c _ _ _ j i (by rw [off11_r]; exact h0) (by rw [off11_c]; omega)
  · exact V3_apply m (p2 c) y i (by rw [b2_p2]; omega) (by omega)

/-! ## The eighths a device owns: the four blocks summed, the function applied -/

theorem V8_apply (c : Dev nD) (j : S256x512.Idx) (i : S2048x1024.Idx)
    (h0 : (i 0).val = b1 c * 512 + b2 c * 256 + (j 0).val) (h1 : (i 1).val = (j 1).val) :
    (V8 m c j : EReal) = fE ((xE m c i + xE m (p1 c) i) + (xE m (p2 c) i + xE m (p1 (p2 c)) i)) := by
  have hb1 := b1_le c; have hb2 := b2_le c
  unfold V8; rw [pay9_apply]
  obtain ⟨y, hy, e⟩ := readAt_rep_slice (Val := Elt Ideal) r1a.view ![0, 0] S512x512.size (k0_off14 c) S256x512.size
    inb_S512x1024_S512x512_0_0 (k0_off14_inb c)
    (Fin.forall_fin_two.mpr ⟨by rw [off14_r]; show 0 ≤ _ ∧ _ + 256 ≤ 0 + 512; omega, by rw [off14_c]; show 0 ≤ 0 ∧ 0 + 512 ≤ 0 + 512; omega⟩)
    (V0 m (p1 c)) j
  have hy0 : (y 0).val + 0 = k0_off14 c 0 + (j 0).val := hy 0
  have hy1 : (y 1).val + 0 = k0_off14 c 1 + (j 1).val := hy 1
  rw [off14_r] at hy0; rw [off14_c] at hy1
  have e2 : r2a.view.readAt (Elt Ideal) G0.toLoadRect ((r2a.view.slice G0).rep (V4 m (p2 c))) = V4 m (p2 c) :=
    View.read_rep _ _
  refine congrArg fE (congrArg₂ (· + ·) (congrArg₂ (· + ·) ?_ (e.trans ?_)) ((congrFun e2 j).trans ?_))
  · exact xl_apply m c _ _ _ j i (by rw [off13_r]; exact h0) (by rw [off13_c]; omega)
  · exact V0_apply m (p1 c) y i (by rw [b1_p1]; omega) (by omega)
  · exact V4_apply m (p2 c) j i (by rw [b1_p2, b2_p2]; omega) (by omega)
theorem V9_apply (c : Dev nD) (j : S256x512.Idx) (i : S2048x1024.Idx)
    (h0 : (i 0).val = b1 c * 512 + b2 c * 256 + (j 0).val) (h1 : (i 1).val = 512 + (j 1).val) :
    (V9 m c j : EReal) = fE ((xE m c i + xE m (p1 c) i) + (xE m (p2 c) i + xE m (p1 (p2 c)) i)) := by
  have hb1 := b1_le c; have hb2 := b2_le c
  unfold V9; rw [pay13_apply]
  obtain ⟨y, hy, e⟩ := readAt_rep_slice (Val := Elt Ideal) r1a.view ![0, 512] S512x512.size (k0_off20 c) S256x512.size
    inb_S512x1024_S512x512_0_512 (k0_off20_inb c)
    (Fin.forall_fin_two.mpr ⟨by rw [off20_r]; show 0 ≤ _ ∧ _ + 256 ≤ 0 + 512; omega, by rw [off20_c]; show 512 ≤ 512 ∧ 512 + 512 ≤ 512 + 512; omega⟩)
    (V1 m (p1 c)) j
  have hy0 : (y 0).val + 0 = k0_off20 c 0 + (j 0).val := hy 0
  have hy1 : (y 1).val + 512 = k0_off20 c 1 + (j 1).val := hy 1
  rw [off20_r] at hy0; rw [off20_c] at hy1
  have e2 : r2a.view.readAt (Elt Ideal) G1.toLoadRect ((r2a.view.slice G1).rep (V5 m (p2 c))) = V5 m (p2 c) :=
    View.read_rep _ _
  refine congrArg fE (congrArg₂ (· + ·) (congrArg₂ (· + ·) ?_ (e.trans ?_)) ((congrFun e2 j).trans ?_))
  · exact xl_apply m c _ _ _ j i (by rw [off19_r]; exact h0) (by rw [off19_c]; omega)
  · exact V1_apply m (p1 c) y i (by rw [b1_p1]; omega) (by omega)
  · exact V5_apply m (p2 c) j i (by rw [b1_p2, b2_p2]; omega) (by omega)
theorem V10_apply (c : Dev nD) (j : S256x512.Idx) (i : S2048x1024.Idx)
    (h0 : (i 0).val = 1024 + b2 c * 512 + b1 c * 256 + (j 0).val) (h1 : (i 1).val = (j 1).val) :
    (V10 m c j : EReal) = fE ((xE m c i + xE m (p2 c) i) + (xE m (p1 c) i + xE m (p2 (p1 c)) i)) := by
  have hb1 := b1_le c; have hb2 := b2_le c
  unfold V10; rw [pay12_apply]
  obtain ⟨y, hy, e⟩ := readAt_rep_slice (Val := Elt Ideal) r1b.view ![0, 0] S512x512.size (k0_off17 c) S256x512.size
    inb_S512x1024_S512x512_0_0 (k0_off17_inb c)
    (Fin.forall_fin_two.mpr ⟨by rw [off17_r]; show 0 ≤ _ ∧ _ + 256 ≤ 0 + 512; omega, by rw [off17_c]; show 0 ≤ 0 ∧ 0 + 512 ≤ 0 + 512; omega⟩)
    (V2 m (p2 c)) j
  have hy0 : (y 0).val + 0 = k0_off17 c 0 + (j 0).val := hy 0
  have hy1 : (y 1).val + 0 = k0_off17 c 1 + (j 1).val := hy 1
  rw [off17_r] at hy0; rw [off17_c] at hy1
  have e2 : r2b.view.readAt (Elt Ideal) G0.toLoadRect ((r2b.view.slice G0).rep (V6 m (p1 c))) = V6 m (p1 c) :=
    View.read_rep _ _
  refine congrArg fE (congrArg₂ (· + ·) (congrArg₂ (· + ·) ?_ (e.trans ?_)) ((congrFun e2 j).trans ?_))
  · exact xl_apply m c _ _ _ j i (by rw [off16_r]; exact h0) (by rw [off16_c]; omega)
  · exact V2_apply m (p2 c) y i (by rw [b2_p2]; omega) (by omega)
  · exact V6_apply m (p1 c) j i (by rw [b2_p1, b1_p1]; omega) (by omega)
theorem V11_apply (c : Dev nD) (j : S256x512.Idx) (i : S2048x1024.Idx)
    (h0 : (i 0).val = 1024 + b2 c * 512 + b1 c * 256 + (j 0).val) (h1 : (i 1).val = 512 + (j 1).val) :
    (V11 m c j : EReal) = fE ((xE m c i + xE m (p2 c) i) + (xE m (p1 c) i + xE m (p2 (p1 c)) i)) := by
  have hb1 := b1_le c; have hb2 := b2_le c
  unfold V11; rw [pay14_apply]
  obtain ⟨y, hy, e⟩ := readAt_rep_slice (Val := Elt Ideal) r1b.view ![0, 512] S512x512.size (k0_off23 c) S256x512.size
    inb_S512x1024_S512x512_0_512 (k0_off23_inb c)
    (Fin.forall_fin_two.mpr ⟨by rw [off23_r]; show 0 ≤ _ ∧ _ + 256 ≤ 0 + 512; omega, by rw [off23_c]; show 512 ≤ 512 ∧ 512 + 512 ≤ 512 + 512; omega⟩)
    (V3 m (p2 c)) j
  have hy0 : (y 0).val + 0 = k0_off23 c 0 + (j 0).val := hy 0
  have hy1 : (y 1).val + 512 = k0_off23 c 1 + (j 1).val := hy 1
  rw [off23_r] at hy0; rw [off23_c] at hy1
  have e2 : r2b.view.readAt (Elt Ideal) G1.toLoadRect ((r2b.view.slice G1).rep (V7 m (p1 c))) = V7 m (p1 c) :=
    View.read_rep _ _
  refine congrArg fE (congrArg₂ (· + ·) (congrArg₂ (· + ·) ?_ (e.trans ?_)) ((congrFun e2 j).trans ?_))
  · exact xl_apply m c _ _ _ j i (by rw [off22_r]; exact h0) (by rw [off22_c]; omega)
  · exact V3_apply m (p2 c) y i (by rw [b2_p2]; omega) (by omega)
  · exact V7_apply m (p1 c) j i (by rw [b2_p1, b1_p1]; omega) (by omega)

/-! ## The sum over the four devices, in the two orders the exchanges form it -/

/-- The four blocks summed at an index, in the order of the device numbers. -/
def Tsum (i : S2048x1024.Idx) : EReal := ∑ k : Dev nD, xE m k i

theorem sum_a (f : Dev nD → EReal) (c : Dev nD) :
    (f c + f (p1 c)) + (f (p2 c) + f (p1 (p2 c))) = ∑ k : Dev nD, f k := by
  have h : ∀ c : Dev nD, (c = 0 ∧ p1 c = 1 ∧ p2 c = 3 ∧ p1 (p2 c) = 2) ∨ (c = 1 ∧ p1 c = 0 ∧ p2 c = 2 ∧ p1 (p2 c) = 3)
      ∨ (c = 2 ∧ p1 c = 3 ∧ p2 c = 1 ∧ p1 (p2 c) = 0) ∨ (c = 3 ∧ p1 c = 2 ∧ p2 c = 0 ∧ p1 (p2 c) = 1) := by decide
  rw [Fin.sum_univ_four]
  rcases h c with ⟨e0, e1, e2, e3⟩ | ⟨e0, e1, e2, e3⟩ | ⟨e0, e1, e2, e3⟩ | ⟨e0, e1, e2, e3⟩ <;>
    rw [e3, e2, e1, e0] <;> ac_rfl

theorem sum_b (f : Dev nD → EReal) (c : Dev nD) :
    (f c + f (p2 c)) + (f (p1 c) + f (p2 (p1 c))) = ∑ k : Dev nD, f k := by
  have h : ∀ c : Dev nD, (c = 0 ∧ p1 c = 1 ∧ p2 c = 3 ∧ p2 (p1 c) = 2) ∨ (c = 1 ∧ p1 c = 0 ∧ p2 c = 2 ∧ p2 (p1 c) = 3)
      ∨ (c = 2 ∧ p1 c = 3 ∧ p2 c = 1 ∧ p2 (p1 c) = 0) ∨ (c = 3 ∧ p1 c = 2 ∧ p2 c = 0 ∧ p2 (p1 c) = 1) := by decide
  rw [Fin.sum_univ_four]
  rcases h c with ⟨e0, e1, e2, e3⟩ | ⟨e0, e1, e2, e3⟩ | ⟨e0, e1, e2, e3⟩ | ⟨e0, e1, e2, e3⟩ <;>
    rw [e3, e2, e1, e0] <;> ac_rfl

/-- What every device's result buffer holds at the end: the function of the sum. -/
def G : (cc0_stg1_0 : Ref sig .tc).ty.Contents (Elt Ideal) := fun i => fE (Tsum m i)

theorem G_apply (i : S2048x1024.Idx) : (G m i : EReal) = fE (Tsum m i) := rfl

/-! ## The eighths are G read through their row blocks -/

theorem V8_eq (c : Dev nD) : V8 m c = (E15 c).view.read (Elt Ideal) (G m) := by
  funext j
  show (V8 m c j : EReal) = G m ((E15 c).view.emb j)
  rw [V8_apply m c j ((E15 c).view.emb j)
    (by show k0_off15 c 0 + 1 * (j 0).val = _; rw [off15_r]; omega)
    (by show k0_off15 c 1 + 1 * (j 1).val = _; rw [off15_c]; omega), G_apply, Tsum]
  exact congrArg fE (sum_a (fun k => xE m k _) c)
theorem V9_eq (c : Dev nD) : V9 m c = (E21 c).view.read (Elt Ideal) (G m) := by
  funext j
  show (V9 m c j : EReal) = G m ((E21 c).view.emb j)
  rw [V9_apply m c j ((E21 c).view.emb j)
    (by show k0_off21 c 0 + 1 * (j 0).val = _; rw [off21_r]; omega)
    (by show k0_off21 c 1 + 1 * (j 1).val = _; rw [off21_c]; omega), G_apply, Tsum]
  exact congrArg fE (sum_a (fun k => xE m k _) c)
theorem V10_eq (c : Dev nD) : V10 m c = (E18 c).view.read (Elt Ideal) (G m) := by
  funext j
  show (V10 m c j : EReal) = G m ((E18 c).view.emb j)
  rw [V10_apply m c j ((E18 c).view.emb j)
    (by show k0_off18 c 0 + 1 * (j 0).val = _; rw [off18_r]; omega)
    (by show k0_off18 c 1 + 1 * (j 1).val = _; rw [off18_c]; omega), G_apply, Tsum]
  exact congrArg fE (sum_b (fun k => xE m k _) c)
theorem V11_eq (c : Dev nD) : V11 m c = (E24 c).view.read (Elt Ideal) (G m) := by
  funext j
  show (V11 m c j : EReal) = G m ((E24 c).view.emb j)
  rw [V11_apply m c j ((E24 c).view.emb j)
    (by show k0_off24 c 0 + 1 * (j 0).val = _; rw [off24_r]; omega)
    (by show k0_off24 c 1 + 1 * (j 1).val = _; rw [off24_c]; omega), G_apply, Tsum]
  exact congrArg fE (sum_b (fun k => xE m k _) c)

/-! ## Membership in a box of the result buffer, by coordinate ranges -/

theorem mem_box (off sz : Fin S2048x1024.rank → Nat) (h : ∀ a, off a + sz a ≤ S2048x1024.size a) (i : S2048x1024.Idx) :
    i ∈ (oM.slice (Rect.unit (s := S2048x1024) off sz h) (fun _ => rfl)).view.set
      ↔ (off 0 ≤ (i 0).val ∧ (i 0).val < off 0 + sz 0) ∧ (off 1 ≤ (i 1).val ∧ (i 1).val < off 1 + sz 1) := by
  have e : (oM.slice (Rect.unit (s := S2048x1024) off sz h) (fun _ => rfl)).view.set = (Rect.unit (s := S2048x1024) off sz h).set :=
    View.set_slice_whole cc0_stg1_0 _
  rw [e, Rect.mem_set_unit]
  exact Fin.forall_fin_two

theorem mem_E15 (c : Dev nD) (i : S2048x1024.Idx) : i ∈ (E15 c).view.set ↔
    (b1 c * 512 + b2 c * 256 ≤ (i 0).val ∧ (i 0).val < b1 c * 512 + b2 c * 256 + 256) ∧ (0 ≤ (i 1).val ∧ (i 1).val < 0 + 512) := by
  have h := mem_box (k0_off15 c) S256x512.size (k0_off15_inb c) i
  rw [off15_r, off15_c] at h; exact h
theorem mem_E21 (c : Dev nD) (i : S2048x1024.Idx) : i ∈ (E21 c).view.set ↔
    (b1 c * 512 + b2 c * 256 ≤ (i 0).val ∧ (i 0).val < b1 c * 512 + b2 c * 256 + 256) ∧ (512 ≤ (i 1).val ∧ (i 1).val < 512 + 512) := by
  have h := mem_box (k0_off21 c) S256x512.size (k0_off21_inb c) i
  rw [off21_r, off21_c] at h; exact h
theorem mem_E18 (c : Dev nD) (i : S2048x1024.Idx) : i ∈ (E18 c).view.set ↔
    (1024 + b2 c * 512 + b1 c * 256 ≤ (i 0).val ∧ (i 0).val < 1024 + b2 c * 512 + b1 c * 256 + 256) ∧ (0 ≤ (i 1).val ∧ (i 1).val < 0 + 512) := by
  have h := mem_box (k0_off18 c) S256x512.size (k0_off18_inb c) i
  rw [off18_r, off18_c] at h; exact h
theorem mem_E24 (c : Dev nD) (i : S2048x1024.Idx) : i ∈ (E24 c).view.set ↔
    (1024 + b2 c * 512 + b1 c * 256 ≤ (i 0).val ∧ (i 0).val < 1024 + b2 c * 512 + b1 c * 256 + 256) ∧ (512 ≤ (i 1).val ∧ (i 1).val < 512 + 512) := by
  have h := mem_box (k0_off24 c) S256x512.size (k0_off24_inb c) i
  rw [off24_r, off24_c] at h; exact h
theorem mem_Q25 (c : Dev nD) (i : S2048x1024.Idx) : i ∈ (Q25 c).view.set ↔
    (b1 c * 512 ≤ (i 0).val ∧ (i 0).val < b1 c * 512 + 512) ∧ (0 ≤ (i 1).val ∧ (i 1).val < 0 + 512) := by
  have h := mem_box (k0_off25 c) S512x512.size (k0_off25_inb c) i
  rw [off25_r, off25_c] at h; exact h
theorem mem_Q27 (c : Dev nD) (i : S2048x1024.Idx) : i ∈ (Q27 c).view.set ↔
    (b1 c * 512 ≤ (i 0).val ∧ (i 0).val < b1 c * 512 + 512) ∧ (512 ≤ (i 1).val ∧ (i 1).val < 512 + 512) := by
  have h := mem_box (k0_off27 c) S512x512.size (k0_off27_inb c) i
  rw [off27_r, off27_c] at h; exact h
theorem mem_Q26 (c : Dev nD) (i : S2048x1024.Idx) : i ∈ (Q26 c).view.set ↔
    (1024 + b2 c * 512 ≤ (i 0).val ∧ (i 0).val < 1024 + b2 c * 512 + 512) ∧ (0 ≤ (i 1).val ∧ (i 1).val < 0 + 512) := by
  have h := mem_box (k0_off26 c) S512x512.size (k0_off26_inb c) i
  rw [off26_r, off26_c] at h; exact h
theorem mem_Q28 (c : Dev nD) (i : S2048x1024.Idx) : i ∈ (Q28 c).view.set ↔
    (1024 + b2 c * 512 ≤ (i 0).val ∧ (i 0).val < 1024 + b2 c * 512 + 512) ∧ (512 ≤ (i 1).val ∧ (i 1).val < 512 + 512) := by
  have h := mem_box (k0_off28 c) S512x512.size (k0_off28_inb c) i
  rw [off28_r, off28_c] at h; exact h

/-! ## The quarters: two eighths joined, read as one block, are G read through the quarter's rows -/

theorem V12_eq (c : Dev nD) : V12 m c = (Q25 c).view.read (Elt Ideal) (G m) := by
  unfold V12
  refine View.read_congr fun i hi => ?_
  have hb1 := b1_le c; have hb2 := b2_le c
  refine piecewise_agree _ (fun i => i ∈ (E15 c).view.set) _ _ _
    (fun i hi => by rw [V8_eq]; exact rep_read_of_mem _ _ hi)
    (fun i hi => by rw [V8_eq]; exact rep_read_of_mem _ _ hi) ?_
  rw [mem_Q25] at hi
  rw [mem_E15, mem_E15, b1_p2, b2_p2]
  omega
theorem V13_eq (c : Dev nD) : V13 m c = (Q27 c).view.read (Elt Ideal) (G m) := by
  unfold V13
  refine View.read_congr fun i hi => ?_
  have hb1 := b1_le c; have hb2 := b2_le c
  refine piecewise_agree _ (fun i => i ∈ (E21 c).view.set) _ _ _
    (fun i hi => by rw [V9_eq]; exact rep_read_of_mem _ _ hi)
    (fun i hi => by rw [V9_eq]; exact rep_read_of_mem _ _ hi) ?_
  rw [mem_Q27] at hi
  rw [mem_E21, mem_E21, b1_p2, b2_p2]
  omega
theorem V14_eq (c : Dev nD) : V14 m c = (Q26 c).view.read (Elt Ideal) (G m) := by
  unfold V14
  refine View.read_congr fun i hi => ?_
  have hb1 := b1_le c; have hb2 := b2_le c
  refine piecewise_agree _ (fun i => i ∈ (E18 c).view.set) _ _ _
    (fun i hi => by rw [V10_eq]; exact rep_read_of_mem _ _ hi)
    (fun i hi => by rw [V10_eq]; exact rep_read_of_mem _ _ hi) ?_
  rw [mem_Q26] at hi
  rw [mem_E18, mem_E18, b1_p1, b2_p1]
  omega
theorem V15_eq (c : Dev nD) : V15 m c = (Q28 c).view.read (Elt Ideal) (G m) := by
  unfold V15
  refine View.read_congr fun i hi => ?_
  have hb1 := b1_le c; have hb2 := b2_le c
  refine piecewise_agree _ (fun i => i ∈ (E24 c).view.set) _ _ _
    (fun i hi => by rw [V11_eq]; exact rep_read_of_mem _ _ hi)
    (fun i hi => by rw [V11_eq]; exact rep_read_of_mem _ _ hi) ?_
  rw [mem_Q28] at hi
  rw [mem_E24, mem_E24, b1_p1, b2_p1]
  omega

/-! ## The whole result buffer is G -/

theorem outAt_eq (c : Dev nD) : outAt m c = G m := by
  funext i
  have hb1 := b1_le c; have hb2 := b2_le c
  have q25 : ∀ c' : Dev nD, ∀ i ∈ (Q25 c').view.set, (Q25 c').view.rep (Val := Elt Ideal) (V12 m c') i = G m i :=
    fun c' i hi => by rw [V12_eq]; exact rep_read_of_mem _ _ hi
  have q27 : ∀ c' : Dev nD, ∀ i ∈ (Q27 c').view.set, (Q27 c').view.rep (Val := Elt Ideal) (V13 m c') i = G m i :=
    fun c' i hi => by rw [V13_eq]; exact rep_read_of_mem _ _ hi
  have q26 : ∀ c' : Dev nD, ∀ i ∈ (Q26 c').view.set, (Q26 c').view.rep (Val := Elt Ideal) (V14 m c') i = G m i :=
    fun c' i hi => by rw [V14_eq]; exact rep_read_of_mem _ _ hi
  have q28 : ∀ c' : Dev nD, ∀ i ∈ (Q28 c').view.set, (Q28 c').view.rep (Val := Elt Ideal) (V15 m c') i = G m i :=
    fun c' i hi => by rw [V15_eq]; exact rep_read_of_mem _ _ hi
  have hi0 : (i 0).val < 2048 := (i 0).isLt
  have hi1 : (i 1).val < 1024 := (i 1).isLt
  have cover : i ∈ (Q28 (p2 c)).view.set ∨ i ∈ (Q26 (p2 c)).view.set ∨ i ∈ (Q27 (p1 c)).view.set ∨ i ∈ (Q25 (p1 c)).view.set
      ∨ i ∈ (Q28 c).view.set ∨ i ∈ (Q26 c).view.set ∨ i ∈ (Q27 c).view.set ∨ i ∈ (Q25 c).view.set := by
    rw [mem_Q28, mem_Q26, mem_Q27, mem_Q25, mem_Q28, mem_Q26, mem_Q27, mem_Q25, b2_p2, b1_p1]
    omega
  unfold outAt
  refine piecewise_agree _ (fun i => i ∈ (Q26 (p2 c)).view.set ∨ i ∈ (Q27 (p1 c)).view.set ∨ i ∈ (Q25 (p1 c)).view.set
      ∨ i ∈ (Q28 c).view.set ∨ i ∈ (Q26 c).view.set ∨ i ∈ (Q27 c).view.set ∨ i ∈ (Q25 c).view.set) _ _ _ (q28 (p2 c)) (fun i h => ?_) cover
  refine piecewise_agree _ (fun i => i ∈ (Q27 (p1 c)).view.set ∨ i ∈ (Q25 (p1 c)).view.set
      ∨ i ∈ (Q28 c).view.set ∨ i ∈ (Q26 c).view.set ∨ i ∈ (Q27 c).view.set ∨ i ∈ (Q25 c).view.set) _ _ _ (q26 (p2 c)) (fun i h => ?_) h
  refine piecewise_agree _ (fun i => i ∈ (Q25 (p1 c)).view.set
      ∨ i ∈ (Q28 c).view.set ∨ i ∈ (Q26 c).view.set ∨ i ∈ (Q27 c).view.set ∨ i ∈ (Q25 c).view.set) _ _ _ (q27 (p1 c)) (fun i h => ?_) h
  refine piecewise_agree _ (fun i => i ∈ (Q28 c).view.set ∨ i ∈ (Q26 c).view.set ∨ i ∈ (Q27 c).view.set ∨ i ∈ (Q25 c).view.set) _ _ _ (q25 (p1 c)) (fun i h => ?_) h
  refine piecewise_agree _ (fun i => i ∈ (Q26 c).view.set ∨ i ∈ (Q27 c).view.set ∨ i ∈ (Q25 c).view.set) _ _ _ (q28 c) (fun i h => ?_) h
  refine piecewise_agree _ (fun i => i ∈ (Q27 c).view.set ∨ i ∈ (Q25 c).view.set) _ _ _ (q26 c) (fun i h => ?_) h
  exact piecewise_agree _ (fun i => i ∈ (Q25 c).view.set) _ _ _ (q27 c) (q25 c) h

/-! ## The reference at an index -/

theorem ref_apply (x0 : (⟨⟨2, ![8192, 1024]⟩, .f32⟩ : BufTy).Contents (Elt Ideal)) (i : S2048x1024.Idx) :
    (Cert.ReferenceIdeal.Read.val_main_v10 (F := Ideal) x0 i : EReal)
      = fE (∑ k : Fin 4, ((Layout.block ⟨2, ![2048, 1024]⟩ ⟨2, ![8192, 1024]⟩ 0 4 k x0) i : EReal)) := by
  show fE (Cert.ReferenceIdeal.Read.val_main_v1 (F := Ideal) x0 i) = _
  rw [Cert.ReferenceIdeal.Read.val_main_v1_apply, Cert.ReferenceIdeal.Read.val_main_cst_apply, Ideal.ofBits_def,
    Ideal.ofBits_zero_f32, zero_add]
  refine congrArg fE (Finset.sum_congr rfl fun k _ => ?_)
  rw [Cert.ReferenceIdeal.Read.val_main_v0_apply]
  show x0 _ = x0 _
  congr 1
  have hi1 : (i 1).val < 1024 := (i 1).isLt
  refine Shape.idx_ext₂ ?_ ?_
  · show ((k.val * 2048 + (i 0).val) * 1024 + (i 1).val) / 1024 = k.val * 2048 + (i 0).val
    omega
  · show ((k.val * 2048 + (i 0).val) * 1024 + (i 1).val) % 1024 = (i 1).val
    omega

/-! ## The result -/

theorem out_eq (m : (ℓ : Loc Cert.KernelIdeal.nD Cert.KernelIdeal.τ Cert.KernelIdeal.sig) → Buf (Elt Ideal) ℓ)
    (x0 : (⟨⟨2, ![8192, 1024]⟩, .f32⟩ : BufTy).Contents (Elt Ideal))
    (hblk : ∀ c : Dev Cert.KernelIdeal.nD, m ((c.tc : Thread Cert.KernelIdeal.nD Cert.KernelIdeal.τ).loc Cert.KernelIdeal.main_arg0) = Layout.block ⟨2, ![2048, 1024]⟩ ⟨2, ![8192, 1024]⟩ 0 4 c x0)
    (c : Dev Cert.KernelIdeal.nD) :
    Cert.KernelIdeal.Spec.outAt (F := Ideal) m c = Cert.ReferenceIdeal.Read.val_main_v10 (F := Ideal) x0 := by
  rw [outAt_eq]
  funext i
  show fE (Tsum m i) = _
  rw [ref_apply]
  unfold Tsum
  refine congrArg fE (Finset.sum_congr rfl fun k _ => ?_)
  exact congrFun ((X_eq m k).trans (hblk k)) i

/-- info: 'Cert.KernelIdeal.Value.out_eq' depends on axioms: [propext, Classical.choice, Quot.sound] -/
#guard_msgs in #print axioms out_eq

end Cert.KernelIdeal.Value
end
-- ==== Proof.lean ====
/-
  The certificate's claim assembled from its parts.

  On the four devices the kernel, at either instance of the float operations, runs to the end with every device's result
  array holding the term `Spec.outAt` of the initial memory and every argument array as it was; dropping the result
  from that statement leaves the two frames of the kernel. The reference, on its one device, runs to the end with its
  result array holding its operations' composed term of the argument array and the argument as it was; dropping the
  result leaves its frame. The idealized kernel is the kernel's own text read at the ideal instance, so nothing is to be
  shown for the idealization. At the ideal instance, from memories in which device c's argument array is block c of
  the reference's (2048 of its 8192 rows), the kernel's term on every device equals the reference's term: both
  are the function applied, element by element, to the sum of the four blocks. That common value is the witness of the
  last claim. The precondition on the inputs is not used.
-/
import proofs.«900521_g7700000000000522_dist_f_of_ar_i_m2048_n1024_v7x_i4_bf16_1_alg».proof.Defs
import proofs.«900521_g7700000000000522_dist_f_of_ar_i_m2048_n1024_v7x_i4_bf16_1_alg».proof.Proof.Gen.Kernel
import proofs.«900521_g7700000000000522_dist_f_of_ar_i_m2048_n1024_v7x_i4_bf16_1_alg».proof.Proof.Gen.Kernel.Skeleton
import proofs.«900521_g7700000000000522_dist_f_of_ar_i_m2048_n1024_v7x_i4_bf16_1_alg».proof.Proof.Gen.Kernel.Launch
import proofs.«900521_g7700000000000522_dist_f_of_ar_i_m2048_n1024_v7x_i4_bf16_1_alg».proof.Proof.Gen.Kernel.Points
import proofs.«900521_g7700000000000522_dist_f_of_ar_i_m2048_n1024_v7x_i4_bf16_1_alg».proof.Proof.Gen.Kernel.Frame
import proofs.«900521_g7700000000000522_dist_f_of_ar_i_m2048_n1024_v7x_i4_bf16_1_alg».proof.Proof.Gen.KernelIdeal
import proofs.«900521_g7700000000000522_dist_f_of_ar_i_m2048_n1024_v7x_i4_bf16_1_alg».proof.Proof.Gen.KernelIdeal.Skeleton
import proofs.«900521_g7700000000000522_dist_f_of_ar_i_m2048_n1024_v7x_i4_bf16_1_alg».proof.Proof.Gen.KernelIdeal.Launch
import proofs.«900521_g7700000000000522_dist_f_of_ar_i_m2048_n1024_v7x_i4_bf16_1_alg».proof.Proof.Gen.KernelIdeal.Points
import proofs.«900521_g7700000000000522_dist_f_of_ar_i_m2048_n1024_v7x_i4_bf16_1_alg».proof.Proof.Gen.KernelIdeal.Frame
import proofs.«900521_g7700000000000522_dist_f_of_ar_i_m2048_n1024_v7x_i4_bf16_1_alg».proof.Proof.Gen.ReferenceIdeal
import proofs.«900521_g7700000000000522_dist_f_of_ar_i_m2048_n1024_v7x_i4_bf16_1_alg».proof.Proof.Gen.Pre_finite_inputs_Kernel
import proofs.«900521_g7700000000000522_dist_f_of_ar_i_m2048_n1024_v7x_i4_bf16_1_alg».proof.Proof.Gen.Pre_finite_inputs_ReferenceIdeal
import proofs.«900521_g7700000000000522_dist_f_of_ar_i_m2048_n1024_v7x_i4_bf16_1_alg».proof.Proof.Gen.ReferenceIdeal.Run
import proofs.«900521_g7700000000000522_dist_f_of_ar_i_m2048_n1024_v7x_i4_bf16_1_alg».proof.Proof.Gen.ReferenceIdeal.Read
import proofs.«900521_g7700000000000522_dist_f_of_ar_i_m2048_n1024_v7x_i4_bf16_1_alg».proof.Proof.Run
import proofs.«900521_g7700000000000522_dist_f_of_ar_i_m2048_n1024_v7x_i4_bf16_1_alg».proof.Proof.Bits.Run
import proofs.«900521_g7700000000000522_dist_f_of_ar_i_m2048_n1024_v7x_i4_bf16_1_alg».proof.Proof.Value
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, by
  refine ⟨?_, ?_, ?_, trivial, ?_⟩
  · -- the kernel as printed: its run with the result dropped
    exact fun m ρ _ => (θ_run _ _ _).mono (fun _ h c => (h c).2) (Cert.Kernel.Run.run (F := Bits) m ρ)
  · -- the kernel at the ideal instance: the same
    exact fun m ρ _ => (θ_run _ _ _).mono (fun _ h c => (h c).2) (Cert.KernelIdeal.Run.run (F := Ideal) m ρ)
  · -- the reference: its run with the result dropped
    exact fun m ρ _ => (θ_run _ _ _).mono (fun _ h c => (h c).2) (Cert.ReferenceIdeal.Value.run (F := Ideal) m ρ)
  · -- both results are the reference's term of the whole argument array
    intro m ρ m' ρ' _ hagree
    refine ⟨Cert.ReferenceIdeal.Read.val_main_v10 (F := Ideal)
      (m' (((0 : Dev Cert.ReferenceIdeal.nD).tc : Thread Cert.ReferenceIdeal.nD Cert.ReferenceIdeal.τ).loc Cert.ReferenceIdeal.main_arg0)), ?_, ?_⟩
    · exact (θ_run _ _ _).mono
        (fun _ h c => ⟨(h c).1.trans (Cert.KernelIdeal.Value.out_eq m _ hagree c), (h c).2⟩)
        (Cert.KernelIdeal.Run.run (F := Ideal) m ρ)
    · exact (θ_run _ _ _).mono
        (fun _ h => ⟨(h 0).1.trans (Cert.ReferenceIdeal.Read.val_main_v10_eq _), (h 0).2⟩)
        (Cert.ReferenceIdeal.Value.run (F := Ideal) m' ρ')⟩

/-- info: 'Cert.Proof.claim' depends on axioms: [propext, Classical.choice, Quot.sound] -/
#guard_msgs in #print axioms claim

end Cert.Proof

end
